-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x7 : Shape := ⟨2, ![50000, 7]⟩
abbrev S2x800000 : Shape := ⟨2, ![2, 800000]⟩
abbrev S50000 : Shape := ⟨1, ![50000]⟩
abbrev S7x64 : Shape := ⟨2, ![7, 64]⟩
abbrev S64 : Shape := ⟨1, ![64]⟩
abbrev S4x128x64 : Shape := ⟨3, ![4, 128, 64]⟩
abbrev S4x64 : Shape := ⟨2, ![4, 64]⟩
abbrev S4x64x64 : Shape := ⟨3, ![4, 64, 64]⟩
abbrev S64x1 : Shape := ⟨2, ![64, 1]⟩
abbrev S1 : Shape := ⟨1, ![1]⟩
abbrev S_ : Shape := ⟨0, ![]⟩

class Facts : Prop where
  bcast_S_S50000x7 : S_.BroadcastsInDim S50000x7 (![] : Fin 0 → Fin S50000x7.rank)
  reducesTo_S50000x7_S_d0_1 : S50000x7.ReducesTo [0, 1] S_
  h_S_ : 0 < S_.numel
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_v63 : IVec S_ 1) (main_v65 : IVec S2x800000 1) (main_v67 : IVec S2x800000 1) : IVec S_ 1 :=
  let main_v68 : IVec S2x800000 1 := andi main_v65 main_v67
  let main_c_26 : IVec S_ 1 := constantI S_ 1 1#1
  let main_v69 : IVec S_ 1 := (fun x v => Host.reduce IntOp.andi x v reducesTo_S2x800000_S_d0_1 h_S_) main_v68 main_c_26
  let main_v70 : IVec S_ 1 := andi main_v63 main_v69
  main_v70

def fn_part3 {F : FTy → Type} [FloatOps F] (main_arg1 : IVec S2x800000 32) (main_arg13 : FVec F S64x1 .f32) (main_arg14 : FVec F S1 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S2x800000 32 := broadcastInDim S2x800000 ![] bcast_S_S2x800000 main_c_24
  let main_v65 : IVec S2x800000 1 := cmpi .sge main_arg1 main_v64
  let main_c_25 : IVec S_ 32 := constantI S_ 32 50000#32
  let main_v66 : IVec S2x800000 32 := broadcastInDim S2x800000 ![] bcast_S_S2x800000 main_c_25
  let main_v67 : IVec S2x800000 1 := cmpi .slt main_arg1 main_v66
  fn_part4 (F := F) main_v63 main_v65 main_v67

def fn_part2 {F : FTy → Type} [FloatOps F] (main_arg1 : IVec S2x800000 32) (main_arg9 : FVec F S4x128x64 .f32) (main_arg10 : FVec F S4x64 .f32) (main_arg11 : FVec F S4x64x64 .f32) (main_arg12 : FVec F S4x64 .f32) (main_arg13 : FVec F S64x1 .f32) (main_arg14 : FVec F S1 .f32) (main_v33 : IVec S_ 1) : IVec S_ 1 :=
  let main_v34 : FVec F S4x128x64 .f32 := Host.absf main_arg9
  let main_cst_12 : FVec F S_ .f32 := constant S_ .f32 0x7F800000#32
  let main_v35 : FVec F S4x128x64 .f32 := broadcastInDim S4x128x64 ![] bcast_S_S4x128x64 main_cst_12
  let main_v36 : IVec S4x128x64 1 := cmpf .olt main_v34 main_v35
  let main_c_13 : IVec S_ 1 := constantI S_ 1 1#1
  let main_v37 : IVec S_ 1 := (fun x v => Host.reduce IntOp.andi x v reducesTo_S4x128x64_S_d0_1_2 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S4x64x64 .f32 := Host.absf main_arg11
  let main_cst_16 : FVec F S_ .f32 := constant S_ .f32 0x7F800000#32
  let main_v45 : FVec F S4x64x64 .f32 := broadcastInDim S4x64x64 ![] bcast_S_S4x64x64 main_cst_16
  let main_v46 : IVec S4x64x64 1 := cmpf .olt main_v44 main_v45
  let main_c_17 : IVec S_ 1 := constantI S_ 1 1#1
  let main_v47 : IVec S_ 1 := (fun x v => Host.reduce IntOp.andi x v reducesTo_S4x64x64_S_d0_1_2 h_S_) main_v46 main_c_17
  let main_v48 : IVec S_ 1 := andi main_v43 main_v47
  let main_v49 : FVec F S4x64 .f32 := Host.absf main_arg12
  let main_cst_18 : FVec F S_ .f32 := constant S_ .f32 0x7F800000#32
  let main_v50 : FVec F S4x64 .f32 := broadcastInDim S4x64 ![] bcast_S_S4x64 main_cst_18
  fn_part3 (F := F) main_arg1 main_arg13 main_arg14 main_v48 main_v49 main_v50

def fn_part1 {F : FTy → Type} [FloatOps F] (main_arg1 : IVec S2x800000 32) (main_arg6 : FVec F S4x64 .f32) (main_arg7 : FVec F S4x64x64 .f32) (main_arg8 : FVec F S4x64 .f32) (main_arg9 : FVec F S4x128x64 .f32) (main_arg10 : FVec F S4x64 .f32) (main_arg11 : FVec F S4x64x64 .f32) (main_arg12 : FVec F S4x64 .f32) (main_arg13 : FVec F S64x1 .f32) (main_arg14 : FVec F S1 .f32) (main_v13 : IVec S_ 1) (main_v16 : IVec S4x128x64 1) : IVec S_ 1 :=
  let main_c_5 : IVec S_ 1 := constantI S_ 1 1#1
  let main_v17 : IVec S_ 1 := (fun x v => Host.reduce IntOp.andi x v reducesTo_S4x128x64_S_d0_1_2 h_S_) main_v16 main_c_5
  let main_v18 : IVec S_ 1 := andi main_v13 main_v17
  let main_v19 : FVec F S4x64 .f32 := Host.absf main_arg6
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64x64 .f32 := Host.absf main_arg7
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S50000x7 .f32) (main_arg1 : IVec S2x800000 32) (main_arg2 : IVec S50000 32) (main_arg3 : FVec F S7x64 .f32) (main_arg4 : FVec F S64 .f32) (main_arg5 : FVec F S4x128x64 .f32) (main_arg6 : FVec F S4x64 .f32) (main_arg7 : FVec F S4x64x64 .f32) (main_arg8 : FVec F S4x64 .f32) (main_arg9 : FVec F S4x128x64 .f32) (main_arg10 : FVec F S4x64 .f32) (main_arg11 : FVec F S4x64x64 .f32) (main_arg12 : FVec F S4x64 .f32) (main_arg13 : FVec F S64x1 .f32) (main_arg14 : FVec F S1 .f32) : IVec S_ 1 :=
  let main_v0 : FVec F S50000x7 .f32 := Host.absf main_arg0
  let main_cst : FVec F S_ .f32 := constant S_ .f32 0x7F800000#32
  let main_v1 : FVec F S50000x7 .f32 := broadcastInDim S50000x7 ![] bcast_S_S50000x7 main_cst
  let main_v2 : IVec S50000x7 1 := cmpf .olt main_v0 main_v1
  let main_c : IVec S_ 1 := constantI S_ 1 1#1
  let main_v3 : IVec S_ 1 := (fun x v => Host.reduce IntOp.andi x v reducesTo_S50000x7_S_d0_1 h_S_) main_v2 main_c
  let main_v4 : FVec F S7x64 .f32 := Host.absf main_arg3
  let main_cst_0 : FVec F S_ .f32 := constant S_ .f32 0x7F800000#32
  let main_v5 : FVec F S7x64 .f32 := broadcastInDim S7x64 ![] bcast_S_S7x64 main_cst_0
  let main_v6 : IVec S7x64 1 := cmpf .olt main_v4 main_v5
  let main_c_1 : IVec S_ 1 := constantI S_ 1 1#1
  let main_v7 : IVec S_ 1 := (fun x v => Host.reduce IntOp.andi x v reducesTo_S7x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x128x64 .f32 := Host.absf main_arg5
  let main_cst_4 : FVec F S_ .f32 := constant S_ .f32 0x7F800000#32
  let main_v15 : FVec F S4x128x64 .f32 := broadcastInDim S4x128x64 ![] bcast_S_S4x128x64 main_cst_4
  let main_v16 : IVec S4x128x64 1 := cmpf .olt main_v14 main_v15
  fn_part1 (F := F) main_arg1 main_arg6 main_arg7 main_arg8 main_arg9 main_arg10 main_arg11 main_arg12 main_arg13 main_arg14 main_v13 main_v16
-- ==== Kernel.lean ====
abbrev S50000x7 : Shape := ⟨2, ![50000, 7]⟩
abbrev S2x800000 : Shape := ⟨2, ![2, 800000]⟩
abbrev S50000 : Shape := ⟨1, ![50000]⟩
abbrev S7x64 : Shape := ⟨2, ![7, 64]⟩
abbrev S64 : Shape := ⟨1, ![64]⟩
abbrev S4x128x64 : Shape := ⟨3, ![4, 128, 64]⟩
abbrev S4x64 : Shape := ⟨2, ![4, 64]⟩
abbrev S4x64x64 : Shape := ⟨3, ![4, 64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S1x128x64 : Shape := ⟨3, ![1, 128, 64]⟩
abbrev S128x64 : Shape := ⟨2, ![128, 64]⟩
abbrev S64x64 : Shape := ⟨2, ![64, 64]⟩
abbrev S1x64x64 : Shape := ⟨3, ![1, 64, 64]⟩
abbrev S6400x64 : Shape := ⟨2, ![6400, 64]⟩
abbrev S5000x64 : Shape := ⟨2, ![5000, 64]⟩
abbrev S50000x1 : Shape := ⟨2, ![50000, 1]⟩

abbrev nBuf : Space → Nat
  | .hbm => 348
  | .vmem => 88
  | .smem => 0
  | _ => 0

abbrev hbmTy0_0 (i : Nat) : BufTy := match i % 128 with
  | 0 => ⟨S50000x7, .f32⟩
  | 1 => ⟨S2x800000, .i32⟩
  | 2 => ⟨S50000, .i32⟩
  | 3 => ⟨S7x64, .f32⟩
  | 4 => ⟨S64, .f32⟩
  | 5 => ⟨S4x128x64, .f32⟩
  | 6 => ⟨S4x64, .f32⟩
  | 7 => ⟨S4x64x64, .f32⟩
  | 8 => ⟨S4x64, .f32⟩
  | 9 => ⟨S4x128x64, .f32⟩
  | 10 => ⟨S4x64, .f32⟩
  | 11 => ⟨S4x64x64, .f32⟩
  | 12 => ⟨S4x64, .f32⟩
  | 13 => ⟨S64x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S50000x64, .f32⟩
  | 20 => ⟨S1x64, .f32⟩
  | 21 => ⟨S50000x64, .f32⟩
  | 22 => ⟨S50000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S1, .i32⟩
  | 32 => ⟨S_, .i32⟩
  | 33 => ⟨S800000x1, .i32⟩
  | 34 => ⟨S800000x1, .i1⟩
  | 35 => ⟨S1x1, .i32⟩
  | 36 => ⟨S800000x1, .i32⟩
  | 37 => ⟨S800000x1, .i1⟩
  | 38 => ⟨S800000x1, .i1⟩
  | 39 => ⟨S_, .i1⟩
  | 40 => ⟨S800000, .i1⟩
  | 41 => ⟨S800000x64, .f32⟩
  | 42 => ⟨S800000x64, .i1⟩
  | 43 => ⟨S_, .f32⟩
  | 44 => ⟨S800000x64, .f32⟩
  | 45 => ⟨S800000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S1, .i32⟩
  | 55 => ⟨S_, .i32⟩
  | 56 => ⟨S800000x1, .i32⟩
  | 57 => ⟨S800000x1, .i1⟩
  | 58 => ⟨S1x1, .i32⟩
  | 59 => ⟨S800000x1, .i32⟩
  | 60 => ⟨S800000x1, .i1⟩
  | 61 => ⟨S800000x1, .i1⟩
  | 62 => ⟨S_, .i1⟩
  | 63 => ⟨S800000, .i1⟩
  | 64 => ⟨S800000x64, .f32⟩
  | 65 => ⟨S800000x64, .i1⟩
  | 66 => ⟨S_, .f32⟩
  | 67 => ⟨S800000x64, .f32⟩
  | 68 => ⟨S800000x64, .f32⟩
  | 69 => ⟨S1x128x64, .f32⟩
  | 70 => ⟨S128x64, .f32⟩
  | 71 => ⟨S64x64, .f32⟩
  | 72 => ⟨S64x64, .f32⟩
  | 73 => ⟨S1x64, .f32⟩
  | 74 => ⟨S64, .f32⟩
  | 75 => ⟨S1x64, .f32⟩
  | 76 => ⟨S1x64x64, .f32⟩
  | 77 => ⟨S64x64, .f32⟩
  | 78 => ⟨S1x64, .f32⟩
  | 79 => ⟨S64, .f32⟩
  | 80 => ⟨S1x64, .f32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S1x128x64, .f32⟩
  | 87 => ⟨S128x64, .f32⟩
  | 88 => ⟨S64x64, .f32⟩
  | 89 => ⟨S64x64, .f32⟩
  | 90 => ⟨S1x64, .f32⟩
  | 91 => ⟨S64, .f32⟩
  | 92 => ⟨S1x64, .f32⟩
  | 93 => ⟨S1x64x64, .f32⟩
  | 94 => ⟨S64x64, .f32⟩
  | 95 => ⟨S1x64, .f32⟩
  | 96 => ⟨S64, .f32⟩
  | 97 => ⟨S1x64, .f32⟩
  | 98 => ⟨S50000x64, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S1, .i32⟩
  | 108 => ⟨S_, .i32⟩
  | 109 => ⟨S800000x1, .i32⟩
  | 110 => ⟨S800000x1, .i1⟩
  | 111 => ⟨S1x1, .i32⟩
  | 112 => ⟨S800000x1, .i32⟩
  | 113 => ⟨S800000x1, .i1⟩
  | 114 => ⟨S800000x1, .i1⟩
  | 115 => ⟨S_, .i1⟩
  | 116 => ⟨S800000, .i1⟩
  | 117 => ⟨S800000x64, .f32⟩
  | 118 => ⟨S800000x64, .i1⟩
  | 119 => ⟨S_, .f32⟩
  | 120 => ⟨S800000x64, .f32⟩
  | 121 => ⟨S800000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x7, .f32⟩

abbrev hbmTy0_1 (i : Nat) : BufTy := match i % 128 with
  | 0 => ⟨S800000, .i32⟩
  | 1 => ⟨S800000x1, .i32⟩
  | 2 => ⟨S1, .i32⟩
  | 3 => ⟨S_, .i32⟩
  | 4 => ⟨S800000x1, .i32⟩
  | 5 => ⟨S800000x1, .i1⟩
  | 6 => ⟨S1x1, .i32⟩
  | 7 => ⟨S800000x1, .i32⟩
  | 8 => ⟨S800000x1, .i1⟩
  | 9 => ⟨S800000x1, .i1⟩
  | 10 => ⟨S_, .i1⟩
  | 11 => ⟨S800000, .i1⟩
  | 12 => ⟨S800000x64, .f32⟩
  | 13 => ⟨S800000x64, .i1⟩
  | 14 => ⟨S_, .f32⟩
  | 15 => ⟨S800000x64, .f32⟩
  | 16 => ⟨S800000x64, .f32⟩
  | 17 => ⟨S1x128x64, .f32⟩
  | 18 => ⟨S128x64, .f32⟩
  | 19 => ⟨S64x64, .f32⟩
  | 20 => ⟨S64x64, .f32⟩
  | 21 => ⟨S1x64, .f32⟩
  | 22 => ⟨S64, .f32⟩
  | 23 => ⟨S1x64, .f32⟩
  | 24 => ⟨S1x64x64, .f32⟩
  | 25 => ⟨S64x64, .f32⟩
  | 26 => ⟨S1x64, .f32⟩
  | 27 => ⟨S64, .f32⟩
  | 28 => ⟨S1x64, .f32⟩
  | 29 => ⟨S800000x64, .f32⟩
  | 30 => ⟨S_, .f32⟩
  | 31 => ⟨S50000x64, .f32⟩
  | 32 => ⟨S800000x1, .i32⟩
  | 33 => ⟨S50000x64, .f32⟩
  | 34 => ⟨S1x128x64, .f32⟩
  | 35 => ⟨S128x64, .f32⟩
  | 36 => ⟨S64x64, .f32⟩
  | 37 => ⟨S64x64, .f32⟩
  | 38 => ⟨S1x64, .f32⟩
  | 39 => ⟨S64, .f32⟩
  | 40 => ⟨S1x64, .f32⟩
  | 41 => ⟨S1x64x64, .f32⟩
  | 42 => ⟨S64x64, .f32⟩
  | 43 => ⟨S1x64, .f32⟩
  | 44 => ⟨S64, .f32⟩
  | 45 => ⟨S1x64, .f32⟩
  | 46 => ⟨S50000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S1, .i32⟩
  | 56 => ⟨S_, .i32⟩
  | 57 => ⟨S800000x1, .i32⟩
  | 58 => ⟨S800000x1, .i1⟩
  | 59 => ⟨S1x1, .i32⟩
  | 60 => ⟨S800000x1, .i32⟩
  | 61 => ⟨S800000x1, .i1⟩
  | 62 => ⟨S800000x1, .i1⟩
  | 63 => ⟨S_, .i1⟩
  | 64 => ⟨S800000, .i1⟩
  | 65 => ⟨S800000x64, .f32⟩
  | 66 => ⟨S800000x64, .i1⟩
  | 67 => ⟨S_, .f32⟩
  | 68 => ⟨S800000x64, .f32⟩
  | 69 => ⟨S800000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S1, .i32⟩
  | 79 => ⟨S_, .i32⟩
  | 80 => ⟨S800000x1, .i32⟩
  | 81 => ⟨S800000x1, .i1⟩
  | 82 => ⟨S1x1, .i32⟩
  | 83 => ⟨S800000x1, .i32⟩
  | 84 => ⟨S800000x1, .i1⟩
  | 85 => ⟨S800000x1, .i1⟩
  | 86 => ⟨S_, .i1⟩
  | 87 => ⟨S800000, .i1⟩
  | 88 => ⟨S800000x64, .f32⟩
  | 89 => ⟨S800000x64, .i1⟩
  | 90 => ⟨S_, .f32⟩
  | 91 => ⟨S800000x64, .f32⟩
  | 92 => ⟨S800000x64, .f32⟩
  | 93 => ⟨S1x128x64, .f32⟩
  | 94 => ⟨S128x64, .f32⟩
  | 95 => ⟨S64x64, .f32⟩
  | 96 => ⟨S64x64, .f32⟩
  | 97 => ⟨S1x64, .f32⟩
  | 98 => ⟨S64, .f32⟩
  | 99 => ⟨S1x64, .f32⟩
  | 100 => ⟨S1x64x64, .f32⟩
  | 101 => ⟨S64x64, .f32⟩
  | 102 => ⟨S1x64, .f32⟩
  | 103 => ⟨S64, .f32⟩
  | 104 => ⟨S1x64, .f32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S1x128x64, .f32⟩
  | 111 => ⟨S128x64, .f32⟩
  | 112 => ⟨S64x64, .f32⟩
  | 113 => ⟨S64x64, .f32⟩
  | 114 => ⟨S1x64, .f32⟩
  | 115 => ⟨S64, .f32⟩
  | 116 => ⟨S1x64, .f32⟩
  | 117 => ⟨S1x64x64, .f32⟩
  | 118 => ⟨S64x64, .f32⟩
  | 119 => ⟨S1x64, .f32⟩
  | 120 => ⟨S64, .f32⟩
  | 121 => ⟨S1x64, .f32⟩
  | 122 => ⟨S50000x64, .f32⟩
  | 123 => ⟨S_, .i32⟩
  | 124 => ⟨S800000, .i32⟩
  | 125 => ⟨S800000, .i1⟩
  | 126 => ⟨S_, .i32⟩
  | 127 => ⟨S800000, .i32⟩
  | _ => ⟨S50000x7, .f32⟩

abbrev hbmTy0_2 (i : Nat) : BufTy := match i % 128 with
  | 0 => ⟨S800000, .i32⟩
  | 1 => ⟨S800000, .i32⟩
  | 2 => ⟨S800000x1, .i32⟩
  | 3 => ⟨S1, .i32⟩
  | 4 => ⟨S_, .i32⟩
  | 5 => ⟨S800000x1, .i32⟩
  | 6 => ⟨S800000x1, .i1⟩
  | 7 => ⟨S1x1, .i32⟩
  | 8 => ⟨S800000x1, .i32⟩
  | 9 => ⟨S800000x1, .i1⟩
  | 10 => ⟨S800000x1, .i1⟩
  | 11 => ⟨S_, .i1⟩
  | 12 => ⟨S800000, .i1⟩
  | 13 => ⟨S800000x64, .f32⟩
  | 14 => ⟨S800000x64, .i1⟩
  | 15 => ⟨S_, .f32⟩
  | 16 => ⟨S800000x64, .f32⟩
  | 17 => ⟨S800000x64, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S1, .i32⟩
  | 27 => ⟨S_, .i32⟩
  | 28 => ⟨S800000x1, .i32⟩
  | 29 => ⟨S800000x1, .i1⟩
  | 30 => ⟨S1x1, .i32⟩
  | 31 => ⟨S800000x1, .i32⟩
  | 32 => ⟨S800000x1, .i1⟩
  | 33 => ⟨S800000x1, .i1⟩
  | 34 => ⟨S_, .i1⟩
  | 35 => ⟨S800000, .i1⟩
  | 36 => ⟨S800000x64, .f32⟩
  | 37 => ⟨S800000x64, .i1⟩
  | 38 => ⟨S_, .f32⟩
  | 39 => ⟨S800000x64, .f32⟩
  | 40 => ⟨S800000x64, .f32⟩
  | 41 => ⟨S1x128x64, .f32⟩
  | 42 => ⟨S128x64, .f32⟩
  | 43 => ⟨S64x64, .f32⟩
  | 44 => ⟨S64x64, .f32⟩
  | 45 => ⟨S1x64, .f32⟩
  | 46 => ⟨S64, .f32⟩
  | 47 => ⟨S1x64, .f32⟩
  | 48 => ⟨S1x64x64, .f32⟩
  | 49 => ⟨S64x64, .f32⟩
  | 50 => ⟨S1x64, .f32⟩
  | 51 => ⟨S64, .f32⟩
  | 52 => ⟨S1x64, .f32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S1x128x64, .f32⟩
  | 59 => ⟨S128x64, .f32⟩
  | 60 => ⟨S64x64, .f32⟩
  | 61 => ⟨S64x64, .f32⟩
  | 62 => ⟨S1x64, .f32⟩
  | 63 => ⟨S64, .f32⟩
  | 64 => ⟨S1x64, .f32⟩
  | 65 => ⟨S1x64x64, .f32⟩
  | 66 => ⟨S64x64, .f32⟩
  | 67 => ⟨S1x64, .f32⟩
  | 68 => ⟨S64, .f32⟩
  | 69 => ⟨S1x64, .f32⟩
  | 70 => ⟨S50000x64, .f32⟩
  | 71 => ⟨S_, .f32⟩
  | 72 => ⟨S64x64, .f32⟩
  | 73 => ⟨S50000x1, .i32⟩
  | 74 => ⟨S64x64, .f32⟩
  | 75 => ⟨S_, .f32⟩
  | 76 => ⟨S50000, .f32⟩
  | 77 => ⟨S_, .f32⟩
  | 78 => ⟨S64, .f32⟩
  | 79 => ⟨S50000x1, .i32⟩
  | 80 => ⟨S64, .f32⟩
  | 81 => ⟨S_, .f32⟩
  | 82 => ⟨S64, .f32⟩
  | 83 => ⟨S64, .f32⟩
  | 84 => ⟨S64x1, .f32⟩
  | 85 => ⟨S64x64, .f32⟩
  | 86 => ⟨S64x64, .f32⟩
  | 87 => ⟨S64x1, .f32⟩
  | 88 => ⟨S1x1, .f32⟩
  | 89 => ⟨S64x1, .f32⟩
  | 90 => ⟨S64x1, .f32⟩
  | 91 => ⟨S64, .f32⟩
  | _ => ⟨S50000x7, .f32⟩

abbrev hbmTy (i : Nat) : BufTy := match i / 128 with
  | 0 => hbmTy0_0 i
  | 1 => hbmTy0_1 i
  | 2 => hbmTy0_2 i
  | _ => ⟨S50000x7, .f32⟩

abbrev bufTy : (tb : Table) → Fin (tcTables nBuf tb) → BufTy
  | .hbm, ⟨i, _⟩ => hbmTy i
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S6400x64, .f32⟩
  | .local _ .vmem, ⟨10, _⟩ => ⟨S6400x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S6400x64, .f32⟩
  | .local _ .vmem, ⟨23, _⟩ => ⟨S6400x64, .f32⟩
  | .local _ .vmem, ⟨24, _⟩ => ⟨S6400x64, .f32⟩
  | .local _ .vmem, ⟨25, _⟩ => ⟨S6400x64, .f32⟩
  | .local _ .vmem, ⟨26, _⟩ => ⟨S64x64, .f32⟩
  | .local _ .vmem, ⟨27, _⟩ => ⟨S64x64, .f32⟩
  | .local _ .vmem, ⟨28, _⟩ => ⟨S1x64, .f32⟩
  | .local _ .vmem, ⟨29, _⟩ => ⟨S64x64, .f32⟩
  | .local _ .vmem, ⟨30, _⟩ => ⟨S1x64, .f32⟩
  | .local _ .vmem, ⟨31, _⟩ => ⟨S6400x64, .f32⟩
  | .local _ .vmem, ⟨32, _⟩ => ⟨S6400x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S64x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S6400x64, .f32⟩
  | .local _ .vmem, ⟨45, _⟩ => ⟨S6400x64, .f32⟩
  | .local _ .vmem, ⟨46, _⟩ => ⟨S6400x64, .f32⟩
  | .local _ .vmem, ⟨47, _⟩ => ⟨S6400x64, .f32⟩
  | .local _ .vmem, ⟨48, _⟩ => ⟨S64x64, .f32⟩
  | .local _ .vmem, ⟨49, _⟩ => ⟨S64x64, .f32⟩
  | .local _ .vmem, ⟨50, _⟩ => ⟨S1x64, .f32⟩
  | .local _ .vmem, ⟨51, _⟩ => ⟨S64x64, .f32⟩
  | .local _ .vmem, ⟨52, _⟩ => ⟨S1x64, .f32⟩
  | .local _ .vmem, ⟨53, _⟩ => ⟨S6400x64, .f32⟩
  | .local _ .vmem, ⟨54, _⟩ => ⟨S6400x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S64x64, .f32⟩
  | .local _ .vmem, ⟨60, _⟩ => ⟨S64x64, .f32⟩
  | .local _ .vmem, ⟨61, _⟩ => ⟨S1x64, .f32⟩
  | .local _ .vmem, ⟨62, _⟩ => ⟨S64x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S6400x64, .f32⟩
  | .local _ .vmem, ⟨67, _⟩ => ⟨S6400x64, .f32⟩
  | .local _ .vmem, ⟨68, _⟩ => ⟨S6400x64, .f32⟩
  | .local _ .vmem, ⟨69, _⟩ => ⟨S6400x64, .f32⟩
  | .local _ .vmem, ⟨70, _⟩ => ⟨S64x64, .f32⟩
  | .local _ .vmem, ⟨71, _⟩ => ⟨S64x64, .f32⟩
  | .local _ .vmem, ⟨72, _⟩ => ⟨S1x64, .f32⟩
  | .local _ .vmem, ⟨73, _⟩ => ⟨S64x64, .f32⟩
  | .local _ .vmem, ⟨74, _⟩ => ⟨S1x64, .f32⟩
  | .local _ .vmem, ⟨75, _⟩ => ⟨S6400x64, .f32⟩
  | .local _ .vmem, ⟨76, _⟩ => ⟨S6400x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S64x64, .f32⟩
  | .local _ .vmem, ⟨82, _⟩ => ⟨S64x64, .f32⟩
  | .local _ .vmem, ⟨83, _⟩ => ⟨S1x64, .f32⟩
  | .local _ .vmem, ⟨84, _⟩ => ⟨S64x64, .f32⟩
  | .local _ .vmem, ⟨85, _⟩ => ⟨S1x64, .f32⟩
  | .local _ .vmem, ⟨86, _⟩ => ⟨S5000x64, .f32⟩
  | .local _ .vmem, ⟨87, _⟩ => ⟨S5000x64, .f32⟩
  | _, _ => ⟨S50000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v8 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_cst : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_call2_c : Ref sig .tc := ⟨.hbm, 99, rfl⟩
abbrev main_call2_v0 : Ref sig .tc := ⟨.hbm, 100, rfl⟩
abbrev main_call2_v1 : Ref sig .tc := ⟨.hbm, 101, rfl⟩
abbrev main_call2_c_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_c_1 : Ref sig .tc := ⟨.hbm, 107, rfl⟩
abbrev main_call2_c_2 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_3 : Ref sig .tc := ⟨.hbm, 115, rfl⟩
abbrev main_call2_v12 : Ref sig .tc := ⟨.hbm, 116, rfl⟩
abbrev main_call2_v13 : Ref sig .tc := ⟨.hbm, 117, rfl⟩
abbrev main_call2_v14 : Ref sig .tc := ⟨.hbm, 118, rfl⟩
abbrev main_call2_cst : Ref sig .tc := ⟨.hbm, 119, rfl⟩
abbrev main_call2_v15 : Ref sig .tc := ⟨.hbm, 120, rfl⟩
abbrev main_v39 : Ref sig .tc := ⟨.hbm, 121, rfl⟩
abbrev main_call3_c : Ref sig .tc := ⟨.hbm, 122, rfl⟩
abbrev main_call3_v0 : Ref sig .tc := ⟨.hbm, 123, rfl⟩
abbrev main_call3_v1 : Ref sig .tc := ⟨.hbm, 124, rfl⟩
abbrev main_call3_c_0 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_c_1 : Ref sig .tc := ⟨.hbm, 130, rfl⟩
abbrev main_call3_c_2 : Ref sig .tc := ⟨.hbm, 131, rfl⟩
abbrev main_call3_v6 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_call3_v11 : Ref sig .tc := ⟨.hbm, 137, rfl⟩
abbrev main_call3_c_3 : Ref sig .tc := ⟨.hbm, 138, rfl⟩
abbrev main_call3_v12 : Ref sig .tc := ⟨.hbm, 139, rfl⟩
abbrev main_call3_v13 : Ref sig .tc := ⟨.hbm, 140, rfl⟩
abbrev main_call3_v14 : Ref sig .tc := ⟨.hbm, 141, rfl⟩
abbrev main_call3_cst : Ref sig .tc := ⟨.hbm, 142, rfl⟩
abbrev main_call3_v15 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_cst_0 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_call4_c : Ref sig .tc := ⟨.hbm, 175, rfl⟩
abbrev main_call4_v0 : Ref sig .tc := ⟨.hbm, 176, rfl⟩
abbrev main_call4_v1 : Ref sig .tc := ⟨.hbm, 177, rfl⟩
abbrev main_call4_c_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_c_1 : Ref sig .tc := ⟨.hbm, 183, rfl⟩
abbrev main_call4_c_2 : Ref sig .tc := ⟨.hbm, 184, rfl⟩
abbrev main_call4_v6 : Ref sig .tc := ⟨.hbm, 185, rfl⟩
abbrev main_call4_v7 : Ref sig .tc := ⟨.hbm, 186, rfl⟩
abbrev main_call4_v8 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_c_3 : Ref sig .tc := ⟨.hbm, 191, rfl⟩
abbrev main_call4_v12 : Ref sig .tc := ⟨.hbm, 192, rfl⟩
abbrev main_call4_v13 : Ref sig .tc := ⟨.hbm, 193, rfl⟩
abbrev main_call4_v14 : Ref sig .tc := ⟨.hbm, 194, rfl⟩
abbrev main_call4_cst : Ref sig .tc := ⟨.hbm, 195, rfl⟩
abbrev main_call4_v15 : Ref sig .tc := ⟨.hbm, 196, rfl⟩
abbrev main_v70 : Ref sig .tc := ⟨.hbm, 197, rfl⟩
abbrev main_call5_c : Ref sig .tc := ⟨.hbm, 198, rfl⟩
abbrev main_call5_v0 : Ref sig .tc := ⟨.hbm, 199, rfl⟩
abbrev main_call5_v1 : Ref sig .tc := ⟨.hbm, 200, rfl⟩
abbrev main_call5_c_0 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_v5 : Ref sig .tc := ⟨.hbm, 205, rfl⟩
abbrev main_call5_c_1 : Ref sig .tc := ⟨.hbm, 206, rfl⟩
abbrev main_call5_c_2 : Ref sig .tc := ⟨.hbm, 207, rfl⟩
abbrev main_call5_v6 : Ref sig .tc := ⟨.hbm, 208, rfl⟩
abbrev main_call5_v7 : Ref sig .tc := ⟨.hbm, 209, rfl⟩
abbrev main_call5_v8 : Ref sig .tc := ⟨.hbm, 210, rfl⟩
abbrev main_call5_v9 : Ref sig .tc := ⟨.hbm, 211, rfl⟩
abbrev main_call5_v10 : Ref sig .tc := ⟨.hbm, 212, rfl⟩
abbrev main_call5_v11 : Ref sig .tc := ⟨.hbm, 213, rfl⟩
abbrev main_call5_c_3 : Ref sig .tc := ⟨.hbm, 214, rfl⟩
abbrev main_call5_v12 : Ref sig .tc := ⟨.hbm, 215, rfl⟩
abbrev main_call5_v13 : Ref sig .tc := ⟨.hbm, 216, rfl⟩
abbrev main_call5_v14 : Ref sig .tc := ⟨.hbm, 217, rfl⟩
abbrev main_call5_cst : Ref sig .tc := ⟨.hbm, 218, rfl⟩
abbrev main_call5_v15 : Ref sig .tc := ⟨.hbm, 219, rfl⟩
abbrev main_v71 : Ref sig .tc := ⟨.hbm, 220, rfl⟩
abbrev main_v72 : Ref sig .tc := ⟨.hbm, 221, rfl⟩
abbrev main_v73 : Ref sig .tc := ⟨.hbm, 222, rfl⟩
abbrev main_v74 : Ref sig .tc := ⟨.hbm, 223, rfl⟩
abbrev main_v75 : Ref sig .tc := ⟨.hbm, 224, rfl⟩
abbrev main_v76 : Ref sig .tc := ⟨.hbm, 225, rfl⟩
abbrev main_v77 : Ref sig .tc := ⟨.hbm, 226, rfl⟩
abbrev main_v78 : Ref sig .tc := ⟨.hbm, 227, rfl⟩
abbrev main_v79 : Ref sig .tc := ⟨.hbm, 228, rfl⟩
abbrev main_v80 : Ref sig .tc := ⟨.hbm, 229, rfl⟩
abbrev main_v81 : Ref sig .tc := ⟨.hbm, 230, rfl⟩
abbrev main_v82 : Ref sig .tc := ⟨.hbm, 231, rfl⟩
abbrev main_v83 : Ref sig .tc := ⟨.hbm, 232, rfl⟩
abbrev main_v84 : Ref sig .tc := ⟨.hbm, 233, rfl⟩
abbrev main_cst_1 : Ref sig .tc := ⟨.hbm, 234, rfl⟩
abbrev main_v85 : Ref sig .tc := ⟨.hbm, 235, rfl⟩
abbrev main_v86 : Ref sig .tc := ⟨.hbm, 236, rfl⟩
abbrev main_v87 : Ref sig .tc := ⟨.hbm, 237, rfl⟩
abbrev main_v88 : Ref sig .tc := ⟨.hbm, 238, rfl⟩
abbrev main_v89 : Ref sig .tc := ⟨.hbm, 239, rfl⟩
abbrev main_v90 : Ref sig .tc := ⟨.hbm, 240, rfl⟩
abbrev main_v91 : Ref sig .tc := ⟨.hbm, 241, rfl⟩
abbrev main_v92 : Ref sig .tc := ⟨.hbm, 242, rfl⟩
abbrev main_v93 : Ref sig .tc := ⟨.hbm, 243, rfl⟩
abbrev main_v94 : Ref sig .tc := ⟨.hbm, 244, rfl⟩
abbrev main_v95 : Ref sig .tc := ⟨.hbm, 245, rfl⟩
abbrev main_v96 : Ref sig .tc := ⟨.hbm, 246, rfl⟩
abbrev main_v97 : Ref sig .tc := ⟨.hbm, 247, rfl⟩
abbrev main_v98 : Ref sig .tc := ⟨.hbm, 248, rfl⟩
abbrev main_v99 : Ref sig .tc := ⟨.hbm, 249, rfl⟩
abbrev main_v100 : Ref sig .tc := ⟨.hbm, 250, rfl⟩
abbrev main_call6_c : Ref sig .tc := ⟨.hbm, 251, rfl⟩
abbrev main_call6_v0 : Ref sig .tc := ⟨.hbm, 252, rfl⟩
abbrev main_call6_v1 : Ref sig .tc := ⟨.hbm, 253, rfl⟩
abbrev main_call6_c_0 : Ref sig .tc := ⟨.hbm, 254, rfl⟩
abbrev main_call6_v2 : Ref sig .tc := ⟨.hbm, 255, rfl⟩
abbrev main_call6_v3 : Ref sig .tc := ⟨.hbm, 256, rfl⟩
abbrev main_call6_v4 : Ref sig .tc := ⟨.hbm, 257, rfl⟩
abbrev main_call6_v5 : Ref sig .tc := ⟨.hbm, 258, rfl⟩
abbrev main_call6_c_1 : Ref sig .tc := ⟨.hbm, 259, rfl⟩
abbrev main_call6_c_2 : Ref sig .tc := ⟨.hbm, 260, rfl⟩
abbrev main_call6_v6 : Ref sig .tc := ⟨.hbm, 261, rfl⟩
abbrev main_call6_v7 : Ref sig .tc := ⟨.hbm, 262, rfl⟩
abbrev main_call6_v8 : Ref sig .tc := ⟨.hbm, 263, rfl⟩
abbrev main_call6_v9 : Ref sig .tc := ⟨.hbm, 264, rfl⟩
abbrev main_call6_v10 : Ref sig .tc := ⟨.hbm, 265, rfl⟩
abbrev main_call6_v11 : Ref sig .tc := ⟨.hbm, 266, rfl⟩
abbrev main_call6_c_3 : Ref sig .tc := ⟨.hbm, 267, rfl⟩
abbrev main_call6_v12 : Ref sig .tc := ⟨.hbm, 268, rfl⟩
abbrev main_call6_v13 : Ref sig .tc := ⟨.hbm, 269, rfl⟩
abbrev main_call6_v14 : Ref sig .tc := ⟨.hbm, 270, rfl⟩
abbrev main_call6_cst : Ref sig .tc := ⟨.hbm, 271, rfl⟩
abbrev main_call6_v15 : Ref sig .tc := ⟨.hbm, 272, rfl⟩
abbrev main_v101 : Ref sig .tc := ⟨.hbm, 273, rfl⟩
abbrev main_call7_c : Ref sig .tc := ⟨.hbm, 274, rfl⟩
abbrev main_call7_v0 : Ref sig .tc := ⟨.hbm, 275, rfl⟩
abbrev main_call7_v1 : Ref sig .tc := ⟨.hbm, 276, rfl⟩
abbrev main_call7_c_0 : Ref sig .tc := ⟨.hbm, 277, rfl⟩
abbrev main_call7_v2 : Ref sig .tc := ⟨.hbm, 278, rfl⟩
abbrev main_call7_v3 : Ref sig .tc := ⟨.hbm, 279, rfl⟩
abbrev main_call7_v4 : Ref sig .tc := ⟨.hbm, 280, rfl⟩
abbrev main_call7_v5 : Ref sig .tc := ⟨.hbm, 281, rfl⟩
abbrev main_call7_c_1 : Ref sig .tc := ⟨.hbm, 282, rfl⟩
abbrev main_call7_c_2 : Ref sig .tc := ⟨.hbm, 283, rfl⟩
abbrev main_call7_v6 : Ref sig .tc := ⟨.hbm, 284, rfl⟩
abbrev main_call7_v7 : Ref sig .tc := ⟨.hbm, 285, rfl⟩
abbrev main_call7_v8 : Ref sig .tc := ⟨.hbm, 286, rfl⟩
abbrev main_call7_v9 : Ref sig .tc := ⟨.hbm, 287, rfl⟩
abbrev main_call7_v10 : Ref sig .tc := ⟨.hbm, 288, rfl⟩
abbrev main_call7_v11 : Ref sig .tc := ⟨.hbm, 289, rfl⟩
abbrev main_call7_c_3 : Ref sig .tc := ⟨.hbm, 290, rfl⟩
abbrev main_call7_v12 : Ref sig .tc := ⟨.hbm, 291, rfl⟩
abbrev main_call7_v13 : Ref sig .tc := ⟨.hbm, 292, rfl⟩
abbrev main_call7_v14 : Ref sig .tc := ⟨.hbm, 293, rfl⟩
abbrev main_call7_cst : Ref sig .tc := ⟨.hbm, 294, rfl⟩
abbrev main_call7_v15 : Ref sig .tc := ⟨.hbm, 295, rfl⟩
abbrev main_v102 : Ref sig .tc := ⟨.hbm, 296, rfl⟩
abbrev main_v103 : Ref sig .tc := ⟨.hbm, 297, rfl⟩
abbrev main_v104 : Ref sig .tc := ⟨.hbm, 298, rfl⟩
abbrev main_v105 : Ref sig .tc := ⟨.hbm, 299, rfl⟩
abbrev main_v106 : Ref sig .tc := ⟨.hbm, 300, rfl⟩
abbrev main_v107 : Ref sig .tc := ⟨.hbm, 301, rfl⟩
abbrev main_v108 : Ref sig .tc := ⟨.hbm, 302, rfl⟩
abbrev main_v109 : Ref sig .tc := ⟨.hbm, 303, rfl⟩
abbrev main_v110 : Ref sig .tc := ⟨.hbm, 304, rfl⟩
abbrev main_v111 : Ref sig .tc := ⟨.hbm, 305, rfl⟩
abbrev main_v112 : Ref sig .tc := ⟨.hbm, 306, rfl⟩
abbrev main_v113 : Ref sig .tc := ⟨.hbm, 307, rfl⟩
abbrev main_v114 : Ref sig .tc := ⟨.hbm, 308, rfl⟩
abbrev main_v115 : Ref sig .tc := ⟨.hbm, 309, rfl⟩
abbrev main_cst_2 : Ref sig .tc := ⟨.hbm, 310, rfl⟩
abbrev main_v116 : Ref sig .tc := ⟨.hbm, 311, rfl⟩
abbrev main_v117 : Ref sig .tc := ⟨.hbm, 312, rfl⟩
abbrev main_v118 : Ref sig .tc := ⟨.hbm, 313, rfl⟩
abbrev main_v119 : Ref sig .tc := ⟨.hbm, 314, rfl⟩
abbrev main_v120 : Ref sig .tc := ⟨.hbm, 315, rfl⟩
abbrev main_v121 : Ref sig .tc := ⟨.hbm, 316, rfl⟩
abbrev main_v122 : Ref sig .tc := ⟨.hbm, 317, rfl⟩
abbrev main_v123 : Ref sig .tc := ⟨.hbm, 318, rfl⟩
abbrev main_v124 : Ref sig .tc := ⟨.hbm, 319, rfl⟩
abbrev main_v125 : Ref sig .tc := ⟨.hbm, 320, rfl⟩
abbrev main_v126 : Ref sig .tc := ⟨.hbm, 321, rfl⟩
abbrev main_v127 : Ref sig .tc := ⟨.hbm, 322, rfl⟩
abbrev main_v128 : Ref sig .tc := ⟨.hbm, 323, rfl⟩
abbrev main_v129 : Ref sig .tc := ⟨.hbm, 324, rfl⟩
abbrev main_v130 : Ref sig .tc := ⟨.hbm, 325, rfl⟩
abbrev main_v131 : Ref sig .tc := ⟨.hbm, 326, rfl⟩
abbrev main_cst_3 : Ref sig .tc := ⟨.hbm, 327, rfl⟩
abbrev main_v132 : Ref sig .tc := ⟨.hbm, 328, rfl⟩
abbrev main_v133 : Ref sig .tc := ⟨.hbm, 329, rfl⟩
abbrev main_v134 : Ref sig .tc := ⟨.hbm, 330, rfl⟩
abbrev main_cst_4 : Ref sig .tc := ⟨.hbm, 331, rfl⟩
abbrev main_v135 : Ref sig .tc := ⟨.hbm, 332, rfl⟩
abbrev main_cst_5 : Ref sig .tc := ⟨.hbm, 333, rfl⟩
abbrev main_v136 : Ref sig .tc := ⟨.hbm, 334, rfl⟩
abbrev main_v137 : Ref sig .tc := ⟨.hbm, 335, rfl⟩
abbrev main_v138 : Ref sig .tc := ⟨.hbm, 336, rfl⟩
abbrev main_cst_6 : Ref sig .tc := ⟨.hbm, 337, rfl⟩
abbrev main_v139 : Ref sig .tc := ⟨.hbm, 338, rfl⟩
abbrev main_v140 : Ref sig .tc := ⟨.hbm, 339, rfl⟩
abbrev main_v141 : Ref sig .tc := ⟨.hbm, 340, rfl⟩
abbrev main_v142 : Ref sig .tc := ⟨.hbm, 341, rfl⟩
abbrev main_v143 : Ref sig .tc := ⟨.hbm, 342, rfl⟩
abbrev main_v144 : Ref sig .tc := ⟨.hbm, 343, rfl⟩
abbrev main_v145 : Ref sig .tc := ⟨.hbm, 344, rfl⟩
abbrev main_v146 : Ref sig .tc := ⟨.hbm, 345, rfl⟩
abbrev main_v147 : Ref sig .tc := ⟨.hbm, 346, rfl⟩
abbrev main_v148 : Ref sig .tc := ⟨.hbm, 347, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg7_0 : Ref sig .tc := ⟨.vmem, 64, rfl⟩
abbrev cc5_stg7_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg7_0 : Ref sig .tc := ⟨.vmem, 75, rfl⟩
abbrev cc6_stg7_1 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg1_1 : Ref sig .tc := ⟨.vmem, 80, rfl⟩
abbrev cc7_stg2_0 : Ref sig .tc := ⟨.vmem, 81, rfl⟩
abbrev cc7_stg3_0 : Ref sig .tc := ⟨.vmem, 82, rfl⟩
abbrev cc7_stg4_0 : Ref sig .tc := ⟨.vmem, 83, rfl⟩
abbrev cc7_stg5_0 : Ref sig .tc := ⟨.vmem, 84, rfl⟩
abbrev cc7_stg6_0 : Ref sig .tc := ⟨.vmem, 85, rfl⟩
abbrev cc7_stg7_0 : Ref sig .tc := ⟨.vmem, 86, rfl⟩
abbrev cc7_stg7_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem6_0 : DmaSem sig := 63
abbrev cc5_sem7_0 : DmaSem sig := 64
abbrev cc5_sem7_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem5_0 : DmaSem sig := 73
abbrev cc6_sem6_0 : DmaSem sig := 74
abbrev cc6_sem7_0 : DmaSem sig := 75
abbrev cc6_sem7_1 : DmaSem sig := 76
abbrev cc7_sem0_0 : DmaSem sig := 77
abbrev cc7_sem0_1 : DmaSem sig := 78
abbrev cc7_sem1_0 : DmaSem sig := 79
abbrev cc7_sem1_1 : DmaSem sig := 80
abbrev cc7_sem2_0 : DmaSem sig := 81
abbrev cc7_sem3_0 : DmaSem sig := 82
abbrev cc7_sem4_0 : DmaSem sig := 83
abbrev cc7_sem5_0 : DmaSem sig := 84
abbrev cc7_sem6_0 : DmaSem sig := 85
abbrev cc7_sem7_0 : DmaSem sig := 86
abbrev cc7_sem7_1 : DmaSem sig := 87

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S6400x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S6400x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6400x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6400x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S6400x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S4x128x64_S1x128x64_0_0_0 : S4x128x64.Slices ![0, 0, 0] S1x128x64
  shapeCasts_S1x128x64_S128x64 : S1x128x64.ShapeCasts S128x64
  slices_S128x64_S64x64_0_0 : S128x64.Slices ![0, 0] S64x64
  slices_S128x64_S64x64_64_0 : S128x64.Slices ![64, 0] S64x64
  slices_S4x64_S1x64_0_0 : S4x64.Slices ![0, 0] S1x64
  shapeCasts_S1x64_S64 : S1x64.ShapeCasts S64
  shapeCasts_S64_S1x64 : S64.ShapeCasts S1x64
  slices_S4x64x64_S1x64x64_0_0_0 : S4x64x64.Slices ![0, 0, 0] S1x64x64
  shapeCasts_S1x64x64_S64x64 : S1x64x64.ShapeCasts S64x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  slices_S4x128x64_S1x128x64_1_0_0 : S4x128x64.Slices ![1, 0, 0] S1x128x64
  slices_S4x64_S1x64_1_0 : S4x64.Slices ![1, 0] S1x64
  slices_S4x64x64_S1x64x64_1_0_0 : S4x64x64.Slices ![1, 0, 0] S1x64x64
  slices_S4x128x64_S1x128x64_2_0_0 : S4x128x64.Slices ![2, 0, 0] S1x128x64
  slices_S4x64_S1x64_2_0 : S4x64.Slices ![2, 0] S1x64
  slices_S4x64x64_S1x64x64_2_0_0 : S4x64x64.Slices ![2, 0, 0] S1x64x64
  slices_S4x128x64_S1x128x64_3_0_0 : S4x128x64.Slices ![3, 0, 0] S1x128x64
  slices_S4x64_S1x64_3_0 : S4x64.Slices ![3, 0] S1x64
  slices_S4x64x64_S1x64x64_3_0_0 : S4x64x64.Slices ![3, 0, 0] S1x64x64
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x1_S64x1_0_1 : S1x1.BroadcastsInDim S64x1 (![0, 1] : Fin 2 → Fin S64x1.rank)
  shapeCasts_S64x1_S64 : S64x1.ShapeCasts S64
  dot_S50000x7_S7x64_S50000x64_1_0_0_1_n_n_wf : DotDims.WF S50000x7 S7x64 S50000x64 [1] [0] [0] [1] [] []
  gather_S50000x64_S800000x1_S800000x64_1_0_n_n_0_1_164_wf : GatherDims.WF S50000x64 S800000x1 S800000x64 [1] [0] [] [0] [] 1 ![1, 64]
  dot_S6400x64_S64x64_S6400x64_1_0_0_1_n_n_wf : DotDims.WF S6400x64 S64x64 S6400x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .f32 = 32 ∨ (Rect.block (s := S800000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x64.size a ≤ S800000x64.size a
  hwx0_7 : ∀ i : grid0.Coords, EltTy.bits .f32 = 32 ∨ (Rect.block (s := S800000x64) S6400x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S800000x64.size a
  hwx2_0 : ∀ i : grid2.Coords, EltTy.bits .f32 = 32 ∨ (Rect.block (s := S800000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x64.size a ≤ S800000x64.size a
  hwx2_1 : ∀ i : grid2.Coords, EltTy.bits .f32 = 32 ∨ (Rect.block (s := S800000x64) S6400x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6400x64.size a ≤ S800000x64.size a
  hwx2_7 : ∀ i : grid2.Coords, EltTy.bits .f32 = 32 ∨ (Rect.block (s := S800000x64) S6400x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S50000x64.size a
  hwx3_7 : ∀ i : grid3.Coords, EltTy.bits .f32 = 32 ∨ (Rect.block (s := S50000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x64.size a ≤ S800000x64.size a
  hwx4_0 : ∀ i : grid4.Coords, EltTy.bits .f32 = 32 ∨ (Rect.block (s := S800000x64) S6400x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x64.size a ≤ S800000x64.size a
  hwx4_1 : ∀ i : grid4.Coords, EltTy.bits .f32 = 32 ∨ (Rect.block (s := S800000x64) S6400x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S6400x64.size a ≤ S800000x64.size a
  hwx4_7 : ∀ i : grid4.Coords, EltTy.bits .f32 = 32 ∨ (Rect.block (s := S800000x64) S6400x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S50000x64.size a
  hwx5_7 : ∀ i : grid5.Coords, EltTy.bits .f32 = 32 ∨ (Rect.block (s := S50000x64) S5000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6400x64.size a ≤ S800000x64.size a
  hwx6_0 : ∀ i : grid6.Coords, EltTy.bits .f32 = 32 ∨ (Rect.block (s := S800000x64) S6400x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6400x64.size a ≤ S800000x64.size a
  hwx6_1 : ∀ i : grid6.Coords, EltTy.bits .f32 = 32 ∨ (Rect.block (s := S800000x64) S6400x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S6400x64.size a ≤ S800000x64.size a
  hwx6_7 : ∀ i : grid6.Coords, EltTy.bits .f32 = 32 ∨ (Rect.block (s := S800000x64) S6400x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x64.size a ≤ S50000x64.size a
  hwx7_7 : ∀ i : grid7.Coords, EltTy.bits .f32 = 32 ∨ (Rect.block (s := S50000x64) S5000x64.size (cc7_transform_7 i) (hinb7_7 i)).WholeWords (EltTy.packing .f32)

variable [Facts₀]

def dot_S50000x7_S7x64_S50000x64_1_0_0_1_n_n : DotDims S50000x7 S7x64 S50000x64 where
  lhsContracting := [1]
  rhsContracting := [0]
  lhsNonContracting := [0]
  rhsNonContracting := [1]
  lhsBatch := []
  rhsBatch := []
  wf := dot_S50000x7_S7x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v8) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S6400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v7) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v39) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S6400x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53) S6400x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v69) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v70) S6400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S6400x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v83) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v84) S6400x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v69) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v90) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v91) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v94) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v99) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v100) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v101) S6400x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S6400x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v105) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v106) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v111) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v114) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v115) S6400x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v100) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v118) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v121) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v122) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v125) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v127) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v130) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v131) S5000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x7 : Shape := ⟨2, ![50000, 7]⟩
abbrev S2x800000 : Shape := ⟨2, ![2, 800000]⟩
abbrev S50000 : Shape := ⟨1, ![50000]⟩
abbrev S7x64 : Shape := ⟨2, ![7, 64]⟩
abbrev S64 : Shape := ⟨1, ![64]⟩
abbrev S4x128x64 : Shape := ⟨3, ![4, 128, 64]⟩
abbrev S4x64 : Shape := ⟨2, ![4, 64]⟩
abbrev S4x64x64 : Shape := ⟨3, ![4, 64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S50000x128 : Shape := ⟨2, ![50000, 128]⟩
abbrev S50000x1 : Shape := ⟨2, ![50000, 1]⟩
abbrev S1x1 : Shape := ⟨2, ![1, 1]⟩

abbrev nBuf : Space → Nat
  | .hbm => 320
  | .vmem => 0
  | .smem => 0
  | _ => 0

abbrev hbmTy0_0 (i : Nat) : BufTy := match i % 128 with
  | 0 => ⟨S50000x7, .f32⟩
  | 1 => ⟨S2x800000, .i32⟩
  | 2 => ⟨S50000, .i32⟩
  | 3 => ⟨S7x64, .f32⟩
  | 4 => ⟨S64, .f32⟩
  | 5 => ⟨S4x128x64, .f32⟩
  | 6 => ⟨S4x64, .f32⟩
  | 7 => ⟨S4x64x64, .f32⟩
  | 8 => ⟨S4x64, .f32⟩
  | 9 => ⟨S4x128x64, .f32⟩
  | 10 => ⟨S4x64, .f32⟩
  | 11 => ⟨S4x64x64, .f32⟩
  | 12 => ⟨S4x64, .f32⟩
  | 13 => ⟨S64x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S50000x64, .f32⟩
  | 20 => ⟨S1x64, .f32⟩
  | 21 => ⟨S50000x64, .f32⟩
  | 22 => ⟨S50000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x128, .f32⟩
  | 42 => ⟨S1x128x64, .f32⟩
  | 43 => ⟨S128x64, .f32⟩
  | 44 => ⟨S1x64, .f32⟩
  | 45 => ⟨S64, .f32⟩
  | 46 => ⟨S1x64x64, .f32⟩
  | 47 => ⟨S64x64, .f32⟩
  | 48 => ⟨S1x64, .f32⟩
  | 49 => ⟨S64, .f32⟩
  | 50 => ⟨S800000x64, .f32⟩
  | 51 => ⟨S1x64, .f32⟩
  | 52 => ⟨S800000x64, .f32⟩
  | 53 => ⟨S800000x64, .f32⟩
  | 54 => ⟨S_, .f32⟩
  | 55 => ⟨S800000x64, .f32⟩
  | 56 => ⟨S800000x64, .f32⟩
  | 57 => ⟨S800000x64, .f32⟩
  | 58 => ⟨S1x64, .f32⟩
  | 59 => ⟨S800000x64, .f32⟩
  | 60 => ⟨S800000x64, .f32⟩
  | 61 => ⟨S_, .f32⟩
  | 62 => ⟨S800000x64, .f32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S50000x128, .f32⟩
  | 69 => ⟨S1x128x64, .f32⟩
  | 70 => ⟨S128x64, .f32⟩
  | 71 => ⟨S1x64, .f32⟩
  | 72 => ⟨S64, .f32⟩
  | 73 => ⟨S1x64x64, .f32⟩
  | 74 => ⟨S64x64, .f32⟩
  | 75 => ⟨S1x64, .f32⟩
  | 76 => ⟨S64, .f32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S800000x128, .f32⟩
  | 111 => ⟨S1x128x64, .f32⟩
  | 112 => ⟨S128x64, .f32⟩
  | 113 => ⟨S1x64, .f32⟩
  | 114 => ⟨S64, .f32⟩
  | 115 => ⟨S1x64x64, .f32⟩
  | 116 => ⟨S64x64, .f32⟩
  | 117 => ⟨S1x64, .f32⟩
  | 118 => ⟨S64, .f32⟩
  | 119 => ⟨S800000x64, .f32⟩
  | 120 => ⟨S1x64, .f32⟩
  | 121 => ⟨S800000x64, .f32⟩
  | 122 => ⟨S800000x64, .f32⟩
  | 123 => ⟨S_, .f32⟩
  | 124 => ⟨S800000x64, .f32⟩
  | 125 => ⟨S800000x64, .f32⟩
  | 126 => ⟨S800000x64, .f32⟩
  | 127 => ⟨S1x64, .f32⟩
  | _ => ⟨S50000x7, .f32⟩

abbrev hbmTy0_1 (i : Nat) : BufTy := match i % 128 with
  | 0 => ⟨S800000x64, .f32⟩
  | 1 => ⟨S800000x64, .f32⟩
  | 2 => ⟨S_, .f32⟩
  | 3 => ⟨S800000x64, .f32⟩
  | 4 => ⟨S800000x64, .f32⟩
  | 5 => ⟨S_, .f32⟩
  | 6 => ⟨S50000x64, .f32⟩
  | 7 => ⟨S800000x1, .i32⟩
  | 8 => ⟨S50000x64, .f32⟩
  | 9 => ⟨S50000x128, .f32⟩
  | 10 => ⟨S1x128x64, .f32⟩
  | 11 => ⟨S128x64, .f32⟩
  | 12 => ⟨S1x64, .f32⟩
  | 13 => ⟨S64, .f32⟩
  | 14 => ⟨S1x64x64, .f32⟩
  | 15 => ⟨S64x64, .f32⟩
  | 16 => ⟨S1x64, .f32⟩
  | 17 => ⟨S64, .f32⟩
  | 18 => ⟨S50000x64, .f32⟩
  | 19 => ⟨S1x64, .f32⟩
  | 20 => ⟨S50000x64, .f32⟩
  | 21 => ⟨S50000x64, .f32⟩
  | 22 => ⟨S_, .f32⟩
  | 23 => ⟨S50000x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S800000x128, .f32⟩
  | 52 => ⟨S1x128x64, .f32⟩
  | 53 => ⟨S128x64, .f32⟩
  | 54 => ⟨S1x64, .f32⟩
  | 55 => ⟨S64, .f32⟩
  | 56 => ⟨S1x64x64, .f32⟩
  | 57 => ⟨S64x64, .f32⟩
  | 58 => ⟨S1x64, .f32⟩
  | 59 => ⟨S64, .f32⟩
  | 60 => ⟨S800000x64, .f32⟩
  | 61 => ⟨S1x64, .f32⟩
  | 62 => ⟨S800000x64, .f32⟩
  | 63 => ⟨S800000x64, .f32⟩
  | 64 => ⟨S_, .f32⟩
  | 65 => ⟨S800000x64, .f32⟩
  | 66 => ⟨S800000x64, .f32⟩
  | 67 => ⟨S800000x64, .f32⟩
  | 68 => ⟨S1x64, .f32⟩
  | 69 => ⟨S800000x64, .f32⟩
  | 70 => ⟨S800000x64, .f32⟩
  | 71 => ⟨S_, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S50000x128, .f32⟩
  | 79 => ⟨S1x128x64, .f32⟩
  | 80 => ⟨S128x64, .f32⟩
  | 81 => ⟨S1x64, .f32⟩
  | 82 => ⟨S64, .f32⟩
  | 83 => ⟨S1x64x64, .f32⟩
  | 84 => ⟨S64x64, .f32⟩
  | 85 => ⟨S1x64, .f32⟩
  | 86 => ⟨S64, .f32⟩
  | 87 => ⟨S50000x64, .f32⟩
  | 88 => ⟨S1x64, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S800000x128, .f32⟩
  | 121 => ⟨S1x128x64, .f32⟩
  | 122 => ⟨S128x64, .f32⟩
  | 123 => ⟨S1x64, .f32⟩
  | 124 => ⟨S64, .f32⟩
  | 125 => ⟨S1x64x64, .f32⟩
  | 126 => ⟨S64x64, .f32⟩
  | 127 => ⟨S1x64, .f32⟩
  | _ => ⟨S50000x7, .f32⟩

abbrev hbmTy0_2 (i : Nat) : BufTy := match i % 128 with
  | 0 => ⟨S64, .f32⟩
  | 1 => ⟨S800000x64, .f32⟩
  | 2 => ⟨S1x64, .f32⟩
  | 3 => ⟨S800000x64, .f32⟩
  | 4 => ⟨S800000x64, .f32⟩
  | 5 => ⟨S_, .f32⟩
  | 6 => ⟨S800000x64, .f32⟩
  | 7 => ⟨S800000x64, .f32⟩
  | 8 => ⟨S800000x64, .f32⟩
  | 9 => ⟨S1x64, .f32⟩
  | 10 => ⟨S800000x64, .f32⟩
  | 11 => ⟨S800000x64, .f32⟩
  | 12 => ⟨S_, .f32⟩
  | 13 => ⟨S800000x64, .f32⟩
  | 14 => ⟨S800000x64, .f32⟩
  | 15 => ⟨S_, .f32⟩
  | 16 => ⟨S50000x64, .f32⟩
  | 17 => ⟨S800000x1, .i32⟩
  | 18 => ⟨S50000x64, .f32⟩
  | 19 => ⟨S50000x128, .f32⟩
  | 20 => ⟨S1x128x64, .f32⟩
  | 21 => ⟨S128x64, .f32⟩
  | 22 => ⟨S1x64, .f32⟩
  | 23 => ⟨S64, .f32⟩
  | 24 => ⟨S1x64x64, .f32⟩
  | 25 => ⟨S64x64, .f32⟩
  | 26 => ⟨S1x64, .f32⟩
  | 27 => ⟨S64, .f32⟩
  | 28 => ⟨S50000x64, .f32⟩
  | 29 => ⟨S1x64, .f32⟩
  | 30 => ⟨S50000x64, .f32⟩
  | 31 => ⟨S50000x64, .f32⟩
  | 32 => ⟨S_, .f32⟩
  | 33 => ⟨S50000x64, .f32⟩
  | 34 => ⟨S50000x64, .f32⟩
  | 35 => ⟨S50000x64, .f32⟩
  | 36 => ⟨S1x64, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S50000x64, .f32⟩
  | 43 => ⟨S_, .f32⟩
  | 44 => ⟨S64x64, .f32⟩
  | 45 => ⟨S50000x1, .i32⟩
  | 46 => ⟨S64x64, .f32⟩
  | 47 => ⟨S_, .f32⟩
  | 48 => ⟨S50000, .f32⟩
  | 49 => ⟨S_, .f32⟩
  | 50 => ⟨S64, .f32⟩
  | 51 => ⟨S50000x1, .i32⟩
  | 52 => ⟨S64, .f32⟩
  | 53 => ⟨S_, .f32⟩
  | 54 => ⟨S64, .f32⟩
  | 55 => ⟨S64, .f32⟩
  | 56 => ⟨S64x1, .f32⟩
  | 57 => ⟨S64x64, .f32⟩
  | 58 => ⟨S64x64, .f32⟩
  | 59 => ⟨S64x1, .f32⟩
  | 60 => ⟨S1x1, .f32⟩
  | 61 => ⟨S64x1, .f32⟩
  | 62 => ⟨S64x1, .f32⟩
  | 63 => ⟨S64, .f32⟩
  | _ => ⟨S50000x7, .f32⟩

abbrev hbmTy (i : Nat) : BufTy := match i / 128 with
  | 0 => hbmTy0_0 i
  | 1 => hbmTy0_1 i
  | 2 => hbmTy0_2 i
  | _ => ⟨S50000x7, .f32⟩

abbrev bufTy : (tb : Table) → Fin (tcTables nBuf tb) → BufTy
  | .hbm, ⟨i, _⟩ => hbmTy i
  | _, _ => ⟨S50000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_cst : Ref sig .tc := ⟨.hbm, 61, rfl⟩
abbrev main_call1_v0 : Ref sig .tc := ⟨.hbm, 62, rfl⟩
abbrev main_v40 : Ref sig .tc := ⟨.hbm, 63, rfl⟩
abbrev main_cst : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call2_cst : Ref sig .tc := ⟨.hbm, 81, rfl⟩
abbrev main_call2_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call3_cst : Ref sig .tc := ⟨.hbm, 88, rfl⟩
abbrev main_call3_v0 : Ref sig .tc := ⟨.hbm, 89, rfl⟩
abbrev main_v62 : Ref sig .tc := ⟨.hbm, 90, rfl⟩
abbrev main_v63 : Ref sig .tc := ⟨.hbm, 91, rfl⟩
abbrev main_c_3 : Ref sig .tc := ⟨.hbm, 92, rfl⟩
abbrev main_v64 : Ref sig .tc := ⟨.hbm, 93, rfl⟩
abbrev main_v65 : Ref sig .tc := ⟨.hbm, 94, rfl⟩
abbrev main_c_4 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_5 : Ref sig .tc := ⟨.hbm, 101, rfl⟩
abbrev main_v71 : Ref sig .tc := ⟨.hbm, 102, rfl⟩
abbrev main_v72 : Ref sig .tc := ⟨.hbm, 103, rfl⟩
abbrev main_c_6 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call4_cst : Ref sig .tc := ⟨.hbm, 123, rfl⟩
abbrev main_call4_v0 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_call5_cst : Ref sig .tc := ⟨.hbm, 130, rfl⟩
abbrev main_call5_v0 : Ref sig .tc := ⟨.hbm, 131, rfl⟩
abbrev main_v96 : Ref sig .tc := ⟨.hbm, 132, rfl⟩
abbrev main_cst_7 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_call6_cst : Ref sig .tc := ⟨.hbm, 150, rfl⟩
abbrev main_call6_v0 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_call7_cst : Ref sig .tc := ⟨.hbm, 157, rfl⟩
abbrev main_call7_v0 : Ref sig .tc := ⟨.hbm, 158, rfl⟩
abbrev main_v118 : Ref sig .tc := ⟨.hbm, 159, rfl⟩
abbrev main_v119 : Ref sig .tc := ⟨.hbm, 160, rfl⟩
abbrev main_c_8 : Ref sig .tc := ⟨.hbm, 161, rfl⟩
abbrev main_v120 : Ref sig .tc := ⟨.hbm, 162, rfl⟩
abbrev main_v121 : Ref sig .tc := ⟨.hbm, 163, rfl⟩
abbrev main_c_9 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_10 : Ref sig .tc := ⟨.hbm, 170, rfl⟩
abbrev main_v127 : Ref sig .tc := ⟨.hbm, 171, rfl⟩
abbrev main_v128 : Ref sig .tc := ⟨.hbm, 172, rfl⟩
abbrev main_c_11 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_call8_cst : Ref sig .tc := ⟨.hbm, 192, rfl⟩
abbrev main_call8_v0 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_call9_cst : Ref sig .tc := ⟨.hbm, 199, rfl⟩
abbrev main_call9_v0 : Ref sig .tc := ⟨.hbm, 200, rfl⟩
abbrev main_v152 : Ref sig .tc := ⟨.hbm, 201, rfl⟩
abbrev main_cst_12 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_call10_cst : Ref sig .tc := ⟨.hbm, 219, rfl⟩
abbrev main_call10_v0 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_call11_cst : Ref sig .tc := ⟨.hbm, 226, rfl⟩
abbrev main_call11_v0 : Ref sig .tc := ⟨.hbm, 227, rfl⟩
abbrev main_v174 : Ref sig .tc := ⟨.hbm, 228, rfl⟩
abbrev main_v175 : Ref sig .tc := ⟨.hbm, 229, rfl⟩
abbrev main_c_13 : Ref sig .tc := ⟨.hbm, 230, rfl⟩
abbrev main_v176 : Ref sig .tc := ⟨.hbm, 231, rfl⟩
abbrev main_v177 : Ref sig .tc := ⟨.hbm, 232, rfl⟩
abbrev main_c_14 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_c_15 : Ref sig .tc := ⟨.hbm, 239, rfl⟩
abbrev main_v183 : Ref sig .tc := ⟨.hbm, 240, rfl⟩
abbrev main_v184 : Ref sig .tc := ⟨.hbm, 241, rfl⟩
abbrev main_c_16 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_call12_cst : Ref sig .tc := ⟨.hbm, 261, rfl⟩
abbrev main_call12_v0 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_call13_cst : Ref sig .tc := ⟨.hbm, 268, rfl⟩
abbrev main_call13_v0 : Ref sig .tc := ⟨.hbm, 269, rfl⟩
abbrev main_v208 : Ref sig .tc := ⟨.hbm, 270, rfl⟩
abbrev main_cst_17 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_call14_cst : Ref sig .tc := ⟨.hbm, 288, rfl⟩
abbrev main_call14_v0 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_call15_cst : Ref sig .tc := ⟨.hbm, 295, rfl⟩
abbrev main_call15_v0 : Ref sig .tc := ⟨.hbm, 296, rfl⟩
abbrev main_v230 : Ref sig .tc := ⟨.hbm, 297, rfl⟩
abbrev main_v231 : Ref sig .tc := ⟨.hbm, 298, rfl⟩
abbrev main_cst_18 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_cst_19 : Ref sig .tc := ⟨.hbm, 303, rfl⟩
abbrev main_v235 : Ref sig .tc := ⟨.hbm, 304, rfl⟩
abbrev main_cst_20 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_cst_21 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  slices_S4x128x64_S1x128x64_1_0_0 : S4x128x64.Slices ![1, 0, 0] S1x128x64
  slices_S4x64_S1x64_1_0 : S4x64.Slices ![1, 0] S1x64
  slices_S4x64x64_S1x64x64_1_0_0 : S4x64x64.Slices ![1, 0, 0] S1x64x64
  slices_S4x128x64_S1x128x64_2_0_0 : S4x128x64.Slices ![2, 0, 0] S1x128x64
  slices_S4x64_S1x64_2_0 : S4x64.Slices ![2, 0] S1x64
  slices_S4x64x64_S1x64x64_2_0_0 : S4x64x64.Slices ![2, 0, 0] S1x64x64
  slices_S4x128x64_S1x128x64_3_0_0 : S4x128x64.Slices ![3, 0, 0] S1x128x64
  slices_S4x64_S1x64_3_0 : S4x64.Slices ![3, 0] S1x64
  slices_S4x64x64_S1x64x64_3_0_0 : S4x64x64.Slices ![3, 0, 0] S1x64x64
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S50000x7_S7x64_S50000x64_1_0_0_1_n_n_wf : DotDims.WF S50000x7 S7x64 S50000x64 [1] [0] [0] [1] [] []
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x1_S64x1_1_0_0_1_n_n_wf : DotDims.WF S64x64 S64x1 S64x1 [1] [0] [0] [1] [] []

variable [Facts₀]

def dot_S50000x7_S7x64_S50000x64_1_0_0_1_n_n : DotDims S50000x7 S7x64 S50000x64 where
  lhsContracting := [1]
  rhsContracting := [0]
  lhsNonContracting := [0]
  rhsNonContracting := [1]
  lhsBatch := []
  rhsBatch := []
  wf := dot_S50000x7_S7x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.Mlp.lean ====
/-
  The arithmetic both programs share, on the extended reals.

  A row of node (or edge) features passes through a two-layer perceptron whose first layer reads TWO
  64-vectors `a` and `b`: hidden unit `k` is `max (∑ₚ a p · wa p k + ∑ₚ b p · wb p k + c1 k) 0`, output unit `j` is
  `max (∑ₖ hidden k · w2 k j + c2 j) 0`.  One program forms the two partial sums separately; the other
  concatenates `a` and `b` into one 128-vector and contracts it against the stacked 128 × 64 weight matrix.
  The two agree because a sum over `Fin (64 + 64)` splits into the sums over its two halves, which is a fact
  of commutative monoids and needs no finiteness.
-/
import Mathlib.Data.EReal.Basic
import Mathlib.Algebra.BigOperators.Fin

noncomputable section

namespace Cert.Mlp

open scoped BigOperators

/-- The perceptron on one row: two 64-vectors in, one 64-vector out. -/
def mlp (a b : Fin 64 → EReal) (wa wb : Fin 64 → Fin 64 → EReal) (c1 : Fin 64 → EReal)
    (w2 : Fin 64 → Fin 64 → EReal) (c2 : Fin 64 → EReal) : Fin 64 → EReal :=
  fun j => max (∑ k : Fin 64, max (∑ p : Fin 64, a p * wa p k + ∑ p : Fin 64, b p * wb p k + c1 k) 0 * w2 k j + c2 j) 0

/-- A sum over the 128 positions of a concatenated vector is the sum over its first 64 plus the sum over
    its last 64. -/
theorem sum_128_split (f : Fin 128 → EReal) :
    ∑ q : Fin 128, f q = ∑ p : Fin 64, f ⟨p.val, by omega⟩ + ∑ p : Fin 64, f ⟨64 + p.val, by omega⟩ := by
  have h := Fin.sum_univ_add (a := 64) (b := 64) (f := (f : Fin (64 + 64) → EReal))
  rw [h]
  rfl

end Cert.Mlp

end
-- ==== Proof.Spec.lean ====
/-
  What one kernel region computes, as a function of whole arrays.

  The message region maps two R × 64 arrays `A`, `B` (one row per edge) and the perceptron's parameters to the R × 64
  array whose row `e` is the perceptron of rows `e` of `A` and `B`; the update region does the same over nodes and adds
  the row of `A` back (the residual connection).  Rows are independent, so a block of rows of the result depends only
  on the same block of rows of `A` and `B`.
-/
import proofs.«406721_j71184787964017_1_alg».proof.Proof.Mlp
import Idealize.ShloMosaic.Lib.ValueIdx

noncomputable section

namespace Cert.Spec

open Idealize.ShloMosaic Idealize.ShloMosaic.ValueIdx Cert.Mlp

/-- Row `r` of an R × 64 array. -/
abbrev row {R : Nat} (X : (⟨2, ![R, 64]⟩ : Shape).Idx → EReal) (r : Fin R) : Fin 64 → EReal := fun p => X (ix2 r p)
/-- A 64 × 64 matrix by its two coordinates. -/
abbrev mat (W : (⟨2, ![64, 64]⟩ : Shape).Idx → EReal) : Fin 64 → Fin 64 → EReal := fun p k => W (ix2 p k)
/-- The one row of a 1 × 64 array. -/
abbrev vec (C : (⟨2, ![1, 64]⟩ : Shape).Idx → EReal) : Fin 64 → EReal := fun k => C (ix2 0 k)

/-- The message region's result: row `e` is the perceptron of rows `e` of `A` and `B`. -/
def msgG {R : Nat} (A B : (⟨2, ![R, 64]⟩ : Shape).Idx → EReal) (Wa Wb : (⟨2, ![64, 64]⟩ : Shape).Idx → EReal)
    (C1 : (⟨2, ![1, 64]⟩ : Shape).Idx → EReal) (W2 : (⟨2, ![64, 64]⟩ : Shape).Idx → EReal)
    (C2 : (⟨2, ![1, 64]⟩ : Shape).Idx → EReal) : (⟨2, ![R, 64]⟩ : Shape).Idx → EReal :=
  fun i => mlp (row A (i 0)) (row B (i 0)) (mat Wa) (mat Wb) (vec C1) (mat W2) (vec C2) (i 1)

/-- The update region's result: the message region's, plus `A` (the residual). -/
def updG {R : Nat} (A B : (⟨2, ![R, 64]⟩ : Shape).Idx → EReal) (Wa Wb : (⟨2, ![64, 64]⟩ : Shape).Idx → EReal)
    (C1 : (⟨2, ![1, 64]⟩ : Shape).Idx → EReal) (W2 : (⟨2, ![64, 64]⟩ : Shape).Idx → EReal)
    (C2 : (⟨2, ![1, 64]⟩ : Shape).Idx → EReal) : (⟨2, ![R, 64]⟩ : Shape).Idx → EReal :=
  fun i => A i + msgG A B Wa Wb C1 W2 C2 i

theorem msgG_ix2 {R : Nat} (A B : (⟨2, ![R, 64]⟩ : Shape).Idx → EReal) (Wa Wb C1 W2 C2) (r : Fin R) (j : Fin 64) :
    msgG A B Wa Wb C1 W2 C2 (ix2 r j) = mlp (row A r) (row B r) (mat Wa) (mat Wb) (vec C1) (mat W2) (vec C2) j := rfl

theorem updG_ix2 {R : Nat} (A B : (⟨2, ![R, 64]⟩ : Shape).Idx → EReal) (Wa Wb C1 W2 C2) (r : Fin R) (j : Fin 64) :
    updG A B Wa Wb C1 W2 C2 (ix2 r j) = A (ix2 r j) + mlp (row A r) (row B r) (mat Wa) (mat Wb) (vec C1) (mat W2) (vec C2) j := rfl

end Cert.Spec

end
-- ==== Proof.Layers.lean ====
/-
  The two programs as functions of whole arrays.

  Both programs compute an initial node embedding `x · W_in + b_in`, pass it through four message-passing layers
  and pool the result.  A layer gathers, for every edge, the embeddings of its target and of its source, maps the
  pair through a two-layer perceptron (the message), adds the messages into their target nodes, maps each node's
  embedding and its summed messages through a second perceptron and adds the result to the embedding.
  The kernel's program computes each perceptron in a kernel region, from the two halves of the first layer's
  weights (`Cert.Spec.msgG`, `Cert.Spec.updG`), and gathers with a bounds test that fills out-of-range rows; the
  reference concatenates the pair and uses the stacked weights, and gathers without a test.
-/
import proofs.«406721_j71184787964017_1_alg».proof.KernelIdeal
import proofs.«406721_j71184787964017_1_alg».proof.ReferenceIdeal
import proofs.«406721_j71184787964017_1_alg».proof.Proof.Gen.KernelIdeal
import proofs.«406721_j71184787964017_1_alg».proof.Proof.Gen.ReferenceIdeal
import proofs.«406721_j71184787964017_1_alg».proof.Proof.Spec

noncomputable section

open Idealize.ShloMosaic

/-! ## The kernel's program -/
namespace Cert.KernelIdeal.Val

open Cert.KernelIdeal Cert.KernelIdeal.Gen

variable {F : FTy → Type} [FloatOps F]

/-- The initial embedding `x · W_in + b_in`. -/
def emb0 (x : FVec F S50000x7 .f32) (Win : FVec F S7x64 .f32) (bin : FVec F S64 .f32) : FVec F S50000x64 .f32 :=
  addf (Host.dotGeneral dot_S50000x7_S7x64_S50000x64_1_0_0_1_n_n none x Win)
    (broadcastInDim S50000x64 ![0, 1] bcast_S1x64_S50000x64_0_1 (broadcastInDim S1x64 ![1] bcast_S64_S1x64_1 bin))

/-- Row `r` of the edge list (0: sources, 1: targets) is cut out by one of two slices; both are followed by this reshape. -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- Layer `l`'s slice of a parameter stacked over the four layers. -/
def w128_0 (P : FVec F S4x128x64 .f32) : FVec F S128x64 .f32 :=
  shapeCast S128x64 (extractStridedSlice S1x128x64 ![0, 0, 0] P slices_S4x128x64_S1x128x64_0_0_0) shapeCasts_S1x128x64_S128x64
def w128_1 (P : FVec F S4x128x64 .f32) : FVec F S128x64 .f32 :=
  shapeCast S128x64 (extractStridedSlice S1x128x64 ![1, 0, 0] P slices_S4x128x64_S1x128x64_1_0_0) shapeCasts_S1x128x64_S128x64
def w128_2 (P : FVec F S4x128x64 .f32) : FVec F S128x64 .f32 :=
  shapeCast S128x64 (extractStridedSlice S1x128x64 ![2, 0, 0] P slices_S4x128x64_S1x128x64_2_0_0) shapeCasts_S1x128x64_S128x64
def w128_3 (P : FVec F S4x128x64 .f32) : FVec F S128x64 .f32 :=
  shapeCast S128x64 (extractStridedSlice S1x128x64 ![3, 0, 0] P slices_S4x128x64_S1x128x64_3_0_0) shapeCasts_S1x128x64_S128x64
def w64_0 (P : FVec F S4x64x64 .f32) : FVec F S64x64 .f32 :=
  shapeCast S64x64 (extractStridedSlice S1x64x64 ![0, 0, 0] P slices_S4x64x64_S1x64x64_0_0_0) shapeCasts_S1x64x64_S64x64
def w64_1 (P : FVec F S4x64x64 .f32) : FVec F S64x64 .f32 :=
  shapeCast S64x64 (extractStridedSlice S1x64x64 ![1, 0, 0] P slices_S4x64x64_S1x64x64_1_0_0) shapeCasts_S1x64x64_S64x64
def w64_2 (P : FVec F S4x64x64 .f32) : FVec F S64x64 .f32 :=
  shapeCast S64x64 (extractStridedSlice S1x64x64 ![2, 0, 0] P slices_S4x64x64_S1x64x64_2_0_0) shapeCasts_S1x64x64_S64x64
def w64_3 (P : FVec F S4x64x64 .f32) : FVec F S64x64 .f32 :=
  shapeCast S64x64 (extractStridedSlice S1x64x64 ![3, 0, 0] P slices_S4x64x64_S1x64x64_3_0_0) shapeCasts_S1x64x64_S64x64
def v64_0 (P : FVec F S4x64 .f32) : FVec F S64 .f32 :=
  shapeCast S64 (extractStridedSlice S1x64 ![0, 0] P slices_S4x64_S1x64_0_0) shapeCasts_S1x64_S64
def v64_1 (P : FVec F S4x64 .f32) : FVec F S64 .f32 :=
  shapeCast S64 (extractStridedSlice S1x64 ![1, 0] P slices_S4x64_S1x64_1_0) shapeCasts_S1x64_S64
def v64_2 (P : FVec F S4x64 .f32) : FVec F S64 .f32 :=
  shapeCast S64 (extractStridedSlice S1x64 ![2, 0] P slices_S4x64_S1x64_2_0) shapeCasts_S1x64_S64
def v64_3 (P : FVec F S4x64 .f32) : FVec F S64 .f32 :=
  shapeCast S64 (extractStridedSlice S1x64 ![3, 0] P slices_S4x64_S1x64_3_0) shapeCasts_S1x64_S64

/-- An index vector with negative entries counted from the end, as a column. -/
def wrap (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Per edge: does the wrapped index lie in `[0, 49999]`? -/
def inBounds (w : IVec S800000x1 32) : IVec S800000 1 :=
  Host.reduce IntOp.andi
    (andi (cmpi .sge w (broadcastInDim S800000x1 ![] bcast_S_S800000x1 (constantI S_ 32 0#32)))
      (cmpi .sle w (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The kernel's gather: rows of `emb` at the wrapped indices, a fill value where the index is out of bounds. -/
def take (emb : FVec F S50000x64 .f32) (idx : IVec S800000 32) : FVec F S800000x64 .f32 :=
  select (broadcastInDim S800000x64 ![0] bcast_S800000_S800000x64_0 (inBounds (wrap idx)))
    (Host.gather gather_S50000x64_S800000x1_S800000x64_1_0_n_n_0_1_164 emb (wrap idx))
    (broadcastInDim S800000x64 ![] bcast_S_S800000x64 (constant S_ .f32 0x7FC00000#32))

/-- The two halves of a stacked 128 × 64 weight matrix. -/
def lo (W : FVec F S128x64 .f32) : FVec F S64x64 .f32 := extractStridedSlice S64x64 ![0, 0] W slices_S128x64_S64x64_0_0
def hi (W : FVec F S128x64 .f32) : FVec F S64x64 .f32 := extractStridedSlice S64x64 ![64, 0] W slices_S128x64_S64x64_64_0
/-- A bias vector as a one-row matrix. -/
def asRow (b : FVec F S64 .f32) : FVec F S1x64 .f32 := shapeCast S1x64 b shapeCasts_S64_S1x64

/-- Messages summed into their target nodes. -/
def aggregate (dst : IVec S800000 32) (msg : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst) msg

/-- Mean pooling over graphs and the linear head. -/
def tail (e : FVec F S50000x64 .f32) (batch : IVec S50000 32) (Wp : FVec F S64x1 .f32) (bp : FVec F S1 .f32) : FVec F S64 .f32 :=
  shapeCast S64 (addf
    (Host.dotGeneral dot_S64x64_S64x1_S64x1_1_0_0_1_n_n none
      (Host.divf
        (Host.scatterAdd scatter_S64x64_S50000x1_S50000x64_1_0_0_1 (broadcastInDim S64x64 ![] bcast_S_S64x64 (constant S_ .f32 0x00000000#32))
          (broadcastInDim S50000x1 ![0] bcast_S50000_S50000x1_0 batch) e)
        (broadcastInDim S64x64 ![0, 1] bcast_S64x1_S64x64_0_1 (broadcastInDim S64x1 ![0] bcast_S64_S64x1_0
          (maximumf
            (Host.scatterAdd scatter_S64_S50000x1_S50000_n_0_0_1 (broadcastInDim S64 ![] bcast_S_S64 (constant S_ .f32 0x00000000#32))
              (broadcastInDim S50000x1 ![0] bcast_S50000_S50000x1_0 batch) (broadcastInDim S50000 ![] bcast_S_S50000 (constant S_ .f32 0x3F800000#32)))
            (broadcastInDim S64 ![] bcast_S_S64 (constant S_ .f32 0x3F800000#32))))))
      Wp)
    (broadcastInDim S64x1 ![0, 1] bcast_S1x1_S64x1_0_1 (broadcastInDim S1x1 ![1] bcast_S1_S1x1_1 bp))) shapeCasts_S64x1_S64

/-- One layer of the kernel's program at the exact values: both perceptrons are the regions' functions. -/
def layer (e : FVec Ideal S50000x64 .f32) (src dst : IVec S800000 32)
    (W1 : FVec Ideal S128x64 .f32) (c1 : FVec Ideal S64 .f32) (W2 : FVec Ideal S64x64 .f32) (c2 : FVec Ideal S64 .f32)
    (U1 : FVec Ideal S128x64 .f32) (d1 : FVec Ideal S64 .f32) (U2 : FVec Ideal S64x64 .f32) (d2 : FVec Ideal S64 .f32) :
    FVec Ideal S50000x64 .f32 :=
  Cert.Spec.updG (R := 50000) e
    (aggregate (F := Ideal) dst (Cert.Spec.msgG (R := 800000) (take (F := Ideal) e dst) (take (F := Ideal) e src) (lo W1) (hi W1) (asRow c1) W2 (asRow c2)))
    (lo U1) (hi U1) (asRow d1) U2 (asRow d2)

/-- The kernel's program's result, as a function of its fifteen arguments. -/
def result (x : FVec Ideal S50000x7 .f32) (ei : IVec S2x800000 32) (batch : IVec S50000 32) (Win : FVec Ideal S7x64 .f32) (bin : FVec Ideal S64 .f32)
    (mW1 : FVec Ideal S4x128x64 .f32) (mb1 : FVec Ideal S4x64 .f32) (mW2 : FVec Ideal S4x64x64 .f32) (mb2 : FVec Ideal S4x64 .f32)
    (uW1 : FVec Ideal S4x128x64 .f32) (ub1 : FVec Ideal S4x64 .f32) (uW2 : FVec Ideal S4x64x64 .f32) (ub2 : FVec Ideal S4x64 .f32)
    (Wp : FVec Ideal S64x1 .f32) (bp : FVec Ideal S1 .f32) : FVec Ideal S64 .f32 :=
  tail
    (layer (layer (layer (layer (emb0 x Win bin) (edgeRow0 ei) (edgeRow1 ei)
      (w128_0 mW1) (v64_0 mb1) (w64_0 mW2) (v64_0 mb2) (w128_0 uW1) (v64_0 ub1) (w64_0 uW2) (v64_0 ub2)) (edgeRow0 ei) (edgeRow1 ei)
      (w128_1 mW1) (v64_1 mb1) (w64_1 mW2) (v64_1 mb2) (w128_1 uW1) (v64_1 ub1) (w64_1 uW2) (v64_1 ub2)) (edgeRow0 ei) (edgeRow1 ei)
      (w128_2 mW1) (v64_2 mb1) (w64_2 mW2) (v64_2 mb2) (w128_2 uW1) (v64_2 ub1) (w64_2 uW2) (v64_2 ub2)) (edgeRow0 ei) (edgeRow1 ei)
      (w128_3 mW1) (v64_3 mb1) (w64_3 mW2) (v64_3 mb2) (w128_3 uW1) (v64_3 ub1) (w64_3 uW2) (v64_3 ub2))
    batch Wp bp

end Cert.KernelIdeal.Val

/-! ## The reference -/
namespace Cert.ReferenceIdeal.Val

open Cert.ReferenceIdeal Cert.ReferenceIdeal.Gen

variable {F : FTy → Type} [FloatOps F]

def emb0 (x : FVec F S50000x7 .f32) (Win : FVec F S7x64 .f32) (bin : FVec F S64 .f32) : FVec F S50000x64 .f32 :=
  addf (Host.dotGeneral dot_S50000x7_S7x64_S50000x64_1_0_0_1_n_n none x Win)
    (broadcastInDim S50000x64 ![0, 1] bcast_S1x64_S50000x64_0_1 (broadcastInDim S1x64 ![1] bcast_S64_S1x64_1 bin))

def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- Layer `l`'s slice of a parameter stacked over the four layers. -/
def w128_0 (P : FVec F S4x128x64 .f32) : FVec F S128x64 .f32 :=
  shapeCast S128x64 (extractStridedSlice S1x128x64 ![0, 0, 0] P slices_S4x128x64_S1x128x64_0_0_0) shapeCasts_S1x128x64_S128x64
def w128_1 (P : FVec F S4x128x64 .f32) : FVec F S128x64 .f32 :=
  shapeCast S128x64 (extractStridedSlice S1x128x64 ![1, 0, 0] P slices_S4x128x64_S1x128x64_1_0_0) shapeCasts_S1x128x64_S128x64
def w128_2 (P : FVec F S4x128x64 .f32) : FVec F S128x64 .f32 :=
  shapeCast S128x64 (extractStridedSlice S1x128x64 ![2, 0, 0] P slices_S4x128x64_S1x128x64_2_0_0) shapeCasts_S1x128x64_S128x64
def w128_3 (P : FVec F S4x128x64 .f32) : FVec F S128x64 .f32 :=
  shapeCast S128x64 (extractStridedSlice S1x128x64 ![3, 0, 0] P slices_S4x128x64_S1x128x64_3_0_0) shapeCasts_S1x128x64_S128x64
def w64_0 (P : FVec F S4x64x64 .f32) : FVec F S64x64 .f32 :=
  shapeCast S64x64 (extractStridedSlice S1x64x64 ![0, 0, 0] P slices_S4x64x64_S1x64x64_0_0_0) shapeCasts_S1x64x64_S64x64
def w64_1 (P : FVec F S4x64x64 .f32) : FVec F S64x64 .f32 :=
  shapeCast S64x64 (extractStridedSlice S1x64x64 ![1, 0, 0] P slices_S4x64x64_S1x64x64_1_0_0) shapeCasts_S1x64x64_S64x64
def w64_2 (P : FVec F S4x64x64 .f32) : FVec F S64x64 .f32 :=
  shapeCast S64x64 (extractStridedSlice S1x64x64 ![2, 0, 0] P slices_S4x64x64_S1x64x64_2_0_0) shapeCasts_S1x64x64_S64x64
def w64_3 (P : FVec F S4x64x64 .f32) : FVec F S64x64 .f32 :=
  shapeCast S64x64 (extractStridedSlice S1x64x64 ![3, 0, 0] P slices_S4x64x64_S1x64x64_3_0_0) shapeCasts_S1x64x64_S64x64
def v64_0 (P : FVec F S4x64 .f32) : FVec F S64 .f32 :=
  shapeCast S64 (extractStridedSlice S1x64 ![0, 0] P slices_S4x64_S1x64_0_0) shapeCasts_S1x64_S64
def v64_1 (P : FVec F S4x64 .f32) : FVec F S64 .f32 :=
  shapeCast S64 (extractStridedSlice S1x64 ![1, 0] P slices_S4x64_S1x64_1_0) shapeCasts_S1x64_S64
def v64_2 (P : FVec F S4x64 .f32) : FVec F S64 .f32 :=
  shapeCast S64 (extractStridedSlice S1x64 ![2, 0] P slices_S4x64_S1x64_2_0) shapeCasts_S1x64_S64
def v64_3 (P : FVec F S4x64 .f32) : FVec F S64 .f32 :=
  shapeCast S64 (extractStridedSlice S1x64 ![3, 0] P slices_S4x64_S1x64_3_0) shapeCasts_S1x64_S64

def wrap (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The perceptron over edges: the pair concatenated, the stacked weights. -/
def mlpE (a b : FVec F S800000x64 .f32) (W1 : FVec F S128x64 .f32) (c1 : FVec F S64 .f32) (W2 : FVec F S64x64 .f32) (c2 : FVec F S64 .f32) :
    FVec F S800000x64 .f32 :=
  maximumf (addf
    (Host.dotGeneral dot_S800000x64_S64x64_S800000x64_1_0_0_1_n_n none
      (maximumf (addf
        (Host.dotGeneral dot_S800000x128_S128x64_S800000x64_1_0_0_1_n_n none
          (concatenate S800000x128 1 [⟨S800000x64, a⟩, ⟨S800000x64, b⟩] concatenates_S800000x64_S800000x64_S800000x128_d1) W1)
        (broadcastInDim S800000x64 ![0, 1] bcast_S1x64_S800000x64_0_1 (broadcastInDim S1x64 ![1] bcast_S64_S1x64_1 c1)))
        (broadcastInDim S800000x64 ![] bcast_S_S800000x64 (constant S_ .f32 0x00000000#32)))
      W2)
    (broadcastInDim S800000x64 ![0, 1] bcast_S1x64_S800000x64_0_1 (broadcastInDim S1x64 ![1] bcast_S64_S1x64_1 c2)))
    (broadcastInDim S800000x64 ![] bcast_S_S800000x64 (constant S_ .f32 0x00000000#32))

/-- The perceptron over nodes. -/
def mlpN (a b : FVec F S50000x64 .f32) (W1 : FVec F S128x64 .f32) (c1 : FVec F S64 .f32) (W2 : FVec F S64x64 .f32) (c2 : FVec F S64 .f32) :
    FVec F S50000x64 .f32 :=
  maximumf (addf
    (Host.dotGeneral dot_S50000x64_S64x64_S50000x64_1_0_0_1_n_n none
      (maximumf (addf
        (Host.dotGeneral dot_S50000x128_S128x64_S50000x64_1_0_0_1_n_n none
          (concatenate S50000x128 1 [⟨S50000x64, a⟩, ⟨S50000x64, b⟩] concatenates_S50000x64_S50000x64_S50000x128_d1) W1)
        (broadcastInDim S50000x64 ![0, 1] bcast_S1x64_S50000x64_0_1 (broadcastInDim S1x64 ![1] bcast_S64_S1x64_1 c1)))
        (broadcastInDim S50000x64 ![] bcast_S_S50000x64 (constant S_ .f32 0x00000000#32)))
      W2)
    (broadcastInDim S50000x64 ![0, 1] bcast_S1x64_S50000x64_0_1 (broadcastInDim S1x64 ![1] bcast_S64_S1x64_1 c2)))
    (broadcastInDim S50000x64 ![] bcast_S_S50000x64 (constant S_ .f32 0x00000000#32))

def aggregate (dst : IVec S800000 32) (msg : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst) msg

def gatherRows (e : FVec F S50000x64 .f32) (idx : IVec S800000 32) : FVec F S800000x64 .f32 :=
  Host.gather gather_S50000x64_S800000x1_S800000x64_1_0_n_n_0_1_164 e (wrap idx)

/-- One layer of the reference. -/
def layer (e : FVec F S50000x64 .f32) (src dst : IVec S800000 32)
    (W1 : FVec F S128x64 .f32) (c1 : FVec F S64 .f32) (W2 : FVec F S64x64 .f32) (c2 : FVec F S64 .f32)
    (U1 : FVec F S128x64 .f32) (d1 : FVec F S64 .f32) (U2 : FVec F S64x64 .f32) (d2 : FVec F S64 .f32) : FVec F S50000x64 .f32 :=
  addf e (mlpN e (aggregate dst (mlpE (gatherRows e dst) (gatherRows e src) W1 c1 W2 c2)) U1 d1 U2 d2)

def tail (e : FVec F S50000x64 .f32) (batch : IVec S50000 32) (Wp : FVec F S64x1 .f32) (bp : FVec F S1 .f32) : FVec F S64 .f32 :=
  shapeCast S64 (addf
    (Host.dotGeneral dot_S64x64_S64x1_S64x1_1_0_0_1_n_n none
      (Host.divf
        (Host.scatterAdd scatter_S64x64_S50000x1_S50000x64_1_0_0_1 (broadcastInDim S64x64 ![] bcast_S_S64x64 (constant S_ .f32 0x00000000#32))
          (broadcastInDim S50000x1 ![0] bcast_S50000_S50000x1_0 batch) e)
        (broadcastInDim S64x64 ![0, 1] bcast_S64x1_S64x64_0_1 (broadcastInDim S64x1 ![0] bcast_S64_S64x1_0
          (maximumf
            (Host.scatterAdd scatter_S64_S50000x1_S50000_n_0_0_1 (broadcastInDim S64 ![] bcast_S_S64 (constant S_ .f32 0x00000000#32))
              (broadcastInDim S50000x1 ![0] bcast_S50000_S50000x1_0 batch) (broadcastInDim S50000 ![] bcast_S_S50000 (constant S_ .f32 0x3F800000#32)))
            (broadcastInDim S64 ![] bcast_S_S64 (constant S_ .f32 0x3F800000#32))))))
      Wp)
    (broadcastInDim S64x1 ![0, 1] bcast_S1x1_S64x1_0_1 (broadcastInDim S1x1 ![1] bcast_S1_S1x1_1 bp))) shapeCasts_S64x1_S64

/-- The reference's result, as a function of its fifteen arguments. -/
def result (x : FVec F S50000x7 .f32) (ei : IVec S2x800000 32) (batch : IVec S50000 32) (Win : FVec F S7x64 .f32) (bin : FVec F S64 .f32)
    (mW1 : FVec F S4x128x64 .f32) (mb1 : FVec F S4x64 .f32) (mW2 : FVec F S4x64x64 .f32) (mb2 : FVec F S4x64 .f32)
    (uW1 : FVec F S4x128x64 .f32) (ub1 : FVec F S4x64 .f32) (uW2 : FVec F S4x64x64 .f32) (ub2 : FVec F S4x64 .f32)
    (Wp : FVec F S64x1 .f32) (bp : FVec F S1 .f32) : FVec F S64 .f32 :=
  tail
    (layer (layer (layer (layer (emb0 x Win bin) (edgeRow0 ei) (edgeRow1 ei)
      (w128_0 mW1) (v64_0 mb1) (w64_0 mW2) (v64_0 mb2) (w128_0 uW1) (v64_0 ub1) (w64_0 uW2) (v64_0 ub2)) (edgeRow0 ei) (edgeRow1 ei)
      (w128_1 mW1) (v64_1 mb1) (w64_1 mW2) (v64_1 mb2) (w128_1 uW1) (v64_1 ub1) (w64_1 uW2) (v64_1 ub2)) (edgeRow0 ei) (edgeRow1 ei)
      (w128_2 mW1) (v64_2 mb1) (w64_2 mW2) (v64_2 mb2) (w128_2 uW1) (v64_2 ub1) (w64_2 uW2) (v64_2 ub2)) (edgeRow0 ei) (edgeRow1 ei)
      (w128_3 mW1) (v64_3 mb1) (w64_3 mW2) (v64_3 mb2) (w128_3 uW1) (v64_3 ub1) (w64_3 uW2) (v64_3 ub2))
    batch Wp bp

end Cert.ReferenceIdeal.Val

end
-- ==== Proof.KStart.lean ====
/-
  The first and the last stretch of host operations of the kernel's program.

  The first stretch cuts the two rows out of the edge list, forms the initial node embedding `x · W_in + b_in` and
  writes nothing else, so every other argument is still what the launch memory holds.  The last stretch pools the
  final embedding per graph and applies the head; its result depends on the embedding, the graph assignment and the
  head's two parameters only.  Each is first read over an arbitrary valuation and an arbitrary number format, where the
  fold of the operations is the value function by unfolding, and then taken at the boundary contents.
-/
import proofs.«406721_j71184787964017_1_alg».proof.Proof.Gen.KernelIdeal.Frame
import proofs.«406721_j71184787964017_1_alg».proof.Proof.Layers
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Val

/-- A buffer that no operation of a stretch writes keeps its contents: the stretch's operations are listed, each one's
    written buffer is a single reference, and it differs from the given one. -/
local macro "untouched_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Over any valuation and any number format -/

section Generic

variable {F : FTy → Type} [FloatOps F] (V : Valuation τ sig (Elt F))

/-- The first stretch leaves the initial embedding of the features, the input weights and the input bias. -/
theorem ops0_v7 :
    StableHlo.after (hostOps0 (F := F)) V (Proc.devRef .tc main_v7)
      = emb0 (V (Proc.devRef .tc main_arg0)) (V (Proc.devRef .tc main_arg3)) (V (Proc.devRef .tc main_arg4)) := by
  after_results; rfl

/-- The first stretch leaves row 0 of the edge list … -/
theorem ops0_v1 :
    StableHlo.after (hostOps0 (F := F)) V (Proc.devRef .tc main_v1) = edgeRow0 (V (Proc.devRef .tc main_arg1)) := by
  after_results; rfl

/-- … and row 1. -/
theorem ops0_v3 :
    StableHlo.after (hostOps0 (F := F)) V (Proc.devRef .tc main_v3) = edgeRow1 (V (Proc.devRef .tc main_arg1)) := by
  after_results; rfl

/-- The first stretch writes none of the remaining arguments. -/
theorem ops0_keep (b : Ref sig .tc) (hb : b ∈ [main_arg2, main_arg5, main_arg6, main_arg7, main_arg8, main_arg9, main_arg10, main_arg11, main_arg12, main_arg13, main_arg14]) :
    StableHlo.after (hostOps0 (F := F)) V (Proc.devRef .tc b) = V (Proc.devRef .tc b) := by
  simp only [List.mem_cons, List.mem_singleton, List.not_mem_nil, or_false] at hb
  rcases hb with rfl | rfl | rfl | rfl | rfl | rfl | rfl | rfl | rfl | rfl | rfl <;> untouched_by hostOps0

/-- The last stretch leaves the pooled and projected embedding. -/
theorem ops8_v148 :
    StableHlo.after (hostOps8 (F := F)) V (Proc.devRef .tc main_v148)
      = tail (V (Proc.devRef .tc main_v131)) (V (Proc.devRef .tc main_arg2)) (V (Proc.devRef .tc main_arg13)) (V (Proc.devRef .tc main_arg14)) := by
  unfold tail
  after_results_simp
  rfl

end Generic

/-! ## At the boundaries of the kernel's program -/

variable (m : (ℓ : Loc nD τ sig) → Buf (Elt Ideal) ℓ) (ρ : Dev nD → PrngReg)

theorem start_v7 (c : Dev nD) :
    W1 (F := Ideal) m ρ c (Proc.devRef .tc main_v7) = emb0 (F := Ideal) (m ((c.tc : Thread nD τ).loc main_arg0)) (m ((c.tc : Thread nD τ).loc main_arg3)) (m ((c.tc : Thread nD τ).loc main_arg4)) :=
  ops0_v7 (W0 (F := Ideal) m ρ c)

theorem start_v1 (c : Dev nD) : W1 (F := Ideal) m ρ c (Proc.devRef .tc main_v1) = edgeRow0 (m ((c.tc : Thread nD τ).loc main_arg1)) :=
  ops0_v1 (W0 (F := Ideal) m ρ c)

theorem start_v3 (c : Dev nD) : W1 (F := Ideal) m ρ c (Proc.devRef .tc main_v3) = edgeRow1 (m ((c.tc : Thread nD τ).loc main_arg1)) :=
  ops0_v3 (W0 (F := Ideal) m ρ c)

theorem start_arg (c : Dev nD) (b : Ref sig .tc) (hb : b ∈ [main_arg2, main_arg5, main_arg6, main_arg7, main_arg8, main_arg9, main_arg10, main_arg11, main_arg12, main_arg13, main_arg14]) :
    W1 (F := Ideal) m ρ c (Proc.devRef .tc b) = m ((c.tc : Thread nD τ).loc b) :=
  (ops0_keep (W0 (F := Ideal) m ρ c) b hb).trans rfl

theorem finish (c : Dev nD) :
    W26 (F := Ideal) m ρ c (Proc.devRef .tc main_v148)
      = tail (F := Ideal) (W25 m ρ c (Proc.devRef .tc main_v131)) (W25 m ρ c (Proc.devRef .tc main_arg2)) (W25 m ρ c (Proc.devRef .tc main_arg13)) (W25 m ρ c (Proc.devRef .tc main_arg14)) :=
  ops8_v148 (W25 (F := Ideal) m ρ c)

end Cert.KernelIdeal.Chain

end
-- ==== Proof.Body.lean ====
/-
  The kernels' bodies at the exact values.

  The message kernel's body loads a block of rows of its two inputs and the perceptron's parameters whole, and stores
  one value: for every row of the block, the perceptron of the two rows (two matrix products into a zero accumulator,
  summed, the bias added, clamped below at zero; a third product, its bias, clamped again).  The update kernel's body
  stores that plus the first input's block.  At the exact values the changes of float format are the identity, so
  each stored value is the region's whole-array function (`Cert.Spec.msgG`, `Cert.Spec.updG`) at the block's height.
-/
import proofs.«406721_j71184787964017_1_alg».proof.Proof.Gen.KernelIdeal.Skeleton
import proofs.«406721_j71184787964017_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Body

open Idealize.ShloMosaic Idealize.ShloMosaic.ValueIdx Cert.KernelIdeal Cert.KernelIdeal.Gen Cert.Mlp Cert.Spec

/-! ### The product of a 6400 × 64 block with a 64 × 64 matrix, read at one entry -/

/-- The left operand's row coordinate is the output's row. -/
theorem lhsE_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
/-- The left operand's column coordinate is the contraction position. -/
theorem lhsE_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
/-- The right operand's row coordinate is the contraction position. -/
theorem rhsE_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
/-- The right operand's column coordinate is the output's column. -/
theorem rhsE_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-- Into the zero accumulator, entry (r, j) of the product is the sum over k of a(r, k) · w(k, j). -/
theorem mmE {φ₁ φ₂ : FTy} (a : FVec Ideal S6400x64 φ₁) (w : FVec Ideal S64x64 φ₂) (r : Fin 6400) (j : Fin 64) :
    matmul dot_S6400x64_S64x64_S6400x64_1_0_0_1_n_n none a w (constant (F := Ideal) S6400x64 .f32 0x00000000#32) (ix2 r j)
      = ∑ k : Fin 64, a (ix2 r k) * w (ix2 k j) := by
  simp only [matmul]
  rw [Ideal.matmul_constant_zero_apply, ← Equiv.sum_comp (contrEquiv1 dot_S6400x64_S64x64_S6400x64_1_0_0_1_n_n 64 rfl rfl).symm]
  refine Finset.sum_congr rfl fun k _ => ?_
  have hk := contrEquiv1_symm_val dot_S6400x64_S64x64_S6400x64_1_0_0_1_n_n 64 rfl rfl k
  have el : dot_S6400x64_S64x64_S6400x64_1_0_0_1_n_n.lhsIdx (ix2 r j) ((contrEquiv1 dot_S6400x64_S64x64_S6400x64_1_0_0_1_n_n 64 rfl rfl).symm k) = ix2 r k := funext fun a => Fin.ext (by
    match a with
    | ⟨0, _⟩ => exact lhsE_0 _ _
    | ⟨1, _⟩ => exact (lhsE_1 _ _).trans hk)
  have er : dot_S6400x64_S64x64_S6400x64_1_0_0_1_n_n.rhsIdx (ix2 r j) ((contrEquiv1 dot_S6400x64_S64x64_S6400x64_1_0_0_1_n_n 64 rfl rfl).symm k) = ix2 k j := funext fun a => Fin.ext (by
    match a with
    | ⟨0, _⟩ => exact (rhsE_0 _ _).trans hk
    | ⟨1, _⟩ => exact rhsE_1 _ _)
  rw [el, er]

/-! ### The product of a 5000 × 64 block with a 64 × 64 matrix, read at one entry -/

/-- The left operand's row coordinate is the output's row. -/
theorem lhsU_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the contraction position. -/
theorem lhsU_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the contraction position. -/
theorem rhsU_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the output's column. -/
theorem rhsU_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into the zero accumulator, entry (r, j) of the product is the sum over k of a(r, k) · w(k, j). -/
theorem mmU {φ₁ φ₂ : FTy} (a : FVec Ideal S5000x64 φ₁) (w : FVec Ideal S64x64 φ₂) (r : Fin 5000) (j : Fin 64) :
    matmul dot_S5000x64_S64x64_S5000x64_1_0_0_1_n_n none a w (constant (F := Ideal) S5000x64 .f32 0x00000000#32) (ix2 r j)
      = ∑ k : Fin 64, a (ix2 r k) * w (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun a => Fin.ext (by
    match a with
    | ⟨0, _⟩ => exact lhsU_0 _ _
    | ⟨1, _⟩ => exact (lhsU_1 _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun a => Fin.ext (by
    match a with
    | ⟨0, _⟩ => exact (rhsU_0 _ _).trans hk
    | ⟨1, _⟩ => exact rhsU_1 _ _)
  rw [el, er]

/-- The message kernel's stored value is the perceptron of the loaded blocks, row by row. -/
theorem edge_pay (x0 x1 : Vec Ideal S6400x64 .f32) (x2 x3 : Vec Ideal S64x64 .f32) (x4 : Vec Ideal S1x64 .f32)
    (x5 : Vec Ideal S64x64 .f32) (x6 : Vec Ideal S1x64 .f32) :
    k0_pay1 (F := Ideal) x0 x1 x2 x3 x4 x5 x6 = msgG (R := 6400) x0 x1 x2 x3 x4 x5 x6 := by
  funext i
  obtain ⟨r, j, rfl⟩ : ∃ (r : Fin 6400) (j : Fin 64), i = ix2 r j := ⟨i 0, i 1, eq_ix2 i⟩
  rw [msgG_ix2]
  -- the casts to the same shape drop out; every other operation is read at the entry (r, j)
  simp only [k0_pay1, shapeCast_self]
  simp only [maximumf_apply, addf_apply, broadcast_apply, truncf_apply, mmE, broadcastTo_1b_ab_apply,
    Ideal.ofBits_def, Ideal.ofBits_zero_f32]
  rfl

/-- The update kernel's stored value is the first block plus the perceptron of the loaded blocks, row by row. -/
theorem upd_pay (x0 x1 : Vec Ideal S5000x64 .f32) (x2 x3 : Vec Ideal S64x64 .f32) (x4 : Vec Ideal S1x64 .f32)
    (x5 : Vec Ideal S64x64 .f32) (x6 : Vec Ideal S1x64 .f32) :
    k1_pay1 (F := Ideal) x0 x1 x2 x3 x4 x5 x6 = updG (R := 5000) x0 x1 x2 x3 x4 x5 x6 := by
  funext i
  obtain ⟨r, j, rfl⟩ : ∃ (r : Fin 5000) (j : Fin 64), i = ix2 r j := ⟨i 0, i 1, eq_ix2 i⟩
  rw [updG_ix2]
  -- the casts to the same shape drop out; every other operation is read at the entry (r, j)
  simp only [k1_pay1, shapeCast_self]
  simp only [maximumf_apply, addf_apply, broadcast_apply, truncf_apply, mmU, broadcastTo_1b_ab_apply,
    Ideal.ofBits_def, Ideal.ofBits_zero_f32]
  rfl

/-! The other three layers' kernels are the same functions. -/
theorem edge_pay2 (x0 x1 : Vec Ideal S6400x64 .f32) (x2 x3 : Vec Ideal S64x64 .f32) (x4 : Vec Ideal S1x64 .f32)
    (x5 : Vec Ideal S64x64 .f32) (x6 : Vec Ideal S1x64 .f32) :
    k2_pay1 (F := Ideal) x0 x1 x2 x3 x4 x5 x6 = msgG (R := 6400) x0 x1 x2 x3 x4 x5 x6 := edge_pay x0 x1 x2 x3 x4 x5 x6
theorem edge_pay4 (x0 x1 : Vec Ideal S6400x64 .f32) (x2 x3 : Vec Ideal S64x64 .f32) (x4 : Vec Ideal S1x64 .f32)
    (x5 : Vec Ideal S64x64 .f32) (x6 : Vec Ideal S1x64 .f32) :
    k4_pay1 (F := Ideal) x0 x1 x2 x3 x4 x5 x6 = msgG (R := 6400) x0 x1 x2 x3 x4 x5 x6 := edge_pay x0 x1 x2 x3 x4 x5 x6
theorem edge_pay6 (x0 x1 : Vec Ideal S6400x64 .f32) (x2 x3 : Vec Ideal S64x64 .f32) (x4 : Vec Ideal S1x64 .f32)
    (x5 : Vec Ideal S64x64 .f32) (x6 : Vec Ideal S1x64 .f32) :
    k6_pay1 (F := Ideal) x0 x1 x2 x3 x4 x5 x6 = msgG (R := 6400) x0 x1 x2 x3 x4 x5 x6 := edge_pay x0 x1 x2 x3 x4 x5 x6
theorem upd_pay3 (x0 x1 : Vec Ideal S5000x64 .f32) (x2 x3 : Vec Ideal S64x64 .f32) (x4 : Vec Ideal S1x64 .f32)
    (x5 : Vec Ideal S64x64 .f32) (x6 : Vec Ideal S1x64 .f32) :
    k3_pay1 (F := Ideal) x0 x1 x2 x3 x4 x5 x6 = updG (R := 5000) x0 x1 x2 x3 x4 x5 x6 := upd_pay x0 x1 x2 x3 x4 x5 x6
theorem upd_pay5 (x0 x1 : Vec Ideal S5000x64 .f32) (x2 x3 : Vec Ideal S64x64 .f32) (x4 : Vec Ideal S1x64 .f32)
    (x5 : Vec Ideal S64x64 .f32) (x6 : Vec Ideal S1x64 .f32) :
    k5_pay1 (F := Ideal) x0 x1 x2 x3 x4 x5 x6 = updG (R := 5000) x0 x1 x2 x3 x4 x5 x6 := upd_pay x0 x1 x2 x3 x4 x5 x6
theorem upd_pay7 (x0 x1 : Vec Ideal S5000x64 .f32) (x2 x3 : Vec Ideal S64x64 .f32) (x4 : Vec Ideal S1x64 .f32)
    (x5 : Vec Ideal S64x64 .f32) (x6 : Vec Ideal S1x64 .f32) :
    k7_pay1 (F := Ideal) x0 x1 x2 x3 x4 x5 x6 = updG (R := 5000) x0 x1 x2 x3 x4 x5 x6 := upd_pay x0 x1 x2 x3 x4 x5 x6

end Cert.KernelIdeal.Body

end
-- ==== Proof.Region0.lean ====
/-
  The first message region's output array.

  The region's grid has 125 points; point `t` stages rows `6400 t … 6400 t + 6399` of its two edge-feature arrays and
  the perceptron's parameters whole, and writes rows `6400 t … 6400 t + 6399` of its output.  Rows of the perceptron
  are independent, so what point `t` writes back is block `t` of the whole-array function `Cert.Spec.msgG` of the
  arrays as the region finds them; the 125 blocks tile the 800000 rows, so the output array ends holding that function.
  Everything here is stated at a PARAMETER `V`, the buffer contents when the region is entered.
-/
import proofs.«406721_j71184787964017_1_alg».proof.Proof.Gen.KernelIdeal.Frame
import proofs.«406721_j71184787964017_1_alg».proof.Proof.Body
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the two edge-feature windows and the output window at block
    `(t, 0)`, the five parameter windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Rows are independent: the perceptron over a block of rows, at an entry of row `y 0`, is the perceptron over the
    whole arrays at the entry `i` of the row that block row is, when the block's rows are the arrays' rows from
    `6400 t` on and the parameters are the same. -/
theorem msgG_block (A B : S800000x64.Idx → EReal) (Wa Wb : S64x64.Idx → EReal) (C1 : S1x64.Idx → EReal)
    (W2 : S64x64.Idx → EReal) (C2 : S1x64.Idx → EReal)
    (a b : Vec Ideal S6400x64 .f32) (wa wb : Vec Ideal S64x64 .f32) (c1 : Vec Ideal S1x64 .f32)
    (w2 : Vec Ideal S64x64 .f32) (c2 : Vec Ideal S1x64 .f32) (t : Nat)
    (ha : ∀ (x : S6400x64.Idx) (k : S800000x64.Idx), (k 0).val = 6400 * t + (x 0).val → (k 1).val = (x 1).val → a x = A k)
    (hb : ∀ (x : S6400x64.Idx) (k : S800000x64.Idx), (k 0).val = 6400 * t + (x 0).val → (k 1).val = (x 1).val → b x = B k)
    (hwa : wa = Wa) (hwb : wb = Wb) (hc1 : c1 = C1) (hw2 : w2 = W2) (hc2 : c2 = C2)
    (y : S6400x64.Idx) (i : S800000x64.Idx) (hi0 : (i 0).val = 6400 * t + (y 0).val) (hi1 : (i 1).val = (y 1).val) :
    msgG (R := 6400) a b wa wb c1 w2 c2 y = msgG (R := 800000) A B Wa Wb C1 W2 C2 i := by
  subst hwa hwb hc1 hw2 hc2
  obtain ⟨r, j, rfl⟩ : ∃ (r : Fin 6400) (j : Fin 64), y = ix2 r j := ⟨y 0, y 1, eq_ix2 y⟩
  obtain ⟨r', j', rfl⟩ : ∃ (r' : Fin 800000) (j' : Fin 64), i = ix2 r' j' := ⟨i 0, i 1, eq_ix2 i⟩
  have hj : j' = j := Fin.ext hi1
  subst hj
  rw [msgG_ix2, msgG_ix2]
  have e1 : row a r = row A r' := funext fun p => ha (ix2 r p) (ix2 r' p) hi0 rfl
  have e2 : row b r = row B r' := funext fun p => hb (ix2 r p) (ix2 r' p) hi0 rfl
  rw [e1, e2]

/-- Window 0's block at point `t` is rows `6400 t … 6400 t + 6399` of its array. -/
theorem iblk_edge0 (c : Dev nD) (t : Fin cfg0.N) (x : S6400x64.Idx) (k : S800000x64.Idx)
    (hk0 : (k 0).val = 6400 * t.val + (x 0).val) (hk1 : (k 1).val = (x 1).val) :
    (iblk0 V c 0 t : Vec Ideal S6400x64 .f32) x = (V c main_v8 : S800000x64.Idx → EReal) k := by
  have hi : win0_0.index t (0 : Fin 2) = t.val ∧ win0_0.index t (1 : Fin 2) = 0 := by
    obtain ⟨e0, e1, e2, e3, e4, e5, e6, e7, e8, e9, e10, e11, e12, e13, e14, e15⟩ := idx_facts t
    exact ⟨e0, e1⟩
  unfold iblk0
  rw [View.read_apply]
  show V c main_v8 _ = V c main_v8 _
  congr 1
  funext a
  apply Fin.ext
  match a with
  | ⟨0, _⟩ => show win0_0.index t (0 : Fin 2) * 6400 + 1 * (x 0).val = (k 0).val; rw [hi.1, hk0]; omega
  | ⟨1, _⟩ => show win0_0.index t (1 : Fin 2) * 64 + 1 * (x 1).val = (k 1).val; rw [hi.2, hk1]; omega

/-- Window 1's block at point `t` is rows `6400 t … 6400 t + 6399` of its array. -/
theorem iblk_edge1 (c : Dev nD) (t : Fin cfg0.N) (x : S6400x64.Idx) (k : S800000x64.Idx)
    (hk0 : (k 0).val = 6400 * t.val + (x 0).val) (hk1 : (k 1).val = (x 1).val) :
    (iblk0 V c 1 t : Vec Ideal S6400x64 .f32) x = (V c main_v9 : S800000x64.Idx → EReal) k := by
  have hi : win0_1.index t (0 : Fin 2) = t.val ∧ win0_1.index t (1 : Fin 2) = 0 := by
    obtain ⟨e0, e1, e2, e3, e4, e5, e6, e7, e8, e9, e10, e11, e12, e13, e14, e15⟩ := idx_facts t
    exact ⟨e2, e3⟩
  unfold iblk0
  rw [View.read_apply]
  show V c main_v9 _ = V c main_v9 _
  congr 1
  funext a
  apply Fin.ext
  match a with
  | ⟨0, _⟩ => show win0_1.index t (0 : Fin 2) * 6400 + 1 * (x 0).val = (k 0).val; rw [hi.1, hk0]; omega
  | ⟨1, _⟩ => show win0_1.index t (1 : Fin 2) * 64 + 1 * (x 1).val = (k 1).val; rw [hi.2, hk1]; omega

/-- Window 2 stages its parameter array whole at every point. -/
theorem iblk_par2 (c : Dev nD) (t : Fin cfg0.N) :
    (iblk0 V c 2 t : Vec Ideal S64x64 .f32) = (V c main_v12 : S64x64.Idx → EReal) := by
  have hi : win0_2.index t (0 : Fin 2) = 0 ∧ win0_2.index t (1 : Fin 2) = 0 := by
    obtain ⟨e0, e1, e2, e3, e4, e5, e6, e7, e8, e9, e10, e11, e12, e13, e14, e15⟩ := idx_facts t
    exact ⟨e4, e5⟩
  funext x
  unfold iblk0
  rw [View.read_apply]
  show V c main_v12 _ = V c main_v12 _
  congr 1
  funext a
  apply Fin.ext
  match a with
  | ⟨0, _⟩ => show win0_2.index t (0 : Fin 2) * 64 + 1 * (x 0).val = (x 0).val; rw [hi.1]; omega
  | ⟨1, _⟩ => show win0_2.index t (1 : Fin 2) * 64 + 1 * (x 1).val = (x 1).val; rw [hi.2]; omega

/-- Window 3 stages its parameter array whole at every point. -/
theorem iblk_par3 (c : Dev nD) (t : Fin cfg0.N) :
    (iblk0 V c 3 t : Vec Ideal S64x64 .f32) = (V c main_v13 : S64x64.Idx → EReal) := by
  have hi : win0_3.index t (0 : Fin 2) = 0 ∧ win0_3.index t (1 : Fin 2) = 0 := by
    obtain ⟨e0, e1, e2, e3, e4, e5, e6, e7, e8, e9, e10, e11, e12, e13, e14, e15⟩ := idx_facts t
    exact ⟨e6, e7⟩
  funext x
  unfold iblk0
  rw [View.read_apply]
  show V c main_v13 _ = V c main_v13 _
  congr 1
  funext a
  apply Fin.ext
  match a with
  | ⟨0, _⟩ => show win0_3.index t (0 : Fin 2) * 64 + 1 * (x 0).val = (x 0).val; rw [hi.1]; omega
  | ⟨1, _⟩ => show win0_3.index t (1 : Fin 2) * 64 + 1 * (x 1).val = (x 1).val; rw [hi.2]; omega

/-- Window 4 stages its parameter array whole at every point. -/
theorem iblk_par4 (c : Dev nD) (t : Fin cfg0.N) :
    (iblk0 V c 4 t : Vec Ideal S1x64 .f32) = (V c main_v16 : S1x64.Idx → EReal) := by
  have hi : win0_4.index t (0 : Fin 2) = 0 ∧ win0_4.index t (1 : Fin 2) = 0 := by
    obtain ⟨e0, e1, e2, e3, e4, e5, e6, e7, e8, e9, e10, e11, e12, e13, e14, e15⟩ := idx_facts t
    exact ⟨e8, e9⟩
  funext x
  unfold iblk0
  rw [View.read_apply]
  show V c main_v16 _ = V c main_v16 _
  congr 1
  funext a
  apply Fin.ext
  match a with
  | ⟨0, _⟩ => show win0_4.index t (0 : Fin 2) * 1 + 1 * (x 0).val = (x 0).val; rw [hi.1]; omega
  | ⟨1, _⟩ => show win0_4.index t (1 : Fin 2) * 64 + 1 * (x 1).val = (x 1).val; rw [hi.2]; omega

/-- Window 5 stages its parameter array whole at every point. -/
theorem iblk_par5 (c : Dev nD) (t : Fin cfg0.N) :
    (iblk0 V c 5 t : Vec Ideal S64x64 .f32) = (V c main_v18 : S64x64.Idx → EReal) := by
  have hi : win0_5.index t (0 : Fin 2) = 0 ∧ win0_5.index t (1 : Fin 2) = 0 := by
    obtain ⟨e0, e1, e2, e3, e4, e5, e6, e7, e8, e9, e10, e11, e12, e13, e14, e15⟩ := idx_facts t
    exact ⟨e10, e11⟩
  funext x
  unfold iblk0
  rw [View.read_apply]
  show V c main_v18 _ = V c main_v18 _
  congr 1
  funext a
  apply Fin.ext
  match a with
  | ⟨0, _⟩ => show win0_5.index t (0 : Fin 2) * 64 + 1 * (x 0).val = (x 0).val; rw [hi.1]; omega
  | ⟨1, _⟩ => show win0_5.index t (1 : Fin 2) * 64 + 1 * (x 1).val = (x 1).val; rw [hi.2]; omega

/-- Window 6 stages its parameter array whole at every point. -/
theorem iblk_par6 (c : Dev nD) (t : Fin cfg0.N) :
    (iblk0 V c 6 t : Vec Ideal S1x64 .f32) = (V c main_v21 : S1x64.Idx → EReal) := by
  have hi : win0_6.index t (0 : Fin 2) = 0 ∧ win0_6.index t (1 : Fin 2) = 0 := by
    obtain ⟨e0, e1, e2, e3, e4, e5, e6, e7, e8, e9, e10, e11, e12, e13, e14, e15⟩ := idx_facts t
    exact ⟨e12, e13⟩
  funext x
  unfold iblk0
  rw [View.read_apply]
  show V c main_v21 _ = V c main_v21 _
  congr 1
  funext a
  apply Fin.ext
  match a with
  | ⟨0, _⟩ => show win0_6.index t (0 : Fin 2) * 1 + 1 * (x 0).val = (x 0).val; rw [hi.1]; omega
  | ⟨1, _⟩ => show win0_6.index t (1 : Fin 2) * 64 + 1 * (x 1).val = (x 1).val; rw [hi.2]; omega

/-- WHAT POINT `t` WRITES BACK is block `t` of the perceptron of the arrays as the region finds them. -/
theorem flushed_eq (c : Dev nD) (t : Fin cfg0.N) :
    (dat0 (F := Ideal) V c).flushed 7 t = ((cfg0.win 7).blk t).view.read (Elt Ideal)
      (msgG (R := 800000) (V c main_v8) (V c main_v9) (V c main_v12) (V c main_v13) (V c main_v16) (V c main_v18) (V c main_v21)) := by
  show (cfg0.win 7).cut (grid0.coords t) ((dat0 V c).after 7 t) = _
  rw [after0_7]
  unfold out0_7
  rw [View.canon_unit_zero hz]
  simp only [View.ld_unit_zero (S := S6400x64) hz, View.ld_unit_zero (S := S64x64) hz, View.ld_unit_zero (S := S1x64) hz]
  rw [Body.edge_pay]
  have ho : win0_7.index t (0 : Fin 2) = t.val ∧ win0_7.index t (1 : Fin 2) = 0 := by
    obtain ⟨e0, e1, e2, e3, e4, e5, e6, e7, e8, e9, e10, e11, e12, e13, e14, e15⟩ := idx_facts t
    exact ⟨e14, e15⟩
  funext y
  show msgG (R := 6400) (iblk0 V c 0 t) (iblk0 V c 1 t) (iblk0 V c 2 t) (iblk0 V c 3 t) (iblk0 V c 4 t) (iblk0 V c 5 t) (iblk0 V c 6 t) y
    = msgG (R := 800000) (V c main_v8) (V c main_v9) (V c main_v12) (V c main_v13) (V c main_v16) (V c main_v18) (V c main_v21) (((cfg0.win 7).blk t).view.emb y)
  refine msgG_block _ _ _ _ _ _ _ _ _ _ _ _ _ _ t.val (fun x k h0 h1 => iblk_edge0 V c t x k h0 h1) (fun x k h0 h1 => iblk_edge1 V c t x k h0 h1)
    (iblk_par2 V c t) (iblk_par3 V c t) (iblk_par4 V c t) (iblk_par5 V c t) (iblk_par6 V c t) y _ ?_ ?_
  · show win0_7.index t (0 : Fin 2) * 6400 + 1 * (y 0).val = 6400 * t.val + (y 0).val
    rw [ho.1]; omega
  · show win0_7.index t (1 : Fin 2) * 64 + 1 * (y 1).val = (y 1).val
    rw [ho.2]; omega

/-- An index of the output array is in point `t`'s block iff each coordinate is in the block's range on its axis. -/
theorem mem_blk (t : Fin cfg0.N) (i : S800000x64.Idx) :
    i ∈ ((cfg0.win 7).blk t).view.set ↔ ∀ a : Fin 2, win0_7.index t a * S6400x64.size a ≤ (i a).val ∧ (i a).val < win0_7.index t a * S6400x64.size a + S6400x64.size a := by
  show i ∈ ((View.whole main_v22).slice (win0_7.rect t)).set ↔ _
  rw [View.set_slice_whole, Rect.mem_set_unit]
  exact Iff.rfl

/-- The 125 blocks of 6400 rows tile the 800000 rows: row `e` is in the block of point `e / 6400`. -/
theorem cover (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  obtain ⟨t, ht⟩ : ∃ t : Fin cfg0.N, t.val = (i 0).val / 6400 :=
    ⟨⟨(i 0).val / 6400, by show (i 0).val / 6400 < grid0.N; rw [N_0]; omega⟩, rfl⟩
  have ho : win0_7.index t (0 : Fin 2) = t.val ∧ win0_7.index t (1 : Fin 2) = 0 := by
    obtain ⟨e0, e1, e2, e3, e4, e5, e6, e7, e8, e9, e10, e11, e12, e13, e14, e15⟩ := idx_facts t
    exact ⟨e14, e15⟩
  refine ⟨t, flush0_7 t, ?_⟩
  rw [mem_blk]
  intro a
  match a with
  | ⟨0, _⟩ => show win0_7.index t (0 : Fin 2) * 6400 ≤ (i 0).val ∧ (i 0).val < win0_7.index t (0 : Fin 2) * 6400 + 6400; rw [ho.1, ht]; omega
  | ⟨1, _⟩ => show win0_7.index t (1 : Fin 2) * 64 ≤ (i 1).val ∧ (i 1).val < win0_7.index t (1 : Fin 2) * 64 + 64; rw [ho.2]; omega

/-- The region's output array after its last grid point. -/
theorem value (c : Dev nD) :
    (dat0 (F := Ideal) V c).arrAt 7 cfg0.N
      = msgG (R := 800000) (V c main_v8) (V c main_v9) (V c main_v12) (V c main_v13) (V c main_v16) (V c main_v18) (V c main_v21) :=
  (dat0 (F := Ideal) V c).arrAt_eq_of_cover 7
    (msgG (R := 800000) (V c main_v8) (V c main_v9) (V c main_v12) (V c main_v13) (V c main_v16) (V c main_v18) (V c main_v21))
    (fun t _ => flushed_eq V c t) cover

end Cert.KernelIdeal.Region0

end
-- ==== Proof.Region1.lean ====
/-
  An update region's output array (region 1 of the program).

  The region's grid has 10 points; point `t` stages rows `5000 t … 5000 t + 4999` of the node embedding and of the
  summed messages and the perceptron's parameters whole, and writes rows `5000 t … 5000 t + 4999` of its output.  Rows
  are independent, so what point `t` writes back is block `t` of the whole-array function `Cert.Spec.updG` of the arrays
  as the region finds them; the 10 blocks tile the 50000 rows, so the output array ends holding that function.
  Everything here is stated at a PARAMETER `V`, the buffer contents when the region is entered.
-/
import proofs.«406721_j71184787964017_1_alg».proof.Proof.Gen.KernelIdeal.Frame
import proofs.«406721_j71184787964017_1_alg».proof.Proof.Body
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the node-embedding window, the summed-message window and the
    output window at block `(t, 0)`, the five parameter windows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Rows are independent: the residual update over a block of rows, at an entry of row `y 0`, is the residual update
    over the whole arrays at the entry `i` of the row that block row is, when the block's rows are the arrays' rows
    from `5000 t` on and the parameters are the same. -/
theorem updG_block (A B : S50000x64.Idx → EReal) (Wa Wb : S64x64.Idx → EReal) (C1 : S1x64.Idx → EReal)
    (W2 : S64x64.Idx → EReal) (C2 : S1x64.Idx → EReal)
    (a b : Vec Ideal S5000x64 .f32) (wa wb : Vec Ideal S64x64 .f32) (c1 : Vec Ideal S1x64 .f32)
    (w2 : Vec Ideal S64x64 .f32) (c2 : Vec Ideal S1x64 .f32) (t : Nat)
    (ha : ∀ (x : S5000x64.Idx) (k : S50000x64.Idx), (k 0).val = 5000 * t + (x 0).val → (k 1).val = (x 1).val → a x = A k)
    (hb : ∀ (x : S5000x64.Idx) (k : S50000x64.Idx), (k 0).val = 5000 * t + (x 0).val → (k 1).val = (x 1).val → b x = B k)
    (hwa : wa = Wa) (hwb : wb = Wb) (hc1 : c1 = C1) (hw2 : w2 = W2) (hc2 : c2 = C2)
    (y : S5000x64.Idx) (i : S50000x64.Idx) (hi0 : (i 0).val = 5000 * t + (y 0).val) (hi1 : (i 1).val = (y 1).val) :
    updG (R := 5000) a b wa wb c1 w2 c2 y = updG (R := 50000) A B Wa Wb C1 W2 C2 i := by
  subst hwa hwb hc1 hw2 hc2
  obtain ⟨r, j, rfl⟩ : ∃ (r : Fin 5000) (j : Fin 64), y = ix2 r j := ⟨y 0, y 1, eq_ix2 y⟩
  obtain ⟨r', j', rfl⟩ : ∃ (r' : Fin 50000) (j' : Fin 64), i = ix2 r' j' := ⟨i 0, i 1, eq_ix2 i⟩
  have hj : j' = j := Fin.ext hi1
  subst hj
  rw [updG_ix2, updG_ix2]
  have e0 : a (ix2 r j') = A (ix2 r' j') := ha (ix2 r j') (ix2 r' j') hi0 rfl
  have e1 : row a r = row A r' := funext fun p => ha (ix2 r p) (ix2 r' p) hi0 rfl
  have e2 : row b r = row B r' := funext fun p => hb (ix2 r p) (ix2 r' p) hi0 rfl
  rw [e0, e1, e2]

/-- Window 0's block at point `t` is rows `5000 t … 5000 t + 4999` of its array. -/
theorem iblk_edge0 (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c main_v7 : S50000x64.Idx → EReal) k := by
  have hi : win1_0.index t (0 : Fin 2) = t.val ∧ win1_0.index t (1 : Fin 2) = 0 := by
    obtain ⟨e0, e1, e2, e3, e4, e5, e6, e7, e8, e9, e10, e11, e12, e13, e14, e15⟩ := idx_facts t
    exact ⟨e0, e1⟩
  unfold iblk1
  rw [View.read_apply]
  show V c main_v7 _ = V c main_v7 _
  congr 1
  funext a
  apply Fin.ext
  match a with
  | ⟨0, _⟩ => show win1_0.index t (0 : Fin 2) * 5000 + 1 * (x 0).val = (k 0).val; rw [hi.1, hk0]; omega
  | ⟨1, _⟩ => show win1_0.index t (1 : Fin 2) * 64 + 1 * (x 1).val = (k 1).val; rw [hi.2, hk1]; omega

/-- Window 1's block at point `t` is rows `5000 t … 5000 t + 4999` of its array. -/
theorem iblk_edge1 (c : Dev nD) (t : Fin cfg1.N) (x : S5000x64.Idx) (k : S50000x64.Idx)
    (hk0 : (k 0).val = 5000 * t.val + (x 0).val) (hk1 : (k 1).val = (x 1).val) :
    (iblk1 V c 1 t : Vec Ideal S5000x64 .f32) x = (V c main_v25 : S50000x64.Idx → EReal) k := by
  have hi : win1_1.index t (0 : Fin 2) = t.val ∧ win1_1.index t (1 : Fin 2) = 0 := by
    obtain ⟨e0, e1, e2, e3, e4, e5, e6, e7, e8, e9, e10, e11, e12, e13, e14, e15⟩ := idx_facts t
    exact ⟨e2, e3⟩
  unfold iblk1
  rw [View.read_apply]
  show V c main_v25 _ = V c main_v25 _
  congr 1
  funext a
  apply Fin.ext
  match a with
  | ⟨0, _⟩ => show win1_1.index t (0 : Fin 2) * 5000 + 1 * (x 0).val = (k 0).val; rw [hi.1, hk0]; omega
  | ⟨1, _⟩ => show win1_1.index t (1 : Fin 2) * 64 + 1 * (x 1).val = (k 1).val; rw [hi.2, hk1]; omega

/-- Window 2 stages its parameter array whole at every point. -/
theorem iblk_par2 (c : Dev nD) (t : Fin cfg1.N) :
    (iblk1 V c 2 t : Vec Ideal S64x64 .f32) = (V c main_v28 : S64x64.Idx → EReal) := by
  have hi : win1_2.index t (0 : Fin 2) = 0 ∧ win1_2.index t (1 : Fin 2) = 0 := by
    obtain ⟨e0, e1, e2, e3, e4, e5, e6, e7, e8, e9, e10, e11, e12, e13, e14, e15⟩ := idx_facts t
    exact ⟨e4, e5⟩
  funext x
  unfold iblk1
  rw [View.read_apply]
  show V c main_v28 _ = V c main_v28 _
  congr 1
  funext a
  apply Fin.ext
  match a with
  | ⟨0, _⟩ => show win1_2.index t (0 : Fin 2) * 64 + 1 * (x 0).val = (x 0).val; rw [hi.1]; omega
  | ⟨1, _⟩ => show win1_2.index t (1 : Fin 2) * 64 + 1 * (x 1).val = (x 1).val; rw [hi.2]; omega

/-- Window 3 stages its parameter array whole at every point. -/
theorem iblk_par3 (c : Dev nD) (t : Fin cfg1.N) :
    (iblk1 V c 3 t : Vec Ideal S64x64 .f32) = (V c main_v29 : S64x64.Idx → EReal) := by
  have hi : win1_3.index t (0 : Fin 2) = 0 ∧ win1_3.index t (1 : Fin 2) = 0 := by
    obtain ⟨e0, e1, e2, e3, e4, e5, e6, e7, e8, e9, e10, e11, e12, e13, e14, e15⟩ := idx_facts t
    exact ⟨e6, e7⟩
  funext x
  unfold iblk1
  rw [View.read_apply]
  show V c main_v29 _ = V c main_v29 _
  congr 1
  funext a
  apply Fin.ext
  match a with
  | ⟨0, _⟩ => show win1_3.index t (0 : Fin 2) * 64 + 1 * (x 0).val = (x 0).val; rw [hi.1]; omega
  | ⟨1, _⟩ => show win1_3.index t (1 : Fin 2) * 64 + 1 * (x 1).val = (x 1).val; rw [hi.2]; omega

/-- Window 4 stages its parameter array whole at every point. -/
theorem iblk_par4 (c : Dev nD) (t : Fin cfg1.N) :
    (iblk1 V c 4 t : Vec Ideal S1x64 .f32) = (V c main_v32 : S1x64.Idx → EReal) := by
  have hi : win1_4.index t (0 : Fin 2) = 0 ∧ win1_4.index t (1 : Fin 2) = 0 := by
    obtain ⟨e0, e1, e2, e3, e4, e5, e6, e7, e8, e9, e10, e11, e12, e13, e14, e15⟩ := idx_facts t
    exact ⟨e8, e9⟩
  funext x
  unfold iblk1
  rw [View.read_apply]
  show V c main_v32 _ = V c main_v32 _
  congr 1
  funext a
  apply Fin.ext
  match a with
  | ⟨0, _⟩ => show win1_4.index t (0 : Fin 2) * 1 + 1 * (x 0).val = (x 0).val; rw [hi.1]; omega
  | ⟨1, _⟩ => show win1_4.index t (1 : Fin 2) * 64 + 1 * (x 1).val = (x 1).val; rw [hi.2]; omega

/-- Window 5 stages its parameter array whole at every point. -/
theorem iblk_par5 (c : Dev nD) (t : Fin cfg1.N) :
    (iblk1 V c 5 t : Vec Ideal S64x64 .f32) = (V c main_v34 : S64x64.Idx → EReal) := by
  have hi : win1_5.index t (0 : Fin 2) = 0 ∧ win1_5.index t (1 : Fin 2) = 0 := by
    obtain ⟨e0, e1, e2, e3, e4, e5, e6, e7, e8, e9, e10, e11, e12, e13, e14, e15⟩ := idx_facts t
    exact ⟨e10, e11⟩
  funext x
  unfold iblk1
  rw [View.read_apply]
  show V c main_v34 _ = V c main_v34 _
  congr 1
  funext a
  apply Fin.ext
  match a with
  | ⟨0, _⟩ => show win1_5.index t (0 : Fin 2) * 64 + 1 * (x 0).val = (x 0).val; rw [hi.1]; omega
  | ⟨1, _⟩ => show win1_5.index t (1 : Fin 2) * 64 + 1 * (x 1).val = (x 1).val; rw [hi.2]; omega

/-- Window 6 stages its parameter array whole at every point. -/
theorem iblk_par6 (c : Dev nD) (t : Fin cfg1.N) :
    (iblk1 V c 6 t : Vec Ideal S1x64 .f32) = (V c main_v37 : S1x64.Idx → EReal) := by
  have hi : win1_6.index t (0 : Fin 2) = 0 ∧ win1_6.index t (1 : Fin 2) = 0 := by
    obtain ⟨e0, e1, e2, e3, e4, e5, e6, e7, e8, e9, e10, e11, e12, e13, e14, e15⟩ := idx_facts t
    exact ⟨e12, e13⟩
  funext x
  unfold iblk1
  rw [View.read_apply]
  show V c main_v37 _ = V c main_v37 _
  congr 1
  funext a
  apply Fin.ext
  match a with
  | ⟨0, _⟩ => show win1_6.index t (0 : Fin 2) * 1 + 1 * (x 0).val = (x 0).val; rw [hi.1]; omega
  | ⟨1, _⟩ => show win1_6.index t (1 : Fin 2) * 64 + 1 * (x 1).val = (x 1).val; rw [hi.2]; omega

/-- WHAT POINT `t` WRITES BACK is block `t` of the residual update of the arrays as the region finds them. -/
theorem flushed_eq (c : Dev nD) (t : Fin cfg1.N) :
    (dat1 (F := Ideal) V c).flushed 7 t = ((cfg1.win 7).blk t).view.read (Elt Ideal)
      (updG (R := 50000) (V c main_v7) (V c main_v25) (V c main_v28) (V c main_v29) (V c main_v32) (V c main_v34) (V c main_v37)) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz]
  rw [Body.upd_pay]
  have ho : win1_7.index t (0 : Fin 2) = t.val ∧ win1_7.index t (1 : Fin 2) = 0 := by
    obtain ⟨e0, e1, e2, e3, e4, e5, e6, e7, e8, e9, e10, e11, e12, e13, e14, e15⟩ := idx_facts t
    exact ⟨e14, e15⟩
  funext y
  show updG (R := 5000) (iblk1 V c 0 t) (iblk1 V c 1 t) (iblk1 V c 2 t) (iblk1 V c 3 t) (iblk1 V c 4 t) (iblk1 V c 5 t) (iblk1 V c 6 t) y
    = updG (R := 50000) (V c main_v7) (V c main_v25) (V c main_v28) (V c main_v29) (V c main_v32) (V c main_v34) (V c main_v37) (((cfg1.win 7).blk t).view.emb y)
  refine updG_block _ _ _ _ _ _ _ _ _ _ _ _ _ _ t.val (fun x k h0 h1 => iblk_edge0 V c t x k h0 h1) (fun x k h0 h1 => iblk_edge1 V c t x k h0 h1)
    (iblk_par2 V c t) (iblk_par3 V c t) (iblk_par4 V c t) (iblk_par5 V c t) (iblk_par6 V c t) y _ ?_ ?_
  · show win1_7.index t (0 : Fin 2) * 5000 + 1 * (y 0).val = 5000 * t.val + (y 0).val
    rw [ho.1]; omega
  · show win1_7.index t (1 : Fin 2) * 64 + 1 * (y 1).val = (y 1).val
    rw [ho.2]; omega

/-- An index of the output array is in point `t`'s block iff each coordinate is in the block's range on its axis. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v38).slice (win1_7.rect t)).set ↔ _
  rw [View.set_slice_whole, Rect.mem_set_unit]
  exact Iff.rfl

/-- The 10 blocks of 5000 rows tile the 50000 rows: row `e` is in the block of point `e / 5000`. -/
theorem cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; rw [N_1]; omega⟩, rfl⟩
  have ho : win1_7.index t (0 : Fin 2) = t.val ∧ win1_7.index t (1 : Fin 2) = 0 := by
    obtain ⟨e0, e1, e2, e3, e4, e5, e6, e7, e8, e9, e10, e11, e12, e13, e14, e15⟩ := idx_facts t
    exact ⟨e14, e15⟩
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; rw [ho.1, ht]; omega
  | ⟨1, _⟩ => show win1_7.index t (1 : Fin 2) * 64 ≤ (i 1).val ∧ (i 1).val < win1_7.index t (1 : Fin 2) * 64 + 64; rw [ho.2]; omega

/-- The region's output array after its last grid point. -/
theorem value (c : Dev nD) :
    (dat1 (F := Ideal) V c).arrAt 7 cfg1.N
      = updG (R := 50000) (V c main_v7) (V c main_v25) (V c main_v28) (V c main_v29) (V c main_v32) (V c main_v34) (V c main_v37) :=
  (dat1 (F := Ideal) V c).arrAt_eq_of_cover 7
    (updG (R := 50000) (V c main_v7) (V c main_v25) (V c main_v28) (V c main_v29) (V c main_v32) (V c main_v34) (V c main_v37))
    (fun t _ => flushed_eq V c t) cover

end Cert.KernelIdeal.Region1

end
-- ==== Proof.KLayer0.lean ====
/-
  Message-passing layer 0 of the kernel's program, read off the fold of @main's segments.

  From the boundary where the layer is entered (the embedding, the two rows of the edge list and the arguments
  in place) the layer runs two gathers, a stretch of weight slices, the message region, a stretch that sums the
  messages into their targets and slices the update weights, and the update region.  Each host stretch rewrites the
  buffers it writes and leaves the rest; each region leaves its output array at the region's whole-array function
  of the arrays it found.  Read at the update region's output, the fold is `Val.layer` of the entry contents.
-/
import proofs.«406721_j71184787964017_1_alg».proof.Proof.Gen.KernelIdeal.Frame
import proofs.«406721_j71184787964017_1_alg».proof.Proof.Layers
import proofs.«406721_j71184787964017_1_alg».proof.Proof.Region0
import proofs.«406721_j71184787964017_1_alg».proof.Proof.Region1
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Val

namespace L0

/-! ## The stretches, at any contents and any float instance -/

section Stretches
variable {F : FTy → Type} [FloatOps F]

/-- A typed reference's two transports cancel. -/
theorem ofBuf_toBuf {Val : EltTy → Type} {T : BufTy} (x : TRef sig T) (v : T.Contents Val) : x.ofBuf (x.toBuf v) = v := by
  obtain ⟨r, rfl, _, _⟩ := x; rfl

/-- At a literal reference the transports are the identity. -/
theorem leaf_src (W : Valuation τ sig (Elt F)) (h1 : (main_v1 : Ref sig .tc).ty = ⟨S800000, .i32⟩) (h2 : (main_v1 : Ref sig .tc).space ≠ .host) (h3 : (main_v1 : Ref sig .tc).isScoped = false) :
    (TRef.of main_v1 h1 h2 h3 : TRef sig ⟨S800000, .i32⟩).ofBuf (W (Proc.devRef .tc main_v1)) = W (Proc.devRef .tc main_v1) := rfl
theorem leaf_dst (W : Valuation τ sig (Elt F)) (h1 : (main_v3 : Ref sig .tc).ty = ⟨S800000, .i32⟩) (h2 : (main_v3 : Ref sig .tc).space ≠ .host) (h3 : (main_v3 : Ref sig .tc).isScoped = false) :
    (TRef.of main_v3 h1 h2 h3 : TRef sig ⟨S800000, .i32⟩).ofBuf (W (Proc.devRef .tc main_v3)) = W (Proc.devRef .tc main_v3) := rfl
theorem leaf_emb (W : Valuation τ sig (Elt F)) (h1 : (main_v7 : Ref sig .tc).ty = ⟨S50000x64, .f32⟩) (h2 : (main_v7 : Ref sig .tc).space ≠ .host) (h3 : (main_v7 : Ref sig .tc).isScoped = false) :
    (TRef.of main_v7 h1 h2 h3 : TRef sig ⟨S50000x64, .f32⟩).ofBuf (W (Proc.devRef .tc main_v7)) = W (Proc.devRef .tc main_v7) := rfl
theorem root_dst (v : (⟨S800000x64, .f32⟩ : BufTy).Contents (Elt F)) (h1 : (main_v8 : Ref sig .tc).ty = ⟨S800000x64, .f32⟩) (h2 : (main_v8 : Ref sig .tc).space ≠ .host) (h3 : (main_v8 : Ref sig .tc).isScoped = false) :
    (TRef.of main_v8 h1 h2 h3 : TRef sig ⟨S800000x64, .f32⟩).toBuf v = v := rfl
theorem root_src (v : (⟨S800000x64, .f32⟩ : BufTy).Contents (Elt F)) (h1 : (main_v9 : Ref sig .tc).ty = ⟨S800000x64, .f32⟩) (h2 : (main_v9 : Ref sig .tc).space ≠ .host) (h3 : (main_v9 : Ref sig .tc).isScoped = false) :
    (TRef.of main_v9 h1 h2 h3 : TRef sig ⟨S800000x64, .f32⟩).toBuf v = v := rfl

/-- The first gather: the embedding's rows at the targets. -/
theorem take_dst (W : Valuation τ sig (Elt F)) :
    after hostOps0_1 W (Proc.devRef .tc main_v8) = take (W (Proc.devRef .tc main_v7)) (W (Proc.devRef .tc main_v3)) := by
  after_results_simp
  simp only [ofBuf_toBuf, leaf_dst, leaf_emb, root_dst]
  unfold take inBounds wrap
  rfl
/-- The second gather: the embedding's rows at the sources. -/
theorem take_src (W : Valuation τ sig (Elt F)) :
    after hostOps0_2 W (Proc.devRef .tc main_v9) = take (W (Proc.devRef .tc main_v7)) (W (Proc.devRef .tc main_v1)) := by
  after_results_simp
  simp only [ofBuf_toBuf, leaf_src, leaf_emb, root_src]
  unfold take inBounds wrap
  rfl

/-- The message perceptron's parameters, sliced out of the stacked arguments. -/
theorem msg_w1lo (W : Valuation τ sig (Elt F)) :
    after hostOps0_3 W (Proc.devRef .tc main_v12) = lo (w128_0 (W (Proc.devRef .tc main_arg5))) := by
  unfold lo w128_0; after_results_simp; rfl
theorem msg_w1hi (W : Valuation τ sig (Elt F)) :
    after hostOps0_3 W (Proc.devRef .tc main_v13) = hi (w128_0 (W (Proc.devRef .tc main_arg5))) := by
  unfold hi w128_0; after_results_simp; rfl
theorem msg_c1 (W : Valuation τ sig (Elt F)) :
    after hostOps0_3 W (Proc.devRef .tc main_v16) = asRow (v64_0 (W (Proc.devRef .tc main_arg6))) := by
  unfold asRow v64_0; after_results_simp; rfl
theorem msg_w2 (W : Valuation τ sig (Elt F)) :
    after hostOps0_3 W (Proc.devRef .tc main_v18) = w64_0 (W (Proc.devRef .tc main_arg7)) := by
  unfold w64_0; after_results_simp; rfl
theorem msg_c2 (W : Valuation τ sig (Elt F)) :
    after hostOps0_3 W (Proc.devRef .tc main_v21) = asRow (v64_0 (W (Proc.devRef .tc main_arg8))) := by
  unfold asRow v64_0; after_results_simp; rfl

/-- The messages summed into their targets, and the update perceptron's parameters. -/
theorem agg (W : Valuation τ sig (Elt F)) :
    after hostOps1 W (Proc.devRef .tc main_v25) = aggregate (W (Proc.devRef .tc main_v3)) (W (Proc.devRef .tc main_v22)) := by
  unfold aggregate; after_results_simp
theorem upd_w1lo (W : Valuation τ sig (Elt F)) :
    after hostOps1 W (Proc.devRef .tc main_v28) = lo (w128_0 (W (Proc.devRef .tc main_arg9))) := by
  unfold lo w128_0; after_results_simp; rfl
theorem upd_w1hi (W : Valuation τ sig (Elt F)) :
    after hostOps1 W (Proc.devRef .tc main_v29) = hi (w128_0 (W (Proc.devRef .tc main_arg9))) := by
  unfold hi w128_0; after_results_simp; rfl
theorem upd_c1 (W : Valuation τ sig (Elt F)) :
    after hostOps1 W (Proc.devRef .tc main_v32) = asRow (v64_0 (W (Proc.devRef .tc main_arg10))) := by
  unfold asRow v64_0; after_results_simp; rfl
theorem upd_w2 (W : Valuation τ sig (Elt F)) :
    after hostOps1 W (Proc.devRef .tc main_v34) = w64_0 (W (Proc.devRef .tc main_arg11)) := by
  unfold w64_0; after_results_simp; rfl
theorem upd_c2 (W : Valuation τ sig (Elt F)) :
    after hostOps1 W (Proc.devRef .tc main_v37) = asRow (v64_0 (W (Proc.devRef .tc main_arg12))) := by
  unfold asRow v64_0; after_results_simp; rfl

/-! ### What each stretch leaves alone -/

/-- A reference in a list is, as a device buffer, in the list's image. -/
theorem sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- The references `hostOps0_1` writes. -/
def wrA : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v8]
theorem hWA : (hostOps0_1 : List (HloOp τ sig (Elt F))).Forall fun op => op.writes ⊆ (wrA.map (Proc.devRef (τ := τ) .tc)).toFinset := by
  simp only [hostOps0_1, List.Forall, nullary_writes, unary_writes, binary_writes, ternary_writes, quaternary_writes, reshape_writes]
  repeat' apply And.intro
  all_goals exact sub_of_mem (by decide)
/-- `hostOps0_1` leaves every other reference as it was. -/
theorem keepA (W : Valuation τ sig (Elt F)) (r : Ref sig .tc) (hr : r ∉ wrA) :
    after hostOps0_1 W (Proc.devRef .tc r) = W (Proc.devRef .tc r) := after_of_writes_sub hostOps0_1 W hWA hr

/-- The references `hostOps0_2` writes. -/
def wrB : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v9]
theorem hWB : (hostOps0_2 : List (HloOp τ sig (Elt F))).Forall fun op => op.writes ⊆ (wrB.map (Proc.devRef (τ := τ) .tc)).toFinset := by
  simp only [hostOps0_2, List.Forall, nullary_writes, unary_writes, binary_writes, ternary_writes, quaternary_writes, reshape_writes]
  repeat' apply And.intro
  all_goals exact sub_of_mem (by decide)
/-- `hostOps0_2` leaves every other reference as it was. -/
theorem keepB (W : Valuation τ sig (Elt F)) (r : Ref sig .tc) (hr : r ∉ wrB) :
    after hostOps0_2 W (Proc.devRef .tc r) = W (Proc.devRef .tc r) := after_of_writes_sub hostOps0_2 W hWB hr

/-- The references `hostOps0_3` writes. -/
def wrC : List (Ref sig .tc) := [main_v10, main_v11, main_v12, main_v13, main_v14, main_v15, main_v16, main_v17, main_v18, main_v19, main_v20, main_v21]
theorem hWC : (hostOps0_3 : List (HloOp τ sig (Elt F))).Forall fun op => op.writes ⊆ (wrC.map (Proc.devRef (τ := τ) .tc)).toFinset := by
  simp only [hostOps0_3, List.Forall, nullary_writes, unary_writes, binary_writes, ternary_writes, quaternary_writes, reshape_writes]
  repeat' apply And.intro
  all_goals exact sub_of_mem (by decide)
/-- `hostOps0_3` leaves every other reference as it was. -/
theorem keepC (W : Valuation τ sig (Elt F)) (r : Ref sig .tc) (hr : r ∉ wrC) :
    after hostOps0_3 W (Proc.devRef .tc r) = W (Proc.devRef .tc r) := after_of_writes_sub hostOps0_3 W hWC hr

/-- The references `hostOps1` writes. -/
def wrD : List (Ref sig .tc) := [main_cst, main_v23, main_v24, main_v25, main_v26, main_v27, main_v28, main_v29, main_v30, main_v31, main_v32, main_v33, main_v34, main_v35, main_v36, main_v37]
theorem hWD : (hostOps1 : List (HloOp τ sig (Elt F))).Forall fun op => op.writes ⊆ (wrD.map (Proc.devRef (τ := τ) .tc)).toFinset := by
  simp only [hostOps1, List.Forall, nullary_writes, unary_writes, binary_writes, ternary_writes, quaternary_writes, reshape_writes]
  repeat' apply And.intro
  all_goals exact sub_of_mem (by decide)
/-- `hostOps1` leaves every other reference as it was. -/
theorem keepD (W : Valuation τ sig (Elt F)) (r : Ref sig .tc) (hr : r ∉ wrD) :
    after hostOps1 W (Proc.devRef .tc r) = W (Proc.devRef .tc r) := after_of_writes_sub hostOps1 W hWD hr

end Stretches

/-! ## The fold through the layer's six segments, at the exact values -/

section Fold
variable (m : (ℓ : Loc nD τ sig) → Buf (Elt Ideal) ℓ) (ρ : Dev nD → PrngReg) (c : Dev nD)

/-- A reference no segment so far writes holds what it held at the layer's entry. -/
theorem k2 (r : Ref sig .tc) (hA : r ∉ wrA) : W2 (F := Ideal) m ρ c (Proc.devRef .tc r) = W1 (F := Ideal) m ρ c (Proc.devRef .tc r) := keepA (W1 m ρ c) r hA
theorem k3 (r : Ref sig .tc) (hA : r ∉ wrA) (hB : r ∉ wrB) : W3 (F := Ideal) m ρ c (Proc.devRef .tc r) = W1 (F := Ideal) m ρ c (Proc.devRef .tc r) :=
  (keepB (W2 m ρ c) r hB).trans (k2 m ρ c r hA)
theorem k4 (r : Ref sig .tc) (hA : r ∉ wrA) (hB : r ∉ wrB) (hC : r ∉ wrC) : W4 (F := Ideal) m ρ c (Proc.devRef .tc r) = W1 (F := Ideal) m ρ c (Proc.devRef .tc r) :=
  (keepC (W3 m ρ c) r hC).trans (k3 m ρ c r hA hB)
theorem k5 (r : Ref sig .tc) (hA : r ∉ wrA) (hB : r ∉ wrB) (hC : r ∉ wrC) (h0 : ∀ w, Pipeline.arrRef spec0 w ≠ r) :
    W5 (F := Ideal) m ρ c (Proc.devRef .tc r) = W1 (F := Ideal) m ρ c (Proc.devRef .tc r) :=
  (W5_of_ne m ρ c r h0).trans (k4 m ρ c r hA hB hC)
theorem k6 (r : Ref sig .tc) (hA : r ∉ wrA) (hB : r ∉ wrB) (hC : r ∉ wrC) (h0 : ∀ w, Pipeline.arrRef spec0 w ≠ r) (hD : r ∉ wrD) :
    W6 (F := Ideal) m ρ c (Proc.devRef .tc r) = W1 (F := Ideal) m ρ c (Proc.devRef .tc r) :=
  (keepD (W5 m ρ c) r hD).trans (k5 m ρ c r hA hB hC h0)

/-! ### The message region's seven arrays when it is entered -/

theorem b4_dst : W4 (F := Ideal) m ρ c (Proc.devRef .tc main_v8) = take (F := Ideal) (W1 (F := Ideal) m ρ c (Proc.devRef .tc main_v7)) (W1 (F := Ideal) m ρ c (Proc.devRef .tc main_v3)) :=
  (keepC (W3 m ρ c) main_v8 (by decide)).trans ((keepB (W2 m ρ c) main_v8 (by decide)).trans (take_dst (W1 m ρ c)))
theorem b4_src : W4 (F := Ideal) m ρ c (Proc.devRef .tc main_v9) = take (F := Ideal) (W1 (F := Ideal) m ρ c (Proc.devRef .tc main_v7)) (W1 (F := Ideal) m ρ c (Proc.devRef .tc main_v1)) :=
  (keepC (W3 m ρ c) main_v9 (by decide)).trans ((take_src (W2 m ρ c)).trans (by rw [k2 m ρ c main_v7 (by decide), k2 m ρ c main_v1 (by decide)]))
theorem b4_w1lo : W4 (F := Ideal) m ρ c (Proc.devRef .tc main_v12) = lo (F := Ideal) (w128_0 (F := Ideal) (W1 (F := Ideal) m ρ c (Proc.devRef .tc main_arg5))) :=
  (msg_w1lo (W3 m ρ c)).trans (by rw [k3 m ρ c main_arg5 (by decide) (by decide)])
theorem b4_w1hi : W4 (F := Ideal) m ρ c (Proc.devRef .tc main_v13) = hi (F := Ideal) (w128_0 (F := Ideal) (W1 (F := Ideal) m ρ c (Proc.devRef .tc main_arg5))) :=
  (msg_w1hi (W3 m ρ c)).trans (by rw [k3 m ρ c main_arg5 (by decide) (by decide)])
theorem b4_c1 : W4 (F := Ideal) m ρ c (Proc.devRef .tc main_v16) = asRow (F := Ideal) (v64_0 (F := Ideal) (W1 (F := Ideal) m ρ c (Proc.devRef .tc main_arg6))) :=
  (msg_c1 (W3 m ρ c)).trans (by rw [k3 m ρ c main_arg6 (by decide) (by decide)])
theorem b4_w2 : W4 (F := Ideal) m ρ c (Proc.devRef .tc main_v18) = w64_0 (F := Ideal) (W1 (F := Ideal) m ρ c (Proc.devRef .tc main_arg7)) :=
  (msg_w2 (W3 m ρ c)).trans (by rw [k3 m ρ c main_arg7 (by decide) (by decide)])
theorem b4_c2 : W4 (F := Ideal) m ρ c (Proc.devRef .tc main_v21) = asRow (F := Ideal) (v64_0 (F := Ideal) (W1 (F := Ideal) m ρ c (Proc.devRef .tc main_arg8))) :=
  (msg_c2 (W3 m ρ c)).trans (by rw [k3 m ρ c main_arg8 (by decide) (by decide)])

/-- The message region's output array is the messages' whole-array function of the arrays it found. -/
theorem r0 : W5 (F := Ideal) m ρ c (Proc.devRef .tc main_v22)
    = Cert.Spec.msgG (R := 800000) (W4 (F := Ideal) m ρ c (Proc.devRef .tc main_v8)) (W4 (F := Ideal) m ρ c (Proc.devRef .tc main_v9)) (W4 (F := Ideal) m ρ c (Proc.devRef .tc main_v12)) (W4 (F := Ideal) m ρ c (Proc.devRef .tc main_v13))
        (W4 (F := Ideal) m ρ c (Proc.devRef .tc main_v16)) (W4 (F := Ideal) m ρ c (Proc.devRef .tc main_v18)) (W4 (F := Ideal) m ρ c (Proc.devRef .tc main_v21)) :=
  (W5_arr m ρ c 7).trans (Region0.value (V4 m ρ) c)
theorem b5_msg : W5 (F := Ideal) m ρ c (Proc.devRef .tc main_v22) = (Cert.Spec.msgG (R := 800000) (take (F := Ideal) (W1 (F := Ideal) m ρ c (Proc.devRef .tc main_v7)) (W1 (F := Ideal) m ρ c (Proc.devRef .tc main_v3))) (take (F := Ideal) (W1 (F := Ideal) m ρ c (Proc.devRef .tc main_v7)) (W1 (F := Ideal) m ρ c (Proc.devRef .tc main_v1))) (lo (F := Ideal) (w128_0 (F := Ideal) (W1 (F := Ideal) m ρ c (Proc.devRef .tc main_arg5)))) (hi (F := Ideal) (w128_0 (F := Ideal) (W1 (F := Ideal) m ρ c (Proc.devRef .tc main_arg5)))) (asRow (F := Ideal) (v64_0 (F := Ideal) (W1 (F := Ideal) m ρ c (Proc.devRef .tc main_arg6)))) (w64_0 (F := Ideal) (W1 (F := Ideal) m ρ c (Proc.devRef .tc main_arg7))) (asRow (F := Ideal) (v64_0 (F := Ideal) (W1 (F := Ideal) m ρ c (Proc.devRef .tc main_arg8))))) :=
  (r0 m ρ c).trans (by rw [b4_dst m ρ c, b4_src m ρ c, b4_w1lo m ρ c, b4_w1hi m ρ c, b4_c1 m ρ c, b4_w2 m ρ c, b4_c2 m ρ c])

/-! ### The update region's seven arrays when it is entered -/

theorem b6_agg : W6 (F := Ideal) m ρ c (Proc.devRef .tc main_v25) = aggregate (F := Ideal) (W1 (F := Ideal) m ρ c (Proc.devRef .tc main_v3)) (Cert.Spec.msgG (R := 800000) (take (F := Ideal) (W1 (F := Ideal) m ρ c (Proc.devRef .tc main_v7)) (W1 (F := Ideal) m ρ c (Proc.devRef .tc main_v3))) (take (F := Ideal) (W1 (F := Ideal) m ρ c (Proc.devRef .tc main_v7)) (W1 (F := Ideal) m ρ c (Proc.devRef .tc main_v1))) (lo (F := Ideal) (w128_0 (F := Ideal) (W1 (F := Ideal) m ρ c (Proc.devRef .tc main_arg5)))) (hi (F := Ideal) (w128_0 (F := Ideal) (W1 (F := Ideal) m ρ c (Proc.devRef .tc main_arg5)))) (asRow (F := Ideal) (v64_0 (F := Ideal) (W1 (F := Ideal) m ρ c (Proc.devRef .tc main_arg6)))) (w64_0 (F := Ideal) (W1 (F := Ideal) m ρ c (Proc.devRef .tc main_arg7))) (asRow (F := Ideal) (v64_0 (F := Ideal) (W1 (F := Ideal) m ρ c (Proc.devRef .tc main_arg8))))) :=
  (agg (W5 m ρ c)).trans (by rw [k5 m ρ c main_v3 (by decide) (by decide) (by decide) (by decide), b5_msg m ρ c])
theorem b6_w1lo : W6 (F := Ideal) m ρ c (Proc.devRef .tc main_v28) = lo (F := Ideal) (w128_0 (F := Ideal) (W1 (F := Ideal) m ρ c (Proc.devRef .tc main_arg9))) :=
  (upd_w1lo (W5 m ρ c)).trans (by rw [k5 m ρ c main_arg9 (by decide) (by decide) (by decide) (by decide)])
theorem b6_w1hi : W6 (F := Ideal) m ρ c (Proc.devRef .tc main_v29) = hi (F := Ideal) (w128_0 (F := Ideal) (W1 (F := Ideal) m ρ c (Proc.devRef .tc main_arg9))) :=
  (upd_w1hi (W5 m ρ c)).trans (by rw [k5 m ρ c main_arg9 (by decide) (by decide) (by decide) (by decide)])
theorem b6_c1 : W6 (F := Ideal) m ρ c (Proc.devRef .tc main_v32) = asRow (F := Ideal) (v64_0 (F := Ideal) (W1 (F := Ideal) m ρ c (Proc.devRef .tc main_arg10))) :=
  (upd_c1 (W5 m ρ c)).trans (by rw [k5 m ρ c main_arg10 (by decide) (by decide) (by decide) (by decide)])
theorem b6_w2 : W6 (F := Ideal) m ρ c (Proc.devRef .tc main_v34) = w64_0 (F := Ideal) (W1 (F := Ideal) m ρ c (Proc.devRef .tc main_arg11)) :=
  (upd_w2 (W5 m ρ c)).trans (by rw [k5 m ρ c main_arg11 (by decide) (by decide) (by decide) (by decide)])
theorem b6_c2 : W6 (F := Ideal) m ρ c (Proc.devRef .tc main_v37) = asRow (F := Ideal) (v64_0 (F := Ideal) (W1 (F := Ideal) m ρ c (Proc.devRef .tc main_arg12))) :=
  (upd_c2 (W5 m ρ c)).trans (by rw [k5 m ρ c main_arg12 (by decide) (by decide) (by decide) (by decide)])

/-- The update region's output array is the update's whole-array function of the arrays it found. -/
theorem r1 : W7 (F := Ideal) m ρ c (Proc.devRef .tc main_v38)
    = Cert.Spec.updG (R := 50000) (W6 (F := Ideal) m ρ c (Proc.devRef .tc main_v7)) (W6 (F := Ideal) m ρ c (Proc.devRef .tc main_v25)) (W6 (F := Ideal) m ρ c (Proc.devRef .tc main_v28)) (W6 (F := Ideal) m ρ c (Proc.devRef .tc main_v29))
        (W6 (F := Ideal) m ρ c (Proc.devRef .tc main_v32)) (W6 (F := Ideal) m ρ c (Proc.devRef .tc main_v34)) (W6 (F := Ideal) m ρ c (Proc.devRef .tc main_v37)) :=
  (W7_arr m ρ c 7).trans (Region1.value (V6 m ρ) c)

end Fold

end L0

variable (m : (ℓ : Loc nD τ sig) → Buf (Elt Ideal) ℓ) (ρ : Dev nD → PrngReg)

/-- The layer's new embedding is `Val.layer` of the embedding, the edge rows and the parameters it was entered with. -/
theorem layer0 (c : Dev nD) : W7 (F := Ideal) m ρ c (Proc.devRef .tc main_v38) = layer (W1 m ρ c (Proc.devRef .tc main_v7)) (W1 m ρ c (Proc.devRef .tc main_v1)) (W1 m ρ c (Proc.devRef .tc main_v3)) (w128_0 (W1 m ρ c (Proc.devRef .tc main_arg5))) (v64_0 (W1 m ρ c (Proc.devRef .tc main_arg6))) (w64_0 (W1 m ρ c (Proc.devRef .tc main_arg7))) (v64_0 (W1 m ρ c (Proc.devRef .tc main_arg8))) (w128_0 (W1 m ρ c (Proc.devRef .tc main_arg9))) (v64_0 (W1 m ρ c (Proc.devRef .tc main_arg10))) (w64_0 (W1 m ρ c (Proc.devRef .tc main_arg11))) (v64_0 (W1 m ρ c (Proc.devRef .tc main_arg12))) :=
  (L0.r1 m ρ c).trans (by
    rw [L0.k6 m ρ c main_v7 (by decide) (by decide) (by decide) (by decide) (by decide), L0.b6_agg m ρ c, L0.b6_w1lo m ρ c, L0.b6_w1hi m ρ c, L0.b6_c1 m ρ c, L0.b6_w2 m ρ c, L0.b6_c2 m ρ c]
    rfl)

end Cert.KernelIdeal.Chain

end
-- ==== Proof.Region2.lean ====
/-
  A message region's output array (region 2 of the program).

  The region's grid has 125 points; point `t` stages rows `6400 t … 6400 t + 6399` of its two edge-feature arrays and
  the perceptron's parameters whole, and writes rows `6400 t … 6400 t + 6399` of its output.  Rows of the perceptron
  are independent, so what point `t` writes back is block `t` of the whole-array function `Cert.Spec.msgG` of the
  arrays as the region finds them; the 125 blocks tile the 800000 rows, so the output array ends holding that function.
  Everything here is stated at a PARAMETER `V`, the buffer contents when the region is entered.
-/
import proofs.«406721_j71184787964017_1_alg».proof.Proof.Gen.KernelIdeal.Frame
import proofs.«406721_j71184787964017_1_alg».proof.Proof.Body
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the two edge-feature windows and the output window at block
    `(t, 0)`, the five parameter windows at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Rows are independent: the perceptron over a block of rows, at an entry of row `y 0`, is the perceptron over the
    whole arrays at the entry `i` of the row that block row is, when the block's rows are the arrays' rows from
    `6400 t` on and the parameters are the same. -/
theorem msgG_block (A B : S800000x64.Idx → EReal) (Wa Wb : S64x64.Idx → EReal) (C1 : S1x64.Idx → EReal)
    (W2 : S64x64.Idx → EReal) (C2 : S1x64.Idx → EReal)
    (a b : Vec Ideal S6400x64 .f32) (wa wb : Vec Ideal S64x64 .f32) (c1 : Vec Ideal S1x64 .f32)
    (w2 : Vec Ideal S64x64 .f32) (c2 : Vec Ideal S1x64 .f32) (t : Nat)
    (ha : ∀ (x : S6400x64.Idx) (k : S800000x64.Idx), (k 0).val = 6400 * t + (x 0).val → (k 1).val = (x 1).val → a x = A k)
    (hb : ∀ (x : S6400x64.Idx) (k : S800000x64.Idx), (k 0).val = 6400 * t + (x 0).val → (k 1).val = (x 1).val → b x = B k)
    (hwa : wa = Wa) (hwb : wb = Wb) (hc1 : c1 = C1) (hw2 : w2 = W2) (hc2 : c2 = C2)
    (y : S6400x64.Idx) (i : S800000x64.Idx) (hi0 : (i 0).val = 6400 * t + (y 0).val) (hi1 : (i 1).val = (y 1).val) :
    msgG (R := 6400) a b wa wb c1 w2 c2 y = msgG (R := 800000) A B Wa Wb C1 W2 C2 i := by
  subst hwa hwb hc1 hw2 hc2
  obtain ⟨r, j, rfl⟩ : ∃ (r : Fin 6400) (j : Fin 64), y = ix2 r j := ⟨y 0, y 1, eq_ix2 y⟩
  obtain ⟨r', j', rfl⟩ : ∃ (r' : Fin 800000) (j' : Fin 64), i = ix2 r' j' := ⟨i 0, i 1, eq_ix2 i⟩
  have hj : j' = j := Fin.ext hi1
  subst hj
  rw [msgG_ix2, msgG_ix2]
  have e1 : row a r = row A r' := funext fun p => ha (ix2 r p) (ix2 r' p) hi0 rfl
  have e2 : row b r = row B r' := funext fun p => hb (ix2 r p) (ix2 r' p) hi0 rfl
  rw [e1, e2]

/-- Window 0's block at point `t` is rows `6400 t … 6400 t + 6399` of its array. -/
theorem iblk_edge0 (c : Dev nD) (t : Fin cfg2.N) (x : S6400x64.Idx) (k : S800000x64.Idx)
    (hk0 : (k 0).val = 6400 * t.val + (x 0).val) (hk1 : (k 1).val = (x 1).val) :
    (iblk2 V c 0 t : Vec Ideal S6400x64 .f32) x = (V c main_v39 : S800000x64.Idx → EReal) k := by
  have hi : win2_0.index t (0 : Fin 2) = t.val ∧ win2_0.index t (1 : Fin 2) = 0 := by
    obtain ⟨e0, e1, e2, e3, e4, e5, e6, e7, e8, e9, e10, e11, e12, e13, e14, e15⟩ := idx_facts t
    exact ⟨e0, e1⟩
  unfold iblk2
  rw [View.read_apply]
  show V c main_v39 _ = V c main_v39 _
  congr 1
  funext a
  apply Fin.ext
  match a with
  | ⟨0, _⟩ => show win2_0.index t (0 : Fin 2) * 6400 + 1 * (x 0).val = (k 0).val; rw [hi.1, hk0]; omega
  | ⟨1, _⟩ => show win2_0.index t (1 : Fin 2) * 64 + 1 * (x 1).val = (k 1).val; rw [hi.2, hk1]; omega

/-- Window 1's block at point `t` is rows `6400 t … 6400 t + 6399` of its array. -/
theorem iblk_edge1 (c : Dev nD) (t : Fin cfg2.N) (x : S6400x64.Idx) (k : S800000x64.Idx)
    (hk0 : (k 0).val = 6400 * t.val + (x 0).val) (hk1 : (k 1).val = (x 1).val) :
    (iblk2 V c 1 t : Vec Ideal S6400x64 .f32) x = (V c main_v40 : S800000x64.Idx → EReal) k := by
  have hi : win2_1.index t (0 : Fin 2) = t.val ∧ win2_1.index t (1 : Fin 2) = 0 := by
    obtain ⟨e0, e1, e2, e3, e4, e5, e6, e7, e8, e9, e10, e11, e12, e13, e14, e15⟩ := idx_facts t
    exact ⟨e2, e3⟩
  unfold iblk2
  rw [View.read_apply]
  show V c main_v40 _ = V c main_v40 _
  congr 1
  funext a
  apply Fin.ext
  match a with
  | ⟨0, _⟩ => show win2_1.index t (0 : Fin 2) * 6400 + 1 * (x 0).val = (k 0).val; rw [hi.1, hk0]; omega
  | ⟨1, _⟩ => show win2_1.index t (1 : Fin 2) * 64 + 1 * (x 1).val = (k 1).val; rw [hi.2, hk1]; omega

/-- Window 2 stages its parameter array whole at every point. -/
theorem iblk_par2 (c : Dev nD) (t : Fin cfg2.N) :
    (iblk2 V c 2 t : Vec Ideal S64x64 .f32) = (V c main_v43 : S64x64.Idx → EReal) := by
  have hi : win2_2.index t (0 : Fin 2) = 0 ∧ win2_2.index t (1 : Fin 2) = 0 := by
    obtain ⟨e0, e1, e2, e3, e4, e5, e6, e7, e8, e9, e10, e11, e12, e13, e14, e15⟩ := idx_facts t
    exact ⟨e4, e5⟩
  funext x
  unfold iblk2
  rw [View.read_apply]
  show V c main_v43 _ = V c main_v43 _
  congr 1
  funext a
  apply Fin.ext
  match a with
  | ⟨0, _⟩ => show win2_2.index t (0 : Fin 2) * 64 + 1 * (x 0).val = (x 0).val; rw [hi.1]; omega
  | ⟨1, _⟩ => show win2_2.index t (1 : Fin 2) * 64 + 1 * (x 1).val = (x 1).val; rw [hi.2]; omega

/-- Window 3 stages its parameter array whole at every point. -/
theorem iblk_par3 (c : Dev nD) (t : Fin cfg2.N) :
    (iblk2 V c 3 t : Vec Ideal S64x64 .f32) = (V c main_v44 : S64x64.Idx → EReal) := by
  have hi : win2_3.index t (0 : Fin 2) = 0 ∧ win2_3.index t (1 : Fin 2) = 0 := by
    obtain ⟨e0, e1, e2, e3, e4, e5, e6, e7, e8, e9, e10, e11, e12, e13, e14, e15⟩ := idx_facts t
    exact ⟨e6, e7⟩
  funext x
  unfold iblk2
  rw [View.read_apply]
  show V c main_v44 _ = V c main_v44 _
  congr 1
  funext a
  apply Fin.ext
  match a with
  | ⟨0, _⟩ => show win2_3.index t (0 : Fin 2) * 64 + 1 * (x 0).val = (x 0).val; rw [hi.1]; omega
  | ⟨1, _⟩ => show win2_3.index t (1 : Fin 2) * 64 + 1 * (x 1).val = (x 1).val; rw [hi.2]; omega

/-- Window 4 stages its parameter array whole at every point. -/
theorem iblk_par4 (c : Dev nD) (t : Fin cfg2.N) :
    (iblk2 V c 4 t : Vec Ideal S1x64 .f32) = (V c main_v47 : S1x64.Idx → EReal) := by
  have hi : win2_4.index t (0 : Fin 2) = 0 ∧ win2_4.index t (1 : Fin 2) = 0 := by
    obtain ⟨e0, e1, e2, e3, e4, e5, e6, e7, e8, e9, e10, e11, e12, e13, e14, e15⟩ := idx_facts t
    exact ⟨e8, e9⟩
  funext x
  unfold iblk2
  rw [View.read_apply]
  show V c main_v47 _ = V c main_v47 _
  congr 1
  funext a
  apply Fin.ext
  match a with
  | ⟨0, _⟩ => show win2_4.index t (0 : Fin 2) * 1 + 1 * (x 0).val = (x 0).val; rw [hi.1]; omega
  | ⟨1, _⟩ => show win2_4.index t (1 : Fin 2) * 64 + 1 * (x 1).val = (x 1).val; rw [hi.2]; omega

/-- Window 5 stages its parameter array whole at every point. -/
theorem iblk_par5 (c : Dev nD) (t : Fin cfg2.N) :
    (iblk2 V c 5 t : Vec Ideal S64x64 .f32) = (V c main_v49 : S64x64.Idx → EReal) := by
  have hi : win2_5.index t (0 : Fin 2) = 0 ∧ win2_5.index t (1 : Fin 2) = 0 := by
    obtain ⟨e0, e1, e2, e3, e4, e5, e6, e7, e8, e9, e10, e11, e12, e13, e14, e15⟩ := idx_facts t
    exact ⟨e10, e11⟩
  funext x
  unfold iblk2
  rw [View.read_apply]
  show V c main_v49 _ = V c main_v49 _
  congr 1
  funext a
  apply Fin.ext
  match a with
  | ⟨0, _⟩ => show win2_5.index t (0 : Fin 2) * 64 + 1 * (x 0).val = (x 0).val; rw [hi.1]; omega
  | ⟨1, _⟩ => show win2_5.index t (1 : Fin 2) * 64 + 1 * (x 1).val = (x 1).val; rw [hi.2]; omega

/-- Window 6 stages its parameter array whole at every point. -/
theorem iblk_par6 (c : Dev nD) (t : Fin cfg2.N) :
    (iblk2 V c 6 t : Vec Ideal S1x64 .f32) = (V c main_v52 : S1x64.Idx → EReal) := by
  have hi : win2_6.index t (0 : Fin 2) = 0 ∧ win2_6.index t (1 : Fin 2) = 0 := by
    obtain ⟨e0, e1, e2, e3, e4, e5, e6, e7, e8, e9, e10, e11, e12, e13, e14, e15⟩ := idx_facts t
    exact ⟨e12, e13⟩
  funext x
  unfold iblk2
  rw [View.read_apply]
  show V c main_v52 _ = V c main_v52 _
  congr 1
  funext a
  apply Fin.ext
  match a with
  | ⟨0, _⟩ => show win2_6.index t (0 : Fin 2) * 1 + 1 * (x 0).val = (x 0).val; rw [hi.1]; omega
  | ⟨1, _⟩ => show win2_6.index t (1 : Fin 2) * 64 + 1 * (x 1).val = (x 1).val; rw [hi.2]; omega

/-- WHAT POINT `t` WRITES BACK is block `t` of the perceptron of the arrays as the region finds them. -/
theorem flushed_eq (c : Dev nD) (t : Fin cfg2.N) :
    (dat2 (F := Ideal) V c).flushed 7 t = ((cfg2.win 7).blk t).view.read (Elt Ideal)
      (msgG (R := 800000) (V c main_v39) (V c main_v40) (V c main_v43) (V c main_v44) (V c main_v47) (V c main_v49) (V c main_v52)) := by
  show (cfg2.win 7).cut (grid2.coords t) ((dat2 V c).after 7 t) = _
  rw [after2_7]
  unfold out2_7
  rw [View.canon_unit_zero hz]
  simp only [View.ld_unit_zero (S := S6400x64) hz, View.ld_unit_zero (S := S64x64) hz, View.ld_unit_zero (S := S1x64) hz]
  rw [Body.edge_pay2]
  have ho : win2_7.index t (0 : Fin 2) = t.val ∧ win2_7.index t (1 : Fin 2) = 0 := by
    obtain ⟨e0, e1, e2, e3, e4, e5, e6, e7, e8, e9, e10, e11, e12, e13, e14, e15⟩ := idx_facts t
    exact ⟨e14, e15⟩
  funext y
  show msgG (R := 6400) (iblk2 V c 0 t) (iblk2 V c 1 t) (iblk2 V c 2 t) (iblk2 V c 3 t) (iblk2 V c 4 t) (iblk2 V c 5 t) (iblk2 V c 6 t) y
    = msgG (R := 800000) (V c main_v39) (V c main_v40) (V c main_v43) (V c main_v44) (V c main_v47) (V c main_v49) (V c main_v52) (((cfg2.win 7).blk t).view.emb y)
  refine msgG_block _ _ _ _ _ _ _ _ _ _ _ _ _ _ t.val (fun x k h0 h1 => iblk_edge0 V c t x k h0 h1) (fun x k h0 h1 => iblk_edge1 V c t x k h0 h1)
    (iblk_par2 V c t) (iblk_par3 V c t) (iblk_par4 V c t) (iblk_par5 V c t) (iblk_par6 V c t) y _ ?_ ?_
  · show win2_7.index t (0 : Fin 2) * 6400 + 1 * (y 0).val = 6400 * t.val + (y 0).val
    rw [ho.1]; omega
  · show win2_7.index t (1 : Fin 2) * 64 + 1 * (y 1).val = (y 1).val
    rw [ho.2]; omega

/-- An index of the output array is in point `t`'s block iff each coordinate is in the block's range on its axis. -/
theorem mem_blk (t : Fin cfg2.N) (i : S800000x64.Idx) :
    i ∈ ((cfg2.win 7).blk t).view.set ↔ ∀ a : Fin 2, win2_7.index t a * S6400x64.size a ≤ (i a).val ∧ (i a).val < win2_7.index t a * S6400x64.size a + S6400x64.size a := by
  show i ∈ ((View.whole main_v53).slice (win2_7.rect t)).set ↔ _
  rw [View.set_slice_whole, Rect.mem_set_unit]
  exact Iff.rfl

/-- The 125 blocks of 6400 rows tile the 800000 rows: row `e` is in the block of point `e / 6400`. -/
theorem cover (i : S800000x64.Idx) :
    ∃ t : Fin cfg2.N, (cfg2.win 7).flush t = true ∧ i ∈ ((cfg2.win 7).blk t).view.set := by
  have hi0 : (i 0).val < 800000 := (i 0).isLt
  have hi1 : (i 1).val < 64 := (i 1).isLt
  obtain ⟨t, ht⟩ : ∃ t : Fin cfg2.N, t.val = (i 0).val / 6400 :=
    ⟨⟨(i 0).val / 6400, by show (i 0).val / 6400 < grid2.N; rw [N_2]; omega⟩, rfl⟩
  have ho : win2_7.index t (0 : Fin 2) = t.val ∧ win2_7.index t (1 : Fin 2) = 0 := by
    obtain ⟨e0, e1, e2, e3, e4, e5, e6, e7, e8, e9, e10, e11, e12, e13, e14, e15⟩ := idx_facts t
    exact ⟨e14, e15⟩
  refine ⟨t, flush2_7 t, ?_⟩
  rw [mem_blk]
  intro a
  match a with
  | ⟨0, _⟩ => show win2_7.index t (0 : Fin 2) * 6400 ≤ (i 0).val ∧ (i 0).val < win2_7.index t (0 : Fin 2) * 6400 + 6400; rw [ho.1, ht]; omega
  | ⟨1, _⟩ => show win2_7.index t (1 : Fin 2) * 64 ≤ (i 1).val ∧ (i 1).val < win2_7.index t (1 : Fin 2) * 64 + 64; rw [ho.2]; omega

/-- The region's output array after its last grid point. -/
theorem value (c : Dev nD) :
    (dat2 (F := Ideal) V c).arrAt 7 cfg2.N
      = msgG (R := 800000) (V c main_v39) (V c main_v40) (V c main_v43) (V c main_v44) (V c main_v47) (V c main_v49) (V c main_v52) :=
  (dat2 (F := Ideal) V c).arrAt_eq_of_cover 7
    (msgG (R := 800000) (V c main_v39) (V c main_v40) (V c main_v43) (V c main_v44) (V c main_v47) (V c main_v49) (V c main_v52))
    (fun t _ => flushed_eq V c t) cover

end Cert.KernelIdeal.Region2

end
-- ==== Proof.Region3.lean ====
/-
  An update region's output array (region 3 of the program).

  The region's grid has 10 points; point `t` stages rows `5000 t … 5000 t + 4999` of the node embedding and of the
  summed messages and the perceptron's parameters whole, and writes rows `5000 t … 5000 t + 4999` of its output.  Rows
  are independent, so what point `t` writes back is block `t` of the whole-array function `Cert.Spec.updG` of the arrays
  as the region finds them; the 10 blocks tile the 50000 rows, so the output array ends holding that function.
  Everything here is stated at a PARAMETER `V`, the buffer contents when the region is entered.
-/
import proofs.«406721_j71184787964017_1_alg».proof.Proof.Gen.KernelIdeal.Frame
import proofs.«406721_j71184787964017_1_alg».proof.Proof.Body
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the node-embedding window, the summed-message window and the
    output window at block `(t, 0)`, the five parameter windows at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Rows are independent: the residual update over a block of rows, at an entry of row `y 0`, is the residual update
    over the whole arrays at the entry `i` of the row that block row is, when the block's rows are the arrays' rows
    from `5000 t` on and the parameters are the same. -/
theorem updG_block (A B : S50000x64.Idx → EReal) (Wa Wb : S64x64.Idx → EReal) (C1 : S1x64.Idx → EReal)
    (W2 : S64x64.Idx → EReal) (C2 : S1x64.Idx → EReal)
    (a b : Vec Ideal S5000x64 .f32) (wa wb : Vec Ideal S64x64 .f32) (c1 : Vec Ideal S1x64 .f32)
    (w2 : Vec Ideal S64x64 .f32) (c2 : Vec Ideal S1x64 .f32) (t : Nat)
    (ha : ∀ (x : S5000x64.Idx) (k : S50000x64.Idx), (k 0).val = 5000 * t + (x 0).val → (k 1).val = (x 1).val → a x = A k)
    (hb : ∀ (x : S5000x64.Idx) (k : S50000x64.Idx), (k 0).val = 5000 * t + (x 0).val → (k 1).val = (x 1).val → b x = B k)
    (hwa : wa = Wa) (hwb : wb = Wb) (hc1 : c1 = C1) (hw2 : w2 = W2) (hc2 : c2 = C2)
    (y : S5000x64.Idx) (i : S50000x64.Idx) (hi0 : (i 0).val = 5000 * t + (y 0).val) (hi1 : (i 1).val = (y 1).val) :
    updG (R := 5000) a b wa wb c1 w2 c2 y = updG (R := 50000) A B Wa Wb C1 W2 C2 i := by
  subst hwa hwb hc1 hw2 hc2
  obtain ⟨r, j, rfl⟩ : ∃ (r : Fin 5000) (j : Fin 64), y = ix2 r j := ⟨y 0, y 1, eq_ix2 y⟩
  obtain ⟨r', j', rfl⟩ : ∃ (r' : Fin 50000) (j' : Fin 64), i = ix2 r' j' := ⟨i 0, i 1, eq_ix2 i⟩
  have hj : j' = j := Fin.ext hi1
  subst hj
  rw [updG_ix2, updG_ix2]
  have e0 : a (ix2 r j') = A (ix2 r' j') := ha (ix2 r j') (ix2 r' j') hi0 rfl
  have e1 : row a r = row A r' := funext fun p => ha (ix2 r p) (ix2 r' p) hi0 rfl
  have e2 : row b r = row B r' := funext fun p => hb (ix2 r p) (ix2 r' p) hi0 rfl
  rw [e0, e1, e2]

/-- Window 0's block at point `t` is rows `5000 t … 5000 t + 4999` of its array. -/
theorem iblk_edge0 (c : Dev nD) (t : Fin cfg3.N) (x : S5000x64.Idx) (k : S50000x64.Idx)
    (hk0 : (k 0).val = 5000 * t.val + (x 0).val) (hk1 : (k 1).val = (x 1).val) :
    (iblk3 V c 0 t : Vec Ideal S5000x64 .f32) x = (V c main_v38 : S50000x64.Idx → EReal) k := by
  have hi : win3_0.index t (0 : Fin 2) = t.val ∧ win3_0.index t (1 : Fin 2) = 0 := by
    obtain ⟨e0, e1, e2, e3, e4, e5, e6, e7, e8, e9, e10, e11, e12, e13, e14, e15⟩ := idx_facts t
    exact ⟨e0, e1⟩
  unfold iblk3
  rw [View.read_apply]
  show V c main_v38 _ = V c main_v38 _
  congr 1
  funext a
  apply Fin.ext
  match a with
  | ⟨0, _⟩ => show win3_0.index t (0 : Fin 2) * 5000 + 1 * (x 0).val = (k 0).val; rw [hi.1, hk0]; omega
  | ⟨1, _⟩ => show win3_0.index t (1 : Fin 2) * 64 + 1 * (x 1).val = (k 1).val; rw [hi.2, hk1]; omega

/-- Window 1's block at point `t` is rows `5000 t … 5000 t + 4999` of its array. -/
theorem iblk_edge1 (c : Dev nD) (t : Fin cfg3.N) (x : S5000x64.Idx) (k : S50000x64.Idx)
    (hk0 : (k 0).val = 5000 * t.val + (x 0).val) (hk1 : (k 1).val = (x 1).val) :
    (iblk3 V c 1 t : Vec Ideal S5000x64 .f32) x = (V c main_v56 : S50000x64.Idx → EReal) k := by
  have hi : win3_1.index t (0 : Fin 2) = t.val ∧ win3_1.index t (1 : Fin 2) = 0 := by
    obtain ⟨e0, e1, e2, e3, e4, e5, e6, e7, e8, e9, e10, e11, e12, e13, e14, e15⟩ := idx_facts t
    exact ⟨e2, e3⟩
  unfold iblk3
  rw [View.read_apply]
  show V c main_v56 _ = V c main_v56 _
  congr 1
  funext a
  apply Fin.ext
  match a with
  | ⟨0, _⟩ => show win3_1.index t (0 : Fin 2) * 5000 + 1 * (x 0).val = (k 0).val; rw [hi.1, hk0]; omega
  | ⟨1, _⟩ => show win3_1.index t (1 : Fin 2) * 64 + 1 * (x 1).val = (k 1).val; rw [hi.2, hk1]; omega

/-- Window 2 stages its parameter array whole at every point. -/
theorem iblk_par2 (c : Dev nD) (t : Fin cfg3.N) :
    (iblk3 V c 2 t : Vec Ideal S64x64 .f32) = (V c main_v59 : S64x64.Idx → EReal) := by
  have hi : win3_2.index t (0 : Fin 2) = 0 ∧ win3_2.index t (1 : Fin 2) = 0 := by
    obtain ⟨e0, e1, e2, e3, e4, e5, e6, e7, e8, e9, e10, e11, e12, e13, e14, e15⟩ := idx_facts t
    exact ⟨e4, e5⟩
  funext x
  unfold iblk3
  rw [View.read_apply]
  show V c main_v59 _ = V c main_v59 _
  congr 1
  funext a
  apply Fin.ext
  match a with
  | ⟨0, _⟩ => show win3_2.index t (0 : Fin 2) * 64 + 1 * (x 0).val = (x 0).val; rw [hi.1]; omega
  | ⟨1, _⟩ => show win3_2.index t (1 : Fin 2) * 64 + 1 * (x 1).val = (x 1).val; rw [hi.2]; omega

/-- Window 3 stages its parameter array whole at every point. -/
theorem iblk_par3 (c : Dev nD) (t : Fin cfg3.N) :
    (iblk3 V c 3 t : Vec Ideal S64x64 .f32) = (V c main_v60 : S64x64.Idx → EReal) := by
  have hi : win3_3.index t (0 : Fin 2) = 0 ∧ win3_3.index t (1 : Fin 2) = 0 := by
    obtain ⟨e0, e1, e2, e3, e4, e5, e6, e7, e8, e9, e10, e11, e12, e13, e14, e15⟩ := idx_facts t
    exact ⟨e6, e7⟩
  funext x
  unfold iblk3
  rw [View.read_apply]
  show V c main_v60 _ = V c main_v60 _
  congr 1
  funext a
  apply Fin.ext
  match a with
  | ⟨0, _⟩ => show win3_3.index t (0 : Fin 2) * 64 + 1 * (x 0).val = (x 0).val; rw [hi.1]; omega
  | ⟨1, _⟩ => show win3_3.index t (1 : Fin 2) * 64 + 1 * (x 1).val = (x 1).val; rw [hi.2]; omega

/-- Window 4 stages its parameter array whole at every point. -/
theorem iblk_par4 (c : Dev nD) (t : Fin cfg3.N) :
    (iblk3 V c 4 t : Vec Ideal S1x64 .f32) = (V c main_v63 : S1x64.Idx → EReal) := by
  have hi : win3_4.index t (0 : Fin 2) = 0 ∧ win3_4.index t (1 : Fin 2) = 0 := by
    obtain ⟨e0, e1, e2, e3, e4, e5, e6, e7, e8, e9, e10, e11, e12, e13, e14, e15⟩ := idx_facts t
    exact ⟨e8, e9⟩
  funext x
  unfold iblk3
  rw [View.read_apply]
  show V c main_v63 _ = V c main_v63 _
  congr 1
  funext a
  apply Fin.ext
  match a with
  | ⟨0, _⟩ => show win3_4.index t (0 : Fin 2) * 1 + 1 * (x 0).val = (x 0).val; rw [hi.1]; omega
  | ⟨1, _⟩ => show win3_4.index t (1 : Fin 2) * 64 + 1 * (x 1).val = (x 1).val; rw [hi.2]; omega

/-- Window 5 stages its parameter array whole at every point. -/
theorem iblk_par5 (c : Dev nD) (t : Fin cfg3.N) :
    (iblk3 V c 5 t : Vec Ideal S64x64 .f32) = (V c main_v65 : S64x64.Idx → EReal) := by
  have hi : win3_5.index t (0 : Fin 2) = 0 ∧ win3_5.index t (1 : Fin 2) = 0 := by
    obtain ⟨e0, e1, e2, e3, e4, e5, e6, e7, e8, e9, e10, e11, e12, e13, e14, e15⟩ := idx_facts t
    exact ⟨e10, e11⟩
  funext x
  unfold iblk3
  rw [View.read_apply]
  show V c main_v65 _ = V c main_v65 _
  congr 1
  funext a
  apply Fin.ext
  match a with
  | ⟨0, _⟩ => show win3_5.index t (0 : Fin 2) * 64 + 1 * (x 0).val = (x 0).val; rw [hi.1]; omega
  | ⟨1, _⟩ => show win3_5.index t (1 : Fin 2) * 64 + 1 * (x 1).val = (x 1).val; rw [hi.2]; omega

/-- Window 6 stages its parameter array whole at every point. -/
theorem iblk_par6 (c : Dev nD) (t : Fin cfg3.N) :
    (iblk3 V c 6 t : Vec Ideal S1x64 .f32) = (V c main_v68 : S1x64.Idx → EReal) := by
  have hi : win3_6.index t (0 : Fin 2) = 0 ∧ win3_6.index t (1 : Fin 2) = 0 := by
    obtain ⟨e0, e1, e2, e3, e4, e5, e6, e7, e8, e9, e10, e11, e12, e13, e14, e15⟩ := idx_facts t
    exact ⟨e12, e13⟩
  funext x
  unfold iblk3
  rw [View.read_apply]
  show V c main_v68 _ = V c main_v68 _
  congr 1
  funext a
  apply Fin.ext
  match a with
  | ⟨0, _⟩ => show win3_6.index t (0 : Fin 2) * 1 + 1 * (x 0).val = (x 0).val; rw [hi.1]; omega
  | ⟨1, _⟩ => show win3_6.index t (1 : Fin 2) * 64 + 1 * (x 1).val = (x 1).val; rw [hi.2]; omega

/-- WHAT POINT `t` WRITES BACK is block `t` of the residual update of the arrays as the region finds them. -/
theorem flushed_eq (c : Dev nD) (t : Fin cfg3.N) :
    (dat3 (F := Ideal) V c).flushed 7 t = ((cfg3.win 7).blk t).view.read (Elt Ideal)
      (updG (R := 50000) (V c main_v38) (V c main_v56) (V c main_v59) (V c main_v60) (V c main_v63) (V c main_v65) (V c main_v68)) := by
  show (cfg3.win 7).cut (grid3.coords t) ((dat3 V c).after 7 t) = _
  rw [after3_7]
  unfold out3_7
  rw [View.canon_unit_zero hz]
  simp only [View.ld_unit_zero (S := S5000x64) hz, View.ld_unit_zero (S := S64x64) hz, View.ld_unit_zero (S := S1x64) hz]
  rw [Body.upd_pay3]
  have ho : win3_7.index t (0 : Fin 2) = t.val ∧ win3_7.index t (1 : Fin 2) = 0 := by
    obtain ⟨e0, e1, e2, e3, e4, e5, e6, e7, e8, e9, e10, e11, e12, e13, e14, e15⟩ := idx_facts t
    exact ⟨e14, e15⟩
  funext y
  show updG (R := 5000) (iblk3 V c 0 t) (iblk3 V c 1 t) (iblk3 V c 2 t) (iblk3 V c 3 t) (iblk3 V c 4 t) (iblk3 V c 5 t) (iblk3 V c 6 t) y
    = updG (R := 50000) (V c main_v38) (V c main_v56) (V c main_v59) (V c main_v60) (V c main_v63) (V c main_v65) (V c main_v68) (((cfg3.win 7).blk t).view.emb y)
  refine updG_block _ _ _ _ _ _ _ _ _ _ _ _ _ _ t.val (fun x k h0 h1 => iblk_edge0 V c t x k h0 h1) (fun x k h0 h1 => iblk_edge1 V c t x k h0 h1)
    (iblk_par2 V c t) (iblk_par3 V c t) (iblk_par4 V c t) (iblk_par5 V c t) (iblk_par6 V c t) y _ ?_ ?_
  · show win3_7.index t (0 : Fin 2) * 5000 + 1 * (y 0).val = 5000 * t.val + (y 0).val
    rw [ho.1]; omega
  · show win3_7.index t (1 : Fin 2) * 64 + 1 * (y 1).val = (y 1).val
    rw [ho.2]; omega

/-- An index of the output array is in point `t`'s block iff each coordinate is in the block's range on its axis. -/
theorem mem_blk (t : Fin cfg3.N) (i : S50000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v69).slice (win3_7.rect t)).set ↔ _
  rw [View.set_slice_whole, Rect.mem_set_unit]
  exact Iff.rfl

/-- The 10 blocks of 5000 rows tile the 50000 rows: row `e` is in the block of point `e / 5000`. -/
theorem cover (i : S50000x64.Idx) :
    ∃ t : Fin cfg3.N, (cfg3.win 7).flush t = true ∧ i ∈ ((cfg3.win 7).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by show (i 0).val / 5000 < grid3.N; rw [N_3]; omega⟩, rfl⟩
  have ho : win3_7.index t (0 : Fin 2) = t.val ∧ win3_7.index t (1 : Fin 2) = 0 := by
    obtain ⟨e0, e1, e2, e3, e4, e5, e6, e7, e8, e9, e10, e11, e12, e13, e14, e15⟩ := idx_facts t
    exact ⟨e14, e15⟩
  refine ⟨t, flush3_7 t, ?_⟩
  rw [mem_blk]
  intro a
  match a with
  | ⟨0, _⟩ => show win3_7.index t (0 : Fin 2) * 5000 ≤ (i 0).val ∧ (i 0).val < win3_7.index t (0 : Fin 2) * 5000 + 5000; rw [ho.1, ht]; omega
  | ⟨1, _⟩ => show win3_7.index t (1 : Fin 2) * 64 ≤ (i 1).val ∧ (i 1).val < win3_7.index t (1 : Fin 2) * 64 + 64; rw [ho.2]; omega

/-- The region's output array after its last grid point. -/
theorem value (c : Dev nD) :
    (dat3 (F := Ideal) V c).arrAt 7 cfg3.N
      = updG (R := 50000) (V c main_v38) (V c main_v56) (V c main_v59) (V c main_v60) (V c main_v63) (V c main_v65) (V c main_v68) :=
  (dat3 (F := Ideal) V c).arrAt_eq_of_cover 7
    (updG (R := 50000) (V c main_v38) (V c main_v56) (V c main_v59) (V c main_v60) (V c main_v63) (V c main_v65) (V c main_v68))
    (fun t _ => flushed_eq V c t) cover

end Cert.KernelIdeal.Region3

end
-- ==== Proof.KLayer1.lean ====
/-
  Message-passing layer 1 of the kernel's program, read off the fold of @main's segments.

  From the boundary where the layer is entered (the embedding, the two rows of the edge list and the arguments
  in place) the layer runs two gathers, a stretch of weight slices, the message region, a stretch that sums the
  messages into their targets and slices the update weights, and the update region.  Each host stretch rewrites the
  buffers it writes and leaves the rest; each region leaves its output array at the region's whole-array function
  of the arrays it found.  Read at the update region's output, the fold is `Val.layer` of the entry contents.
-/
import proofs.«406721_j71184787964017_1_alg».proof.Proof.Gen.KernelIdeal.Frame
import proofs.«406721_j71184787964017_1_alg».proof.Proof.Layers
import proofs.«406721_j71184787964017_1_alg».proof.Proof.Region2
import proofs.«406721_j71184787964017_1_alg».proof.Proof.Region3
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Val

namespace L1

/-! ## The stretches, at any contents and any float instance -/

section Stretches
variable {F : FTy → Type} [FloatOps F]

/-- A typed reference's two transports cancel. -/
theorem ofBuf_toBuf {Val : EltTy → Type} {T : BufTy} (x : TRef sig T) (v : T.Contents Val) : x.ofBuf (x.toBuf v) = v := by
  obtain ⟨r, rfl, _, _⟩ := x; rfl

/-- At a literal reference the transports are the identity. -/
theorem leaf_src (W : Valuation τ sig (Elt F)) (h1 : (main_v1 : Ref sig .tc).ty = ⟨S800000, .i32⟩) (h2 : (main_v1 : Ref sig .tc).space ≠ .host) (h3 : (main_v1 : Ref sig .tc).isScoped = false) :
    (TRef.of main_v1 h1 h2 h3 : TRef sig ⟨S800000, .i32⟩).ofBuf (W (Proc.devRef .tc main_v1)) = W (Proc.devRef .tc main_v1) := rfl
theorem leaf_dst (W : Valuation τ sig (Elt F)) (h1 : (main_v3 : Ref sig .tc).ty = ⟨S800000, .i32⟩) (h2 : (main_v3 : Ref sig .tc).space ≠ .host) (h3 : (main_v3 : Ref sig .tc).isScoped = false) :
    (TRef.of main_v3 h1 h2 h3 : TRef sig ⟨S800000, .i32⟩).ofBuf (W (Proc.devRef .tc main_v3)) = W (Proc.devRef .tc main_v3) := rfl
theorem leaf_emb (W : Valuation τ sig (Elt F)) (h1 : (main_v38 : Ref sig .tc).ty = ⟨S50000x64, .f32⟩) (h2 : (main_v38 : Ref sig .tc).space ≠ .host) (h3 : (main_v38 : Ref sig .tc).isScoped = false) :
    (TRef.of main_v38 h1 h2 h3 : TRef sig ⟨S50000x64, .f32⟩).ofBuf (W (Proc.devRef .tc main_v38)) = W (Proc.devRef .tc main_v38) := rfl
theorem root_dst (v : (⟨S800000x64, .f32⟩ : BufTy).Contents (Elt F)) (h1 : (main_v39 : Ref sig .tc).ty = ⟨S800000x64, .f32⟩) (h2 : (main_v39 : Ref sig .tc).space ≠ .host) (h3 : (main_v39 : Ref sig .tc).isScoped = false) :
    (TRef.of main_v39 h1 h2 h3 : TRef sig ⟨S800000x64, .f32⟩).toBuf v = v := rfl
theorem root_src (v : (⟨S800000x64, .f32⟩ : BufTy).Contents (Elt F)) (h1 : (main_v40 : Ref sig .tc).ty = ⟨S800000x64, .f32⟩) (h2 : (main_v40 : Ref sig .tc).space ≠ .host) (h3 : (main_v40 : Ref sig .tc).isScoped = false) :
    (TRef.of main_v40 h1 h2 h3 : TRef sig ⟨S800000x64, .f32⟩).toBuf v = v := rfl

/-- The first gather: the embedding's rows at the targets. -/
theorem take_dst (W : Valuation τ sig (Elt F)) :
    after hostOps2 W (Proc.devRef .tc main_v39) = take (W (Proc.devRef .tc main_v38)) (W (Proc.devRef .tc main_v3)) := by
  after_results_simp
  simp only [ofBuf_toBuf, leaf_dst, leaf_emb, root_dst]
  unfold take inBounds wrap
  rfl
/-- The second gather: the embedding's rows at the sources. -/
theorem take_src (W : Valuation τ sig (Elt F)) :
    after hostOps2_1 W (Proc.devRef .tc main_v40) = take (W (Proc.devRef .tc main_v38)) (W (Proc.devRef .tc main_v1)) := by
  after_results_simp
  simp only [ofBuf_toBuf, leaf_src, leaf_emb, root_src]
  unfold take inBounds wrap
  rfl

/-- The message perceptron's parameters, sliced out of the stacked arguments. -/
theorem msg_w1lo (W : Valuation τ sig (Elt F)) :
    after hostOps2_2 W (Proc.devRef .tc main_v43) = lo (w128_1 (W (Proc.devRef .tc main_arg5))) := by
  unfold lo w128_1; after_results_simp; rfl
theorem msg_w1hi (W : Valuation τ sig (Elt F)) :
    after hostOps2_2 W (Proc.devRef .tc main_v44) = hi (w128_1 (W (Proc.devRef .tc main_arg5))) := by
  unfold hi w128_1; after_results_simp; rfl
theorem msg_c1 (W : Valuation τ sig (Elt F)) :
    after hostOps2_2 W (Proc.devRef .tc main_v47) = asRow (v64_1 (W (Proc.devRef .tc main_arg6))) := by
  unfold asRow v64_1; after_results_simp; rfl
theorem msg_w2 (W : Valuation τ sig (Elt F)) :
    after hostOps2_2 W (Proc.devRef .tc main_v49) = w64_1 (W (Proc.devRef .tc main_arg7)) := by
  unfold w64_1; after_results_simp; rfl
theorem msg_c2 (W : Valuation τ sig (Elt F)) :
    after hostOps2_2 W (Proc.devRef .tc main_v52) = asRow (v64_1 (W (Proc.devRef .tc main_arg8))) := by
  unfold asRow v64_1; after_results_simp; rfl

/-- The messages summed into their targets, and the update perceptron's parameters. -/
theorem agg (W : Valuation τ sig (Elt F)) :
    after hostOps3 W (Proc.devRef .tc main_v56) = aggregate (W (Proc.devRef .tc main_v3)) (W (Proc.devRef .tc main_v53)) := by
  unfold aggregate; after_results_simp
theorem upd_w1lo (W : Valuation τ sig (Elt F)) :
    after hostOps3 W (Proc.devRef .tc main_v59) = lo (w128_1 (W (Proc.devRef .tc main_arg9))) := by
  unfold lo w128_1; after_results_simp; rfl
theorem upd_w1hi (W : Valuation τ sig (Elt F)) :
    after hostOps3 W (Proc.devRef .tc main_v60) = hi (w128_1 (W (Proc.devRef .tc main_arg9))) := by
  unfold hi w128_1; after_results_simp; rfl
theorem upd_c1 (W : Valuation τ sig (Elt F)) :
    after hostOps3 W (Proc.devRef .tc main_v63) = asRow (v64_1 (W (Proc.devRef .tc main_arg10))) := by
  unfold asRow v64_1; after_results_simp; rfl
theorem upd_w2 (W : Valuation τ sig (Elt F)) :
    after hostOps3 W (Proc.devRef .tc main_v65) = w64_1 (W (Proc.devRef .tc main_arg11)) := by
  unfold w64_1; after_results_simp; rfl
theorem upd_c2 (W : Valuation τ sig (Elt F)) :
    after hostOps3 W (Proc.devRef .tc main_v68) = asRow (v64_1 (W (Proc.devRef .tc main_arg12))) := by
  unfold asRow v64_1; after_results_simp; rfl

/-! ### What each stretch leaves alone -/

/-- A reference in a list is, as a device buffer, in the list's image. -/
theorem sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- The references `hostOps2` writes. -/
def wrA : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v39]
theorem hWA : (hostOps2 : List (HloOp τ sig (Elt F))).Forall fun op => op.writes ⊆ (wrA.map (Proc.devRef (τ := τ) .tc)).toFinset := by
  simp only [hostOps2, List.Forall, nullary_writes, unary_writes, binary_writes, ternary_writes, quaternary_writes, reshape_writes]
  repeat' apply And.intro
  all_goals exact sub_of_mem (by decide)
/-- `hostOps2` leaves every other reference as it was. -/
theorem keepA (W : Valuation τ sig (Elt F)) (r : Ref sig .tc) (hr : r ∉ wrA) :
    after hostOps2 W (Proc.devRef .tc r) = W (Proc.devRef .tc r) := after_of_writes_sub hostOps2 W hWA hr

/-- The references `hostOps2_1` writes. -/
def wrB : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v40]
theorem hWB : (hostOps2_1 : List (HloOp τ sig (Elt F))).Forall fun op => op.writes ⊆ (wrB.map (Proc.devRef (τ := τ) .tc)).toFinset := by
  simp only [hostOps2_1, List.Forall, nullary_writes, unary_writes, binary_writes, ternary_writes, quaternary_writes, reshape_writes]
  repeat' apply And.intro
  all_goals exact sub_of_mem (by decide)
/-- `hostOps2_1` leaves every other reference as it was. -/
theorem keepB (W : Valuation τ sig (Elt F)) (r : Ref sig .tc) (hr : r ∉ wrB) :
    after hostOps2_1 W (Proc.devRef .tc r) = W (Proc.devRef .tc r) := after_of_writes_sub hostOps2_1 W hWB hr

/-- The references `hostOps2_2` writes. -/
def wrC : List (Ref sig .tc) := [main_v41, main_v42, main_v43, main_v44, main_v45, main_v46, main_v47, main_v48, main_v49, main_v50, main_v51, main_v52]
theorem hWC : (hostOps2_2 : List (HloOp τ sig (Elt F))).Forall fun op => op.writes ⊆ (wrC.map (Proc.devRef (τ := τ) .tc)).toFinset := by
  simp only [hostOps2_2, List.Forall, nullary_writes, unary_writes, binary_writes, ternary_writes, quaternary_writes, reshape_writes]
  repeat' apply And.intro
  all_goals exact sub_of_mem (by decide)
/-- `hostOps2_2` leaves every other reference as it was. -/
theorem keepC (W : Valuation τ sig (Elt F)) (r : Ref sig .tc) (hr : r ∉ wrC) :
    after hostOps2_2 W (Proc.devRef .tc r) = W (Proc.devRef .tc r) := after_of_writes_sub hostOps2_2 W hWC hr

/-- The references `hostOps3` writes. -/
def wrD : List (Ref sig .tc) := [main_cst_0, main_v54, main_v55, main_v56, main_v57, main_v58, main_v59, main_v60, main_v61, main_v62, main_v63, main_v64, main_v65, main_v66, main_v67, main_v68]
theorem hWD : (hostOps3 : List (HloOp τ sig (Elt F))).Forall fun op => op.writes ⊆ (wrD.map (Proc.devRef (τ := τ) .tc)).toFinset := by
  simp only [hostOps3, List.Forall, nullary_writes, unary_writes, binary_writes, ternary_writes, quaternary_writes, reshape_writes]
  repeat' apply And.intro
  all_goals exact sub_of_mem (by decide)
/-- `hostOps3` leaves every other reference as it was. -/
theorem keepD (W : Valuation τ sig (Elt F)) (r : Ref sig .tc) (hr : r ∉ wrD) :
    after hostOps3 W (Proc.devRef .tc r) = W (Proc.devRef .tc r) := after_of_writes_sub hostOps3 W hWD hr

end Stretches

/-! ## The fold through the layer's six segments, at the exact values -/

section Fold
variable (m : (ℓ : Loc nD τ sig) → Buf (Elt Ideal) ℓ) (ρ : Dev nD → PrngReg) (c : Dev nD)

/-- A reference no segment so far writes holds what it held at the layer's entry. -/
theorem k2 (r : Ref sig .tc) (hA : r ∉ wrA) : W8 (F := Ideal) m ρ c (Proc.devRef .tc r) = W7 (F := Ideal) m ρ c (Proc.devRef .tc r) := keepA (W7 m ρ c) r hA
theorem k3 (r : Ref sig .tc) (hA : r ∉ wrA) (hB : r ∉ wrB) : W9 (F := Ideal) m ρ c (Proc.devRef .tc r) = W7 (F := Ideal) m ρ c (Proc.devRef .tc r) :=
  (keepB (W8 m ρ c) r hB).trans (k2 m ρ c r hA)
theorem k4 (r : Ref sig .tc) (hA : r ∉ wrA) (hB : r ∉ wrB) (hC : r ∉ wrC) : W10 (F := Ideal) m ρ c (Proc.devRef .tc r) = W7 (F := Ideal) m ρ c (Proc.devRef .tc r) :=
  (keepC (W9 m ρ c) r hC).trans (k3 m ρ c r hA hB)
theorem k5 (r : Ref sig .tc) (hA : r ∉ wrA) (hB : r ∉ wrB) (hC : r ∉ wrC) (h0 : ∀ w, Pipeline.arrRef spec2 w ≠ r) :
    W11 (F := Ideal) m ρ c (Proc.devRef .tc r) = W7 (F := Ideal) m ρ c (Proc.devRef .tc r) :=
  (W11_of_ne m ρ c r h0).trans (k4 m ρ c r hA hB hC)
theorem k6 (r : Ref sig .tc) (hA : r ∉ wrA) (hB : r ∉ wrB) (hC : r ∉ wrC) (h0 : ∀ w, Pipeline.arrRef spec2 w ≠ r) (hD : r ∉ wrD) :
    W12 (F := Ideal) m ρ c (Proc.devRef .tc r) = W7 (F := Ideal) m ρ c (Proc.devRef .tc r) :=
  (keepD (W11 m ρ c) r hD).trans (k5 m ρ c r hA hB hC h0)

/-! ### The message region's seven arrays when it is entered -/

theorem b4_dst : W10 (F := Ideal) m ρ c (Proc.devRef .tc main_v39) = take (F := Ideal) (W7 (F := Ideal) m ρ c (Proc.devRef .tc main_v38)) (W7 (F := Ideal) m ρ c (Proc.devRef .tc main_v3)) :=
  (keepC (W9 m ρ c) main_v39 (by decide)).trans ((keepB (W8 m ρ c) main_v39 (by decide)).trans (take_dst (W7 m ρ c)))
theorem b4_src : W10 (F := Ideal) m ρ c (Proc.devRef .tc main_v40) = take (F := Ideal) (W7 (F := Ideal) m ρ c (Proc.devRef .tc main_v38)) (W7 (F := Ideal) m ρ c (Proc.devRef .tc main_v1)) :=
  (keepC (W9 m ρ c) main_v40 (by decide)).trans ((take_src (W8 m ρ c)).trans (by rw [k2 m ρ c main_v38 (by decide), k2 m ρ c main_v1 (by decide)]))
theorem b4_w1lo : W10 (F := Ideal) m ρ c (Proc.devRef .tc main_v43) = lo (F := Ideal) (w128_1 (F := Ideal) (W7 (F := Ideal) m ρ c (Proc.devRef .tc main_arg5))) :=
  (msg_w1lo (W9 m ρ c)).trans (by rw [k3 m ρ c main_arg5 (by decide) (by decide)])
theorem b4_w1hi : W10 (F := Ideal) m ρ c (Proc.devRef .tc main_v44) = hi (F := Ideal) (w128_1 (F := Ideal) (W7 (F := Ideal) m ρ c (Proc.devRef .tc main_arg5))) :=
  (msg_w1hi (W9 m ρ c)).trans (by rw [k3 m ρ c main_arg5 (by decide) (by decide)])
theorem b4_c1 : W10 (F := Ideal) m ρ c (Proc.devRef .tc main_v47) = asRow (F := Ideal) (v64_1 (F := Ideal) (W7 (F := Ideal) m ρ c (Proc.devRef .tc main_arg6))) :=
  (msg_c1 (W9 m ρ c)).trans (by rw [k3 m ρ c main_arg6 (by decide) (by decide)])
theorem b4_w2 : W10 (F := Ideal) m ρ c (Proc.devRef .tc main_v49) = w64_1 (F := Ideal) (W7 (F := Ideal) m ρ c (Proc.devRef .tc main_arg7)) :=
  (msg_w2 (W9 m ρ c)).trans (by rw [k3 m ρ c main_arg7 (by decide) (by decide)])
theorem b4_c2 : W10 (F := Ideal) m ρ c (Proc.devRef .tc main_v52) = asRow (F := Ideal) (v64_1 (F := Ideal) (W7 (F := Ideal) m ρ c (Proc.devRef .tc main_arg8))) :=
  (msg_c2 (W9 m ρ c)).trans (by rw [k3 m ρ c main_arg8 (by decide) (by decide)])

/-- The message region's output array is the messages' whole-array function of the arrays it found. -/
theorem r0 : W11 (F := Ideal) m ρ c (Proc.devRef .tc main_v53)
    = Cert.Spec.msgG (R := 800000) (W10 (F := Ideal) m ρ c (Proc.devRef .tc main_v39)) (W10 (F := Ideal) m ρ c (Proc.devRef .tc main_v40)) (W10 (F := Ideal) m ρ c (Proc.devRef .tc main_v43)) (W10 (F := Ideal) m ρ c (Proc.devRef .tc main_v44))
        (W10 (F := Ideal) m ρ c (Proc.devRef .tc main_v47)) (W10 (F := Ideal) m ρ c (Proc.devRef .tc main_v49)) (W10 (F := Ideal) m ρ c (Proc.devRef .tc main_v52)) :=
  (W11_arr m ρ c 7).trans (Region2.value (V10 m ρ) c)
theorem b5_msg : W11 (F := Ideal) m ρ c (Proc.devRef .tc main_v53) = (Cert.Spec.msgG (R := 800000) (take (F := Ideal) (W7 (F := Ideal) m ρ c (Proc.devRef .tc main_v38)) (W7 (F := Ideal) m ρ c (Proc.devRef .tc main_v3))) (take (F := Ideal) (W7 (F := Ideal) m ρ c (Proc.devRef .tc main_v38)) (W7 (F := Ideal) m ρ c (Proc.devRef .tc main_v1))) (lo (F := Ideal) (w128_1 (F := Ideal) (W7 (F := Ideal) m ρ c (Proc.devRef .tc main_arg5)))) (hi (F := Ideal) (w128_1 (F := Ideal) (W7 (F := Ideal) m ρ c (Proc.devRef .tc main_arg5)))) (asRow (F := Ideal) (v64_1 (F := Ideal) (W7 (F := Ideal) m ρ c (Proc.devRef .tc main_arg6)))) (w64_1 (F := Ideal) (W7 (F := Ideal) m ρ c (Proc.devRef .tc main_arg7))) (asRow (F := Ideal) (v64_1 (F := Ideal) (W7 (F := Ideal) m ρ c (Proc.devRef .tc main_arg8))))) :=
  (r0 m ρ c).trans (by rw [b4_dst m ρ c, b4_src m ρ c, b4_w1lo m ρ c, b4_w1hi m ρ c, b4_c1 m ρ c, b4_w2 m ρ c, b4_c2 m ρ c])

/-! ### The update region's seven arrays when it is entered -/

theorem b6_agg : W12 (F := Ideal) m ρ c (Proc.devRef .tc main_v56) = aggregate (F := Ideal) (W7 (F := Ideal) m ρ c (Proc.devRef .tc main_v3)) (Cert.Spec.msgG (R := 800000) (take (F := Ideal) (W7 (F := Ideal) m ρ c (Proc.devRef .tc main_v38)) (W7 (F := Ideal) m ρ c (Proc.devRef .tc main_v3))) (take (F := Ideal) (W7 (F := Ideal) m ρ c (Proc.devRef .tc main_v38)) (W7 (F := Ideal) m ρ c (Proc.devRef .tc main_v1))) (lo (F := Ideal) (w128_1 (F := Ideal) (W7 (F := Ideal) m ρ c (Proc.devRef .tc main_arg5)))) (hi (F := Ideal) (w128_1 (F := Ideal) (W7 (F := Ideal) m ρ c (Proc.devRef .tc main_arg5)))) (asRow (F := Ideal) (v64_1 (F := Ideal) (W7 (F := Ideal) m ρ c (Proc.devRef .tc main_arg6)))) (w64_1 (F := Ideal) (W7 (F := Ideal) m ρ c (Proc.devRef .tc main_arg7))) (asRow (F := Ideal) (v64_1 (F := Ideal) (W7 (F := Ideal) m ρ c (Proc.devRef .tc main_arg8))))) :=
  (agg (W11 m ρ c)).trans (by rw [k5 m ρ c main_v3 (by decide) (by decide) (by decide) (by decide), b5_msg m ρ c])
theorem b6_w1lo : W12 (F := Ideal) m ρ c (Proc.devRef .tc main_v59) = lo (F := Ideal) (w128_1 (F := Ideal) (W7 (F := Ideal) m ρ c (Proc.devRef .tc main_arg9))) :=
  (upd_w1lo (W11 m ρ c)).trans (by rw [k5 m ρ c main_arg9 (by decide) (by decide) (by decide) (by decide)])
theorem b6_w1hi : W12 (F := Ideal) m ρ c (Proc.devRef .tc main_v60) = hi (F := Ideal) (w128_1 (F := Ideal) (W7 (F := Ideal) m ρ c (Proc.devRef .tc main_arg9))) :=
  (upd_w1hi (W11 m ρ c)).trans (by rw [k5 m ρ c main_arg9 (by decide) (by decide) (by decide) (by decide)])
theorem b6_c1 : W12 (F := Ideal) m ρ c (Proc.devRef .tc main_v63) = asRow (F := Ideal) (v64_1 (F := Ideal) (W7 (F := Ideal) m ρ c (Proc.devRef .tc main_arg10))) :=
  (upd_c1 (W11 m ρ c)).trans (by rw [k5 m ρ c main_arg10 (by decide) (by decide) (by decide) (by decide)])
theorem b6_w2 : W12 (F := Ideal) m ρ c (Proc.devRef .tc main_v65) = w64_1 (F := Ideal) (W7 (F := Ideal) m ρ c (Proc.devRef .tc main_arg11)) :=
  (upd_w2 (W11 m ρ c)).trans (by rw [k5 m ρ c main_arg11 (by decide) (by decide) (by decide) (by decide)])
theorem b6_c2 : W12 (F := Ideal) m ρ c (Proc.devRef .tc main_v68) = asRow (F := Ideal) (v64_1 (F := Ideal) (W7 (F := Ideal) m ρ c (Proc.devRef .tc main_arg12))) :=
  (upd_c2 (W11 m ρ c)).trans (by rw [k5 m ρ c main_arg12 (by decide) (by decide) (by decide) (by decide)])

/-- The update region's output array is the update's whole-array function of the arrays it found. -/
theorem r1 : W13 (F := Ideal) m ρ c (Proc.devRef .tc main_v69)
    = Cert.Spec.updG (R := 50000) (W12 (F := Ideal) m ρ c (Proc.devRef .tc main_v38)) (W12 (F := Ideal) m ρ c (Proc.devRef .tc main_v56)) (W12 (F := Ideal) m ρ c (Proc.devRef .tc main_v59)) (W12 (F := Ideal) m ρ c (Proc.devRef .tc main_v60))
        (W12 (F := Ideal) m ρ c (Proc.devRef .tc main_v63)) (W12 (F := Ideal) m ρ c (Proc.devRef .tc main_v65)) (W12 (F := Ideal) m ρ c (Proc.devRef .tc main_v68)) :=
  (W13_arr m ρ c 7).trans (Region3.value (V12 m ρ) c)

end Fold

end L1

variable (m : (ℓ : Loc nD τ sig) → Buf (Elt Ideal) ℓ) (ρ : Dev nD → PrngReg)

/-- The layer's new embedding is `Val.layer` of the embedding, the edge rows and the parameters it was entered with. -/
theorem layer1 (c : Dev nD) : W13 (F := Ideal) m ρ c (Proc.devRef .tc main_v69) = layer (W7 m ρ c (Proc.devRef .tc main_v38)) (W7 m ρ c (Proc.devRef .tc main_v1)) (W7 m ρ c (Proc.devRef .tc main_v3)) (w128_1 (W7 m ρ c (Proc.devRef .tc main_arg5))) (v64_1 (W7 m ρ c (Proc.devRef .tc main_arg6))) (w64_1 (W7 m ρ c (Proc.devRef .tc main_arg7))) (v64_1 (W7 m ρ c (Proc.devRef .tc main_arg8))) (w128_1 (W7 m ρ c (Proc.devRef .tc main_arg9))) (v64_1 (W7 m ρ c (Proc.devRef .tc main_arg10))) (w64_1 (W7 m ρ c (Proc.devRef .tc main_arg11))) (v64_1 (W7 m ρ c (Proc.devRef .tc main_arg12))) :=
  (L1.r1 m ρ c).trans (by
    rw [L1.k6 m ρ c main_v38 (by decide) (by decide) (by decide) (by decide) (by decide), L1.b6_agg m ρ c, L1.b6_w1lo m ρ c, L1.b6_w1hi m ρ c, L1.b6_c1 m ρ c, L1.b6_w2 m ρ c, L1.b6_c2 m ρ c]
    rfl)

end Cert.KernelIdeal.Chain

end
-- ==== Proof.Region4.lean ====
/-
  A message region's output array (region 4 of the program).

  The region's grid has 125 points; point `t` stages rows `6400 t … 6400 t + 6399` of its two edge-feature arrays and
  the perceptron's parameters whole, and writes rows `6400 t … 6400 t + 6399` of its output.  Rows of the perceptron
  are independent, so what point `t` writes back is block `t` of the whole-array function `Cert.Spec.msgG` of the
  arrays as the region finds them; the 125 blocks tile the 800000 rows, so the output array ends holding that function.
  Everything here is stated at a PARAMETER `V`, the buffer contents when the region is entered.
-/
import proofs.«406721_j71184787964017_1_alg».proof.Proof.Gen.KernelIdeal.Frame
import proofs.«406721_j71184787964017_1_alg».proof.Proof.Body
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the two edge-feature windows and the output window at block
    `(t, 0)`, the five parameter windows at block `(0, 0)`. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Rows are independent: the perceptron over a block of rows, at an entry of row `y 0`, is the perceptron over the
    whole arrays at the entry `i` of the row that block row is, when the block's rows are the arrays' rows from
    `6400 t` on and the parameters are the same. -/
theorem msgG_block (A B : S800000x64.Idx → EReal) (Wa Wb : S64x64.Idx → EReal) (C1 : S1x64.Idx → EReal)
    (W2 : S64x64.Idx → EReal) (C2 : S1x64.Idx → EReal)
    (a b : Vec Ideal S6400x64 .f32) (wa wb : Vec Ideal S64x64 .f32) (c1 : Vec Ideal S1x64 .f32)
    (w2 : Vec Ideal S64x64 .f32) (c2 : Vec Ideal S1x64 .f32) (t : Nat)
    (ha : ∀ (x : S6400x64.Idx) (k : S800000x64.Idx), (k 0).val = 6400 * t + (x 0).val → (k 1).val = (x 1).val → a x = A k)
    (hb : ∀ (x : S6400x64.Idx) (k : S800000x64.Idx), (k 0).val = 6400 * t + (x 0).val → (k 1).val = (x 1).val → b x = B k)
    (hwa : wa = Wa) (hwb : wb = Wb) (hc1 : c1 = C1) (hw2 : w2 = W2) (hc2 : c2 = C2)
    (y : S6400x64.Idx) (i : S800000x64.Idx) (hi0 : (i 0).val = 6400 * t + (y 0).val) (hi1 : (i 1).val = (y 1).val) :
    msgG (R := 6400) a b wa wb c1 w2 c2 y = msgG (R := 800000) A B Wa Wb C1 W2 C2 i := by
  subst hwa hwb hc1 hw2 hc2
  obtain ⟨r, j, rfl⟩ : ∃ (r : Fin 6400) (j : Fin 64), y = ix2 r j := ⟨y 0, y 1, eq_ix2 y⟩
  obtain ⟨r', j', rfl⟩ : ∃ (r' : Fin 800000) (j' : Fin 64), i = ix2 r' j' := ⟨i 0, i 1, eq_ix2 i⟩
  have hj : j' = j := Fin.ext hi1
  subst hj
  rw [msgG_ix2, msgG_ix2]
  have e1 : row a r = row A r' := funext fun p => ha (ix2 r p) (ix2 r' p) hi0 rfl
  have e2 : row b r = row B r' := funext fun p => hb (ix2 r p) (ix2 r' p) hi0 rfl
  rw [e1, e2]

/-- Window 0's block at point `t` is rows `6400 t … 6400 t + 6399` of its array. -/
theorem iblk_edge0 (c : Dev nD) (t : Fin cfg4.N) (x : S6400x64.Idx) (k : S800000x64.Idx)
    (hk0 : (k 0).val = 6400 * t.val + (x 0).val) (hk1 : (k 1).val = (x 1).val) :
    (iblk4 V c 0 t : Vec Ideal S6400x64 .f32) x = (V c main_v70 : S800000x64.Idx → EReal) k := by
  have hi : win4_0.index t (0 : Fin 2) = t.val ∧ win4_0.index t (1 : Fin 2) = 0 := by
    obtain ⟨e0, e1, e2, e3, e4, e5, e6, e7, e8, e9, e10, e11, e12, e13, e14, e15⟩ := idx_facts t
    exact ⟨e0, e1⟩
  unfold iblk4
  rw [View.read_apply]
  show V c main_v70 _ = V c main_v70 _
  congr 1
  funext a
  apply Fin.ext
  match a with
  | ⟨0, _⟩ => show win4_0.index t (0 : Fin 2) * 6400 + 1 * (x 0).val = (k 0).val; rw [hi.1, hk0]; omega
  | ⟨1, _⟩ => show win4_0.index t (1 : Fin 2) * 64 + 1 * (x 1).val = (k 1).val; rw [hi.2, hk1]; omega

/-- Window 1's block at point `t` is rows `6400 t … 6400 t + 6399` of its array. -/
theorem iblk_edge1 (c : Dev nD) (t : Fin cfg4.N) (x : S6400x64.Idx) (k : S800000x64.Idx)
    (hk0 : (k 0).val = 6400 * t.val + (x 0).val) (hk1 : (k 1).val = (x 1).val) :
    (iblk4 V c 1 t : Vec Ideal S6400x64 .f32) x = (V c main_v71 : S800000x64.Idx → EReal) k := by
  have hi : win4_1.index t (0 : Fin 2) = t.val ∧ win4_1.index t (1 : Fin 2) = 0 := by
    obtain ⟨e0, e1, e2, e3, e4, e5, e6, e7, e8, e9, e10, e11, e12, e13, e14, e15⟩ := idx_facts t
    exact ⟨e2, e3⟩
  unfold iblk4
  rw [View.read_apply]
  show V c main_v71 _ = V c main_v71 _
  congr 1
  funext a
  apply Fin.ext
  match a with
  | ⟨0, _⟩ => show win4_1.index t (0 : Fin 2) * 6400 + 1 * (x 0).val = (k 0).val; rw [hi.1, hk0]; omega
  | ⟨1, _⟩ => show win4_1.index t (1 : Fin 2) * 64 + 1 * (x 1).val = (k 1).val; rw [hi.2, hk1]; omega

/-- Window 2 stages its parameter array whole at every point. -/
theorem iblk_par2 (c : Dev nD) (t : Fin cfg4.N) :
    (iblk4 V c 2 t : Vec Ideal S64x64 .f32) = (V c main_v74 : S64x64.Idx → EReal) := by
  have hi : win4_2.index t (0 : Fin 2) = 0 ∧ win4_2.index t (1 : Fin 2) = 0 := by
    obtain ⟨e0, e1, e2, e3, e4, e5, e6, e7, e8, e9, e10, e11, e12, e13, e14, e15⟩ := idx_facts t
    exact ⟨e4, e5⟩
  funext x
  unfold iblk4
  rw [View.read_apply]
  show V c main_v74 _ = V c main_v74 _
  congr 1
  funext a
  apply Fin.ext
  match a with
  | ⟨0, _⟩ => show win4_2.index t (0 : Fin 2) * 64 + 1 * (x 0).val = (x 0).val; rw [hi.1]; omega
  | ⟨1, _⟩ => show win4_2.index t (1 : Fin 2) * 64 + 1 * (x 1).val = (x 1).val; rw [hi.2]; omega

/-- Window 3 stages its parameter array whole at every point. -/
theorem iblk_par3 (c : Dev nD) (t : Fin cfg4.N) :
    (iblk4 V c 3 t : Vec Ideal S64x64 .f32) = (V c main_v75 : S64x64.Idx → EReal) := by
  have hi : win4_3.index t (0 : Fin 2) = 0 ∧ win4_3.index t (1 : Fin 2) = 0 := by
    obtain ⟨e0, e1, e2, e3, e4, e5, e6, e7, e8, e9, e10, e11, e12, e13, e14, e15⟩ := idx_facts t
    exact ⟨e6, e7⟩
  funext x
  unfold iblk4
  rw [View.read_apply]
  show V c main_v75 _ = V c main_v75 _
  congr 1
  funext a
  apply Fin.ext
  match a with
  | ⟨0, _⟩ => show win4_3.index t (0 : Fin 2) * 64 + 1 * (x 0).val = (x 0).val; rw [hi.1]; omega
  | ⟨1, _⟩ => show win4_3.index t (1 : Fin 2) * 64 + 1 * (x 1).val = (x 1).val; rw [hi.2]; omega

/-- Window 4 stages its parameter array whole at every point. -/
theorem iblk_par4 (c : Dev nD) (t : Fin cfg4.N) :
    (iblk4 V c 4 t : Vec Ideal S1x64 .f32) = (V c main_v78 : S1x64.Idx → EReal) := by
  have hi : win4_4.index t (0 : Fin 2) = 0 ∧ win4_4.index t (1 : Fin 2) = 0 := by
    obtain ⟨e0, e1, e2, e3, e4, e5, e6, e7, e8, e9, e10, e11, e12, e13, e14, e15⟩ := idx_facts t
    exact ⟨e8, e9⟩
  funext x
  unfold iblk4
  rw [View.read_apply]
  show V c main_v78 _ = V c main_v78 _
  congr 1
  funext a
  apply Fin.ext
  match a with
  | ⟨0, _⟩ => show win4_4.index t (0 : Fin 2) * 1 + 1 * (x 0).val = (x 0).val; rw [hi.1]; omega
  | ⟨1, _⟩ => show win4_4.index t (1 : Fin 2) * 64 + 1 * (x 1).val = (x 1).val; rw [hi.2]; omega

/-- Window 5 stages its parameter array whole at every point. -/
theorem iblk_par5 (c : Dev nD) (t : Fin cfg4.N) :
    (iblk4 V c 5 t : Vec Ideal S64x64 .f32) = (V c main_v80 : S64x64.Idx → EReal) := by
  have hi : win4_5.index t (0 : Fin 2) = 0 ∧ win4_5.index t (1 : Fin 2) = 0 := by
    obtain ⟨e0, e1, e2, e3, e4, e5, e6, e7, e8, e9, e10, e11, e12, e13, e14, e15⟩ := idx_facts t
    exact ⟨e10, e11⟩
  funext x
  unfold iblk4
  rw [View.read_apply]
  show V c main_v80 _ = V c main_v80 _
  congr 1
  funext a
  apply Fin.ext
  match a with
  | ⟨0, _⟩ => show win4_5.index t (0 : Fin 2) * 64 + 1 * (x 0).val = (x 0).val; rw [hi.1]; omega
  | ⟨1, _⟩ => show win4_5.index t (1 : Fin 2) * 64 + 1 * (x 1).val = (x 1).val; rw [hi.2]; omega

/-- Window 6 stages its parameter array whole at every point. -/
theorem iblk_par6 (c : Dev nD) (t : Fin cfg4.N) :
    (iblk4 V c 6 t : Vec Ideal S1x64 .f32) = (V c main_v83 : S1x64.Idx → EReal) := by
  have hi : win4_6.index t (0 : Fin 2) = 0 ∧ win4_6.index t (1 : Fin 2) = 0 := by
    obtain ⟨e0, e1, e2, e3, e4, e5, e6, e7, e8, e9, e10, e11, e12, e13, e14, e15⟩ := idx_facts t
    exact ⟨e12, e13⟩
  funext x
  unfold iblk4
  rw [View.read_apply]
  show V c main_v83 _ = V c main_v83 _
  congr 1
  funext a
  apply Fin.ext
  match a with
  | ⟨0, _⟩ => show win4_6.index t (0 : Fin 2) * 1 + 1 * (x 0).val = (x 0).val; rw [hi.1]; omega
  | ⟨1, _⟩ => show win4_6.index t (1 : Fin 2) * 64 + 1 * (x 1).val = (x 1).val; rw [hi.2]; omega

/-- WHAT POINT `t` WRITES BACK is block `t` of the perceptron of the arrays as the region finds them. -/
theorem flushed_eq (c : Dev nD) (t : Fin cfg4.N) :
    (dat4 (F := Ideal) V c).flushed 7 t = ((cfg4.win 7).blk t).view.read (Elt Ideal)
      (msgG (R := 800000) (V c main_v70) (V c main_v71) (V c main_v74) (V c main_v75) (V c main_v78) (V c main_v80) (V c main_v83)) := by
  show (cfg4.win 7).cut (grid4.coords t) ((dat4 V c).after 7 t) = _
  rw [after4_7]
  unfold out4_7
  rw [View.canon_unit_zero hz]
  simp only [View.ld_unit_zero (S := S6400x64) hz, View.ld_unit_zero (S := S64x64) hz, View.ld_unit_zero (S := S1x64) hz]
  rw [Body.edge_pay4]
  have ho : win4_7.index t (0 : Fin 2) = t.val ∧ win4_7.index t (1 : Fin 2) = 0 := by
    obtain ⟨e0, e1, e2, e3, e4, e5, e6, e7, e8, e9, e10, e11, e12, e13, e14, e15⟩ := idx_facts t
    exact ⟨e14, e15⟩
  funext y
  show msgG (R := 6400) (iblk4 V c 0 t) (iblk4 V c 1 t) (iblk4 V c 2 t) (iblk4 V c 3 t) (iblk4 V c 4 t) (iblk4 V c 5 t) (iblk4 V c 6 t) y
    = msgG (R := 800000) (V c main_v70) (V c main_v71) (V c main_v74) (V c main_v75) (V c main_v78) (V c main_v80) (V c main_v83) (((cfg4.win 7).blk t).view.emb y)
  refine msgG_block _ _ _ _ _ _ _ _ _ _ _ _ _ _ t.val (fun x k h0 h1 => iblk_edge0 V c t x k h0 h1) (fun x k h0 h1 => iblk_edge1 V c t x k h0 h1)
    (iblk_par2 V c t) (iblk_par3 V c t) (iblk_par4 V c t) (iblk_par5 V c t) (iblk_par6 V c t) y _ ?_ ?_
  · show win4_7.index t (0 : Fin 2) * 6400 + 1 * (y 0).val = 6400 * t.val + (y 0).val
    rw [ho.1]; omega
  · show win4_7.index t (1 : Fin 2) * 64 + 1 * (y 1).val = (y 1).val
    rw [ho.2]; omega

/-- An index of the output array is in point `t`'s block iff each coordinate is in the block's range on its axis. -/
theorem mem_blk (t : Fin cfg4.N) (i : S800000x64.Idx) :
    i ∈ ((cfg4.win 7).blk t).view.set ↔ ∀ a : Fin 2, win4_7.index t a * S6400x64.size a ≤ (i a).val ∧ (i a).val < win4_7.index t a * S6400x64.size a + S6400x64.size a := by
  show i ∈ ((View.whole main_v84).slice (win4_7.rect t)).set ↔ _
  rw [View.set_slice_whole, Rect.mem_set_unit]
  exact Iff.rfl

/-- The 125 blocks of 6400 rows tile the 800000 rows: row `e` is in the block of point `e / 6400`. -/
theorem cover (i : S800000x64.Idx) :
    ∃ t : Fin cfg4.N, (cfg4.win 7).flush t = true ∧ i ∈ ((cfg4.win 7).blk t).view.set := by
  have hi0 : (i 0).val < 800000 := (i 0).isLt
  have hi1 : (i 1).val < 64 := (i 1).isLt
  obtain ⟨t, ht⟩ : ∃ t : Fin cfg4.N, t.val = (i 0).val / 6400 :=
    ⟨⟨(i 0).val / 6400, by show (i 0).val / 6400 < grid4.N; rw [N_4]; omega⟩, rfl⟩
  have ho : win4_7.index t (0 : Fin 2) = t.val ∧ win4_7.index t (1 : Fin 2) = 0 := by
    obtain ⟨e0, e1, e2, e3, e4, e5, e6, e7, e8, e9, e10, e11, e12, e13, e14, e15⟩ := idx_facts t
    exact ⟨e14, e15⟩
  refine ⟨t, flush4_7 t, ?_⟩
  rw [mem_blk]
  intro a
  match a with
  | ⟨0, _⟩ => show win4_7.index t (0 : Fin 2) * 6400 ≤ (i 0).val ∧ (i 0).val < win4_7.index t (0 : Fin 2) * 6400 + 6400; rw [ho.1, ht]; omega
  | ⟨1, _⟩ => show win4_7.index t (1 : Fin 2) * 64 ≤ (i 1).val ∧ (i 1).val < win4_7.index t (1 : Fin 2) * 64 + 64; rw [ho.2]; omega

/-- The region's output array after its last grid point. -/
theorem value (c : Dev nD) :
    (dat4 (F := Ideal) V c).arrAt 7 cfg4.N
      = msgG (R := 800000) (V c main_v70) (V c main_v71) (V c main_v74) (V c main_v75) (V c main_v78) (V c main_v80) (V c main_v83) :=
  (dat4 (F := Ideal) V c).arrAt_eq_of_cover 7
    (msgG (R := 800000) (V c main_v70) (V c main_v71) (V c main_v74) (V c main_v75) (V c main_v78) (V c main_v80) (V c main_v83))
    (fun t _ => flushed_eq V c t) cover

end Cert.KernelIdeal.Region4

end
-- ==== Proof.Region5.lean ====
/-
  An update region's output array (region 5 of the program).

  The region's grid has 10 points; point `t` stages rows `5000 t … 5000 t + 4999` of the node embedding and of the
  summed messages and the perceptron's parameters whole, and writes rows `5000 t … 5000 t + 4999` of its output.  Rows
  are independent, so what point `t` writes back is block `t` of the whole-array function `Cert.Spec.updG` of the arrays
  as the region finds them; the 10 blocks tile the 50000 rows, so the output array ends holding that function.
  Everything here is stated at a PARAMETER `V`, the buffer contents when the region is entered.
-/
import proofs.«406721_j71184787964017_1_alg».proof.Proof.Gen.KernelIdeal.Frame
import proofs.«406721_j71184787964017_1_alg».proof.Proof.Body
import Idealize.ShloMosaic.Lib.Pipeline.Value

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the node-embedding window, the summed-message window and the
    output window at block `(t, 0)`, the five parameter windows at block `(0, 0)`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Rows are independent: the residual update over a block of rows, at an entry of row `y 0`, is the residual update
    over the whole arrays at the entry `i` of the row that block row is, when the block's rows are the arrays' rows
    from `5000 t` on and the parameters are the same. -/
theorem updG_block (A B : S50000x64.Idx → EReal) (Wa Wb : S64x64.Idx → EReal) (C1 : S1x64.Idx → EReal)
    (W2 : S64x64.Idx → EReal) (C2 : S1x64.Idx → EReal)
    (a b : Vec Ideal S5000x64 .f32) (wa wb : Vec Ideal S64x64 .f32) (c1 : Vec Ideal S1x64 .f32)
    (w2 : Vec Ideal S64x64 .f32) (c2 : Vec Ideal S1x64 .f32) (t : Nat)
    (ha : ∀ (x : S5000x64.Idx) (k : S50000x64.Idx), (k 0).val = 5000 * t + (x 0).val → (k 1).val = (x 1).val → a x = A k)
    (hb : ∀ (x : S5000x64.Idx) (k : S50000x64.Idx), (k 0).val = 5000 * t + (x 0).val → (k 1).val = (x 1).val → b x = B k)
    (hwa : wa = Wa) (hwb : wb = Wb) (hc1 : c1 = C1) (hw2 : w2 = W2) (hc2 : c2 = C2)
    (y : S5000x64.Idx) (i : S50000x64.Idx) (hi0 : (i 0).val = 5000 * t + (y 0).val) (hi1 : (i 1).val = (y 1).val) :
    updG (R := 5000) a b wa wb c1 w2 c2 y = updG (R := 50000) A B Wa Wb C1 W2 C2 i := by
  subst hwa hwb hc1 hw2 hc2
  obtain ⟨r, j, rfl⟩ : ∃ (r : Fin 5000) (j : Fin 64), y = ix2 r j := ⟨y 0, y 1, eq_ix2 y⟩
  obtain ⟨r', j', rfl⟩ : ∃ (r' : Fin 50000) (j' : Fin 64), i = ix2 r' j' := ⟨i 0, i 1, eq_ix2 i⟩
  have hj : j' = j := Fin.ext hi1
  subst hj
  rw [updG_ix2, updG_ix2]
  have e0 : a (ix2 r j') = A (ix2 r' j') := ha (ix2 r j') (ix2 r' j') hi0 rfl
  have e1 : row a r = row A r' := funext fun p => ha (ix2 r p) (ix2 r' p) hi0 rfl
  have e2 : row b r = row B r' := funext fun p => hb (ix2 r p) (ix2 r' p) hi0 rfl
  rw [e0, e1, e2]

/-- Window 0's block at point `t` is rows `5000 t … 5000 t + 4999` of its array. -/
theorem iblk_edge0 (c : Dev nD) (t : Fin cfg5.N) (x : S5000x64.Idx) (k : S50000x64.Idx)
    (hk0 : (k 0).val = 5000 * t.val + (x 0).val) (hk1 : (k 1).val = (x 1).val) :
    (iblk5 V c 0 t : Vec Ideal S5000x64 .f32) x = (V c main_v69 : S50000x64.Idx → EReal) k := by
  have hi : win5_0.index t (0 : Fin 2) = t.val ∧ win5_0.index t (1 : Fin 2) = 0 := by
    obtain ⟨e0, e1, e2, e3, e4, e5, e6, e7, e8, e9, e10, e11, e12, e13, e14, e15⟩ := idx_facts t
    exact ⟨e0, e1⟩
  unfold iblk5
  rw [View.read_apply]
  show V c main_v69 _ = V c main_v69 _
  congr 1
  funext a
  apply Fin.ext
  match a with
  | ⟨0, _⟩ => show win5_0.index t (0 : Fin 2) * 5000 + 1 * (x 0).val = (k 0).val; rw [hi.1, hk0]; omega
  | ⟨1, _⟩ => show win5_0.index t (1 : Fin 2) * 64 + 1 * (x 1).val = (k 1).val; rw [hi.2, hk1]; omega

/-- Window 1's block at point `t` is rows `5000 t … 5000 t + 4999` of its array. -/
theorem iblk_edge1 (c : Dev nD) (t : Fin cfg5.N) (x : S5000x64.Idx) (k : S50000x64.Idx)
    (hk0 : (k 0).val = 5000 * t.val + (x 0).val) (hk1 : (k 1).val = (x 1).val) :
    (iblk5 V c 1 t : Vec Ideal S5000x64 .f32) x = (V c main_v87 : S50000x64.Idx → EReal) k := by
  have hi : win5_1.index t (0 : Fin 2) = t.val ∧ win5_1.index t (1 : Fin 2) = 0 := by
    obtain ⟨e0, e1, e2, e3, e4, e5, e6, e7, e8, e9, e10, e11, e12, e13, e14, e15⟩ := idx_facts t
    exact ⟨e2, e3⟩
  unfold iblk5
  rw [View.read_apply]
  show V c main_v87 _ = V c main_v87 _
  congr 1
  funext a
  apply Fin.ext
  match a with
  | ⟨0, _⟩ => show win5_1.index t (0 : Fin 2) * 5000 + 1 * (x 0).val = (k 0).val; rw [hi.1, hk0]; omega
  | ⟨1, _⟩ => show win5_1.index t (1 : Fin 2) * 64 + 1 * (x 1).val = (k 1).val; rw [hi.2, hk1]; omega

/-- Window 2 stages its parameter array whole at every point. -/
theorem iblk_par2 (c : Dev nD) (t : Fin cfg5.N) :
    (iblk5 V c 2 t : Vec Ideal S64x64 .f32) = (V c main_v90 : S64x64.Idx → EReal) := by
  have hi : win5_2.index t (0 : Fin 2) = 0 ∧ win5_2.index t (1 : Fin 2) = 0 := by
    obtain ⟨e0, e1, e2, e3, e4, e5, e6, e7, e8, e9, e10, e11, e12, e13, e14, e15⟩ := idx_facts t
    exact ⟨e4, e5⟩
  funext x
  unfold iblk5
  rw [View.read_apply]
  show V c main_v90 _ = V c main_v90 _
  congr 1
  funext a
  apply Fin.ext
  match a with
  | ⟨0, _⟩ => show win5_2.index t (0 : Fin 2) * 64 + 1 * (x 0).val = (x 0).val; rw [hi.1]; omega
  | ⟨1, _⟩ => show win5_2.index t (1 : Fin 2) * 64 + 1 * (x 1).val = (x 1).val; rw [hi.2]; omega

/-- Window 3 stages its parameter array whole at every point. -/
theorem iblk_par3 (c : Dev nD) (t : Fin cfg5.N) :
    (iblk5 V c 3 t : Vec Ideal S64x64 .f32) = (V c main_v91 : S64x64.Idx → EReal) := by
  have hi : win5_3.index t (0 : Fin 2) = 0 ∧ win5_3.index t (1 : Fin 2) = 0 := by
    obtain ⟨e0, e1, e2, e3, e4, e5, e6, e7, e8, e9, e10, e11, e12, e13, e14, e15⟩ := idx_facts t
    exact ⟨e6, e7⟩
  funext x
  unfold iblk5
  rw [View.read_apply]
  show V c main_v91 _ = V c main_v91 _
  congr 1
  funext a
  apply Fin.ext
  match a with
  | ⟨0, _⟩ => show win5_3.index t (0 : Fin 2) * 64 + 1 * (x 0).val = (x 0).val; rw [hi.1]; omega
  | ⟨1, _⟩ => show win5_3.index t (1 : Fin 2) * 64 + 1 * (x 1).val = (x 1).val; rw [hi.2]; omega

/-- Window 4 stages its parameter array whole at every point. -/
theorem iblk_par4 (c : Dev nD) (t : Fin cfg5.N) :
    (iblk5 V c 4 t : Vec Ideal S1x64 .f32) = (V c main_v94 : S1x64.Idx → EReal) := by
  have hi : win5_4.index t (0 : Fin 2) = 0 ∧ win5_4.index t (1 : Fin 2) = 0 := by
    obtain ⟨e0, e1, e2, e3, e4, e5, e6, e7, e8, e9, e10, e11, e12, e13, e14, e15⟩ := idx_facts t
    exact ⟨e8, e9⟩
  funext x
  unfold iblk5
  rw [View.read_apply]
  show V c main_v94 _ = V c main_v94 _
  congr 1
  funext a
  apply Fin.ext
  match a with
  | ⟨0, _⟩ => show win5_4.index t (0 : Fin 2) * 1 + 1 * (x 0).val = (x 0).val; rw [hi.1]; omega
  | ⟨1, _⟩ => show win5_4.index t (1 : Fin 2) * 64 + 1 * (x 1).val = (x 1).val; rw [hi.2]; omega

/-- Window 5 stages its parameter array whole at every point. -/
theorem iblk_par5 (c : Dev nD) (t : Fin cfg5.N) :
    (iblk5 V c 5 t : Vec Ideal S64x64 .f32) = (V c main_v96 : S64x64.Idx → EReal) := by
  have hi : win5_5.index t (0 : Fin 2) = 0 ∧ win5_5.index t (1 : Fin 2) = 0 := by
    obtain ⟨e0, e1, e2, e3, e4, e5, e6, e7, e8, e9, e10, e11, e12, e13, e14, e15⟩ := idx_facts t
    exact ⟨e10, e11⟩
  funext x
  unfold iblk5
  rw [View.read_apply]
  show V c main_v96 _ = V c main_v96 _
  congr 1
  funext a
  apply Fin.ext
  match a with
  | ⟨0, _⟩ => show win5_5.index t (0 : Fin 2) * 64 + 1 * (x 0).val = (x 0).val; rw [hi.1]; omega
  | ⟨1, _⟩ => show win5_5.index t (1 : Fin 2) * 64 + 1 * (x 1).val = (x 1).val; rw [hi.2]; omega

/-- Window 6 stages its parameter array whole at every point. -/
theorem iblk_par6 (c : Dev nD) (t : Fin cfg5.N) :
    (iblk5 V c 6 t : Vec Ideal S1x64 .f32) = (V c main_v99 : S1x64.Idx → EReal) := by
  have hi : win5_6.index t (0 : Fin 2) = 0 ∧ win5_6.index t (1 : Fin 2) = 0 := by
    obtain ⟨e0, e1, e2, e3, e4, e5, e6, e7, e8, e9, e10, e11, e12, e13, e14, e15⟩ := idx_facts t
    exact ⟨e12, e13⟩
  funext x
  unfold iblk5
  rw [View.read_apply]
  show V c main_v99 _ = V c main_v99 _
  congr 1
  funext a
  apply Fin.ext
  match a with
  | ⟨0, _⟩ => show win5_6.index t (0 : Fin 2) * 1 + 1 * (x 0).val = (x 0).val; rw [hi.1]; omega
  | ⟨1, _⟩ => show win5_6.index t (1 : Fin 2) * 64 + 1 * (x 1).val = (x 1).val; rw [hi.2]; omega

/-- WHAT POINT `t` WRITES BACK is block `t` of the residual update of the arrays as the region finds them. -/
theorem flushed_eq (c : Dev nD) (t : Fin cfg5.N) :
    (dat5 (F := Ideal) V c).flushed 7 t = ((cfg5.win 7).blk t).view.read (Elt Ideal)
      (updG (R := 50000) (V c main_v69) (V c main_v87) (V c main_v90) (V c main_v91) (V c main_v94) (V c main_v96) (V c main_v99)) := by
  show (cfg5.win 7).cut (grid5.coords t) ((dat5 V c).after 7 t) = _
  rw [after5_7]
  unfold out5_7
  rw [View.canon_unit_zero hz]
  simp only [View.ld_unit_zero (S := S5000x64) hz, View.ld_unit_zero (S := S64x64) hz, View.ld_unit_zero (S := S1x64) hz]
  rw [Body.upd_pay5]
  have ho : win5_7.index t (0 : Fin 2) = t.val ∧ win5_7.index t (1 : Fin 2) = 0 := by
    obtain ⟨e0, e1, e2, e3, e4, e5, e6, e7, e8, e9, e10, e11, e12, e13, e14, e15⟩ := idx_facts t
    exact ⟨e14, e15⟩
  funext y
  show updG (R := 5000) (iblk5 V c 0 t) (iblk5 V c 1 t) (iblk5 V c 2 t) (iblk5 V c 3 t) (iblk5 V c 4 t) (iblk5 V c 5 t) (iblk5 V c 6 t) y
    = updG (R := 50000) (V c main_v69) (V c main_v87) (V c main_v90) (V c main_v91) (V c main_v94) (V c main_v96) (V c main_v99) (((cfg5.win 7).blk t).view.emb y)
  refine updG_block _ _ _ _ _ _ _ _ _ _ _ _ _ _ t.val (fun x k h0 h1 => iblk_edge0 V c t x k h0 h1) (fun x k h0 h1 => iblk_edge1 V c t x k h0 h1)
    (iblk_par2 V c t) (iblk_par3 V c t) (iblk_par4 V c t) (iblk_par5 V c t) (iblk_par6 V c t) y _ ?_ ?_
  · show win5_7.index t (0 : Fin 2) * 5000 + 1 * (y 0).val = 5000 * t.val + (y 0).val
    rw [ho.1]; omega
  · show win5_7.index t (1 : Fin 2) * 64 + 1 * (y 1).val = (y 1).val
    rw [ho.2]; omega

/-- An index of the output array is in point `t`'s block iff each coordinate is in the block's range on its axis. -/
theorem mem_blk (t : Fin cfg5.N) (i : S50000x64.Idx) :
    i ∈ ((cfg5.win 7).blk t).view.set ↔ ∀ a : Fin 2, win5_7.index t a * S5000x64.size a ≤ (i a).val ∧ (i a).val < win5_7.index t a * S5000x64.size a + S5000x64.size a := by
  show i ∈ ((View.whole main_v100).slice (win5_7.rect t)).set ↔ _
  rw [View.set_slice_whole, Rect.mem_set_unit]
  exact Iff.rfl

/-- The 10 blocks of 5000 rows tile the 50000 rows: row `e` is in the block of point `e / 5000`. -/
theorem cover (i : S50000x64.Idx) :
    ∃ t : Fin cfg5.N, (cfg5.win 7).flush t = true ∧ i ∈ ((cfg5.win 7).blk t).view.set := by
  have hi0 : (i 0).val < 50000 := (i 0).isLt
  have hi1 : (i 1).val < 64 := (i 1).isLt
  obtain ⟨t, ht⟩ : ∃ t : Fin cfg5.N, t.val = (i 0).val / 5000 :=
    ⟨⟨(i 0).val / 5000, by show (i 0).val / 5000 < grid5.N; rw [N_5]; omega⟩, rfl⟩
  have ho : win5_7.index t (0 : Fin 2) = t.val ∧ win5_7.index t (1 : Fin 2) = 0 := by
    obtain ⟨e0, e1, e2, e3, e4, e5, e6, e7, e8, e9, e10, e11, e12, e13, e14, e15⟩ := idx_facts t
    exact ⟨e14, e15⟩
  refine ⟨t, flush5_7 t, ?_⟩
  rw [mem_blk]
  intro a
  match a with
  | ⟨0, _⟩ => show win5_7.index t (0 : Fin 2) * 5000 ≤ (i 0).val ∧ (i 0).val < win5_7.index t (0 : Fin 2) * 5000 + 5000; rw [ho.1, ht]; omega
  | ⟨1, _⟩ => show win5_7.index t (1 : Fin 2) * 64 ≤ (i 1).val ∧ (i 1).val < win5_7.index t (1 : Fin 2) * 64 + 64; rw [ho.2]; omega

/-- The region's output array after its last grid point. -/
theorem value (c : Dev nD) :
    (dat5 (F := Ideal) V c).arrAt 7 cfg5.N
      = updG (R := 50000) (V c main_v69) (V c main_v87) (V c main_v90) (V c main_v91) (V c main_v94) (V c main_v96) (V c main_v99) :=
  (dat5 (F := Ideal) V c).arrAt_eq_of_cover 7
    (updG (R := 50000) (V c main_v69) (V c main_v87) (V c main_v90) (V c main_v91) (V c main_v94) (V c main_v96) (V c main_v99))
    (fun t _ => flushed_eq V c t) cover

end Cert.KernelIdeal.Region5

end
-- ==== Proof.KLayer2.lean ====
/-
  Message-passing layer 2 of the kernel's program, read off the fold of @main's segments.

  From the boundary where the layer is entered (the embedding, the two rows of the edge list and the arguments
  in place) the layer runs two gathers, a stretch of weight slices, the message region, a stretch that sums the
  messages into their targets and slices the update weights, and the update region.  Each host stretch rewrites the
  buffers it writes and leaves the rest; each region leaves its output array at the region's whole-array function
  of the arrays it found.  Read at the update region's output, the fold is `Val.layer` of the entry contents.
-/
import proofs.«406721_j71184787964017_1_alg».proof.Proof.Gen.KernelIdeal.Frame
import proofs.«406721_j71184787964017_1_alg».proof.Proof.Layers
import proofs.«406721_j71184787964017_1_alg».proof.Proof.Region4
import proofs.«406721_j71184787964017_1_alg».proof.Proof.Region5
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Val

namespace L2

/-! ## The stretches, at any contents and any float instance -/

section Stretches
variable {F : FTy → Type} [FloatOps F]

/-- A typed reference's two transports cancel. -/
theorem ofBuf_toBuf {Val : EltTy → Type} {T : BufTy} (x : TRef sig T) (v : T.Contents Val) : x.ofBuf (x.toBuf v) = v := by
  obtain ⟨r, rfl, _, _⟩ := x; rfl

/-- At a literal reference the transports are the identity. -/
theorem leaf_src (W : Valuation τ sig (Elt F)) (h1 : (main_v1 : Ref sig .tc).ty = ⟨S800000, .i32⟩) (h2 : (main_v1 : Ref sig .tc).space ≠ .host) (h3 : (main_v1 : Ref sig .tc).isScoped = false) :
    (TRef.of main_v1 h1 h2 h3 : TRef sig ⟨S800000, .i32⟩).ofBuf (W (Proc.devRef .tc main_v1)) = W (Proc.devRef .tc main_v1) := rfl
theorem leaf_dst (W : Valuation τ sig (Elt F)) (h1 : (main_v3 : Ref sig .tc).ty = ⟨S800000, .i32⟩) (h2 : (main_v3 : Ref sig .tc).space ≠ .host) (h3 : (main_v3 : Ref sig .tc).isScoped = false) :
    (TRef.of main_v3 h1 h2 h3 : TRef sig ⟨S800000, .i32⟩).ofBuf (W (Proc.devRef .tc main_v3)) = W (Proc.devRef .tc main_v3) := rfl
theorem leaf_emb (W : Valuation τ sig (Elt F)) (h1 : (main_v69 : Ref sig .tc).ty = ⟨S50000x64, .f32⟩) (h2 : (main_v69 : Ref sig .tc).space ≠ .host) (h3 : (main_v69 : Ref sig .tc).isScoped = false) :
    (TRef.of main_v69 h1 h2 h3 : TRef sig ⟨S50000x64, .f32⟩).ofBuf (W (Proc.devRef .tc main_v69)) = W (Proc.devRef .tc main_v69) := rfl
theorem root_dst (v : (⟨S800000x64, .f32⟩ : BufTy).Contents (Elt F)) (h1 : (main_v70 : Ref sig .tc).ty = ⟨S800000x64, .f32⟩) (h2 : (main_v70 : Ref sig .tc).space ≠ .host) (h3 : (main_v70 : Ref sig .tc).isScoped = false) :
    (TRef.of main_v70 h1 h2 h3 : TRef sig ⟨S800000x64, .f32⟩).toBuf v = v := rfl
theorem root_src (v : (⟨S800000x64, .f32⟩ : BufTy).Contents (Elt F)) (h1 : (main_v71 : Ref sig .tc).ty = ⟨S800000x64, .f32⟩) (h2 : (main_v71 : Ref sig .tc).space ≠ .host) (h3 : (main_v71 : Ref sig .tc).isScoped = false) :
    (TRef.of main_v71 h1 h2 h3 : TRef sig ⟨S800000x64, .f32⟩).toBuf v = v := rfl

/-- The first gather: the embedding's rows at the targets. -/
theorem take_dst (W : Valuation τ sig (Elt F)) :
    after hostOps4 W (Proc.devRef .tc main_v70) = take (W (Proc.devRef .tc main_v69)) (W (Proc.devRef .tc main_v3)) := by
  after_results_simp
  simp only [ofBuf_toBuf, leaf_dst, leaf_emb, root_dst]
  unfold take inBounds wrap
  rfl
/-- The second gather: the embedding's rows at the sources. -/
theorem take_src (W : Valuation τ sig (Elt F)) :
    after hostOps4_1 W (Proc.devRef .tc main_v71) = take (W (Proc.devRef .tc main_v69)) (W (Proc.devRef .tc main_v1)) := by
  after_results_simp
  simp only [ofBuf_toBuf, leaf_src, leaf_emb, root_src]
  unfold take inBounds wrap
  rfl

/-- The message perceptron's parameters, sliced out of the stacked arguments. -/
theorem msg_w1lo (W : Valuation τ sig (Elt F)) :
    after hostOps4_2 W (Proc.devRef .tc main_v74) = lo (w128_2 (W (Proc.devRef .tc main_arg5))) := by
  unfold lo w128_2; after_results_simp; rfl
theorem msg_w1hi (W : Valuation τ sig (Elt F)) :
    after hostOps4_2 W (Proc.devRef .tc main_v75) = hi (w128_2 (W (Proc.devRef .tc main_arg5))) := by
  unfold hi w128_2; after_results_simp; rfl
theorem msg_c1 (W : Valuation τ sig (Elt F)) :
    after hostOps4_2 W (Proc.devRef .tc main_v78) = asRow (v64_2 (W (Proc.devRef .tc main_arg6))) := by
  unfold asRow v64_2; after_results_simp; rfl
theorem msg_w2 (W : Valuation τ sig (Elt F)) :
    after hostOps4_2 W (Proc.devRef .tc main_v80) = w64_2 (W (Proc.devRef .tc main_arg7)) := by
  unfold w64_2; after_results_simp; rfl
theorem msg_c2 (W : Valuation τ sig (Elt F)) :
    after hostOps4_2 W (Proc.devRef .tc main_v83) = asRow (v64_2 (W (Proc.devRef .tc main_arg8))) := by
  unfold asRow v64_2; after_results_simp; rfl

/-- The messages summed into their targets, and the update perceptron's parameters. -/
theorem agg (W : Valuation τ sig (Elt F)) :
    after hostOps5 W (Proc.devRef .tc main_v87) = aggregate (W (Proc.devRef .tc main_v3)) (W (Proc.devRef .tc main_v84)) := by
  unfold aggregate; after_results_simp
theorem upd_w1lo (W : Valuation τ sig (Elt F)) :
    after hostOps5 W (Proc.devRef .tc main_v90) = lo (w128_2 (W (Proc.devRef .tc main_arg9))) := by
  unfold lo w128_2; after_results_simp; rfl
theorem upd_w1hi (W : Valuation τ sig (Elt F)) :
    after hostOps5 W (Proc.devRef .tc main_v91) = hi (w128_2 (W (Proc.devRef .tc main_arg9))) := by
  unfold hi w128_2; after_results_simp; rfl
theorem upd_c1 (W : Valuation τ sig (Elt F)) :
    after hostOps5 W (Proc.devRef .tc main_v94) = asRow (v64_2 (W (Proc.devRef .tc main_arg10))) := by
  unfold asRow v64_2; after_results_simp; rfl
theorem upd_w2 (W : Valuation τ sig (Elt F)) :
    after hostOps5 W (Proc.devRef .tc main_v96) = w64_2 (W (Proc.devRef .tc main_arg11)) := by
  unfold w64_2; after_results_simp; rfl
theorem upd_c2 (W : Valuation τ sig (Elt F)) :
    after hostOps5 W (Proc.devRef .tc main_v99) = asRow (v64_2 (W (Proc.devRef .tc main_arg12))) := by
  unfold asRow v64_2; after_results_simp; rfl

/-! ### What each stretch leaves alone -/

/-- A reference in a list is, as a device buffer, in the list's image. -/
theorem sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- The references `hostOps4` writes. -/
def wrA : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v70]
theorem hWA : (hostOps4 : List (HloOp τ sig (Elt F))).Forall fun op => op.writes ⊆ (wrA.map (Proc.devRef (τ := τ) .tc)).toFinset := by
  simp only [hostOps4, List.Forall, nullary_writes, unary_writes, binary_writes, ternary_writes, quaternary_writes, reshape_writes]
  repeat' apply And.intro
  all_goals exact sub_of_mem (by decide)
/-- `hostOps4` leaves every other reference as it was. -/
theorem keepA (W : Valuation τ sig (Elt F)) (r : Ref sig .tc) (hr : r ∉ wrA) :
    after hostOps4 W (Proc.devRef .tc r) = W (Proc.devRef .tc r) := after_of_writes_sub hostOps4 W hWA hr

/-- The references `hostOps4_1` writes. -/
def wrB : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v71]
theorem hWB : (hostOps4_1 : List (HloOp τ sig (Elt F))).Forall fun op => op.writes ⊆ (wrB.map (Proc.devRef (τ := τ) .tc)).toFinset := by
  simp only [hostOps4_1, List.Forall, nullary_writes, unary_writes, binary_writes, ternary_writes, quaternary_writes, reshape_writes]
  repeat' apply And.intro
  all_goals exact sub_of_mem (by decide)
/-- `hostOps4_1` leaves every other reference as it was. -/
theorem keepB (W : Valuation τ sig (Elt F)) (r : Ref sig .tc) (hr : r ∉ wrB) :
    after hostOps4_1 W (Proc.devRef .tc r) = W (Proc.devRef .tc r) := after_of_writes_sub hostOps4_1 W hWB hr

/-- The references `hostOps4_2` writes. -/
def wrC : List (Ref sig .tc) := [main_v72, main_v73, main_v74, main_v75, main_v76, main_v77, main_v78, main_v79, main_v80, main_v81, main_v82, main_v83]
theorem hWC : (hostOps4_2 : List (HloOp τ sig (Elt F))).Forall fun op => op.writes ⊆ (wrC.map (Proc.devRef (τ := τ) .tc)).toFinset := by
  simp only [hostOps4_2, List.Forall, nullary_writes, unary_writes, binary_writes, ternary_writes, quaternary_writes, reshape_writes]
  repeat' apply And.intro
  all_goals exact sub_of_mem (by decide)
/-- `hostOps4_2` leaves every other reference as it was. -/
theorem keepC (W : Valuation τ sig (Elt F)) (r : Ref sig .tc) (hr : r ∉ wrC) :
    after hostOps4_2 W (Proc.devRef .tc r) = W (Proc.devRef .tc r) := after_of_writes_sub hostOps4_2 W hWC hr

/-- The references `hostOps5` writes. -/
def wrD : List (Ref sig .tc) := [main_cst_1, main_v85, main_v86, main_v87, main_v88, main_v89, main_v90, main_v91, main_v92, main_v93, main_v94, main_v95, main_v96, main_v97, main_v98, main_v99]
theorem hWD : (hostOps5 : List (HloOp τ sig (Elt F))).Forall fun op => op.writes ⊆ (wrD.map (Proc.devRef (τ := τ) .tc)).toFinset := by
  simp only [hostOps5, List.Forall, nullary_writes, unary_writes, binary_writes, ternary_writes, quaternary_writes, reshape_writes]
  repeat' apply And.intro
  all_goals exact sub_of_mem (by decide)
/-- `hostOps5` leaves every other reference as it was. -/
theorem keepD (W : Valuation τ sig (Elt F)) (r : Ref sig .tc) (hr : r ∉ wrD) :
    after hostOps5 W (Proc.devRef .tc r) = W (Proc.devRef .tc r) := after_of_writes_sub hostOps5 W hWD hr

end Stretches

/-! ## The fold through the layer's six segments, at the exact values -/

section Fold
variable (m : (ℓ : Loc nD τ sig) → Buf (Elt Ideal) ℓ) (ρ : Dev nD → PrngReg) (c : Dev nD)

/-- A reference no segment so far writes holds what it held at the layer's entry. -/
theorem k2 (r : Ref sig .tc) (hA : r ∉ wrA) : W14 (F := Ideal) m ρ c (Proc.devRef .tc r) = W13 (F := Ideal) m ρ c (Proc.devRef .tc r) := keepA (W13 m ρ c) r hA
theorem k3 (r : Ref sig .tc) (hA : r ∉ wrA) (hB : r ∉ wrB) : W15 (F := Ideal) m ρ c (Proc.devRef .tc r) = W13 (F := Ideal) m ρ c (Proc.devRef .tc r) :=
  (keepB (W14 m ρ c) r hB).trans (k2 m ρ c r hA)
theorem k4 (r : Ref sig .tc) (hA : r ∉ wrA) (hB : r ∉ wrB) (hC : r ∉ wrC) : W16 (F := Ideal) m ρ c (Proc.devRef .tc r) = W13 (F := Ideal) m ρ c (Proc.devRef .tc r) :=
  (keepC (W15 m ρ c) r hC).trans (k3 m ρ c r hA hB)
theorem k5 (r : Ref sig .tc) (hA : r ∉ wrA) (hB : r ∉ wrB) (hC : r ∉ wrC) (h0 : ∀ w, Pipeline.arrRef spec4 w ≠ r) :
    W17 (F := Ideal) m ρ c (Proc.devRef .tc r) = W13 (F := Ideal) m ρ c (Proc.devRef .tc r) :=
  (W17_of_ne m ρ c r h0).trans (k4 m ρ c r hA hB hC)
theorem k6 (r : Ref sig .tc) (hA : r ∉ wrA) (hB : r ∉ wrB) (hC : r ∉ wrC) (h0 : ∀ w, Pipeline.arrRef spec4 w ≠ r) (hD : r ∉ wrD) :
    W18 (F := Ideal) m ρ c (Proc.devRef .tc r) = W13 (F := Ideal) m ρ c (Proc.devRef .tc r) :=
  (keepD (W17 m ρ c) r hD).trans (k5 m ρ c r hA hB hC h0)

/-! ### The message region's seven arrays when it is entered -/

theorem b4_dst : W16 (F := Ideal) m ρ c (Proc.devRef .tc main_v70) = take (F := Ideal) (W13 (F := Ideal) m ρ c (Proc.devRef .tc main_v69)) (W13 (F := Ideal) m ρ c (Proc.devRef .tc main_v3)) :=
  (keepC (W15 m ρ c) main_v70 (by decide)).trans ((keepB (W14 m ρ c) main_v70 (by decide)).trans (take_dst (W13 m ρ c)))
theorem b4_src : W16 (F := Ideal) m ρ c (Proc.devRef .tc main_v71) = take (F := Ideal) (W13 (F := Ideal) m ρ c (Proc.devRef .tc main_v69)) (W13 (F := Ideal) m ρ c (Proc.devRef .tc main_v1)) :=
  (keepC (W15 m ρ c) main_v71 (by decide)).trans ((take_src (W14 m ρ c)).trans (by rw [k2 m ρ c main_v69 (by decide), k2 m ρ c main_v1 (by decide)]))
theorem b4_w1lo : W16 (F := Ideal) m ρ c (Proc.devRef .tc main_v74) = lo (F := Ideal) (w128_2 (F := Ideal) (W13 (F := Ideal) m ρ c (Proc.devRef .tc main_arg5))) :=
  (msg_w1lo (W15 m ρ c)).trans (by rw [k3 m ρ c main_arg5 (by decide) (by decide)])
theorem b4_w1hi : W16 (F := Ideal) m ρ c (Proc.devRef .tc main_v75) = hi (F := Ideal) (w128_2 (F := Ideal) (W13 (F := Ideal) m ρ c (Proc.devRef .tc main_arg5))) :=
  (msg_w1hi (W15 m ρ c)).trans (by rw [k3 m ρ c main_arg5 (by decide) (by decide)])
theorem b4_c1 : W16 (F := Ideal) m ρ c (Proc.devRef .tc main_v78) = asRow (F := Ideal) (v64_2 (F := Ideal) (W13 (F := Ideal) m ρ c (Proc.devRef .tc main_arg6))) :=
  (msg_c1 (W15 m ρ c)).trans (by rw [k3 m ρ c main_arg6 (by decide) (by decide)])
theorem b4_w2 : W16 (F := Ideal) m ρ c (Proc.devRef .tc main_v80) = w64_2 (F := Ideal) (W13 (F := Ideal) m ρ c (Proc.devRef .tc main_arg7)) :=
  (msg_w2 (W15 m ρ c)).trans (by rw [k3 m ρ c main_arg7 (by decide) (by decide)])
theorem b4_c2 : W16 (F := Ideal) m ρ c (Proc.devRef .tc main_v83) = asRow (F := Ideal) (v64_2 (F := Ideal) (W13 (F := Ideal) m ρ c (Proc.devRef .tc main_arg8))) :=
  (msg_c2 (W15 m ρ c)).trans (by rw [k3 m ρ c main_arg8 (by decide) (by decide)])

/-- The message region's output array is the messages' whole-array function of the arrays it found. -/
theorem r0 : W17 (F := Ideal) m ρ c (Proc.devRef .tc main_v84)
    = Cert.Spec.msgG (R := 800000) (W16 (F := Ideal) m ρ c (Proc.devRef .tc main_v70)) (W16 (F := Ideal) m ρ c (Proc.devRef .tc main_v71)) (W16 (F := Ideal) m ρ c (Proc.devRef .tc main_v74)) (W16 (F := Ideal) m ρ c (Proc.devRef .tc main_v75))
        (W16 (F := Ideal) m ρ c (Proc.devRef .tc main_v78)) (W16 (F := Ideal) m ρ c (Proc.devRef .tc main_v80)) (W16 (F := Ideal) m ρ c (Proc.devRef .tc main_v83)) :=
  (W17_arr m ρ c 7).trans (Region4.value (V16 m ρ) c)
theorem b5_msg : W17 (F := Ideal) m ρ c (Proc.devRef .tc main_v84) = (Cert.Spec.msgG (R := 800000) (take (F := Ideal) (W13 (F := Ideal) m ρ c (Proc.devRef .tc main_v69)) (W13 (F := Ideal) m ρ c (Proc.devRef .tc main_v3))) (take (F := Ideal) (W13 (F := Ideal) m ρ c (Proc.devRef .tc main_v69)) (W13 (F := Ideal) m ρ c (Proc.devRef .tc main_v1))) (lo (F := Ideal) (w128_2 (F := Ideal) (W13 (F := Ideal) m ρ c (Proc.devRef .tc main_arg5)))) (hi (F := Ideal) (w128_2 (F := Ideal) (W13 (F := Ideal) m ρ c (Proc.devRef .tc main_arg5)))) (asRow (F := Ideal) (v64_2 (F := Ideal) (W13 (F := Ideal) m ρ c (Proc.devRef .tc main_arg6)))) (w64_2 (F := Ideal) (W13 (F := Ideal) m ρ c (Proc.devRef .tc main_arg7))) (asRow (F := Ideal) (v64_2 (F := Ideal) (W13 (F := Ideal) m ρ c (Proc.devRef .tc main_arg8))))) :=
  (r0 m ρ c).trans (by rw [b4_dst m ρ c, b4_src m ρ c, b4_w1lo m ρ c, b4_w1hi m ρ c, b4_c1 m ρ c, b4_w2 m ρ c, b4_c2 m ρ c])

/-! ### The update region's seven arrays when it is entered -/

theorem b6_agg : W18 (F := Ideal) m ρ c (Proc.devRef .tc main_v87) = aggregate (F := Ideal) (W13 (F := Ideal) m ρ c (Proc.devRef .tc main_v3)) (Cert.Spec.msgG (R := 800000) (take (F := Ideal) (W13 (F := Ideal) m ρ c (Proc.devRef .tc main_v69)) (W13 (F := Ideal) m ρ c (Proc.devRef .tc main_v3))) (take (F := Ideal) (W13 (F := Ideal) m ρ c (Proc.devRef .tc main_v69)) (W13 (F := Ideal) m ρ c (Proc.devRef .tc main_v1))) (lo (F := Ideal) (w128_2 (F := Ideal) (W13 (F := Ideal) m ρ c (Proc.devRef .tc main_arg5)))) (hi (F := Ideal) (w128_2 (F := Ideal) (W13 (F := Ideal) m ρ c (Proc.devRef .tc main_arg5)))) (asRow (F := Ideal) (v64_2 (F := Ideal) (W13 (F := Ideal) m ρ c (Proc.devRef .tc main_arg6)))) (w64_2 (F := Ideal) (W13 (F := Ideal) m ρ c (Proc.devRef .tc main_arg7))) (asRow (F := Ideal) (v64_2 (F := Ideal) (W13 (F := Ideal) m ρ c (Proc.devRef .tc main_arg8))))) :=
  (agg (W17 m ρ c)).trans (by rw [k5 m ρ c main_v3 (by decide) (by decide) (by decide) (by decide), b5_msg m ρ c])
theorem b6_w1lo : W18 (F := Ideal) m ρ c (Proc.devRef .tc main_v90) = lo (F := Ideal) (w128_2 (F := Ideal) (W13 (F := Ideal) m ρ c (Proc.devRef .tc main_arg9))) :=
  (upd_w1lo (W17 m ρ c)).trans (by rw [k5 m ρ c main_arg9 (by decide) (by decide) (by decide) (by decide)])
theorem b6_w1hi : W18 (F := Ideal) m ρ c (Proc.devRef .tc main_v91) = hi (F := Ideal) (w128_2 (F := Ideal) (W13 (F := Ideal) m ρ c (Proc.devRef .tc main_arg9))) :=
  (upd_w1hi (W17 m ρ c)).trans (by rw [k5 m ρ c main_arg9 (by decide) (by decide) (by decide) (by decide)])
theorem b6_c1 : W18 (F := Ideal) m ρ c (Proc.devRef .tc main_v94) = asRow (F := Ideal) (v64_2 (F := Ideal) (W13 (F := Ideal) m ρ c (Proc.devRef .tc main_arg10))) :=
  (upd_c1 (W17 m ρ c)).trans (by rw [k5 m ρ c main_arg10 (by decide) (by decide) (by decide) (by decide)])
theorem b6_w2 : W18 (F := Ideal) m ρ c (Proc.devRef .tc main_v96) = w64_2 (F := Ideal) (W13 (F := Ideal) m ρ c (Proc.devRef .tc main_arg11)) :=
  (upd_w2 (W17 m ρ c)).trans (by rw [k5 m ρ c main_arg11 (by decide) (by decide) (by decide) (by decide)])
theorem b6_c2 : W18 (F := Ideal) m ρ c (Proc.devRef .tc main_v99) = asRow (F := Ideal) (v64_2 (F := Ideal) (W13 (F := Ideal) m ρ c (Proc.devRef .tc main_arg12))) :=
  (upd_c2 (W17 m ρ c)).trans (by rw [k5 m ρ c main_arg12 (by decide) (by decide) (by decide) (by decide)])

/-- The update region's output array is the update's whole-array function of the arrays it found. -/
theorem r1 : W19 (F := Ideal) m ρ c (Proc.devRef .tc main_v100)
    = Cert.Spec.updG (R := 50000) (W18 (F := Ideal) m ρ c (Proc.devRef .tc main_v69)) (W18 (F := Ideal) m ρ c (Proc.devRef .tc main_v87)) (W18 (F := Ideal) m ρ c (Proc.devRef .tc main_v90)) (W18 (F := Ideal) m ρ c (Proc.devRef .tc main_v91))
        (W18 (F := Ideal) m ρ c (Proc.devRef .tc main_v94)) (W18 (F := Ideal) m ρ c (Proc.devRef .tc main_v96)) (W18 (F := Ideal) m ρ c (Proc.devRef .tc main_v99)) :=
  (W19_arr m ρ c 7).trans (Region5.value (V18 m ρ) c)

end Fold

end L2

variable (m : (ℓ : Loc nD τ sig) → Buf (Elt Ideal) ℓ) (ρ : Dev nD → PrngReg)

/-- The layer's new embedding is `Val.layer` of the embedding, the edge rows and the parameters it was entered with. -/
theorem layer2 (c : Dev nD) : W19 (F := Ideal) m ρ c (Proc.devRef .tc main_v100) = layer (W13 m ρ c (Proc.devRef .tc main_v69)) (W13 m ρ c (Proc.devRef .tc main_v1)) (W13 m ρ c (Proc.devRef .tc main_v3)) (w128_2 (W13 m ρ c (Proc.devRef .tc main_arg5))) (v64_2 (W13 m ρ c (Proc.devRef .tc main_arg6))) (w64_2 (W13 m ρ c (Proc.devRef .tc main_arg7))) (v64_2 (W13 m ρ c (Proc.devRef .tc main_arg8))) (w128_2 (W13 m ρ c (Proc.devRef .tc main_arg9))) (v64_2 (W13 m ρ c (Proc.devRef .tc main_arg10))) (w64_2 (W13 m ρ c (Proc.devRef .tc main_arg11))) (v64_2 (W13 m ρ c (Proc.devRef .tc main_arg12))) :=
  (L2.r1 m ρ c).trans (by
    rw [L2.k6 m ρ c main_v69 (by decide) (by decide) (by decide) (by decide) (by decide), L2.b6_agg m ρ c, L2.b6_w1lo m ρ c, L2.b6_w1hi m ρ c, L2.b6_c1 m ρ c, L2.b6_w2 m ρ c, L2.b6_c2 m ρ c]
    rfl)

end Cert.KernelIdeal.Chain

end
-- ==== Proof.Region6.lean ====
/-
  A message region's output array (region 6 of the program).

  The region's grid has 125 points; point `t` stages rows `6400 t … 6400 t + 6399` of its two edge-feature arrays and
  the perceptron's parameters whole, and writes rows `6400 t … 6400 t + 6399` of its output.  Rows of the perceptron
  are independent, so what point `t` writes back is block `t` of the whole-array function `Cert.Spec.msgG` of the
  arrays as the region finds them; the 125 blocks tile the 800000 rows, so the output array ends holding that function.
  Everything here is stated at a PARAMETER `V`, the buffer contents when the region is entered.
-/
import proofs.«406721_j71184787964017_1_alg».proof.Proof.Gen.KernelIdeal.Frame
import proofs.«406721_j71184787964017_1_alg».proof.Proof.Body
import Idealize.ShloMosaic.Lib.Pipeline.Value

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the two edge-feature windows and the output window at block
    `(t, 0)`, the five parameter windows at block `(0, 0)`. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Rows are independent: the perceptron over a block of rows, at an entry of row `y 0`, is the perceptron over the
    whole arrays at the entry `i` of the row that block row is, when the block's rows are the arrays' rows from
    `6400 t` on and the parameters are the same. -/
theorem msgG_block (A B : S800000x64.Idx → EReal) (Wa Wb : S64x64.Idx → EReal) (C1 : S1x64.Idx → EReal)
    (W2 : S64x64.Idx → EReal) (C2 : S1x64.Idx → EReal)
    (a b : Vec Ideal S6400x64 .f32) (wa wb : Vec Ideal S64x64 .f32) (c1 : Vec Ideal S1x64 .f32)
    (w2 : Vec Ideal S64x64 .f32) (c2 : Vec Ideal S1x64 .f32) (t : Nat)
    (ha : ∀ (x : S6400x64.Idx) (k : S800000x64.Idx), (k 0).val = 6400 * t + (x 0).val → (k 1).val = (x 1).val → a x = A k)
    (hb : ∀ (x : S6400x64.Idx) (k : S800000x64.Idx), (k 0).val = 6400 * t + (x 0).val → (k 1).val = (x 1).val → b x = B k)
    (hwa : wa = Wa) (hwb : wb = Wb) (hc1 : c1 = C1) (hw2 : w2 = W2) (hc2 : c2 = C2)
    (y : S6400x64.Idx) (i : S800000x64.Idx) (hi0 : (i 0).val = 6400 * t + (y 0).val) (hi1 : (i 1).val = (y 1).val) :
    msgG (R := 6400) a b wa wb c1 w2 c2 y = msgG (R := 800000) A B Wa Wb C1 W2 C2 i := by
  subst hwa hwb hc1 hw2 hc2
  obtain ⟨r, j, rfl⟩ : ∃ (r : Fin 6400) (j : Fin 64), y = ix2 r j := ⟨y 0, y 1, eq_ix2 y⟩
  obtain ⟨r', j', rfl⟩ : ∃ (r' : Fin 800000) (j' : Fin 64), i = ix2 r' j' := ⟨i 0, i 1, eq_ix2 i⟩
  have hj : j' = j := Fin.ext hi1
  subst hj
  rw [msgG_ix2, msgG_ix2]
  have e1 : row a r = row A r' := funext fun p => ha (ix2 r p) (ix2 r' p) hi0 rfl
  have e2 : row b r = row B r' := funext fun p => hb (ix2 r p) (ix2 r' p) hi0 rfl
  rw [e1, e2]

/-- Window 0's block at point `t` is rows `6400 t … 6400 t + 6399` of its array. -/
theorem iblk_edge0 (c : Dev nD) (t : Fin cfg6.N) (x : S6400x64.Idx) (k : S800000x64.Idx)
    (hk0 : (k 0).val = 6400 * t.val + (x 0).val) (hk1 : (k 1).val = (x 1).val) :
    (iblk6 V c 0 t : Vec Ideal S6400x64 .f32) x = (V c main_v101 : S800000x64.Idx → EReal) k := by
  have hi : win6_0.index t (0 : Fin 2) = t.val ∧ win6_0.index t (1 : Fin 2) = 0 := by
    obtain ⟨e0, e1, e2, e3, e4, e5, e6, e7, e8, e9, e10, e11, e12, e13, e14, e15⟩ := idx_facts t
    exact ⟨e0, e1⟩
  unfold iblk6
  rw [View.read_apply]
  show V c main_v101 _ = V c main_v101 _
  congr 1
  funext a
  apply Fin.ext
  match a with
  | ⟨0, _⟩ => show win6_0.index t (0 : Fin 2) * 6400 + 1 * (x 0).val = (k 0).val; rw [hi.1, hk0]; omega
  | ⟨1, _⟩ => show win6_0.index t (1 : Fin 2) * 64 + 1 * (x 1).val = (k 1).val; rw [hi.2, hk1]; omega

/-- Window 1's block at point `t` is rows `6400 t … 6400 t + 6399` of its array. -/
theorem iblk_edge1 (c : Dev nD) (t : Fin cfg6.N) (x : S6400x64.Idx) (k : S800000x64.Idx)
    (hk0 : (k 0).val = 6400 * t.val + (x 0).val) (hk1 : (k 1).val = (x 1).val) :
    (iblk6 V c 1 t : Vec Ideal S6400x64 .f32) x = (V c main_v102 : S800000x64.Idx → EReal) k := by
  have hi : win6_1.index t (0 : Fin 2) = t.val ∧ win6_1.index t (1 : Fin 2) = 0 := by
    obtain ⟨e0, e1, e2, e3, e4, e5, e6, e7, e8, e9, e10, e11, e12, e13, e14, e15⟩ := idx_facts t
    exact ⟨e2, e3⟩
  unfold iblk6
  rw [View.read_apply]
  show V c main_v102 _ = V c main_v102 _
  congr 1
  funext a
  apply Fin.ext
  match a with
  | ⟨0, _⟩ => show win6_1.index t (0 : Fin 2) * 6400 + 1 * (x 0).val = (k 0).val; rw [hi.1, hk0]; omega
  | ⟨1, _⟩ => show win6_1.index t (1 : Fin 2) * 64 + 1 * (x 1).val = (k 1).val; rw [hi.2, hk1]; omega

/-- Window 2 stages its parameter array whole at every point. -/
theorem iblk_par2 (c : Dev nD) (t : Fin cfg6.N) :
    (iblk6 V c 2 t : Vec Ideal S64x64 .f32) = (V c main_v105 : S64x64.Idx → EReal) := by
  have hi : win6_2.index t (0 : Fin 2) = 0 ∧ win6_2.index t (1 : Fin 2) = 0 := by
    obtain ⟨e0, e1, e2, e3, e4, e5, e6, e7, e8, e9, e10, e11, e12, e13, e14, e15⟩ := idx_facts t
    exact ⟨e4, e5⟩
  funext x
  unfold iblk6
  rw [View.read_apply]
  show V c main_v105 _ = V c main_v105 _
  congr 1
  funext a
  apply Fin.ext
  match a with
  | ⟨0, _⟩ => show win6_2.index t (0 : Fin 2) * 64 + 1 * (x 0).val = (x 0).val; rw [hi.1]; omega
  | ⟨1, _⟩ => show win6_2.index t (1 : Fin 2) * 64 + 1 * (x 1).val = (x 1).val; rw [hi.2]; omega

/-- Window 3 stages its parameter array whole at every point. -/
theorem iblk_par3 (c : Dev nD) (t : Fin cfg6.N) :
    (iblk6 V c 3 t : Vec Ideal S64x64 .f32) = (V c main_v106 : S64x64.Idx → EReal) := by
  have hi : win6_3.index t (0 : Fin 2) = 0 ∧ win6_3.index t (1 : Fin 2) = 0 := by
    obtain ⟨e0, e1, e2, e3, e4, e5, e6, e7, e8, e9, e10, e11, e12, e13, e14, e15⟩ := idx_facts t
    exact ⟨e6, e7⟩
  funext x
  unfold iblk6
  rw [View.read_apply]
  show V c main_v106 _ = V c main_v106 _
  congr 1
  funext a
  apply Fin.ext
  match a with
  | ⟨0, _⟩ => show win6_3.index t (0 : Fin 2) * 64 + 1 * (x 0).val = (x 0).val; rw [hi.1]; omega
  | ⟨1, _⟩ => show win6_3.index t (1 : Fin 2) * 64 + 1 * (x 1).val = (x 1).val; rw [hi.2]; omega

/-- Window 4 stages its parameter array whole at every point. -/
theorem iblk_par4 (c : Dev nD) (t : Fin cfg6.N) :
    (iblk6 V c 4 t : Vec Ideal S1x64 .f32) = (V c main_v109 : S1x64.Idx → EReal) := by
  have hi : win6_4.index t (0 : Fin 2) = 0 ∧ win6_4.index t (1 : Fin 2) = 0 := by
    obtain ⟨e0, e1, e2, e3, e4, e5, e6, e7, e8, e9, e10, e11, e12, e13, e14, e15⟩ := idx_facts t
    exact ⟨e8, e9⟩
  funext x
  unfold iblk6
  rw [View.read_apply]
  show V c main_v109 _ = V c main_v109 _
  congr 1
  funext a
  apply Fin.ext
  match a with
  | ⟨0, _⟩ => show win6_4.index t (0 : Fin 2) * 1 + 1 * (x 0).val = (x 0).val; rw [hi.1]; omega
  | ⟨1, _⟩ => show win6_4.index t (1 : Fin 2) * 64 + 1 * (x 1).val = (x 1).val; rw [hi.2]; omega

/-- Window 5 stages its parameter array whole at every point. -/
theorem iblk_par5 (c : Dev nD) (t : Fin cfg6.N) :
    (iblk6 V c 5 t : Vec Ideal S64x64 .f32) = (V c main_v111 : S64x64.Idx → EReal) := by
  have hi : win6_5.index t (0 : Fin 2) = 0 ∧ win6_5.index t (1 : Fin 2) = 0 := by
    obtain ⟨e0, e1, e2, e3, e4, e5, e6, e7, e8, e9, e10, e11, e12, e13, e14, e15⟩ := idx_facts t
    exact ⟨e10, e11⟩
  funext x
  unfold iblk6
  rw [View.read_apply]
  show V c main_v111 _ = V c main_v111 _
  congr 1
  funext a
  apply Fin.ext
  match a with
  | ⟨0, _⟩ => show win6_5.index t (0 : Fin 2) * 64 + 1 * (x 0).val = (x 0).val; rw [hi.1]; omega
  | ⟨1, _⟩ => show win6_5.index t (1 : Fin 2) * 64 + 1 * (x 1).val = (x 1).val; rw [hi.2]; omega

/-- Window 6 stages its parameter array whole at every point. -/
theorem iblk_par6 (c : Dev nD) (t : Fin cfg6.N) :
    (iblk6 V c 6 t : Vec Ideal S1x64 .f32) = (V c main_v114 : S1x64.Idx → EReal) := by
  have hi : win6_6.index t (0 : Fin 2) = 0 ∧ win6_6.index t (1 : Fin 2) = 0 := by
    obtain ⟨e0, e1, e2, e3, e4, e5, e6, e7, e8, e9, e10, e11, e12, e13, e14, e15⟩ := idx_facts t
    exact ⟨e12, e13⟩
  funext x
  unfold iblk6
  rw [View.read_apply]
  show V c main_v114 _ = V c main_v114 _
  congr 1
  funext a
  apply Fin.ext
  match a with
  | ⟨0, _⟩ => show win6_6.index t (0 : Fin 2) * 1 + 1 * (x 0).val = (x 0).val; rw [hi.1]; omega
  | ⟨1, _⟩ => show win6_6.index t (1 : Fin 2) * 64 + 1 * (x 1).val = (x 1).val; rw [hi.2]; omega

/-- WHAT POINT `t` WRITES BACK is block `t` of the perceptron of the arrays as the region finds them. -/
theorem flushed_eq (c : Dev nD) (t : Fin cfg6.N) :
    (dat6 (F := Ideal) V c).flushed 7 t = ((cfg6.win 7).blk t).view.read (Elt Ideal)
      (msgG (R := 800000) (V c main_v101) (V c main_v102) (V c main_v105) (V c main_v106) (V c main_v109) (V c main_v111) (V c main_v114)) := by
  show (cfg6.win 7).cut (grid6.coords t) ((dat6 V c).after 7 t) = _
  rw [after6_7]
  unfold out6_7
  rw [View.canon_unit_zero hz]
  simp only [View.ld_unit_zero (S := S6400x64) hz, View.ld_unit_zero (S := S64x64) hz, View.ld_unit_zero (S := S1x64) hz]
  rw [Body.edge_pay6]
  have ho : win6_7.index t (0 : Fin 2) = t.val ∧ win6_7.index t (1 : Fin 2) = 0 := by
    obtain ⟨e0, e1, e2, e3, e4, e5, e6, e7, e8, e9, e10, e11, e12, e13, e14, e15⟩ := idx_facts t
    exact ⟨e14, e15⟩
  funext y
  show msgG (R := 6400) (iblk6 V c 0 t) (iblk6 V c 1 t) (iblk6 V c 2 t) (iblk6 V c 3 t) (iblk6 V c 4 t) (iblk6 V c 5 t) (iblk6 V c 6 t) y
    = msgG (R := 800000) (V c main_v101) (V c main_v102) (V c main_v105) (V c main_v106) (V c main_v109) (V c main_v111) (V c main_v114) (((cfg6.win 7).blk t).view.emb y)
  refine msgG_block _ _ _ _ _ _ _ _ _ _ _ _ _ _ t.val (fun x k h0 h1 => iblk_edge0 V c t x k h0 h1) (fun x k h0 h1 => iblk_edge1 V c t x k h0 h1)
    (iblk_par2 V c t) (iblk_par3 V c t) (iblk_par4 V c t) (iblk_par5 V c t) (iblk_par6 V c t) y _ ?_ ?_
  · show win6_7.index t (0 : Fin 2) * 6400 + 1 * (y 0).val = 6400 * t.val + (y 0).val
    rw [ho.1]; omega
  · show win6_7.index t (1 : Fin 2) * 64 + 1 * (y 1).val = (y 1).val
    rw [ho.2]; omega

/-- An index of the output array is in point `t`'s block iff each coordinate is in the block's range on its axis. -/
theorem mem_blk (t : Fin cfg6.N) (i : S800000x64.Idx) :
    i ∈ ((cfg6.win 7).blk t).view.set ↔ ∀ a : Fin 2, win6_7.index t a * S6400x64.size a ≤ (i a).val ∧ (i a).val < win6_7.index t a * S6400x64.size a + S6400x64.size a := by
  show i ∈ ((View.whole main_v115).slice (win6_7.rect t)).set ↔ _
  rw [View.set_slice_whole, Rect.mem_set_unit]
  exact Iff.rfl

/-- The 125 blocks of 6400 rows tile the 800000 rows: row `e` is in the block of point `e / 6400`. -/
theorem cover (i : S800000x64.Idx) :
    ∃ t : Fin cfg6.N, (cfg6.win 7).flush t = true ∧ i ∈ ((cfg6.win 7).blk t).view.set := by
  have hi0 : (i 0).val < 800000 := (i 0).isLt
  have hi1 : (i 1).val < 64 := (i 1).isLt
  obtain ⟨t, ht⟩ : ∃ t : Fin cfg6.N, t.val = (i 0).val / 6400 :=
    ⟨⟨(i 0).val / 6400, by show (i 0).val / 6400 < grid6.N; rw [N_6]; omega⟩, rfl⟩
  have ho : win6_7.index t (0 : Fin 2) = t.val ∧ win6_7.index t (1 : Fin 2) = 0 := by
    obtain ⟨e0, e1, e2, e3, e4, e5, e6, e7, e8, e9, e10, e11, e12, e13, e14, e15⟩ := idx_facts t
    exact ⟨e14, e15⟩
  refine ⟨t, flush6_7 t, ?_⟩
  rw [mem_blk]
  intro a
  match a with
  | ⟨0, _⟩ => show win6_7.index t (0 : Fin 2) * 6400 ≤ (i 0).val ∧ (i 0).val < win6_7.index t (0 : Fin 2) * 6400 + 6400; rw [ho.1, ht]; omega
  | ⟨1, _⟩ => show win6_7.index t (1 : Fin 2) * 64 ≤ (i 1).val ∧ (i 1).val < win6_7.index t (1 : Fin 2) * 64 + 64; rw [ho.2]; omega

/-- The region's output array after its last grid point. -/
theorem value (c : Dev nD) :
    (dat6 (F := Ideal) V c).arrAt 7 cfg6.N
      = msgG (R := 800000) (V c main_v101) (V c main_v102) (V c main_v105) (V c main_v106) (V c main_v109) (V c main_v111) (V c main_v114) :=
  (dat6 (F := Ideal) V c).arrAt_eq_of_cover 7
    (msgG (R := 800000) (V c main_v101) (V c main_v102) (V c main_v105) (V c main_v106) (V c main_v109) (V c main_v111) (V c main_v114))
    (fun t _ => flushed_eq V c t) cover

end Cert.KernelIdeal.Region6

end
-- ==== Proof.Region7.lean ====
/-
  An update region's output array (region 7 of the program).

  The region's grid has 10 points; point `t` stages rows `5000 t … 5000 t + 4999` of the node embedding and of the
  summed messages and the perceptron's parameters whole, and writes rows `5000 t … 5000 t + 4999` of its output.  Rows
  are independent, so what point `t` writes back is block `t` of the whole-array function `Cert.Spec.updG` of the arrays
  as the region finds them; the 10 blocks tile the 50000 rows, so the output array ends holding that function.
  Everything here is stated at a PARAMETER `V`, the buffer contents when the region is entered.
-/
import proofs.«406721_j71184787964017_1_alg».proof.Proof.Gen.KernelIdeal.Frame
import proofs.«406721_j71184787964017_1_alg».proof.Proof.Body
import Idealize.ShloMosaic.Lib.Pipeline.Value

set_option maxRecDepth 16384

noncomputable section

namespace Cert.KernelIdeal.Region7

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the node-embedding window, the summed-message window and the
    output window at block `(t, 0)`, the five parameter windows at block `(0, 0)`. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Rows are independent: the residual update over a block of rows, at an entry of row `y 0`, is the residual update
    over the whole arrays at the entry `i` of the row that block row is, when the block's rows are the arrays' rows
    from `5000 t` on and the parameters are the same. -/
theorem updG_block (A B : S50000x64.Idx → EReal) (Wa Wb : S64x64.Idx → EReal) (C1 : S1x64.Idx → EReal)
    (W2 : S64x64.Idx → EReal) (C2 : S1x64.Idx → EReal)
    (a b : Vec Ideal S5000x64 .f32) (wa wb : Vec Ideal S64x64 .f32) (c1 : Vec Ideal S1x64 .f32)
    (w2 : Vec Ideal S64x64 .f32) (c2 : Vec Ideal S1x64 .f32) (t : Nat)
    (ha : ∀ (x : S5000x64.Idx) (k : S50000x64.Idx), (k 0).val = 5000 * t + (x 0).val → (k 1).val = (x 1).val → a x = A k)
    (hb : ∀ (x : S5000x64.Idx) (k : S50000x64.Idx), (k 0).val = 5000 * t + (x 0).val → (k 1).val = (x 1).val → b x = B k)
    (hwa : wa = Wa) (hwb : wb = Wb) (hc1 : c1 = C1) (hw2 : w2 = W2) (hc2 : c2 = C2)
    (y : S5000x64.Idx) (i : S50000x64.Idx) (hi0 : (i 0).val = 5000 * t + (y 0).val) (hi1 : (i 1).val = (y 1).val) :
    updG (R := 5000) a b wa wb c1 w2 c2 y = updG (R := 50000) A B Wa Wb C1 W2 C2 i := by
  subst hwa hwb hc1 hw2 hc2
  obtain ⟨r, j, rfl⟩ : ∃ (r : Fin 5000) (j : Fin 64), y = ix2 r j := ⟨y 0, y 1, eq_ix2 y⟩
  obtain ⟨r', j', rfl⟩ : ∃ (r' : Fin 50000) (j' : Fin 64), i = ix2 r' j' := ⟨i 0, i 1, eq_ix2 i⟩
  have hj : j' = j := Fin.ext hi1
  subst hj
  rw [updG_ix2, updG_ix2]
  have e0 : a (ix2 r j') = A (ix2 r' j') := ha (ix2 r j') (ix2 r' j') hi0 rfl
  have e1 : row a r = row A r' := funext fun p => ha (ix2 r p) (ix2 r' p) hi0 rfl
  have e2 : row b r = row B r' := funext fun p => hb (ix2 r p) (ix2 r' p) hi0 rfl
  rw [e0, e1, e2]

/-- Window 0's block at point `t` is rows `5000 t … 5000 t + 4999` of its array. -/
theorem iblk_edge0 (c : Dev nD) (t : Fin cfg7.N) (x : S5000x64.Idx) (k : S50000x64.Idx)
    (hk0 : (k 0).val = 5000 * t.val + (x 0).val) (hk1 : (k 1).val = (x 1).val) :
    (iblk7 V c 0 t : Vec Ideal S5000x64 .f32) x = (V c main_v100 : S50000x64.Idx → EReal) k := by
  have hi : win7_0.index t (0 : Fin 2) = t.val ∧ win7_0.index t (1 : Fin 2) = 0 := by
    obtain ⟨e0, e1, e2, e3, e4, e5, e6, e7, e8, e9, e10, e11, e12, e13, e14, e15⟩ := idx_facts t
    exact ⟨e0, e1⟩
  unfold iblk7
  rw [View.read_apply]
  show V c main_v100 _ = V c main_v100 _
  congr 1
  funext a
  apply Fin.ext
  match a with
  | ⟨0, _⟩ => show win7_0.index t (0 : Fin 2) * 5000 + 1 * (x 0).val = (k 0).val; rw [hi.1, hk0]; omega
  | ⟨1, _⟩ => show win7_0.index t (1 : Fin 2) * 64 + 1 * (x 1).val = (k 1).val; rw [hi.2, hk1]; omega

/-- Window 1's block at point `t` is rows `5000 t … 5000 t + 4999` of its array. -/
theorem iblk_edge1 (c : Dev nD) (t : Fin cfg7.N) (x : S5000x64.Idx) (k : S50000x64.Idx)
    (hk0 : (k 0).val = 5000 * t.val + (x 0).val) (hk1 : (k 1).val = (x 1).val) :
    (iblk7 V c 1 t : Vec Ideal S5000x64 .f32) x = (V c main_v118 : S50000x64.Idx → EReal) k := by
  have hi : win7_1.index t (0 : Fin 2) = t.val ∧ win7_1.index t (1 : Fin 2) = 0 := by
    obtain ⟨e0, e1, e2, e3, e4, e5, e6, e7, e8, e9, e10, e11, e12, e13, e14, e15⟩ := idx_facts t
    exact ⟨e2, e3⟩
  unfold iblk7
  rw [View.read_apply]
  show V c main_v118 _ = V c main_v118 _
  congr 1
  funext a
  apply Fin.ext
  match a with
  | ⟨0, _⟩ => show win7_1.index t (0 : Fin 2) * 5000 + 1 * (x 0).val = (k 0).val; rw [hi.1, hk0]; omega
  | ⟨1, _⟩ => show win7_1.index t (1 : Fin 2) * 64 + 1 * (x 1).val = (k 1).val; rw [hi.2, hk1]; omega

/-- Window 2 stages its parameter array whole at every point. -/
theorem iblk_par2 (c : Dev nD) (t : Fin cfg7.N) :
    (iblk7 V c 2 t : Vec Ideal S64x64 .f32) = (V c main_v121 : S64x64.Idx → EReal) := by
  have hi : win7_2.index t (0 : Fin 2) = 0 ∧ win7_2.index t (1 : Fin 2) = 0 := by
    obtain ⟨e0, e1, e2, e3, e4, e5, e6, e7, e8, e9, e10, e11, e12, e13, e14, e15⟩ := idx_facts t
    exact ⟨e4, e5⟩
  funext x
  unfold iblk7
  rw [View.read_apply]
  show V c main_v121 _ = V c main_v121 _
  congr 1
  funext a
  apply Fin.ext
  match a with
  | ⟨0, _⟩ => show win7_2.index t (0 : Fin 2) * 64 + 1 * (x 0).val = (x 0).val; rw [hi.1]; omega
  | ⟨1, _⟩ => show win7_2.index t (1 : Fin 2) * 64 + 1 * (x 1).val = (x 1).val; rw [hi.2]; omega

/-- Window 3 stages its parameter array whole at every point. -/
theorem iblk_par3 (c : Dev nD) (t : Fin cfg7.N) :
    (iblk7 V c 3 t : Vec Ideal S64x64 .f32) = (V c main_v122 : S64x64.Idx → EReal) := by
  have hi : win7_3.index t (0 : Fin 2) = 0 ∧ win7_3.index t (1 : Fin 2) = 0 := by
    obtain ⟨e0, e1, e2, e3, e4, e5, e6, e7, e8, e9, e10, e11, e12, e13, e14, e15⟩ := idx_facts t
    exact ⟨e6, e7⟩
  funext x
  unfold iblk7
  rw [View.read_apply]
  show V c main_v122 _ = V c main_v122 _
  congr 1
  funext a
  apply Fin.ext
  match a with
  | ⟨0, _⟩ => show win7_3.index t (0 : Fin 2) * 64 + 1 * (x 0).val = (x 0).val; rw [hi.1]; omega
  | ⟨1, _⟩ => show win7_3.index t (1 : Fin 2) * 64 + 1 * (x 1).val = (x 1).val; rw [hi.2]; omega

/-- Window 4 stages its parameter array whole at every point. -/
theorem iblk_par4 (c : Dev nD) (t : Fin cfg7.N) :
    (iblk7 V c 4 t : Vec Ideal S1x64 .f32) = (V c main_v125 : S1x64.Idx → EReal) := by
  have hi : win7_4.index t (0 : Fin 2) = 0 ∧ win7_4.index t (1 : Fin 2) = 0 := by
    obtain ⟨e0, e1, e2, e3, e4, e5, e6, e7, e8, e9, e10, e11, e12, e13, e14, e15⟩ := idx_facts t
    exact ⟨e8, e9⟩
  funext x
  unfold iblk7
  rw [View.read_apply]
  show V c main_v125 _ = V c main_v125 _
  congr 1
  funext a
  apply Fin.ext
  match a with
  | ⟨0, _⟩ => show win7_4.index t (0 : Fin 2) * 1 + 1 * (x 0).val = (x 0).val; rw [hi.1]; omega
  | ⟨1, _⟩ => show win7_4.index t (1 : Fin 2) * 64 + 1 * (x 1).val = (x 1).val; rw [hi.2]; omega

/-- Window 5 stages its parameter array whole at every point. -/
theorem iblk_par5 (c : Dev nD) (t : Fin cfg7.N) :
    (iblk7 V c 5 t : Vec Ideal S64x64 .f32) = (V c main_v127 : S64x64.Idx → EReal) := by
  have hi : win7_5.index t (0 : Fin 2) = 0 ∧ win7_5.index t (1 : Fin 2) = 0 := by
    obtain ⟨e0, e1, e2, e3, e4, e5, e6, e7, e8, e9, e10, e11, e12, e13, e14, e15⟩ := idx_facts t
    exact ⟨e10, e11⟩
  funext x
  unfold iblk7
  rw [View.read_apply]
  show V c main_v127 _ = V c main_v127 _
  congr 1
  funext a
  apply Fin.ext
  match a with
  | ⟨0, _⟩ => show win7_5.index t (0 : Fin 2) * 64 + 1 * (x 0).val = (x 0).val; rw [hi.1]; omega
  | ⟨1, _⟩ => show win7_5.index t (1 : Fin 2) * 64 + 1 * (x 1).val = (x 1).val; rw [hi.2]; omega

/-- Window 6 stages its parameter array whole at every point. -/
theorem iblk_par6 (c : Dev nD) (t : Fin cfg7.N) :
    (iblk7 V c 6 t : Vec Ideal S1x64 .f32) = (V c main_v130 : S1x64.Idx → EReal) := by
  have hi : win7_6.index t (0 : Fin 2) = 0 ∧ win7_6.index t (1 : Fin 2) = 0 := by
    obtain ⟨e0, e1, e2, e3, e4, e5, e6, e7, e8, e9, e10, e11, e12, e13, e14, e15⟩ := idx_facts t
    exact ⟨e12, e13⟩
  funext x
  unfold iblk7
  rw [View.read_apply]
  show V c main_v130 _ = V c main_v130 _
  congr 1
  funext a
  apply Fin.ext
  match a with
  | ⟨0, _⟩ => show win7_6.index t (0 : Fin 2) * 1 + 1 * (x 0).val = (x 0).val; rw [hi.1]; omega
  | ⟨1, _⟩ => show win7_6.index t (1 : Fin 2) * 64 + 1 * (x 1).val = (x 1).val; rw [hi.2]; omega

/-- WHAT POINT `t` WRITES BACK is block `t` of the residual update of the arrays as the region finds them. -/
theorem flushed_eq (c : Dev nD) (t : Fin cfg7.N) :
    (dat7 (F := Ideal) V c).flushed 7 t = ((cfg7.win 7).blk t).view.read (Elt Ideal)
      (updG (R := 50000) (V c main_v100) (V c main_v118) (V c main_v121) (V c main_v122) (V c main_v125) (V c main_v127) (V c main_v130)) := by
  show (cfg7.win 7).cut (grid7.coords t) ((dat7 V c).after 7 t) = _
  rw [after7_7]
  unfold out7_7
  rw [View.canon_unit_zero hz]
  simp only [View.ld_unit_zero (S := S5000x64) hz, View.ld_unit_zero (S := S64x64) hz, View.ld_unit_zero (S := S1x64) hz]
  rw [Body.upd_pay7]
  have ho : win7_7.index t (0 : Fin 2) = t.val ∧ win7_7.index t (1 : Fin 2) = 0 := by
    obtain ⟨e0, e1, e2, e3, e4, e5, e6, e7, e8, e9, e10, e11, e12, e13, e14, e15⟩ := idx_facts t
    exact ⟨e14, e15⟩
  funext y
  show updG (R := 5000) (iblk7 V c 0 t) (iblk7 V c 1 t) (iblk7 V c 2 t) (iblk7 V c 3 t) (iblk7 V c 4 t) (iblk7 V c 5 t) (iblk7 V c 6 t) y
    = updG (R := 50000) (V c main_v100) (V c main_v118) (V c main_v121) (V c main_v122) (V c main_v125) (V c main_v127) (V c main_v130) (((cfg7.win 7).blk t).view.emb y)
  refine updG_block _ _ _ _ _ _ _ _ _ _ _ _ _ _ t.val (fun x k h0 h1 => iblk_edge0 V c t x k h0 h1) (fun x k h0 h1 => iblk_edge1 V c t x k h0 h1)
    (iblk_par2 V c t) (iblk_par3 V c t) (iblk_par4 V c t) (iblk_par5 V c t) (iblk_par6 V c t) y _ ?_ ?_
  · show win7_7.index t (0 : Fin 2) * 5000 + 1 * (y 0).val = 5000 * t.val + (y 0).val
    rw [ho.1]; omega
  · show win7_7.index t (1 : Fin 2) * 64 + 1 * (y 1).val = (y 1).val
    rw [ho.2]; omega

/-- An index of the output array is in point `t`'s block iff each coordinate is in the block's range on its axis. -/
theorem mem_blk (t : Fin cfg7.N) (i : S50000x64.Idx) :
    i ∈ ((cfg7.win 7).blk t).view.set ↔ ∀ a : Fin 2, win7_7.index t a * S5000x64.size a ≤ (i a).val ∧ (i a).val < win7_7.index t a * S5000x64.size a + S5000x64.size a := by
  show i ∈ ((View.whole main_v131).slice (win7_7.rect t)).set ↔ _
  rw [View.set_slice_whole, Rect.mem_set_unit]
  exact Iff.rfl

/-- The 10 blocks of 5000 rows tile the 50000 rows: row `e` is in the block of point `e / 5000`. -/
theorem cover (i : S50000x64.Idx) :
    ∃ t : Fin cfg7.N, (cfg7.win 7).flush t = true ∧ i ∈ ((cfg7.win 7).blk t).view.set := by
  have hi0 : (i 0).val < 50000 := (i 0).isLt
  have hi1 : (i 1).val < 64 := (i 1).isLt
  obtain ⟨t, ht⟩ : ∃ t : Fin cfg7.N, t.val = (i 0).val / 5000 :=
    ⟨⟨(i 0).val / 5000, by show (i 0).val / 5000 < grid7.N; rw [N_7]; omega⟩, rfl⟩
  have ho : win7_7.index t (0 : Fin 2) = t.val ∧ win7_7.index t (1 : Fin 2) = 0 := by
    obtain ⟨e0, e1, e2, e3, e4, e5, e6, e7, e8, e9, e10, e11, e12, e13, e14, e15⟩ := idx_facts t
    exact ⟨e14, e15⟩
  refine ⟨t, flush7_7 t, ?_⟩
  rw [mem_blk]
  intro a
  match a with
  | ⟨0, _⟩ => show win7_7.index t (0 : Fin 2) * 5000 ≤ (i 0).val ∧ (i 0).val < win7_7.index t (0 : Fin 2) * 5000 + 5000; rw [ho.1, ht]; omega
  | ⟨1, _⟩ => show win7_7.index t (1 : Fin 2) * 64 ≤ (i 1).val ∧ (i 1).val < win7_7.index t (1 : Fin 2) * 64 + 64; rw [ho.2]; omega

/-- The region's output array after its last grid point. -/
theorem value (c : Dev nD) :
    (dat7 (F := Ideal) V c).arrAt 7 cfg7.N
      = updG (R := 50000) (V c main_v100) (V c main_v118) (V c main_v121) (V c main_v122) (V c main_v125) (V c main_v127) (V c main_v130) :=
  (dat7 (F := Ideal) V c).arrAt_eq_of_cover 7
    (updG (R := 50000) (V c main_v100) (V c main_v118) (V c main_v121) (V c main_v122) (V c main_v125) (V c main_v127) (V c main_v130))
    (fun t _ => flushed_eq V c t) cover

end Cert.KernelIdeal.Region7

end
-- ==== Proof.KLayer3.lean ====
/-
  Message-passing layer 3 of the kernel's program, read off the fold of @main's segments.

  From the boundary where the layer is entered (the embedding, the two rows of the edge list and the arguments
  in place) the layer runs two gathers, a stretch of weight slices, the message region, a stretch that sums the
  messages into their targets and slices the update weights, and the update region.  Each host stretch rewrites the
  buffers it writes and leaves the rest; each region leaves its output array at the region's whole-array function
  of the arrays it found.  Read at the update region's output, the fold is `Val.layer` of the entry contents.
-/
import proofs.«406721_j71184787964017_1_alg».proof.Proof.Gen.KernelIdeal.Frame
import proofs.«406721_j71184787964017_1_alg».proof.Proof.Layers
import proofs.«406721_j71184787964017_1_alg».proof.Proof.Region6
import proofs.«406721_j71184787964017_1_alg».proof.Proof.Region7
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Val

namespace L3

/-! ## The stretches, at any contents and any float instance -/

section Stretches
variable {F : FTy → Type} [FloatOps F]

/-- A typed reference's two transports cancel. -/
theorem ofBuf_toBuf {Val : EltTy → Type} {T : BufTy} (x : TRef sig T) (v : T.Contents Val) : x.ofBuf (x.toBuf v) = v := by
  obtain ⟨r, rfl, _, _⟩ := x; rfl

/-- At a literal reference the transports are the identity. -/
theorem leaf_src (W : Valuation τ sig (Elt F)) (h1 : (main_v1 : Ref sig .tc).ty = ⟨S800000, .i32⟩) (h2 : (main_v1 : Ref sig .tc).space ≠ .host) (h3 : (main_v1 : Ref sig .tc).isScoped = false) :
    (TRef.of main_v1 h1 h2 h3 : TRef sig ⟨S800000, .i32⟩).ofBuf (W (Proc.devRef .tc main_v1)) = W (Proc.devRef .tc main_v1) := rfl
theorem leaf_dst (W : Valuation τ sig (Elt F)) (h1 : (main_v3 : Ref sig .tc).ty = ⟨S800000, .i32⟩) (h2 : (main_v3 : Ref sig .tc).space ≠ .host) (h3 : (main_v3 : Ref sig .tc).isScoped = false) :
    (TRef.of main_v3 h1 h2 h3 : TRef sig ⟨S800000, .i32⟩).ofBuf (W (Proc.devRef .tc main_v3)) = W (Proc.devRef .tc main_v3) := rfl
theorem leaf_emb (W : Valuation τ sig (Elt F)) (h1 : (main_v100 : Ref sig .tc).ty = ⟨S50000x64, .f32⟩) (h2 : (main_v100 : Ref sig .tc).space ≠ .host) (h3 : (main_v100 : Ref sig .tc).isScoped = false) :
    (TRef.of main_v100 h1 h2 h3 : TRef sig ⟨S50000x64, .f32⟩).ofBuf (W (Proc.devRef .tc main_v100)) = W (Proc.devRef .tc main_v100) := rfl
theorem root_dst (v : (⟨S800000x64, .f32⟩ : BufTy).Contents (Elt F)) (h1 : (main_v101 : Ref sig .tc).ty = ⟨S800000x64, .f32⟩) (h2 : (main_v101 : Ref sig .tc).space ≠ .host) (h3 : (main_v101 : Ref sig .tc).isScoped = false) :
    (TRef.of main_v101 h1 h2 h3 : TRef sig ⟨S800000x64, .f32⟩).toBuf v = v := rfl
theorem root_src (v : (⟨S800000x64, .f32⟩ : BufTy).Contents (Elt F)) (h1 : (main_v102 : Ref sig .tc).ty = ⟨S800000x64, .f32⟩) (h2 : (main_v102 : Ref sig .tc).space ≠ .host) (h3 : (main_v102 : Ref sig .tc).isScoped = false) :
    (TRef.of main_v102 h1 h2 h3 : TRef sig ⟨S800000x64, .f32⟩).toBuf v = v := rfl

/-- The first gather: the embedding's rows at the targets. -/
theorem take_dst (W : Valuation τ sig (Elt F)) :
    after hostOps6 W (Proc.devRef .tc main_v101) = take (W (Proc.devRef .tc main_v100)) (W (Proc.devRef .tc main_v3)) := by
  after_results_simp
  simp only [ofBuf_toBuf, leaf_dst, leaf_emb, root_dst]
  unfold take inBounds wrap
  rfl
/-- The second gather: the embedding's rows at the sources. -/
theorem take_src (W : Valuation τ sig (Elt F)) :
    after hostOps6_1 W (Proc.devRef .tc main_v102) = take (W (Proc.devRef .tc main_v100)) (W (Proc.devRef .tc main_v1)) := by
  after_results_simp
  simp only [ofBuf_toBuf, leaf_src, leaf_emb, root_src]
  unfold take inBounds wrap
  rfl

/-- The message perceptron's parameters, sliced out of the stacked arguments. -/
theorem msg_w1lo (W : Valuation τ sig (Elt F)) :
    after hostOps6_2 W (Proc.devRef .tc main_v105) = lo (w128_3 (W (Proc.devRef .tc main_arg5))) := by
  unfold lo w128_3; after_results_simp; rfl
theorem msg_w1hi (W : Valuation τ sig (Elt F)) :
    after hostOps6_2 W (Proc.devRef .tc main_v106) = hi (w128_3 (W (Proc.devRef .tc main_arg5))) := by
  unfold hi w128_3; after_results_simp; rfl
theorem msg_c1 (W : Valuation τ sig (Elt F)) :
    after hostOps6_2 W (Proc.devRef .tc main_v109) = asRow (v64_3 (W (Proc.devRef .tc main_arg6))) := by
  unfold asRow v64_3; after_results_simp; rfl
theorem msg_w2 (W : Valuation τ sig (Elt F)) :
    after hostOps6_2 W (Proc.devRef .tc main_v111) = w64_3 (W (Proc.devRef .tc main_arg7)) := by
  unfold w64_3; after_results_simp; rfl
theorem msg_c2 (W : Valuation τ sig (Elt F)) :
    after hostOps6_2 W (Proc.devRef .tc main_v114) = asRow (v64_3 (W (Proc.devRef .tc main_arg8))) := by
  unfold asRow v64_3; after_results_simp; rfl

/-- The messages summed into their targets, and the update perceptron's parameters. -/
theorem agg (W : Valuation τ sig (Elt F)) :
    after hostOps7 W (Proc.devRef .tc main_v118) = aggregate (W (Proc.devRef .tc main_v3)) (W (Proc.devRef .tc main_v115)) := by
  unfold aggregate; after_results_simp
theorem upd_w1lo (W : Valuation τ sig (Elt F)) :
    after hostOps7 W (Proc.devRef .tc main_v121) = lo (w128_3 (W (Proc.devRef .tc main_arg9))) := by
  unfold lo w128_3; after_results_simp; rfl
theorem upd_w1hi (W : Valuation τ sig (Elt F)) :
    after hostOps7 W (Proc.devRef .tc main_v122) = hi (w128_3 (W (Proc.devRef .tc main_arg9))) := by
  unfold hi w128_3; after_results_simp; rfl
theorem upd_c1 (W : Valuation τ sig (Elt F)) :
    after hostOps7 W (Proc.devRef .tc main_v125) = asRow (v64_3 (W (Proc.devRef .tc main_arg10))) := by
  unfold asRow v64_3; after_results_simp; rfl
theorem upd_w2 (W : Valuation τ sig (Elt F)) :
    after hostOps7 W (Proc.devRef .tc main_v127) = w64_3 (W (Proc.devRef .tc main_arg11)) := by
  unfold w64_3; after_results_simp; rfl
theorem upd_c2 (W : Valuation τ sig (Elt F)) :
    after hostOps7 W (Proc.devRef .tc main_v130) = asRow (v64_3 (W (Proc.devRef .tc main_arg12))) := by
  unfold asRow v64_3; after_results_simp; rfl

/-! ### What each stretch leaves alone -/

/-- A reference in a list is, as a device buffer, in the list's image. -/
theorem sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- The references `hostOps6` writes. -/
def wrA : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v101]
theorem hWA : (hostOps6 : List (HloOp τ sig (Elt F))).Forall fun op => op.writes ⊆ (wrA.map (Proc.devRef (τ := τ) .tc)).toFinset := by
  simp only [hostOps6, List.Forall, nullary_writes, unary_writes, binary_writes, ternary_writes, quaternary_writes, reshape_writes]
  repeat' apply And.intro
  all_goals exact sub_of_mem (by decide)
/-- `hostOps6` leaves every other reference as it was. -/
theorem keepA (W : Valuation τ sig (Elt F)) (r : Ref sig .tc) (hr : r ∉ wrA) :
    after hostOps6 W (Proc.devRef .tc r) = W (Proc.devRef .tc r) := after_of_writes_sub hostOps6 W hWA hr

/-- The references `hostOps6_1` writes. -/
def wrB : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v102]
theorem hWB : (hostOps6_1 : List (HloOp τ sig (Elt F))).Forall fun op => op.writes ⊆ (wrB.map (Proc.devRef (τ := τ) .tc)).toFinset := by
  simp only [hostOps6_1, List.Forall, nullary_writes, unary_writes, binary_writes, ternary_writes, quaternary_writes, reshape_writes]
  repeat' apply And.intro
  all_goals exact sub_of_mem (by decide)
/-- `hostOps6_1` leaves every other reference as it was. -/
theorem keepB (W : Valuation τ sig (Elt F)) (r : Ref sig .tc) (hr : r ∉ wrB) :
    after hostOps6_1 W (Proc.devRef .tc r) = W (Proc.devRef .tc r) := after_of_writes_sub hostOps6_1 W hWB hr

/-- The references `hostOps6_2` writes. -/
def wrC : List (Ref sig .tc) := [main_v103, main_v104, main_v105, main_v106, main_v107, main_v108, main_v109, main_v110, main_v111, main_v112, main_v113, main_v114]
theorem hWC : (hostOps6_2 : List (HloOp τ sig (Elt F))).Forall fun op => op.writes ⊆ (wrC.map (Proc.devRef (τ := τ) .tc)).toFinset := by
  simp only [hostOps6_2, List.Forall, nullary_writes, unary_writes, binary_writes, ternary_writes, quaternary_writes, reshape_writes]
  repeat' apply And.intro
  all_goals exact sub_of_mem (by decide)
/-- `hostOps6_2` leaves every other reference as it was. -/
theorem keepC (W : Valuation τ sig (Elt F)) (r : Ref sig .tc) (hr : r ∉ wrC) :
    after hostOps6_2 W (Proc.devRef .tc r) = W (Proc.devRef .tc r) := after_of_writes_sub hostOps6_2 W hWC hr

/-- The references `hostOps7` writes. -/
def wrD : List (Ref sig .tc) := [main_cst_2, main_v116, main_v117, main_v118, main_v119, main_v120, main_v121, main_v122, main_v123, main_v124, main_v125, main_v126, main_v127, main_v128, main_v129, main_v130]
theorem hWD : (hostOps7 : List (HloOp τ sig (Elt F))).Forall fun op => op.writes ⊆ (wrD.map (Proc.devRef (τ := τ) .tc)).toFinset := by
  simp only [hostOps7, List.Forall, nullary_writes, unary_writes, binary_writes, ternary_writes, quaternary_writes, reshape_writes]
  repeat' apply And.intro
  all_goals exact sub_of_mem (by decide)
/-- `hostOps7` leaves every other reference as it was. -/
theorem keepD (W : Valuation τ sig (Elt F)) (r : Ref sig .tc) (hr : r ∉ wrD) :
    after hostOps7 W (Proc.devRef .tc r) = W (Proc.devRef .tc r) := after_of_writes_sub hostOps7 W hWD hr

end Stretches

/-! ## The fold through the layer's six segments, at the exact values -/

section Fold
variable (m : (ℓ : Loc nD τ sig) → Buf (Elt Ideal) ℓ) (ρ : Dev nD → PrngReg) (c : Dev nD)

/-- A reference no segment so far writes holds what it held at the layer's entry. -/
theorem k2 (r : Ref sig .tc) (hA : r ∉ wrA) : W20 (F := Ideal) m ρ c (Proc.devRef .tc r) = W19 (F := Ideal) m ρ c (Proc.devRef .tc r) := keepA (W19 m ρ c) r hA
theorem k3 (r : Ref sig .tc) (hA : r ∉ wrA) (hB : r ∉ wrB) : W21 (F := Ideal) m ρ c (Proc.devRef .tc r) = W19 (F := Ideal) m ρ c (Proc.devRef .tc r) :=
  (keepB (W20 m ρ c) r hB).trans (k2 m ρ c r hA)
theorem k4 (r : Ref sig .tc) (hA : r ∉ wrA) (hB : r ∉ wrB) (hC : r ∉ wrC) : W22 (F := Ideal) m ρ c (Proc.devRef .tc r) = W19 (F := Ideal) m ρ c (Proc.devRef .tc r) :=
  (keepC (W21 m ρ c) r hC).trans (k3 m ρ c r hA hB)
theorem k5 (r : Ref sig .tc) (hA : r ∉ wrA) (hB : r ∉ wrB) (hC : r ∉ wrC) (h0 : ∀ w, Pipeline.arrRef spec6 w ≠ r) :
    W23 (F := Ideal) m ρ c (Proc.devRef .tc r) = W19 (F := Ideal) m ρ c (Proc.devRef .tc r) :=
  (W23_of_ne m ρ c r h0).trans (k4 m ρ c r hA hB hC)
theorem k6 (r : Ref sig .tc) (hA : r ∉ wrA) (hB : r ∉ wrB) (hC : r ∉ wrC) (h0 : ∀ w, Pipeline.arrRef spec6 w ≠ r) (hD : r ∉ wrD) :
    W24 (F := Ideal) m ρ c (Proc.devRef .tc r) = W19 (F := Ideal) m ρ c (Proc.devRef .tc r) :=
  (keepD (W23 m ρ c) r hD).trans (k5 m ρ c r hA hB hC h0)

/-! ### The message region's seven arrays when it is entered -/

theorem b4_dst : W22 (F := Ideal) m ρ c (Proc.devRef .tc main_v101) = take (F := Ideal) (W19 (F := Ideal) m ρ c (Proc.devRef .tc main_v100)) (W19 (F := Ideal) m ρ c (Proc.devRef .tc main_v3)) :=
  (keepC (W21 m ρ c) main_v101 (by decide)).trans ((keepB (W20 m ρ c) main_v101 (by decide)).trans (take_dst (W19 m ρ c)))
theorem b4_src : W22 (F := Ideal) m ρ c (Proc.devRef .tc main_v102) = take (F := Ideal) (W19 (F := Ideal) m ρ c (Proc.devRef .tc main_v100)) (W19 (F := Ideal) m ρ c (Proc.devRef .tc main_v1)) :=
  (keepC (W21 m ρ c) main_v102 (by decide)).trans ((take_src (W20 m ρ c)).trans (by rw [k2 m ρ c main_v100 (by decide), k2 m ρ c main_v1 (by decide)]))
theorem b4_w1lo : W22 (F := Ideal) m ρ c (Proc.devRef .tc main_v105) = lo (F := Ideal) (w128_3 (F := Ideal) (W19 (F := Ideal) m ρ c (Proc.devRef .tc main_arg5))) :=
  (msg_w1lo (W21 m ρ c)).trans (by rw [k3 m ρ c main_arg5 (by decide) (by decide)])
theorem b4_w1hi : W22 (F := Ideal) m ρ c (Proc.devRef .tc main_v106) = hi (F := Ideal) (w128_3 (F := Ideal) (W19 (F := Ideal) m ρ c (Proc.devRef .tc main_arg5))) :=
  (msg_w1hi (W21 m ρ c)).trans (by rw [k3 m ρ c main_arg5 (by decide) (by decide)])
theorem b4_c1 : W22 (F := Ideal) m ρ c (Proc.devRef .tc main_v109) = asRow (F := Ideal) (v64_3 (F := Ideal) (W19 (F := Ideal) m ρ c (Proc.devRef .tc main_arg6))) :=
  (msg_c1 (W21 m ρ c)).trans (by rw [k3 m ρ c main_arg6 (by decide) (by decide)])
theorem b4_w2 : W22 (F := Ideal) m ρ c (Proc.devRef .tc main_v111) = w64_3 (F := Ideal) (W19 (F := Ideal) m ρ c (Proc.devRef .tc main_arg7)) :=
  (msg_w2 (W21 m ρ c)).trans (by rw [k3 m ρ c main_arg7 (by decide) (by decide)])
theorem b4_c2 : W22 (F := Ideal) m ρ c (Proc.devRef .tc main_v114) = asRow (F := Ideal) (v64_3 (F := Ideal) (W19 (F := Ideal) m ρ c (Proc.devRef .tc main_arg8))) :=
  (msg_c2 (W21 m ρ c)).trans (by rw [k3 m ρ c main_arg8 (by decide) (by decide)])

/-- The message region's output array is the messages' whole-array function of the arrays it found. -/
theorem r0 : W23 (F := Ideal) m ρ c (Proc.devRef .tc main_v115)
    = Cert.Spec.msgG (R := 800000) (W22 (F := Ideal) m ρ c (Proc.devRef .tc main_v101)) (W22 (F := Ideal) m ρ c (Proc.devRef .tc main_v102)) (W22 (F := Ideal) m ρ c (Proc.devRef .tc main_v105)) (W22 (F := Ideal) m ρ c (Proc.devRef .tc main_v106))
        (W22 (F := Ideal) m ρ c (Proc.devRef .tc main_v109)) (W22 (F := Ideal) m ρ c (Proc.devRef .tc main_v111)) (W22 (F := Ideal) m ρ c (Proc.devRef .tc main_v114)) :=
  (W23_arr m ρ c 7).trans (Region6.value (V22 m ρ) c)
theorem b5_msg : W23 (F := Ideal) m ρ c (Proc.devRef .tc main_v115) = (Cert.Spec.msgG (R := 800000) (take (F := Ideal) (W19 (F := Ideal) m ρ c (Proc.devRef .tc main_v100)) (W19 (F := Ideal) m ρ c (Proc.devRef .tc main_v3))) (take (F := Ideal) (W19 (F := Ideal) m ρ c (Proc.devRef .tc main_v100)) (W19 (F := Ideal) m ρ c (Proc.devRef .tc main_v1))) (lo (F := Ideal) (w128_3 (F := Ideal) (W19 (F := Ideal) m ρ c (Proc.devRef .tc main_arg5)))) (hi (F := Ideal) (w128_3 (F := Ideal) (W19 (F := Ideal) m ρ c (Proc.devRef .tc main_arg5)))) (asRow (F := Ideal) (v64_3 (F := Ideal) (W19 (F := Ideal) m ρ c (Proc.devRef .tc main_arg6)))) (w64_3 (F := Ideal) (W19 (F := Ideal) m ρ c (Proc.devRef .tc main_arg7))) (asRow (F := Ideal) (v64_3 (F := Ideal) (W19 (F := Ideal) m ρ c (Proc.devRef .tc main_arg8))))) :=
  (r0 m ρ c).trans (by rw [b4_dst m ρ c, b4_src m ρ c, b4_w1lo m ρ c, b4_w1hi m ρ c, b4_c1 m ρ c, b4_w2 m ρ c, b4_c2 m ρ c])

/-! ### The update region's seven arrays when it is entered -/

theorem b6_agg : W24 (F := Ideal) m ρ c (Proc.devRef .tc main_v118) = aggregate (F := Ideal) (W19 (F := Ideal) m ρ c (Proc.devRef .tc main_v3)) (Cert.Spec.msgG (R := 800000) (take (F := Ideal) (W19 (F := Ideal) m ρ c (Proc.devRef .tc main_v100)) (W19 (F := Ideal) m ρ c (Proc.devRef .tc main_v3))) (take (F := Ideal) (W19 (F := Ideal) m ρ c (Proc.devRef .tc main_v100)) (W19 (F := Ideal) m ρ c (Proc.devRef .tc main_v1))) (lo (F := Ideal) (w128_3 (F := Ideal) (W19 (F := Ideal) m ρ c (Proc.devRef .tc main_arg5)))) (hi (F := Ideal) (w128_3 (F := Ideal) (W19 (F := Ideal) m ρ c (Proc.devRef .tc main_arg5)))) (asRow (F := Ideal) (v64_3 (F := Ideal) (W19 (F := Ideal) m ρ c (Proc.devRef .tc main_arg6)))) (w64_3 (F := Ideal) (W19 (F := Ideal) m ρ c (Proc.devRef .tc main_arg7))) (asRow (F := Ideal) (v64_3 (F := Ideal) (W19 (F := Ideal) m ρ c (Proc.devRef .tc main_arg8))))) :=
  (agg (W23 m ρ c)).trans (by rw [k5 m ρ c main_v3 (by decide) (by decide) (by decide) (by decide), b5_msg m ρ c])
theorem b6_w1lo : W24 (F := Ideal) m ρ c (Proc.devRef .tc main_v121) = lo (F := Ideal) (w128_3 (F := Ideal) (W19 (F := Ideal) m ρ c (Proc.devRef .tc main_arg9))) :=
  (upd_w1lo (W23 m ρ c)).trans (by rw [k5 m ρ c main_arg9 (by decide) (by decide) (by decide) (by decide)])
theorem b6_w1hi : W24 (F := Ideal) m ρ c (Proc.devRef .tc main_v122) = hi (F := Ideal) (w128_3 (F := Ideal) (W19 (F := Ideal) m ρ c (Proc.devRef .tc main_arg9))) :=
  (upd_w1hi (W23 m ρ c)).trans (by rw [k5 m ρ c main_arg9 (by decide) (by decide) (by decide) (by decide)])
theorem b6_c1 : W24 (F := Ideal) m ρ c (Proc.devRef .tc main_v125) = asRow (F := Ideal) (v64_3 (F := Ideal) (W19 (F := Ideal) m ρ c (Proc.devRef .tc main_arg10))) :=
  (upd_c1 (W23 m ρ c)).trans (by rw [k5 m ρ c main_arg10 (by decide) (by decide) (by decide) (by decide)])
theorem b6_w2 : W24 (F := Ideal) m ρ c (Proc.devRef .tc main_v127) = w64_3 (F := Ideal) (W19 (F := Ideal) m ρ c (Proc.devRef .tc main_arg11)) :=
  (upd_w2 (W23 m ρ c)).trans (by rw [k5 m ρ c main_arg11 (by decide) (by decide) (by decide) (by decide)])
theorem b6_c2 : W24 (F := Ideal) m ρ c (Proc.devRef .tc main_v130) = asRow (F := Ideal) (v64_3 (F := Ideal) (W19 (F := Ideal) m ρ c (Proc.devRef .tc main_arg12))) :=
  (upd_c2 (W23 m ρ c)).trans (by rw [k5 m ρ c main_arg12 (by decide) (by decide) (by decide) (by decide)])

/-- The update region's output array is the update's whole-array function of the arrays it found. -/
theorem r1 : W25 (F := Ideal) m ρ c (Proc.devRef .tc main_v131)
    = Cert.Spec.updG (R := 50000) (W24 (F := Ideal) m ρ c (Proc.devRef .tc main_v100)) (W24 (F := Ideal) m ρ c (Proc.devRef .tc main_v118)) (W24 (F := Ideal) m ρ c (Proc.devRef .tc main_v121)) (W24 (F := Ideal) m ρ c (Proc.devRef .tc main_v122))
        (W24 (F := Ideal) m ρ c (Proc.devRef .tc main_v125)) (W24 (F := Ideal) m ρ c (Proc.devRef .tc main_v127)) (W24 (F := Ideal) m ρ c (Proc.devRef .tc main_v130)) :=
  (W25_arr m ρ c 7).trans (Region7.value (V24 m ρ) c)

end Fold

end L3

variable (m : (ℓ : Loc nD τ sig) → Buf (Elt Ideal) ℓ) (ρ : Dev nD → PrngReg)

/-- The layer's new embedding is `Val.layer` of the embedding, the edge rows and the parameters it was entered with. -/
theorem layer3 (c : Dev nD) : W25 (F := Ideal) m ρ c (Proc.devRef .tc main_v131) = layer (W19 m ρ c (Proc.devRef .tc main_v100)) (W19 m ρ c (Proc.devRef .tc main_v1)) (W19 m ρ c (Proc.devRef .tc main_v3)) (w128_3 (W19 m ρ c (Proc.devRef .tc main_arg5))) (v64_3 (W19 m ρ c (Proc.devRef .tc main_arg6))) (w64_3 (W19 m ρ c (Proc.devRef .tc main_arg7))) (v64_3 (W19 m ρ c (Proc.devRef .tc main_arg8))) (w128_3 (W19 m ρ c (Proc.devRef .tc main_arg9))) (v64_3 (W19 m ρ c (Proc.devRef .tc main_arg10))) (w64_3 (W19 m ρ c (Proc.devRef .tc main_arg11))) (v64_3 (W19 m ρ c (Proc.devRef .tc main_arg12))) :=
  (L3.r1 m ρ c).trans (by
    rw [L3.k6 m ρ c main_v100 (by decide) (by decide) (by decide) (by decide) (by decide), L3.b6_agg m ρ c, L3.b6_w1lo m ρ c, L3.b6_w1hi m ρ c, L3.b6_c1 m ρ c, L3.b6_w2 m ρ c, L3.b6_c2 m ρ c]
    rfl)

end Cert.KernelIdeal.Chain

end
-- ==== Proof.KKeep0.lean ====
/-
  What the first layer leaves alone.

  Between the first layer's start and its end @main runs three stretches of host operations, the first message region,
  one more stretch and the first update region.  None of them writes the two edge-index vectors or the argument
  buffers that later segments still read (the layers' stacked parameters among them), so each of those thirteen
  buffers holds at the layer's end what it held at its start: a region changes only its own arrays, a stretch only
  its operations' results.
-/
import proofs.«406721_j71184787964017_1_alg».proof.Proof.Gen.KernelIdeal.Frame
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- A stretch of host operations none of whose results is the buffer `b` leaves `b` as it was. -/
local macro "stretch_keeps " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The layer's six segments, last first, each leaving the buffer `b` as it was: the update region and the message
    region because `b` is none of their arrays, the four stretches because `b` is none of their results. -/
local macro "layer_keeps " m:ident ρ:ident c:ident b:ident : tactic =>
  `(tactic| exact
    calc W7 (F := Ideal) $m $ρ $c (Proc.devRef .tc $b)
        _ = W6 (F := Ideal) $m $ρ $c (Proc.devRef .tc $b) := W7_of_ne $m $ρ $c $b (by decide)
        _ = W5 (F := Ideal) $m $ρ $c (Proc.devRef .tc $b) := stretch_keeps hostOps1 $b
        _ = W4 (F := Ideal) $m $ρ $c (Proc.devRef .tc $b) := W5_of_ne $m $ρ $c $b (by decide)
        _ = W3 (F := Ideal) $m $ρ $c (Proc.devRef .tc $b) := stretch_keeps hostOps0_3 $b
        _ = W2 (F := Ideal) $m $ρ $c (Proc.devRef .tc $b) := stretch_keeps hostOps0_2 $b
        _ = W1 (F := Ideal) $m $ρ $c (Proc.devRef .tc $b) := stretch_keeps hostOps0_1 $b)

/-- Each of the thirteen buffers holds at the first layer's end what it held at its start. -/
theorem keep0 (c : Dev nD) (b : Ref sig .tc) (hb : b ∈ [main_v1, main_v3, main_arg2, main_arg5, main_arg6, main_arg7, main_arg8, main_arg9, main_arg10, main_arg11, main_arg12, main_arg13, main_arg14]) : W7 (F := Ideal) m ρ c (Proc.devRef .tc b) = W1 (F := Ideal) m ρ c (Proc.devRef .tc b) := by
  simp only [List.mem_cons, List.mem_singleton, List.not_mem_nil, or_false] at hb
  rcases hb with rfl | rfl | rfl | rfl | rfl | rfl | rfl | rfl | rfl | rfl | rfl | rfl | rfl
  · layer_keeps m ρ c main_v1
  · layer_keeps m ρ c main_v3
  · layer_keeps m ρ c main_arg2
  · layer_keeps m ρ c main_arg5
  · layer_keeps m ρ c main_arg6
  · layer_keeps m ρ c main_arg7
  · layer_keeps m ρ c main_arg8
  · layer_keeps m ρ c main_arg9
  · layer_keeps m ρ c main_arg10
  · layer_keeps m ρ c main_arg11
  · layer_keeps m ρ c main_arg12
  · layer_keeps m ρ c main_arg13
  · layer_keeps m ρ c main_arg14

end Cert.KernelIdeal.Chain

end
-- ==== Proof.KKeep1.lean ====
/-
  What the second layer leaves alone.

  Between the second layer's start and its end @main runs three stretches of host operations, the second message region,
  one more stretch and the second update region.  None of them writes the two edge-index vectors or the argument
  buffers that later segments still read (the layers' stacked parameters among them), so each of those thirteen
  buffers holds at the layer's end what it held at its start: a region changes only its own arrays, a stretch only
  its operations' results.
-/
import proofs.«406721_j71184787964017_1_alg».proof.Proof.Gen.KernelIdeal.Frame
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- A stretch of host operations none of whose results is the buffer `b` leaves `b` as it was. -/
local macro "stretch_keeps " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The layer's six segments, last first, each leaving the buffer `b` as it was: the update region and the message
    region because `b` is none of their arrays, the four stretches because `b` is none of their results. -/
local macro "layer_keeps " m:ident ρ:ident c:ident b:ident : tactic =>
  `(tactic| exact
    calc W13 (F := Ideal) $m $ρ $c (Proc.devRef .tc $b)
        _ = W12 (F := Ideal) $m $ρ $c (Proc.devRef .tc $b) := W13_of_ne $m $ρ $c $b (by decide)
        _ = W11 (F := Ideal) $m $ρ $c (Proc.devRef .tc $b) := stretch_keeps hostOps3 $b
        _ = W10 (F := Ideal) $m $ρ $c (Proc.devRef .tc $b) := W11_of_ne $m $ρ $c $b (by decide)
        _ = W9 (F := Ideal) $m $ρ $c (Proc.devRef .tc $b) := stretch_keeps hostOps2_2 $b
        _ = W8 (F := Ideal) $m $ρ $c (Proc.devRef .tc $b) := stretch_keeps hostOps2_1 $b
        _ = W7 (F := Ideal) $m $ρ $c (Proc.devRef .tc $b) := stretch_keeps hostOps2 $b)

/-- Each of the thirteen buffers holds at the second layer's end what it held at its start. -/
theorem keep1 (c : Dev nD) (b : Ref sig .tc) (hb : b ∈ [main_v1, main_v3, main_arg2, main_arg5, main_arg6, main_arg7, main_arg8, main_arg9, main_arg10, main_arg11, main_arg12, main_arg13, main_arg14]) : W13 (F := Ideal) m ρ c (Proc.devRef .tc b) = W7 (F := Ideal) m ρ c (Proc.devRef .tc b) := by
  simp only [List.mem_cons, List.mem_singleton, List.not_mem_nil, or_false] at hb
  rcases hb with rfl | rfl | rfl | rfl | rfl | rfl | rfl | rfl | rfl | rfl | rfl | rfl | rfl
  · layer_keeps m ρ c main_v1
  · layer_keeps m ρ c main_v3
  · layer_keeps m ρ c main_arg2
  · layer_keeps m ρ c main_arg5
  · layer_keeps m ρ c main_arg6
  · layer_keeps m ρ c main_arg7
  · layer_keeps m ρ c main_arg8
  · layer_keeps m ρ c main_arg9
  · layer_keeps m ρ c main_arg10
  · layer_keeps m ρ c main_arg11
  · layer_keeps m ρ c main_arg12
  · layer_keeps m ρ c main_arg13
  · layer_keeps m ρ c main_arg14

end Cert.KernelIdeal.Chain

end
-- ==== Proof.KKeep2.lean ====
/-
  What the third layer leaves alone.

  Between the third layer's start and its end @main runs three stretches of host operations, the third message region,
  one more stretch and the third update region.  None of them writes the two edge-index vectors or the argument
  buffers that later segments still read (the layers' stacked parameters among them), so each of those thirteen
  buffers holds at the layer's end what it held at its start: a region changes only its own arrays, a stretch only
  its operations' results.
-/
import proofs.«406721_j71184787964017_1_alg».proof.Proof.Gen.KernelIdeal.Frame
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- A stretch of host operations none of whose results is the buffer `b` leaves `b` as it was. -/
local macro "stretch_keeps " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The layer's six segments, last first, each leaving the buffer `b` as it was: the update region and the message
    region because `b` is none of their arrays, the four stretches because `b` is none of their results. -/
local macro "layer_keeps " m:ident ρ:ident c:ident b:ident : tactic =>
  `(tactic| exact
    calc W19 (F := Ideal) $m $ρ $c (Proc.devRef .tc $b)
        _ = W18 (F := Ideal) $m $ρ $c (Proc.devRef .tc $b) := W19_of_ne $m $ρ $c $b (by decide)
        _ = W17 (F := Ideal) $m $ρ $c (Proc.devRef .tc $b) := stretch_keeps hostOps5 $b
        _ = W16 (F := Ideal) $m $ρ $c (Proc.devRef .tc $b) := W17_of_ne $m $ρ $c $b (by decide)
        _ = W15 (F := Ideal) $m $ρ $c (Proc.devRef .tc $b) := stretch_keeps hostOps4_2 $b
        _ = W14 (F := Ideal) $m $ρ $c (Proc.devRef .tc $b) := stretch_keeps hostOps4_1 $b
        _ = W13 (F := Ideal) $m $ρ $c (Proc.devRef .tc $b) := stretch_keeps hostOps4 $b)

/-- Each of the thirteen buffers holds at the third layer's end what it held at its start. -/
theorem keep2 (c : Dev nD) (b : Ref sig .tc) (hb : b ∈ [main_v1, main_v3, main_arg2, main_arg5, main_arg6, main_arg7, main_arg8, main_arg9, main_arg10, main_arg11, main_arg12, main_arg13, main_arg14]) : W19 (F := Ideal) m ρ c (Proc.devRef .tc b) = W13 (F := Ideal) m ρ c (Proc.devRef .tc b) := by
  simp only [List.mem_cons, List.mem_singleton, List.not_mem_nil, or_false] at hb
  rcases hb with rfl | rfl | rfl | rfl | rfl | rfl | rfl | rfl | rfl | rfl | rfl | rfl | rfl
  · layer_keeps m ρ c main_v1
  · layer_keeps m ρ c main_v3
  · layer_keeps m ρ c main_arg2
  · layer_keeps m ρ c main_arg5
  · layer_keeps m ρ c main_arg6
  · layer_keeps m ρ c main_arg7
  · layer_keeps m ρ c main_arg8
  · layer_keeps m ρ c main_arg9
  · layer_keeps m ρ c main_arg10
  · layer_keeps m ρ c main_arg11
  · layer_keeps m ρ c main_arg12
  · layer_keeps m ρ c main_arg13
  · layer_keeps m ρ c main_arg14

end Cert.KernelIdeal.Chain

end
-- ==== Proof.KKeep3.lean ====
/-
  What the fourth layer leaves alone.

  Between the fourth layer's start and its end @main runs three stretches of host operations, the fourth message region,
  one more stretch and the fourth update region.  None of them writes the two edge-index vectors or the argument
  buffers that later segments still read (the layers' stacked parameters among them), so each of those thirteen
  buffers holds at the layer's end what it held at its start: a region changes only its own arrays, a stretch only
  its operations' results.
-/
import proofs.«406721_j71184787964017_1_alg».proof.Proof.Gen.KernelIdeal.Frame
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- A stretch of host operations none of whose results is the buffer `b` leaves `b` as it was. -/
local macro "stretch_keeps " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The layer's six segments, last first, each leaving the buffer `b` as it was: the update region and the message
    region because `b` is none of their arrays, the four stretches because `b` is none of their results. -/
local macro "layer_keeps " m:ident ρ:ident c:ident b:ident : tactic =>
  `(tactic| exact
    calc W25 (F := Ideal) $m $ρ $c (Proc.devRef .tc $b)
        _ = W24 (F := Ideal) $m $ρ $c (Proc.devRef .tc $b) := W25_of_ne $m $ρ $c $b (by decide)
        _ = W23 (F := Ideal) $m $ρ $c (Proc.devRef .tc $b) := stretch_keeps hostOps7 $b
        _ = W22 (F := Ideal) $m $ρ $c (Proc.devRef .tc $b) := W23_of_ne $m $ρ $c $b (by decide)
        _ = W21 (F := Ideal) $m $ρ $c (Proc.devRef .tc $b) := stretch_keeps hostOps6_2 $b
        _ = W20 (F := Ideal) $m $ρ $c (Proc.devRef .tc $b) := stretch_keeps hostOps6_1 $b
        _ = W19 (F := Ideal) $m $ρ $c (Proc.devRef .tc $b) := stretch_keeps hostOps6 $b)

/-- Each of the thirteen buffers holds at the fourth layer's end what it held at its start. -/
theorem keep3 (c : Dev nD) (b : Ref sig .tc) (hb : b ∈ [main_v1, main_v3, main_arg2, main_arg5, main_arg6, main_arg7, main_arg8, main_arg9, main_arg10, main_arg11, main_arg12, main_arg13, main_arg14]) : W25 (F := Ideal) m ρ c (Proc.devRef .tc b) = W19 (F := Ideal) m ρ c (Proc.devRef .tc b) := by
  simp only [List.mem_cons, List.mem_singleton, List.not_mem_nil, or_false] at hb
  rcases hb with rfl | rfl | rfl | rfl | rfl | rfl | rfl | rfl | rfl | rfl | rfl | rfl | rfl
  · layer_keeps m ρ c main_v1
  · layer_keeps m ρ c main_v3
  · layer_keeps m ρ c main_arg2
  · layer_keeps m ρ c main_arg5
  · layer_keeps m ρ c main_arg6
  · layer_keeps m ρ c main_arg7
  · layer_keeps m ρ c main_arg8
  · layer_keeps m ρ c main_arg9
  · layer_keeps m ρ c main_arg10
  · layer_keeps m ρ c main_arg11
  · layer_keeps m ρ c main_arg12
  · layer_keeps m ρ c main_arg13
  · layer_keeps m ρ c main_arg14

end Cert.KernelIdeal.Chain

end
-- ==== Proof.KValue.lean ====
/-
  The kernel's program's result.

  The fold of @main's twenty-six segments is read from the launch memory forward: every stretch of host operations
  rewrites the buffers it writes and leaves the rest, every region leaves its output array at the region's whole-array
  function of the arrays it found (`Region0.value` … `Region7.value`) and every other buffer as it found it.  Read at
  the result buffer, the fold is `Cert.KernelIdeal.Val.result` of the fifteen argument arrays.
-/
import proofs.«406721_j71184787964017_1_alg».proof.Proof.KStart
import proofs.«406721_j71184787964017_1_alg».proof.Proof.KLayer0
import proofs.«406721_j71184787964017_1_alg».proof.Proof.KLayer1
import proofs.«406721_j71184787964017_1_alg».proof.Proof.KLayer2
import proofs.«406721_j71184787964017_1_alg».proof.Proof.KLayer3
import proofs.«406721_j71184787964017_1_alg».proof.Proof.KKeep0
import proofs.«406721_j71184787964017_1_alg».proof.Proof.KKeep1
import proofs.«406721_j71184787964017_1_alg».proof.Proof.KKeep2
import proofs.«406721_j71184787964017_1_alg».proof.Proof.KKeep3

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Val

variable (m : (ℓ : Loc nD τ sig) → Buf (Elt Ideal) ℓ) (ρ : Dev nD → PrngReg)

/-! ## The buffers no layer writes, carried back to the first boundary

The two rows of the edge list and the arguments the layers and the tail read are written by no region and by no stretch
of host operations between the first boundary and the last but one; each layer's statement says so for its own span,
and the spans compose. -/

theorem at7 (c : Dev nD) (b : Ref sig .tc) (hb : b ∈ [main_v1, main_v3, main_arg2, main_arg5, main_arg6, main_arg7, main_arg8, main_arg9, main_arg10, main_arg11, main_arg12, main_arg13, main_arg14]) :
    W7 (F := Ideal) m ρ c (Proc.devRef .tc b) = W1 (F := Ideal) m ρ c (Proc.devRef .tc b) :=
  keep0 m ρ c b hb

theorem at13 (c : Dev nD) (b : Ref sig .tc) (hb : b ∈ [main_v1, main_v3, main_arg2, main_arg5, main_arg6, main_arg7, main_arg8, main_arg9, main_arg10, main_arg11, main_arg12, main_arg13, main_arg14]) :
    W13 (F := Ideal) m ρ c (Proc.devRef .tc b) = W1 (F := Ideal) m ρ c (Proc.devRef .tc b) :=
  (keep1 m ρ c b hb).trans (at7 m ρ c b hb)

theorem at19 (c : Dev nD) (b : Ref sig .tc) (hb : b ∈ [main_v1, main_v3, main_arg2, main_arg5, main_arg6, main_arg7, main_arg8, main_arg9, main_arg10, main_arg11, main_arg12, main_arg13, main_arg14]) :
    W19 (F := Ideal) m ρ c (Proc.devRef .tc b) = W1 (F := Ideal) m ρ c (Proc.devRef .tc b) :=
  (keep2 m ρ c b hb).trans (at13 m ρ c b hb)

theorem at25 (c : Dev nD) (b : Ref sig .tc) (hb : b ∈ [main_v1, main_v3, main_arg2, main_arg5, main_arg6, main_arg7, main_arg8, main_arg9, main_arg10, main_arg11, main_arg12, main_arg13, main_arg14]) :
    W25 (F := Ideal) m ρ c (Proc.devRef .tc b) = W1 (F := Ideal) m ρ c (Proc.devRef .tc b) :=
  (keep3 m ρ c b hb).trans (at19 m ρ c b hb)

/-- The last boundary's contents at the result buffer: the program's function of the argument arrays. -/
theorem kvalue (c : Dev nD) :
    W26 (F := Ideal) m ρ c (Proc.devRef .tc main_v148)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  -- the tail of the four layers' embedding …
  rw [finish, layer3, layer2, layer1, layer0]
  -- … every other buffer read along the way is what the first boundary holds …
  rw [at25 m ρ c main_arg2 (by decide),
    at25 m ρ c main_arg13 (by decide),
    at25 m ρ c main_arg14 (by decide),
    at19 m ρ c main_v1 (by decide),
    at19 m ρ c main_v3 (by decide),
    at19 m ρ c main_arg5 (by decide),
    at19 m ρ c main_arg6 (by decide),
    at19 m ρ c main_arg7 (by decide),
    at19 m ρ c main_arg8 (by decide),
    at19 m ρ c main_arg9 (by decide),
    at19 m ρ c main_arg10 (by decide),
    at19 m ρ c main_arg11 (by decide),
    at19 m ρ c main_arg12 (by decide),
    at13 m ρ c main_v1 (by decide),
    at13 m ρ c main_v3 (by decide),
    at13 m ρ c main_arg5 (by decide),
    at13 m ρ c main_arg6 (by decide),
    at13 m ρ c main_arg7 (by decide),
    at13 m ρ c main_arg8 (by decide),
    at13 m ρ c main_arg9 (by decide),
    at13 m ρ c main_arg10 (by decide),
    at13 m ρ c main_arg11 (by decide),
    at13 m ρ c main_arg12 (by decide),
    at7 m ρ c main_v1 (by decide),
    at7 m ρ c main_v3 (by decide),
    at7 m ρ c main_arg5 (by decide),
    at7 m ρ c main_arg6 (by decide),
    at7 m ρ c main_arg7 (by decide),
    at7 m ρ c main_arg8 (by decide),
    at7 m ρ c main_arg9 (by decide),
    at7 m ρ c main_arg10 (by decide),
    at7 m ρ c main_arg11 (by decide),
    at7 m ρ c main_arg12 (by decide)]
  -- … which is the launch memory, the rows of the edge list and the initial embedding
  rw [start_v7, start_v1, start_v3,
    start_arg m ρ c main_arg2 (by decide),
    start_arg m ρ c main_arg5 (by decide),
    start_arg m ρ c main_arg6 (by decide),
    start_arg m ρ c main_arg7 (by decide),
    start_arg m ρ c main_arg8 (by decide),
    start_arg m ρ c main_arg9 (by decide),
    start_arg m ρ c main_arg10 (by decide),
    start_arg m ρ c main_arg11 (by decide),
    start_arg m ρ c main_arg12 (by decide),
    start_arg m ρ c main_arg13 (by decide),
    start_arg m ρ c main_arg14 (by decide)]
  unfold result
  rfl

end Cert.KernelIdeal.Chain

end
-- ==== Proof.RStages.lean ====
/-
  The reference's operations, read stage by stage.

  The reference's host operations run as fourteen consecutive lists: the two rows of the edge list and the initial
  embedding; for each of the four layers the two gathers, then the messages added into their target nodes, then the
  node update with the residual; last the pooling and the head.  Each list's result buffer holds the matching value
  function of what its operand buffers held before the list ran, and a buffer the list does not write keeps its
  contents.  Composed, the last result buffer holds `result` of the fifteen arguments.
-/
import proofs.«406721_j71184787964017_1_alg».proof.Proof.RefOps
import proofs.«406721_j71184787964017_1_alg».proof.Proof.RefRun
import proofs.«406721_j71184787964017_1_alg».proof.Proof.Layers
import Idealize.ShloMosaic.Lib.StableHlo.Run

noncomputable section

namespace Cert.ReferenceIdeal.Chain

open Cert.ReferenceIdeal Cert.ReferenceIdeal.Gen Idealize.ShloMosaic Idealize.ShloMosaic.TcCoe Idealize.SL.Sem Idealize.ShloMosaic.StableHlo
open Cert.ReferenceIdeal.Val

variable {F : FTy → Type} [FloatOps F]

/-! ## What every stage leaves alone -/

/-- The fifteen arguments. -/
def args : List (Ref sig .tc) :=
  [main_arg0, main_arg1, main_arg2, main_arg3, main_arg4, main_arg5, main_arg6, main_arg7, main_arg8, main_arg9, main_arg10, main_arg11, main_arg12, main_arg13, main_arg14]

/-- The arguments and the two rows of the edge list: no list after the first writes any of them. -/
def kept : List (Ref sig .tc) := args ++ [main_v1, main_v3]

/-- `X` holds what `Y` holds at every kept reference. -/
def Keeps (X Y : Valuation τ sig (Elt F)) : Prop := ∀ r ∈ kept, X (Proc.devRef .tc r) = Y (Proc.devRef .tc r)

theorem Keeps.trans {X Y Z : Valuation τ sig (Elt F)} (h₁ : Keeps X Y) (h₂ : Keeps Y Z) : Keeps X Z :=
  fun r hr => (h₁ r hr).trans (h₂ r hr)

/-- `X` holds the arguments of `W` and the two rows of `W`'s edge list. -/
def Base (X W : Valuation τ sig (Elt F)) : Prop :=
  (∀ r ∈ args, X (Proc.devRef .tc r) = W (Proc.devRef .tc r))
    ∧ X (Proc.devRef .tc main_v1) = edgeRow0 (W (Proc.devRef .tc main_arg1))
    ∧ X (Proc.devRef .tc main_v3) = edgeRow1 (W (Proc.devRef .tc main_arg1))

theorem Base.step {X' X W : Valuation τ sig (Elt F)} (hb : Base X W) (h : Keeps X' X) : Base X' W :=
  ⟨fun r hr => (h r (List.mem_append_left _ hr)).trans (hb.1 r hr),
    (h main_v1 (by decide)).trans hb.2.1, (h main_v3 (by decide)).trans hb.2.2⟩

/-- One layer of the reference, its index vectors and its stacked parameters read from the buffers of `X`: `a`, `b`,
    `c` are the layer's slices of the three kinds of stacked parameter. -/
def layerAt (a : FVec F S4x128x64 .f32 → FVec F S128x64 .f32) (b : FVec F S4x64 .f32 → FVec F S64 .f32)
    (c : FVec F S4x64x64 .f32 → FVec F S64x64 .f32) (X : Valuation τ sig (Elt F)) (e : FVec F S50000x64 .f32) :
    FVec F S50000x64 .f32 :=
  layer e (X (Proc.devRef .tc main_v1)) (X (Proc.devRef .tc main_v3))
    (a (X (Proc.devRef .tc main_arg5))) (b (X (Proc.devRef .tc main_arg6))) (c (X (Proc.devRef .tc main_arg7))) (b (X (Proc.devRef .tc main_arg8)))
    (a (X (Proc.devRef .tc main_arg9))) (b (X (Proc.devRef .tc main_arg10))) (c (X (Proc.devRef .tc main_arg11))) (b (X (Proc.devRef .tc main_arg12)))

/-- The same with the index vectors and the parameters taken from the arguments `W`. -/
def layerOf (a : FVec F S4x128x64 .f32 → FVec F S128x64 .f32) (b : FVec F S4x64 .f32 → FVec F S64 .f32)
    (c : FVec F S4x64x64 .f32 → FVec F S64x64 .f32) (W : Valuation τ sig (Elt F)) (e : FVec F S50000x64 .f32) :
    FVec F S50000x64 .f32 :=
  layer e (edgeRow0 (W (Proc.devRef .tc main_arg1))) (edgeRow1 (W (Proc.devRef .tc main_arg1)))
    (a (W (Proc.devRef .tc main_arg5))) (b (W (Proc.devRef .tc main_arg6))) (c (W (Proc.devRef .tc main_arg7))) (b (W (Proc.devRef .tc main_arg8)))
    (a (W (Proc.devRef .tc main_arg9))) (b (W (Proc.devRef .tc main_arg10))) (c (W (Proc.devRef .tc main_arg11))) (b (W (Proc.devRef .tc main_arg12)))

theorem layerAt_base {a : FVec F S4x128x64 .f32 → FVec F S128x64 .f32} {b : FVec F S4x64 .f32 → FVec F S64 .f32}
    {c : FVec F S4x64x64 .f32 → FVec F S64x64 .f32} {X W : Valuation τ sig (Elt F)} (hb : Base X W) (e : FVec F S50000x64 .f32) :
    layerAt a b c X e = layerOf a b c W e := by
  unfold layerAt layerOf
  rw [hb.2.1, hb.2.2, hb.1 main_arg5 (by decide), hb.1 main_arg6 (by decide), hb.1 main_arg7 (by decide),
    hb.1 main_arg8 (by decide), hb.1 main_arg9 (by decide), hb.1 main_arg10 (by decide), hb.1 main_arg11 (by decide),
    hb.1 main_arg12 (by decide)]

/-! ## The edge list's rows and the initial embedding -/

theorem opsA_v1 (W : Valuation τ sig (Elt F)) :
    after opsA W (Proc.devRef .tc main_v1) = edgeRow0 (W (Proc.devRef .tc main_arg1)) := by
  after_results; rfl

theorem opsA_v3 (W : Valuation τ sig (Elt F)) :
    after opsA W (Proc.devRef .tc main_v3) = edgeRow1 (W (Proc.devRef .tc main_arg1)) := by
  after_results; rfl

theorem opsA_v7 (W : Valuation τ sig (Elt F)) :
    after opsA W (Proc.devRef .tc main_v7)
      = emb0 (W (Proc.devRef .tc main_arg0)) (W (Proc.devRef .tc main_arg3)) (W (Proc.devRef .tc main_arg4)) := by
  after_results; rfl

theorem base0 (W : Valuation τ sig (Elt F)) : Base (after opsA W) W := by
  have h : ∀ r ∈ args, r ∉ opsA_W := by decide
  exact ⟨fun r hr => opsA_keep W (h r hr), opsA_v1 W, opsA_v3 W⟩

/-! ## Layer 0: from the embedding `main_v7` to `main_v63` -/

theorem opsL0a_v14 (W : Valuation τ sig (Elt F)) :
    after opsL0a W (Proc.devRef .tc main_v14) = gatherRows (W (Proc.devRef .tc main_v7)) (W (Proc.devRef .tc main_v3)) := by
  after_results_simp; rfl

theorem opsL0a_v21 (W : Valuation τ sig (Elt F)) :
    after opsL0a W (Proc.devRef .tc main_v21) = gatherRows (W (Proc.devRef .tc main_v7)) (W (Proc.devRef .tc main_v1)) := by
  after_results_simp; rfl

theorem opsL0b_v43 (W : Valuation τ sig (Elt F)) :
    after opsL0b W (Proc.devRef .tc main_v43)
      = aggregate (W (Proc.devRef .tc main_v3))
          (mlpE (W (Proc.devRef .tc main_v14)) (W (Proc.devRef .tc main_v21))
            (w128_0 (W (Proc.devRef .tc main_arg5))) (v64_0 (W (Proc.devRef .tc main_arg6)))
            (w64_0 (W (Proc.devRef .tc main_arg7))) (v64_0 (W (Proc.devRef .tc main_arg8)))) := by
  after_results_simp; rfl

theorem opsL0c_v63 (W : Valuation τ sig (Elt F)) :
    after opsL0c W (Proc.devRef .tc main_v63)
      = addf (W (Proc.devRef .tc main_v7))
          (mlpN (W (Proc.devRef .tc main_v7)) (W (Proc.devRef .tc main_v43))
            (w128_0 (W (Proc.devRef .tc main_arg9))) (v64_0 (W (Proc.devRef .tc main_arg10)))
            (w64_0 (W (Proc.devRef .tc main_arg11))) (v64_0 (W (Proc.devRef .tc main_arg12)))) := by
  after_results_simp; rfl

theorem opsL0a_keeps (W : Valuation τ sig (Elt F)) : Keeps (after opsL0a W) W := by
  have h : ∀ r ∈ kept, r ∉ opsL0a_W := by decide
  exact fun r hr => opsL0a_keep W (h r hr)
theorem opsL0b_keeps (W : Valuation τ sig (Elt F)) : Keeps (after opsL0b W) W := by
  have h : ∀ r ∈ kept, r ∉ opsL0b_W := by decide
  exact fun r hr => opsL0b_keep W (h r hr)
theorem opsL0c_keeps (W : Valuation τ sig (Elt F)) : Keeps (after opsL0c W) W := by
  have h : ∀ r ∈ kept, r ∉ opsL0c_W := by decide
  exact fun r hr => opsL0c_keep W (h r hr)

theorem layer0_keeps (W : Valuation τ sig (Elt F)) : Keeps (after opsL0c (after opsL0b (after opsL0a W))) W :=
  ((opsL0c_keeps _).trans (opsL0b_keeps _)).trans (opsL0a_keeps W)

theorem layer0_out (W : Valuation τ sig (Elt F)) :
    after opsL0c (after opsL0b (after opsL0a W)) (Proc.devRef .tc main_v63)
      = layerAt w128_0 v64_0 w64_0 W (W (Proc.devRef .tc main_v7)) := by
  have ka := opsL0a_keeps W
  have kb := (opsL0b_keeps (after opsL0a W)).trans ka
  rw [opsL0c_v63, opsL0b_v43, opsL0a_v14, opsL0a_v21, opsL0b_keep (r := main_v7) _, opsL0a_keep (r := main_v7) W,
    kb main_arg9 (by decide), kb main_arg10 (by decide), kb main_arg11 (by decide), kb main_arg12 (by decide),
    ka main_v3 (by decide), ka main_arg5 (by decide), ka main_arg6 (by decide), ka main_arg7 (by decide),
    ka main_arg8 (by decide)]
  rfl

/-! ## Layer 1: from `main_v63` to `main_v119` -/

theorem opsL1a_v70 (W : Valuation τ sig (Elt F)) :
    after opsL1a W (Proc.devRef .tc main_v70) = gatherRows (W (Proc.devRef .tc main_v63)) (W (Proc.devRef .tc main_v3)) := by
  after_results_simp; rfl

theorem opsL1a_v77 (W : Valuation τ sig (Elt F)) :
    after opsL1a W (Proc.devRef .tc main_v77) = gatherRows (W (Proc.devRef .tc main_v63)) (W (Proc.devRef .tc main_v1)) := by
  after_results_simp; rfl

theorem opsL1b_v99 (W : Valuation τ sig (Elt F)) :
    after opsL1b W (Proc.devRef .tc main_v99)
      = aggregate (W (Proc.devRef .tc main_v3))
          (mlpE (W (Proc.devRef .tc main_v70)) (W (Proc.devRef .tc main_v77))
            (w128_1 (W (Proc.devRef .tc main_arg5))) (v64_1 (W (Proc.devRef .tc main_arg6)))
            (w64_1 (W (Proc.devRef .tc main_arg7))) (v64_1 (W (Proc.devRef .tc main_arg8)))) := by
  after_results_simp; rfl

theorem opsL1c_v119 (W : Valuation τ sig (Elt F)) :
    after opsL1c W (Proc.devRef .tc main_v119)
      = addf (W (Proc.devRef .tc main_v63))
          (mlpN (W (Proc.devRef .tc main_v63)) (W (Proc.devRef .tc main_v99))
            (w128_1 (W (Proc.devRef .tc main_arg9))) (v64_1 (W (Proc.devRef .tc main_arg10)))
            (w64_1 (W (Proc.devRef .tc main_arg11))) (v64_1 (W (Proc.devRef .tc main_arg12)))) := by
  after_results_simp; rfl

theorem opsL1a_keeps (W : Valuation τ sig (Elt F)) : Keeps (after opsL1a W) W := by
  have h : ∀ r ∈ kept, r ∉ opsL1a_W := by decide
  exact fun r hr => opsL1a_keep W (h r hr)
theorem opsL1b_keeps (W : Valuation τ sig (Elt F)) : Keeps (after opsL1b W) W := by
  have h : ∀ r ∈ kept, r ∉ opsL1b_W := by decide
  exact fun r hr => opsL1b_keep W (h r hr)
theorem opsL1c_keeps (W : Valuation τ sig (Elt F)) : Keeps (after opsL1c W) W := by
  have h : ∀ r ∈ kept, r ∉ opsL1c_W := by decide
  exact fun r hr => opsL1c_keep W (h r hr)

theorem layer1_keeps (W : Valuation τ sig (Elt F)) : Keeps (after opsL1c (after opsL1b (after opsL1a W))) W :=
  ((opsL1c_keeps _).trans (opsL1b_keeps _)).trans (opsL1a_keeps W)

theorem layer1_out (W : Valuation τ sig (Elt F)) :
    after opsL1c (after opsL1b (after opsL1a W)) (Proc.devRef .tc main_v119)
      = layerAt w128_1 v64_1 w64_1 W (W (Proc.devRef .tc main_v63)) := by
  have ka := opsL1a_keeps W
  have kb := (opsL1b_keeps (after opsL1a W)).trans ka
  rw [opsL1c_v119, opsL1b_v99, opsL1a_v70, opsL1a_v77, opsL1b_keep (r := main_v63) _, opsL1a_keep (r := main_v63) W,
    kb main_arg9 (by decide), kb main_arg10 (by decide), kb main_arg11 (by decide), kb main_arg12 (by decide),
    ka main_v3 (by decide), ka main_arg5 (by decide), ka main_arg6 (by decide), ka main_arg7 (by decide),
    ka main_arg8 (by decide)]
  rfl

/-! ## Layer 2: from `main_v119` to `main_v175` -/

theorem opsL2a_v126 (W : Valuation τ sig (Elt F)) :
    after opsL2a W (Proc.devRef .tc main_v126) = gatherRows (W (Proc.devRef .tc main_v119)) (W (Proc.devRef .tc main_v3)) := by
  after_results_simp; rfl

theorem opsL2a_v133 (W : Valuation τ sig (Elt F)) :
    after opsL2a W (Proc.devRef .tc main_v133) = gatherRows (W (Proc.devRef .tc main_v119)) (W (Proc.devRef .tc main_v1)) := by
  after_results_simp; rfl

theorem opsL2b_v155 (W : Valuation τ sig (Elt F)) :
    after opsL2b W (Proc.devRef .tc main_v155)
      = aggregate (W (Proc.devRef .tc main_v3))
          (mlpE (W (Proc.devRef .tc main_v126)) (W (Proc.devRef .tc main_v133))
            (w128_2 (W (Proc.devRef .tc main_arg5))) (v64_2 (W (Proc.devRef .tc main_arg6)))
            (w64_2 (W (Proc.devRef .tc main_arg7))) (v64_2 (W (Proc.devRef .tc main_arg8)))) := by
  after_results_simp; rfl

theorem opsL2c_v175 (W : Valuation τ sig (Elt F)) :
    after opsL2c W (Proc.devRef .tc main_v175)
      = addf (W (Proc.devRef .tc main_v119))
          (mlpN (W (Proc.devRef .tc main_v119)) (W (Proc.devRef .tc main_v155))
            (w128_2 (W (Proc.devRef .tc main_arg9))) (v64_2 (W (Proc.devRef .tc main_arg10)))
            (w64_2 (W (Proc.devRef .tc main_arg11))) (v64_2 (W (Proc.devRef .tc main_arg12)))) := by
  after_results_simp; rfl

theorem opsL2a_keeps (W : Valuation τ sig (Elt F)) : Keeps (after opsL2a W) W := by
  have h : ∀ r ∈ kept, r ∉ opsL2a_W := by decide
  exact fun r hr => opsL2a_keep W (h r hr)
theorem opsL2b_keeps (W : Valuation τ sig (Elt F)) : Keeps (after opsL2b W) W := by
  have h : ∀ r ∈ kept, r ∉ opsL2b_W := by decide
  exact fun r hr => opsL2b_keep W (h r hr)
theorem opsL2c_keeps (W : Valuation τ sig (Elt F)) : Keeps (after opsL2c W) W := by
  have h : ∀ r ∈ kept, r ∉ opsL2c_W := by decide
  exact fun r hr => opsL2c_keep W (h r hr)

theorem layer2_keeps (W : Valuation τ sig (Elt F)) : Keeps (after opsL2c (after opsL2b (after opsL2a W))) W :=
  ((opsL2c_keeps _).trans (opsL2b_keeps _)).trans (opsL2a_keeps W)

theorem layer2_out (W : Valuation τ sig (Elt F)) :
    after opsL2c (after opsL2b (after opsL2a W)) (Proc.devRef .tc main_v175)
      = layerAt w128_2 v64_2 w64_2 W (W (Proc.devRef .tc main_v119)) := by
  have ka := opsL2a_keeps W
  have kb := (opsL2b_keeps (after opsL2a W)).trans ka
  rw [opsL2c_v175, opsL2b_v155, opsL2a_v126, opsL2a_v133, opsL2b_keep (r := main_v119) _, opsL2a_keep (r := main_v119) W,
    kb main_arg9 (by decide), kb main_arg10 (by decide), kb main_arg11 (by decide), kb main_arg12 (by decide),
    ka main_v3 (by decide), ka main_arg5 (by decide), ka main_arg6 (by decide), ka main_arg7 (by decide),
    ka main_arg8 (by decide)]
  rfl

/-! ## Layer 3: from `main_v175` to `main_v231` -/

theorem opsL3a_v182 (W : Valuation τ sig (Elt F)) :
    after opsL3a W (Proc.devRef .tc main_v182) = gatherRows (W (Proc.devRef .tc main_v175)) (W (Proc.devRef .tc main_v3)) := by
  after_results_simp; rfl

theorem opsL3a_v189 (W : Valuation τ sig (Elt F)) :
    after opsL3a W (Proc.devRef .tc main_v189) = gatherRows (W (Proc.devRef .tc main_v175)) (W (Proc.devRef .tc main_v1)) := by
  after_results_simp; rfl

theorem opsL3b_v211 (W : Valuation τ sig (Elt F)) :
    after opsL3b W (Proc.devRef .tc main_v211)
      = aggregate (W (Proc.devRef .tc main_v3))
          (mlpE (W (Proc.devRef .tc main_v182)) (W (Proc.devRef .tc main_v189))
            (w128_3 (W (Proc.devRef .tc main_arg5))) (v64_3 (W (Proc.devRef .tc main_arg6)))
            (w64_3 (W (Proc.devRef .tc main_arg7))) (v64_3 (W (Proc.devRef .tc main_arg8)))) := by
  after_results_simp; rfl

theorem opsL3c_v231 (W : Valuation τ sig (Elt F)) :
    after opsL3c W (Proc.devRef .tc main_v231)
      = addf (W (Proc.devRef .tc main_v175))
          (mlpN (W (Proc.devRef .tc main_v175)) (W (Proc.devRef .tc main_v211))
            (w128_3 (W (Proc.devRef .tc main_arg9))) (v64_3 (W (Proc.devRef .tc main_arg10)))
            (w64_3 (W (Proc.devRef .tc main_arg11))) (v64_3 (W (Proc.devRef .tc main_arg12)))) := by
  after_results_simp; rfl

theorem opsL3a_keeps (W : Valuation τ sig (Elt F)) : Keeps (after opsL3a W) W := by
  have h : ∀ r ∈ kept, r ∉ opsL3a_W := by decide
  exact fun r hr => opsL3a_keep W (h r hr)
theorem opsL3b_keeps (W : Valuation τ sig (Elt F)) : Keeps (after opsL3b W) W := by
  have h : ∀ r ∈ kept, r ∉ opsL3b_W := by decide
  exact fun r hr => opsL3b_keep W (h r hr)
theorem opsL3c_keeps (W : Valuation τ sig (Elt F)) : Keeps (after opsL3c W) W := by
  have h : ∀ r ∈ kept, r ∉ opsL3c_W := by decide
  exact fun r hr => opsL3c_keep W (h r hr)

theorem layer3_keeps (W : Valuation τ sig (Elt F)) : Keeps (after opsL3c (after opsL3b (after opsL3a W))) W :=
  ((opsL3c_keeps _).trans (opsL3b_keeps _)).trans (opsL3a_keeps W)

theorem layer3_out (W : Valuation τ sig (Elt F)) :
    after opsL3c (after opsL3b (after opsL3a W)) (Proc.devRef .tc main_v231)
      = layerAt w128_3 v64_3 w64_3 W (W (Proc.devRef .tc main_v175)) := by
  have ka := opsL3a_keeps W
  have kb := (opsL3b_keeps (after opsL3a W)).trans ka
  rw [opsL3c_v231, opsL3b_v211, opsL3a_v182, opsL3a_v189, opsL3b_keep (r := main_v175) _, opsL3a_keep (r := main_v175) W,
    kb main_arg9 (by decide), kb main_arg10 (by decide), kb main_arg11 (by decide), kb main_arg12 (by decide),
    ka main_v3 (by decide), ka main_arg5 (by decide), ka main_arg6 (by decide), ka main_arg7 (by decide),
    ka main_arg8 (by decide)]
  rfl

/-! ## The pooling and the head -/

theorem opsT_v248 (W : Valuation τ sig (Elt F)) :
    after opsT W (Proc.devRef .tc main_v248)
      = tail (W (Proc.devRef .tc main_v231)) (W (Proc.devRef .tc main_arg2)) (W (Proc.devRef .tc main_arg13))
          (W (Proc.devRef .tc main_arg14)) := by
  after_results_simp; rfl

/-! ## The fourteen lists in a row -/

/-- After all fourteen lists the last result buffer holds the reference's value function of the fifteen arguments. -/
theorem stages (W : Valuation τ sig (Elt F)) :
    after (opsA ++ opsL0a ++ opsL0b ++ opsL0c ++ opsL1a ++ opsL1b ++ opsL1c ++ opsL2a ++ opsL2b ++ opsL2c ++ opsL3a ++ opsL3b
        ++ opsL3c ++ opsT) W (Proc.devRef .tc main_v248)
      = result (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8))
          (W (Proc.devRef .tc main_arg9)) (W (Proc.devRef .tc main_arg10)) (W (Proc.devRef .tc main_arg11))
          (W (Proc.devRef .tc main_arg12)) (W (Proc.devRef .tc main_arg13)) (W (Proc.devRef .tc main_arg14)) := by
  have b0 := base0 W
  have b1 := b0.step (layer0_keeps (after opsA W))
  have b2 := b1.step (layer1_keeps _)
  have b3 := b2.step (layer2_keeps _)
  have b4 := b3.step (layer3_keeps _)
  simp only [after_append]
  rw [opsT_v248, layer3_out, layer2_out, layer1_out, layer0_out, opsA_v7,
    layerAt_base b3, layerAt_base b2, layerAt_base b1, layerAt_base b0,
    b4.1 main_arg2 (by decide), b4.1 main_arg13 (by decide), b4.1 main_arg14 (by decide)]
  rfl

end Cert.ReferenceIdeal.Chain

end
-- ==== Proof.RValue.lean ====
/-
  The reference's run.

  The reference is a straight line of 305 host operations.  Every weakly fair execution of it terminates with each buffer
  at the fold of the operations over the launch memory.  Read at the result buffer, stage by stage — the initial
  embedding, then per layer the two gathers, the message perceptron summed into the target nodes, the update
  perceptron and the residual, then the pooling — the fold is `Cert.ReferenceIdeal.Val.result` of the fifteen argument
  arrays; no operation writes an argument.
-/
import proofs.«406721_j71184787964017_1_alg».proof.Proof.Gen.ReferenceIdeal
import proofs.«406721_j71184787964017_1_alg».proof.Proof.Layers
import proofs.«406721_j71184787964017_1_alg».proof.Proof.RefRun
import proofs.«406721_j71184787964017_1_alg».proof.Proof.RStages
import Idealize.ShloMosaic.Lib.StableHlo.Run

noncomputable section

namespace Cert.ReferenceIdeal.Chain

open Cert.ReferenceIdeal Cert.ReferenceIdeal.Gen Cert.ReferenceIdeal.Val
open Idealize.ShloMosaic Idealize.ShloMosaic.TcCoe Idealize.SL.Sem Idealize.ShloMosaic.StableHlo

variable {F : FTy → Type} [FloatOps F]

/-- On every device, from any memory with zero counters: every weakly fair execution of the reference terminates
    with the result at the reference's function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v248)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v248).trans (stages (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c)),
      (h c main_arg8).trans (after_arg8 (launchContents m c)),
      (h c main_arg9).trans (after_arg9 (launchContents m c)),
      (h c main_arg10).trans (after_arg10 (launchContents m c)),
      (h c main_arg11).trans (after_arg11 (launchContents m c)),
      (h c main_arg12).trans (after_arg12 (launchContents m c)),
      (h c main_arg13).trans (after_arg13 (launchContents m c)),
      (h c main_arg14).trans (after_arg14 (launchContents m c))⟩)
    (fold_run m ρ)

end Cert.ReferenceIdeal.Chain

end
-- ==== Proof.MlpRef.lean ====
/-
  The reference's perceptrons are the regions' functions.

  The reference concatenates the two 64-wide inputs of a perceptron into one 128-wide array and contracts it against
  the stacked 128 × 64 weights; the kernel's regions contract each input against its own half of the weights and add.
  A sum over the 128 concatenated positions is the sum over the first 64 plus the sum over the last 64
  (`Cert.Mlp.sum_128_split`), position `p` of the first half reading the first input and weight row `p`, position `p`
  of the second half the second input and weight row `64 + p`.  The biases are the same numbers as a vector and as a
  one-row matrix.  No finiteness is used.
-/
import proofs.«406721_j71184787964017_1_alg».proof.Proof.Layers
import Idealize.ShloMosaic.PureOps.Ideal.Laws
import Idealize.ShloMosaic.Lib.Pipeline.Value
import Idealize.ShloMosaic.Lib.ValueIdx
import Idealize.ShloMosaic.Lib.ValueLayout

noncomputable section

namespace Cert.MlpRef

open Idealize.ShloMosaic Idealize.ShloMosaic.ValueIdx Cert.Mlp Cert.Spec

open scoped BigOperators

/-! ## The kernel-side slices and reshape, read at an index -/

/-- The first half of the stacked weights at `(p, k)` is the stacked weights at row `p`. -/
theorem lo_apply (W : FVec Ideal Cert.KernelIdeal.S128x64 .f32) (p k : Fin 64) :
    Cert.KernelIdeal.Val.lo (F := Ideal) W (ix2 p k) = W (ix2 (⟨p.val, by have := p.isLt; omega⟩ : Fin 128) k) := by
  unfold Cert.KernelIdeal.Val.lo
  exact extractStridedSlice_apply ![0, 0] W _ (ix2 p k) _ (fun a => match a with
    | ⟨0, _⟩ => by show p.val = 0 + p.val; omega
    | ⟨1, _⟩ => by show k.val = 0 + k.val; omega)

/-- The second half of the stacked weights at `(p, k)` is the stacked weights at row `64 + p`. -/
theorem hi_apply (W : FVec Ideal Cert.KernelIdeal.S128x64 .f32) (p k : Fin 64) :
    Cert.KernelIdeal.Val.hi (F := Ideal) W (ix2 p k) = W (ix2 (⟨64 + p.val, by have := p.isLt; omega⟩ : Fin 128) k) := by
  unfold Cert.KernelIdeal.Val.hi
  exact extractStridedSlice_apply ![64, 0] W _ (ix2 p k) _ (fun a => match a with
    | ⟨0, _⟩ => by show 64 + p.val = 64 + p.val; rfl
    | ⟨1, _⟩ => by show k.val = 0 + k.val; omega)

/-- A bias vector as a one-row matrix, at column `k` of its one row, is its entry `k`. -/
theorem asRow_apply (c : FVec Ideal Cert.KernelIdeal.S64 .f32) (k : Fin 64) :
    Cert.KernelIdeal.Val.asRow (F := Ideal) c (ix2 0 k) = c (ix1 k) := by
  unfold Cert.KernelIdeal.Val.asRow
  exact shapeCast_apply c _ (ix2 0 k) (ix1 k)
    (by rewrite [Shape.rowMajor_val_one, Shape.rowMajor_val_two]; show k.val = 0 * 64 + k.val; omega)

/-! ## Over edges (800000 rows) -/

section Edges
open Cert.ReferenceIdeal Cert.ReferenceIdeal.Facts₀

theorem lhsE1_0 (i : S800000x64.Idx) (q : dot_S800000x128_S128x64_S800000x64_1_0_0_1_n_n.contr.Idx) :
    (dot_S800000x128_S128x64_S800000x64_1_0_0_1_n_n.lhsIdx i q 0).val = (i 0).val := by
  unfold DotDims.lhsIdx
  rw [dif_neg (show ¬(0 : Fin S800000x128.rank) ∈ dot_S800000x128_S128x64_S800000x64_1_0_0_1_n_n.lhsBatch by decide), dif_pos (show (0 : Fin S800000x128.rank) ∈ dot_S800000x128_S128x64_S800000x64_1_0_0_1_n_n.lhsNonContracting by decide)]
  rfl
theorem lhsE1_1 (i : S800000x64.Idx) (q : dot_S800000x128_S128x64_S800000x64_1_0_0_1_n_n.contr.Idx) :
    (dot_S800000x128_S128x64_S800000x64_1_0_0_1_n_n.lhsIdx i q 1).val = (q ⟨0, by decide⟩).val :=
  dot_S800000x128_S128x64_S800000x64_1_0_0_1_n_n.lhsIdx_val_of_single rfl i q
theorem rhsE1_0 (i : S800000x64.Idx) (q : dot_S800000x128_S128x64_S800000x64_1_0_0_1_n_n.contr.Idx) :
    (dot_S800000x128_S128x64_S800000x64_1_0_0_1_n_n.rhsIdx i q 0).val = (q ⟨0, by decide⟩).val :=
  dot_S800000x128_S128x64_S800000x64_1_0_0_1_n_n.rhsIdx_val_of_single rfl i q
theorem rhsE1_1 (i : S800000x64.Idx) (q : dot_S800000x128_S128x64_S800000x64_1_0_0_1_n_n.contr.Idx) :
    (dot_S800000x128_S128x64_S800000x64_1_0_0_1_n_n.rhsIdx i q 1).val = (i 1).val := by
  unfold DotDims.rhsIdx
  rw [dif_neg (show ¬(1 : Fin S128x64.rank) ∈ dot_S800000x128_S128x64_S800000x64_1_0_0_1_n_n.rhsBatch by decide), dif_pos (show (1 : Fin S128x64.rank) ∈ dot_S800000x128_S128x64_S800000x64_1_0_0_1_n_n.rhsNonContracting by decide)]
  rfl

/-- The 128-wide contraction at row `e`, column `k`: the sum over the contracted position of the products. -/
theorem dotAE_apply (x : FVec Ideal S800000x128 .f32) (w : FVec Ideal S128x64 .f32) (e : Fin 800000) (k : Fin 64) :
    Host.dotGeneral dot_S800000x128_S128x64_S800000x64_1_0_0_1_n_n none x w (ix2 e k) = ∑ q : Fin 128, x (ix2 e q) * w (ix2 q k) := by
  simp only [Host.dotGeneral]
  rw [Ideal.dotGeneral_apply, ← Equiv.sum_comp (ValueIdx.contrEquiv1 dot_S800000x128_S128x64_S800000x64_1_0_0_1_n_n 128 rfl rfl).symm]
  refine Finset.sum_congr rfl fun q _ => ?_
  have hq := ValueIdx.contrEquiv1_symm_val dot_S800000x128_S128x64_S800000x64_1_0_0_1_n_n 128 rfl rfl q
  have el : dot_S800000x128_S128x64_S800000x64_1_0_0_1_n_n.lhsIdx (ix2 e k) ((ValueIdx.contrEquiv1 dot_S800000x128_S128x64_S800000x64_1_0_0_1_n_n 128 rfl rfl).symm q) = ix2 e q := funext fun a => Fin.ext (by
    match a with
    | ⟨0, _⟩ => exact lhsE1_0 _ _
    | ⟨1, _⟩ => exact (lhsE1_1 _ _).trans hq)
  have er : dot_S800000x128_S128x64_S800000x64_1_0_0_1_n_n.rhsIdx (ix2 e k) ((ValueIdx.contrEquiv1 dot_S800000x128_S128x64_S800000x64_1_0_0_1_n_n 128 rfl rfl).symm q) = ix2 q k := funext fun a => Fin.ext (by
    match a with
    | ⟨0, _⟩ => exact (rhsE1_0 _ _).trans hq
    | ⟨1, _⟩ => exact rhsE1_1 _ _)
  rw [el, er]

theorem lhsE2_0 (i : S800000x64.Idx) (q : dot_S800000x64_S64x64_S800000x64_1_0_0_1_n_n.contr.Idx) :
    (dot_S800000x64_S64x64_S800000x64_1_0_0_1_n_n.lhsIdx i q 0).val = (i 0).val := by
  unfold DotDims.lhsIdx
  rw [dif_neg (show ¬(0 : Fin S800000x64.rank) ∈ dot_S800000x64_S64x64_S800000x64_1_0_0_1_n_n.lhsBatch by decide), dif_pos (show (0 : Fin S800000x64.rank) ∈ dot_S800000x64_S64x64_S800000x64_1_0_0_1_n_n.lhsNonContracting by decide)]
  rfl
theorem lhsE2_1 (i : S800000x64.Idx) (q : dot_S800000x64_S64x64_S800000x64_1_0_0_1_n_n.contr.Idx) :
    (dot_S800000x64_S64x64_S800000x64_1_0_0_1_n_n.lhsIdx i q 1).val = (q ⟨0, by decide⟩).val :=
  dot_S800000x64_S64x64_S800000x64_1_0_0_1_n_n.lhsIdx_val_of_single rfl i q
theorem rhsE2_0 (i : S800000x64.Idx) (q : dot_S800000x64_S64x64_S800000x64_1_0_0_1_n_n.contr.Idx) :
    (dot_S800000x64_S64x64_S800000x64_1_0_0_1_n_n.rhsIdx i q 0).val = (q ⟨0, by decide⟩).val :=
  dot_S800000x64_S64x64_S800000x64_1_0_0_1_n_n.rhsIdx_val_of_single rfl i q
theorem rhsE2_1 (i : S800000x64.Idx) (q : dot_S800000x64_S64x64_S800000x64_1_0_0_1_n_n.contr.Idx) :
    (dot_S800000x64_S64x64_S800000x64_1_0_0_1_n_n.rhsIdx i q 1).val = (i 1).val := by
  unfold DotDims.rhsIdx
  rw [dif_neg (show ¬(1 : Fin S64x64.rank) ∈ dot_S800000x64_S64x64_S800000x64_1_0_0_1_n_n.rhsBatch by decide), dif_pos (show (1 : Fin S64x64.rank) ∈ dot_S800000x64_S64x64_S800000x64_1_0_0_1_n_n.rhsNonContracting by decide)]
  rfl

/-- The 64-wide contraction at row `e`, column `k`: the sum over the contracted position of the products. -/
theorem dotBE_apply (x : FVec Ideal S800000x64 .f32) (w : FVec Ideal S64x64 .f32) (e : Fin 800000) (k : Fin 64) :
    Host.dotGeneral dot_S800000x64_S64x64_S800000x64_1_0_0_1_n_n none x w (ix2 e k) = ∑ q : Fin 64, x (ix2 e q) * w (ix2 q k) := by
  simp only [Host.dotGeneral]
  rw [Ideal.dotGeneral_apply, ← Equiv.sum_comp (ValueIdx.contrEquiv1 dot_S800000x64_S64x64_S800000x64_1_0_0_1_n_n 64 rfl rfl).symm]
  refine Finset.sum_congr rfl fun q _ => ?_
  have hq := ValueIdx.contrEquiv1_symm_val dot_S800000x64_S64x64_S800000x64_1_0_0_1_n_n 64 rfl rfl q
  have el : dot_S800000x64_S64x64_S800000x64_1_0_0_1_n_n.lhsIdx (ix2 e k) ((ValueIdx.contrEquiv1 dot_S800000x64_S64x64_S800000x64_1_0_0_1_n_n 64 rfl rfl).symm q) = ix2 e q := funext fun a => Fin.ext (by
    match a with
    | ⟨0, _⟩ => exact lhsE2_0 _ _
    | ⟨1, _⟩ => exact (lhsE2_1 _ _).trans hq)
  have er : dot_S800000x64_S64x64_S800000x64_1_0_0_1_n_n.rhsIdx (ix2 e k) ((ValueIdx.contrEquiv1 dot_S800000x64_S64x64_S800000x64_1_0_0_1_n_n 64 rfl rfl).symm q) = ix2 q k := funext fun a => Fin.ext (by
    match a with
    | ⟨0, _⟩ => exact (rhsE2_0 _ _).trans hq
    | ⟨1, _⟩ => exact rhsE2_1 _ _)
  rw [el, er]

/-- A bias vector broadcast to a row and then down the rows, read at row `e`, column `k`, is its entry `k`. -/
theorem biasE_apply (c : FVec Ideal S64 .f32) (e : Fin 800000) (k : Fin 64) :
    broadcastInDim S800000x64 ![0, 1] bcast_S1x64_S800000x64_0_1 (broadcastInDim S1x64 ![1] bcast_S64_S1x64_1 c) (ix2 e k) = c (ix1 k) :=
  (broadcastInDim_apply _ bcast_S1x64_S800000x64_0_1 _ (ix2 e k) (ix2 0 k) (fun a => match a with
    | ⟨0, _⟩ => by show 0 = if (1 : Nat) = 1 then 0 else e.val; rw [if_pos rfl]
    | ⟨1, _⟩ => by show k.val = if (64 : Nat) = 1 then 0 else k.val; rw [if_neg (by decide)])).trans
  (broadcastInDim_apply _ bcast_S64_S1x64_1 c (ix2 0 k) (ix1 k) (fun a => match a with
    | ⟨0, _⟩ => by show k.val = if (64 : Nat) = 1 then 0 else k.val; rw [if_neg (by decide)]))

/-- The broadcast zero word reads the number zero everywhere. -/
theorem zeroE_apply (i : S800000x64.Idx) :
    broadcastInDim S800000x64 ![] bcast_S_S800000x64 (constant (F := Ideal) S_ .f32 0x00000000#32) i = 0 :=
  (broadcastInDim_apply _ bcast_S_S800000x64 _ i (fun a => a.elim0) (fun a => a.elim0)).trans Ideal.ofBits_zero_f32

/-- The concatenated pair at a column below 64 reads the first input at that column. -/
theorem catE_lo (a b : FVec Ideal S800000x64 .f32) (e : Fin 800000) (p : Fin 64) :
    concatenate S800000x128 1 [⟨S800000x64, a⟩, ⟨S800000x64, b⟩] concatenates_S800000x64_S800000x64_S800000x128_d1 (ix2 e (⟨p.val, by have := p.isLt; omega⟩ : Fin 128)) = a (ix2 e p) :=
  concatenate_pair_apply_left 1 a b concatenates_S800000x64_S800000x64_S800000x128_d1 _ rfl (ix2 e p)
    (fun c => match c with | ⟨0, _⟩ => rfl | ⟨1, _⟩ => rfl)

/-- The concatenated pair at column `64 + p` reads the second input at column `p`. -/
theorem catE_hi (a b : FVec Ideal S800000x64 .f32) (e : Fin 800000) (p : Fin 64) :
    concatenate S800000x128 1 [⟨S800000x64, a⟩, ⟨S800000x64, b⟩] concatenates_S800000x64_S800000x64_S800000x128_d1 (ix2 e (⟨64 + p.val, by have := p.isLt; omega⟩ : Fin 128)) = b (ix2 e p) :=
  concatenate_pair_apply_right 1 a b concatenates_S800000x64_S800000x64_S800000x128_d1 _ rfl rfl (ix2 e p)
    (fun c hc => match c, hc with
      | ⟨0, _⟩, _ => rfl
      | ⟨1, _⟩, hc => absurd (Fin.ext rfl) hc)
    (by show p.val + 64 = 64 + p.val; omega)

/-- The hidden layer at row `e`, unit `k`: the 128-wide sum splits into the two 64-wide sums against the two halves
    of the stacked weights. -/
theorem hidE (a b : FVec Ideal S800000x64 .f32) (W1 : FVec Ideal S128x64 .f32) (c1 : FVec Ideal S64 .f32)
    (e : Fin 800000) (k : Fin 64) :
    maximumf (addf (Host.dotGeneral dot_S800000x128_S128x64_S800000x64_1_0_0_1_n_n none (concatenate S800000x128 1 [⟨S800000x64, a⟩, ⟨S800000x64, b⟩] concatenates_S800000x64_S800000x64_S800000x128_d1) W1) (broadcastInDim S800000x64 ![0, 1] bcast_S1x64_S800000x64_0_1 (broadcastInDim S1x64 ![1] bcast_S64_S1x64_1 c1))) (broadcastInDim S800000x64 ![] bcast_S_S800000x64 (constant (F := Ideal) S_ .f32 0x00000000#32)) (ix2 e k)
      = max (∑ p : Fin 64, a (ix2 e p) * Cert.KernelIdeal.Val.lo (F := Ideal) W1 (ix2 p k)
          + ∑ p : Fin 64, b (ix2 e p) * Cert.KernelIdeal.Val.hi (F := Ideal) W1 (ix2 p k)
          + Cert.KernelIdeal.Val.asRow (F := Ideal) c1 (ix2 0 k)) 0 := by
  rw [maximumf_apply, addf_apply, dotAE_apply, biasE_apply, zeroE_apply, sum_128_split, asRow_apply]
  refine congrArg (fun t => max (t + c1 (ix1 k)) 0) ?_
  refine congrArg₂ (· + ·) (Finset.sum_congr rfl fun p _ => ?_) (Finset.sum_congr rfl fun p _ => ?_)
  · rw [catE_lo, lo_apply]
  · rw [catE_hi, hi_apply]

end Edges

/-- Over edges: the reference's perceptron of the concatenated pair is the message region's function of the pair, the
    two halves of the stacked weights and the biases as rows. -/
theorem mlpE_eq (a b : FVec Ideal Cert.ReferenceIdeal.S800000x64 .f32) (W1 : FVec Ideal Cert.ReferenceIdeal.S128x64 .f32)
    (c1 : FVec Ideal Cert.ReferenceIdeal.S64 .f32) (W2 : FVec Ideal Cert.ReferenceIdeal.S64x64 .f32) (c2 : FVec Ideal Cert.ReferenceIdeal.S64 .f32) :
    Cert.ReferenceIdeal.Val.mlpE (F := Ideal) a b W1 c1 W2 c2
      = msgG (R := 800000) a b (Cert.KernelIdeal.Val.lo (F := Ideal) W1) (Cert.KernelIdeal.Val.hi (F := Ideal) W1)
          (Cert.KernelIdeal.Val.asRow (F := Ideal) c1) W2 (Cert.KernelIdeal.Val.asRow (F := Ideal) c2) := by
  funext i
  obtain ⟨e, j, rfl⟩ : ∃ (e : Fin 800000) (j : Fin 64), i = ix2 e j := ⟨i 0, i 1, eq_ix2 i⟩
  rw [msgG_ix2]
  unfold Cert.ReferenceIdeal.Val.mlpE
  rw [maximumf_apply, addf_apply, dotBE_apply, biasE_apply, zeroE_apply]
  show _ = max (∑ k : Fin 64, max (∑ p : Fin 64, a (ix2 e p) * Cert.KernelIdeal.Val.lo (F := Ideal) W1 (ix2 p k)
          + ∑ p : Fin 64, b (ix2 e p) * Cert.KernelIdeal.Val.hi (F := Ideal) W1 (ix2 p k)
          + Cert.KernelIdeal.Val.asRow (F := Ideal) c1 (ix2 0 k)) 0 * W2 (ix2 k j)
        + Cert.KernelIdeal.Val.asRow (F := Ideal) c2 (ix2 0 j)) 0
  rw [asRow_apply c2 j]
  refine congrArg (fun t => max (t + c2 (ix1 j)) 0) (Finset.sum_congr rfl fun k _ => ?_)
  rw [hidE]

/-! ## Over nodes (50000 rows) -/

section Nodes
open Cert.ReferenceIdeal Cert.ReferenceIdeal.Facts₀

theorem lhsN1_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhsN1_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhsN1_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhsN1_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The 128-wide contraction at row `e`, column `k`: the sum over the contracted position of the products. -/
theorem dotAN_apply (x : FVec Ideal S50000x128 .f32) (w : FVec Ideal S128x64 .f32) (e : Fin 50000) (k : Fin 64) :
    Host.dotGeneral dot_S50000x128_S128x64_S50000x64_1_0_0_1_n_n none x w (ix2 e k) = ∑ q : Fin 128, x (ix2 e q) * w (ix2 q k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun q _ => ?_
  have hq := ValueIdx.contrEquiv1_symm_val dot_S50000x128_S128x64_S50000x64_1_0_0_1_n_n 128 rfl rfl q
  have el : dot_S50000x128_S128x64_S50000x64_1_0_0_1_n_n.lhsIdx (ix2 e k) ((ValueIdx.contrEquiv1 dot_S50000x128_S128x64_S50000x64_1_0_0_1_n_n 128 rfl rfl).symm q) = ix2 e q := funext fun a => Fin.ext (by
    match a with
    | ⟨0, _⟩ => exact lhsN1_0 _ _
    | ⟨1, _⟩ => exact (lhsN1_1 _ _).trans hq)
  have er : dot_S50000x128_S128x64_S50000x64_1_0_0_1_n_n.rhsIdx (ix2 e k) ((ValueIdx.contrEquiv1 dot_S50000x128_S128x64_S50000x64_1_0_0_1_n_n 128 rfl rfl).symm q) = ix2 q k := funext fun a => Fin.ext (by
    match a with
    | ⟨0, _⟩ => exact (rhsN1_0 _ _).trans hq
    | ⟨1, _⟩ => exact rhsN1_1 _ _)
  rw [el, er]

theorem lhsN2_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem lhsN2_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem rhsN2_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem rhsN2_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The 64-wide contraction at row `e`, column `k`: the sum over the contracted position of the products. -/
theorem dotBN_apply (x : FVec Ideal S50000x64 .f32) (w : FVec Ideal S64x64 .f32) (e : Fin 50000) (k : Fin 64) :
    Host.dotGeneral dot_S50000x64_S64x64_S50000x64_1_0_0_1_n_n none x w (ix2 e k) = ∑ q : Fin 64, x (ix2 e q) * w (ix2 q k) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun q _ => ?_
  have hq := ValueIdx.contrEquiv1_symm_val dot_S50000x64_S64x64_S50000x64_1_0_0_1_n_n 64 rfl rfl q
  have el : dot_S50000x64_S64x64_S50000x64_1_0_0_1_n_n.lhsIdx (ix2 e k) ((ValueIdx.contrEquiv1 dot_S50000x64_S64x64_S50000x64_1_0_0_1_n_n 64 rfl rfl).symm q) = ix2 e q := funext fun a => Fin.ext (by
    match a with
    | ⟨0, _⟩ => exact lhsN2_0 _ _
    | ⟨1, _⟩ => exact (lhsN2_1 _ _).trans hq)
  have er : dot_S50000x64_S64x64_S50000x64_1_0_0_1_n_n.rhsIdx (ix2 e k) ((ValueIdx.contrEquiv1 dot_S50000x64_S64x64_S50000x64_1_0_0_1_n_n 64 rfl rfl).symm q) = ix2 q k := funext fun a => Fin.ext (by
    match a with
    | ⟨0, _⟩ => exact (rhsN2_0 _ _).trans hq
    | ⟨1, _⟩ => exact rhsN2_1 _ _)
  rw [el, er]

/-- A bias vector broadcast to a row and then down the rows, read at row `e`, column `k`, is its entry `k`. -/
theorem biasN_apply (c : FVec Ideal S64 .f32) (e : Fin 50000) (k : Fin 64) :
    broadcastInDim S50000x64 ![0, 1] bcast_S1x64_S50000x64_0_1 (broadcastInDim S1x64 ![1] bcast_S64_S1x64_1 c) (ix2 e k) = c (ix1 k) :=
  (broadcastInDim_apply _ bcast_S1x64_S50000x64_0_1 _ (ix2 e k) (ix2 0 k) (fun a => match a with
    | ⟨0, _⟩ => by show 0 = if (1 : Nat) = 1 then 0 else e.val; rw [if_pos rfl]
    | ⟨1, _⟩ => by show k.val = if (64 : Nat) = 1 then 0 else k.val; rw [if_neg (by decide)])).trans
  (broadcastInDim_apply _ bcast_S64_S1x64_1 c (ix2 0 k) (ix1 k) (fun a => match a with
    | ⟨0, _⟩ => by show k.val = if (64 : Nat) = 1 then 0 else k.val; rw [if_neg (by decide)]))

/-- The broadcast zero word reads the number zero everywhere. -/
theorem zeroN_apply (i : S50000x64.Idx) :
    broadcastInDim S50000x64 ![] bcast_S_S50000x64 (constant (F := Ideal) S_ .f32 0x00000000#32) i = 0 :=
  (broadcastInDim_apply _ bcast_S_S50000x64 _ i (fun a => a.elim0) (fun a => a.elim0)).trans Ideal.ofBits_zero_f32

/-- The concatenated pair at a column below 64 reads the first input at that column. -/
theorem catN_lo (a b : FVec Ideal S50000x64 .f32) (e : Fin 50000) (p : Fin 64) :
    concatenate S50000x128 1 [⟨S50000x64, a⟩, ⟨S50000x64, b⟩] concatenates_S50000x64_S50000x64_S50000x128_d1 (ix2 e (⟨p.val, by have := p.isLt; omega⟩ : Fin 128)) = a (ix2 e p) :=
  concatenate_pair_apply_left 1 a b concatenates_S50000x64_S50000x64_S50000x128_d1 _ rfl (ix2 e p)
    (fun c => match c with | ⟨0, _⟩ => rfl | ⟨1, _⟩ => rfl)

/-- The concatenated pair at column `64 + p` reads the second input at column `p`. -/
theorem catN_hi (a b : FVec Ideal S50000x64 .f32) (e : Fin 50000) (p : Fin 64) :
    concatenate S50000x128 1 [⟨S50000x64, a⟩, ⟨S50000x64, b⟩] concatenates_S50000x64_S50000x64_S50000x128_d1 (ix2 e (⟨64 + p.val, by have := p.isLt; omega⟩ : Fin 128)) = b (ix2 e p) :=
  concatenate_pair_apply_right 1 a b concatenates_S50000x64_S50000x64_S50000x128_d1 _ rfl rfl (ix2 e p)
    (fun c hc => match c, hc with
      | ⟨0, _⟩, _ => rfl
      | ⟨1, _⟩, hc => absurd (Fin.ext rfl) hc)
    (by show p.val + 64 = 64 + p.val; omega)

/-- The hidden layer at row `e`, unit `k`: the 128-wide sum splits into the two 64-wide sums against the two halves
    of the stacked weights. -/
theorem hidN (a b : FVec Ideal S50000x64 .f32) (W1 : FVec Ideal S128x64 .f32) (c1 : FVec Ideal S64 .f32)
    (e : Fin 50000) (k : Fin 64) :
    maximumf (addf (Host.dotGeneral dot_S50000x128_S128x64_S50000x64_1_0_0_1_n_n none (concatenate S50000x128 1 [⟨S50000x64, a⟩, ⟨S50000x64, b⟩] concatenates_S50000x64_S50000x64_S50000x128_d1) W1) (broadcastInDim S50000x64 ![0, 1] bcast_S1x64_S50000x64_0_1 (broadcastInDim S1x64 ![1] bcast_S64_S1x64_1 c1))) (broadcastInDim S50000x64 ![] bcast_S_S50000x64 (constant (F := Ideal) S_ .f32 0x00000000#32)) (ix2 e k)
      = max (∑ p : Fin 64, a (ix2 e p) * Cert.KernelIdeal.Val.lo (F := Ideal) W1 (ix2 p k)
          + ∑ p : Fin 64, b (ix2 e p) * Cert.KernelIdeal.Val.hi (F := Ideal) W1 (ix2 p k)
          + Cert.KernelIdeal.Val.asRow (F := Ideal) c1 (ix2 0 k)) 0 := by
  rw [maximumf_apply, addf_apply, dotAN_apply, biasN_apply, zeroN_apply, sum_128_split, asRow_apply]
  refine congrArg (fun t => max (t + c1 (ix1 k)) 0) ?_
  refine congrArg₂ (· + ·) (Finset.sum_congr rfl fun p _ => ?_) (Finset.sum_congr rfl fun p _ => ?_)
  · rw [catN_lo, lo_apply]
  · rw [catN_hi, hi_apply]

end Nodes

/-- Over nodes: the same, with the residual added by the caller. -/
theorem mlpN_eq (a b : FVec Ideal Cert.ReferenceIdeal.S50000x64 .f32) (W1 : FVec Ideal Cert.ReferenceIdeal.S128x64 .f32)
    (c1 : FVec Ideal Cert.ReferenceIdeal.S64 .f32) (W2 : FVec Ideal Cert.ReferenceIdeal.S64x64 .f32) (c2 : FVec Ideal Cert.ReferenceIdeal.S64 .f32) :
    Cert.ReferenceIdeal.Val.mlpN (F := Ideal) a b W1 c1 W2 c2
      = msgG (R := 50000) a b (Cert.KernelIdeal.Val.lo (F := Ideal) W1) (Cert.KernelIdeal.Val.hi (F := Ideal) W1)
          (Cert.KernelIdeal.Val.asRow (F := Ideal) c1) W2 (Cert.KernelIdeal.Val.asRow (F := Ideal) c2) := by
  funext i
  obtain ⟨e, j, rfl⟩ : ∃ (e : Fin 50000) (j : Fin 64), i = ix2 e j := ⟨i 0, i 1, eq_ix2 i⟩
  rw [msgG_ix2]
  unfold Cert.ReferenceIdeal.Val.mlpN
  rw [maximumf_apply, addf_apply, dotBN_apply, biasN_apply, zeroN_apply]
  show _ = max (∑ k : Fin 64, max (∑ p : Fin 64, a (ix2 e p) * Cert.KernelIdeal.Val.lo (F := Ideal) W1 (ix2 p k)
          + ∑ p : Fin 64, b (ix2 e p) * Cert.KernelIdeal.Val.hi (F := Ideal) W1 (ix2 p k)
          + Cert.KernelIdeal.Val.asRow (F := Ideal) c1 (ix2 0 k)) 0 * W2 (ix2 k j)
        + Cert.KernelIdeal.Val.asRow (F := Ideal) c2 (ix2 0 j)) 0
  rw [asRow_apply c2 j]
  refine congrArg (fun t => max (t + c2 (ix1 j)) 0) (Finset.sum_congr rfl fun k _ => ?_)
  rw [hidN]

end Cert.MlpRef

end
-- ==== Proof.Take.lean ====
/-
  Gathering with and without the bounds test.

  The kernel's program gathers rows of the embedding at an index vector after wrapping negative indices from the end,
  and fills a row with a fixed value where the wrapped index is outside `[0, 49999]`; the reference wraps the same way
  and gathers without a test.  Where every index lies in `[0, 50000)` the wrap is the identity and the test passes in
  every row, so both gather the same rows.  The precondition says exactly that of both rows of the edge list.
-/
import proofs.«406721_j71184787964017_1_alg».proof.Proof.Layers
import proofs.«406721_j71184787964017_1_alg».proof.Pre_finite_inputs
import proofs.«406721_j71184787964017_1_alg».proof.Proof.Gen.Pre_finite_inputs
import Idealize.ShloMosaic.Lib.StableHlo.Predicate
import Idealize.ShloMosaic.Lib.ReduceAll
import Idealize.ShloMosaic.Lib.ValueIdx

noncomputable section

namespace Cert.Take

open Idealize.ShloMosaic Idealize.ShloMosaic.ValueIdx

/-- Every entry of an index vector is a node number: in `[0, 50000)` as a signed 32-bit integer. -/
def InRange (idx : IVec Cert.KernelIdeal.S800000 32) : Prop := ∀ i, 0 ≤ (idx i).toInt ∧ (idx i).toInt < 50000

/-! ## Words -/

/-- A word in `[0, 50000)` read signed is below 50000 read unsigned. -/
theorem toNat_lt_of_toInt {v : BitVec 32} (h0 : 0 ≤ v.toInt) (h1 : v.toInt < 50000) : v.toNat < 50000 := by
  have hv := v.isLt
  rw [BitVec.toInt_eq_toNat_cond] at h0 h1
  by_cases hc : 2 * v.toNat < 2 ^ 32
  · rw [if_pos hc] at h1; omega
  · rw [if_neg hc] at h0; omega

/-- On such a word the wrap from the end is the identity: the word is not negative. -/
theorem wrap_word {v : BitVec 32} (hv : v.toNat < 50000) :
    Scalar.select (IntOp.cmpi .slt v 0#32) (IntOp.addi v 50000#32) v = v := by
  have hn : ¬ IntOp.cmpi .slt v 0#32 = 1#1 := fun hc => by
    have h := (StableHlo.Predicate.slt_iff_toNat (a := v) (b := 0#32) (by omega) (by decide)).1 hc
    have e : (0#32 : BitVec 32).toNat = 0 := rfl
    omega
  rw [eq_zero_of_ne_one hn, select_zero]

/-- On such a word the test `0 ≤ v ≤ 49999` passes. -/
theorem bounds_word {v : BitVec 32} (hv : v.toNat < 50000) :
    IntOp.andi (IntOp.cmpi .sge v 0#32) (IntOp.cmpi .sle v 49999#32) = 1#1 := by
  have e0 : (0#32 : BitVec 32).toNat = 0 := rfl
  have e1 : (49999#32 : BitVec 32).toNat = 49999 := rfl
  rw [IntOp.andi_eq_one]
  exact ⟨(StableHlo.Predicate.sge_iff_toNat (a := v) (b := 0#32) (by omega) (by decide)).2 (by omega),
    (StableHlo.Predicate.sle_iff_toNat (a := v) (b := 49999#32) (by omega) (by decide)).2 (by omega)⟩

/-- A word that passes the signed test `0 ≤ v` is non-negative. -/
theorem toInt_nonneg_of_sge {v : BitVec 32} (h : IntOp.cmpi .sge v 0#32 = 1#1) : 0 ≤ v.toInt := by
  simp only [IntOp.cmpi, StableHlo.Predicate.ofBool_eq_one_iff, BitVec.sle, decide_eq_true_eq] at h
  have e : (0#32 : BitVec 32).toInt = 0 := by decide
  omega

/-- A word that passes the signed test `v < 50000` is below 50000. -/
theorem toInt_lt_of_slt {v : BitVec 32} (h : IntOp.cmpi .slt v 50000#32 = 1#1) : v.toInt < 50000 := by
  simp only [IntOp.cmpi, StableHlo.Predicate.ofBool_eq_one_iff, BitVec.slt, decide_eq_true_eq] at h
  have e : (50000#32 : BitVec 32).toInt = 50000 := by decide
  omega

/-! ## A reduction by `and` over entries that are all 1 -/

/-- A left fold by `and` from 1 over 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 1#1 = 1#1 := by decide
    rw [List.foldl_cons, h a (List.mem_cons_self ..), e]
    exact foldl_andi_one f l (fun n hn => h n (List.mem_cons_of_mem _ hn))

/-- A reduction by `and` from 1 of an array of 1s is 1 everywhere. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ (fun i _ => hx i)

/-! ## The wrapped indices and the bounds test -/

/-- Every entry of the wrapped column is the wrap of an entry of the vector. -/
theorem wrap_apply (idx : IVec Cert.KernelIdeal.S800000 32) (k : Cert.KernelIdeal.S800000x1.Idx) :
    ∃ i, Cert.KernelIdeal.Val.wrap idx k
      = Scalar.select (IntOp.cmpi .slt (idx i) 0#32) (IntOp.addi (idx i) 50000#32) (idx i) := ⟨_, rfl⟩

/-- In range, the wrapped column's entries are below 50000 read unsigned. -/
theorem wrap_lt (idx : IVec Cert.KernelIdeal.S800000 32) (h : InRange idx) (k : Cert.KernelIdeal.S800000x1.Idx) :
    (Cert.KernelIdeal.Val.wrap idx k).toNat < 50000 := by
  obtain ⟨i, e⟩ := wrap_apply idx k
  have hv := toNat_lt_of_toInt (h i).1 (h i).2
  rw [e, wrap_word hv]; exact hv

/-- In range, the bounds test passes in every row. -/
theorem inBounds_eq_one (idx : IVec Cert.KernelIdeal.S800000 32) (h : InRange idx) (j : Cert.KernelIdeal.S800000.Idx) :
    Cert.KernelIdeal.Val.inBounds (Cert.KernelIdeal.Val.wrap idx) j = 1#1 := by
  unfold Cert.KernelIdeal.Val.inBounds
  refine reduce_andi_one _ _ _ _ j rfl (fun k => ?_)
  exact bounds_word (wrap_lt idx h k)

/-- In range, the kernel's gather is the plain gather at the wrapped indices. -/
theorem take_eq (e : FVec Ideal Cert.KernelIdeal.S50000x64 .f32) (idx : IVec Cert.KernelIdeal.S800000 32) (h : InRange idx) :
    Cert.KernelIdeal.Val.take (F := Ideal) e idx
      = Host.gather Cert.KernelIdeal.gather_S50000x64_S800000x1_S800000x64_1_0_n_n_0_1_164 e (Cert.KernelIdeal.Val.wrap idx) := by
  funext i
  unfold Cert.KernelIdeal.Val.take
  rw [select_apply]
  have hm : broadcastInDim Cert.KernelIdeal.S800000x64 ![0] Cert.KernelIdeal.Gen.bcast_S800000_S800000x64_0
      (Cert.KernelIdeal.Val.inBounds (Cert.KernelIdeal.Val.wrap idx)) i = 1#1 := inBounds_eq_one idx h _
  rw [hm, select_one]

/-- The two programs gather the same rows. -/
theorem take_eq_gatherRows (e : FVec Ideal Cert.KernelIdeal.S50000x64 .f32) (idx : IVec Cert.KernelIdeal.S800000 32) (h : InRange idx) :
    Cert.KernelIdeal.Val.take (F := Ideal) e idx = Cert.ReferenceIdeal.Val.gatherRows (F := Ideal) e idx := by
  rw [take_eq e idx h]
  rfl

/-- The precondition puts both rows of the edge list in range. -/
theorem inRange_of_pre
    (x : FVec Ideal Cert.Pre_finite_inputs.S50000x7 .f32) (ei : IVec Cert.Pre_finite_inputs.S2x800000 32) (batch : IVec Cert.Pre_finite_inputs.S50000 32)
    (Win : FVec Ideal Cert.Pre_finite_inputs.S7x64 .f32) (bin : FVec Ideal Cert.Pre_finite_inputs.S64 .f32)
    (mW1 : FVec Ideal Cert.Pre_finite_inputs.S4x128x64 .f32) (mb1 : FVec Ideal Cert.Pre_finite_inputs.S4x64 .f32)
    (mW2 : FVec Ideal Cert.Pre_finite_inputs.S4x64x64 .f32) (mb2 : FVec Ideal Cert.Pre_finite_inputs.S4x64 .f32)
    (uW1 : FVec Ideal Cert.Pre_finite_inputs.S4x128x64 .f32) (ub1 : FVec Ideal Cert.Pre_finite_inputs.S4x64 .f32)
    (uW2 : FVec Ideal Cert.Pre_finite_inputs.S4x64x64 .f32) (ub2 : FVec Ideal Cert.Pre_finite_inputs.S4x64 .f32)
    (Wp : FVec Ideal Cert.Pre_finite_inputs.S64x1 .f32) (bp : FVec Ideal Cert.Pre_finite_inputs.S1 .f32)
    (h : Cert.Pre_finite_inputs.fn (F := Ideal) x ei batch Win bin mW1 mb1 mW2 mb2 uW1 ub1 uW2 ub2 Wp bp = fun _ => 1#1) :
    InRange (Cert.KernelIdeal.Val.edgeRow0 ei) ∧ InRange (Cert.KernelIdeal.Val.edgeRow1 ei) := by
  -- the scalar shape has one index
  haveI : Subsingleton Cert.Pre_finite_inputs.S_.Idx := ⟨fun a b => funext fun d => d.elim0⟩
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  have h1 := (IntOp.andi_eq_one.1 h0).2
  have key : ∀ k, 0 ≤ (ei k).toInt ∧ (ei k).toInt < 50000 := fun k => by
    obtain ⟨hge, hlt⟩ := IntOp.andi_eq_one.1 (Host.reduce_andi_all _ _ _ _ ix0 h1 k)
    exact ⟨toInt_nonneg_of_sge hge, toInt_lt_of_slt hlt⟩
  exact ⟨fun i => key _, fun i => key _⟩

end Cert.Take

end
-- ==== Proof.Bridge.lean ====
/-
  The two programs compute the same function of their arguments, where the edge list holds node numbers.

  Layer by layer: in range the kernel's gather is the reference's (`Cert.Take`); the reference's perceptron of a
  concatenated pair is the regions' function of the pair and the two halves of the weights (`Cert.MlpRef`); the sum of
  messages into nodes, the initial embedding, the parameter slices and the pooling are the same operations in both
  programs.  The update region's function is its first argument plus the perceptron, which is the reference's residual
  sum.
-/
import proofs.«406721_j71184787964017_1_alg».proof.Proof.Layers
import proofs.«406721_j71184787964017_1_alg».proof.Proof.MlpRef
import proofs.«406721_j71184787964017_1_alg».proof.Proof.Take

noncomputable section

namespace Cert.Bridge

open Idealize.ShloMosaic Cert.Spec Cert.Take

/-- One layer: the same function of the embedding, the edge list's rows and the layer's parameters. -/
theorem layer_eq (e : FVec Ideal Cert.KernelIdeal.S50000x64 .f32) (src dst : IVec Cert.KernelIdeal.S800000 32)
    (hs : InRange src) (hd : InRange dst)
    (W1 : FVec Ideal Cert.KernelIdeal.S128x64 .f32) (c1 : FVec Ideal Cert.KernelIdeal.S64 .f32)
    (W2 : FVec Ideal Cert.KernelIdeal.S64x64 .f32) (c2 : FVec Ideal Cert.KernelIdeal.S64 .f32)
    (U1 : FVec Ideal Cert.KernelIdeal.S128x64 .f32) (d1 : FVec Ideal Cert.KernelIdeal.S64 .f32)
    (U2 : FVec Ideal Cert.KernelIdeal.S64x64 .f32) (d2 : FVec Ideal Cert.KernelIdeal.S64 .f32) :
    Cert.KernelIdeal.Val.layer e src dst W1 c1 W2 c2 U1 d1 U2 d2
      = Cert.ReferenceIdeal.Val.layer (F := Ideal) e src dst W1 c1 W2 c2 U1 d1 U2 d2 := by
  unfold Cert.KernelIdeal.Val.layer Cert.ReferenceIdeal.Val.layer
  rw [take_eq_gatherRows e dst hd, take_eq_gatherRows e src hs, ← Cert.MlpRef.mlpE_eq, Cert.MlpRef.mlpN_eq]
  rfl

/-- The whole programs. -/
theorem result_eq
    (x : FVec Ideal Cert.KernelIdeal.S50000x7 .f32) (ei : IVec Cert.KernelIdeal.S2x800000 32) (batch : IVec Cert.KernelIdeal.S50000 32)
    (Win : FVec Ideal Cert.KernelIdeal.S7x64 .f32) (bin : FVec Ideal Cert.KernelIdeal.S64 .f32)
    (mW1 : FVec Ideal Cert.KernelIdeal.S4x128x64 .f32) (mb1 : FVec Ideal Cert.KernelIdeal.S4x64 .f32)
    (mW2 : FVec Ideal Cert.KernelIdeal.S4x64x64 .f32) (mb2 : FVec Ideal Cert.KernelIdeal.S4x64 .f32)
    (uW1 : FVec Ideal Cert.KernelIdeal.S4x128x64 .f32) (ub1 : FVec Ideal Cert.KernelIdeal.S4x64 .f32)
    (uW2 : FVec Ideal Cert.KernelIdeal.S4x64x64 .f32) (ub2 : FVec Ideal Cert.KernelIdeal.S4x64 .f32)
    (Wp : FVec Ideal Cert.KernelIdeal.S64x1 .f32) (bp : FVec Ideal Cert.KernelIdeal.S1 .f32)
    (hs : InRange (Cert.KernelIdeal.Val.edgeRow0 ei)) (hd : InRange (Cert.KernelIdeal.Val.edgeRow1 ei)) :
    Cert.KernelIdeal.Val.result x ei batch Win bin mW1 mb1 mW2 mb2 uW1 ub1 uW2 ub2 Wp bp
      = Cert.ReferenceIdeal.Val.result (F := Ideal) x ei batch Win bin mW1 mb1 mW2 mb2 uW1 ub1 uW2 ub2 Wp bp := by
  unfold Cert.KernelIdeal.Val.result Cert.ReferenceIdeal.Val.result
  rw [layer_eq _ _ _ hs hd, layer_eq _ _ _ hs hd, layer_eq _ _ _ hs hd, layer_eq _ _ _ hs hd]
  rfl

end Cert.Bridge

end
-- ==== Proof.lean ====
/-
  The certificate: the message-passing network's kernel program against its reference, over the extended reals.

  Both programs are the same function of their fifteen arguments wherever the edge list holds node numbers
  (`0 ≤ edge_index < 50000`, the precondition's last conjunct): the reference indexes the embedding with them, and
  outside that range the two gathers differ (the kernel's fills, the reference's clamps).  The kernel program's value
  is read off its generated frame run — the fold of @main's segments, each region's output array at the
  perceptron of the arrays it found (`Proof/KValue`, `Proof/Region0` … `Proof/Region7`) —, the reference's off the fold
  of its host operations (`Proof/RValue`), and `Proof/Bridge` joins them: a sum over a concatenated axis is the sum of
  the two halves' sums.  The three frames are the generated frame runs (the reference's is its run with the result
  dropped); the ideal pass rewrote nothing, so `preserves` is trivial.
-/
import proofs.«406721_j71184787964017_1_alg».proof.Defs
import proofs.«406721_j71184787964017_1_alg».proof.Proof.Gen.Kernel
import proofs.«406721_j71184787964017_1_alg».proof.Proof.Gen.Kernel.Skeleton
import proofs.«406721_j71184787964017_1_alg».proof.Proof.Gen.Kernel.Launch
import proofs.«406721_j71184787964017_1_alg».proof.Proof.Gen.Kernel.Points
import proofs.«406721_j71184787964017_1_alg».proof.Proof.Gen.Kernel.Frame
import proofs.«406721_j71184787964017_1_alg».proof.Proof.Gen.KernelIdeal
import proofs.«406721_j71184787964017_1_alg».proof.Proof.Gen.KernelIdeal.Skeleton
import proofs.«406721_j71184787964017_1_alg».proof.Proof.Gen.KernelIdeal.Launch
import proofs.«406721_j71184787964017_1_alg».proof.Proof.Gen.KernelIdeal.Points
import proofs.«406721_j71184787964017_1_alg».proof.Proof.Gen.KernelIdeal.Frame
import proofs.«406721_j71184787964017_1_alg».proof.Proof.Gen.ReferenceIdeal
import proofs.«406721_j71184787964017_1_alg».proof.Proof.Gen.Pre_finite_inputs
import proofs.«406721_j71184787964017_1_alg».proof.Proof.KernelRun
import proofs.«406721_j71184787964017_1_alg».proof.Proof.KValue
import proofs.«406721_j71184787964017_1_alg».proof.Proof.RValue
import proofs.«406721_j71184787964017_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Chain.run (F := Ideal) m ρ)

theorem preserves : Cert.preserves_Kernel_KernelIdeal := trivial

/-- Both runs end with the result at the kernel program's function of the kernel's arguments: the kernel's by its
    frame run read at the result buffer, the reference's because its arguments agree with the kernel's and, the edge list
    in range, the two programs are one function. -/
theorem algebraic : Cert.algebraic_KernelIdeal_ReferenceIdeal := by
  intro m ρ m' ρ' hpre hagree
  refine ⟨fun c => Cert.KernelIdeal.Val.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.kvalue m ρ c), (h c).2⟩)
      (Cert.KernelIdeal.ValueRun.run_result m ρ)
  · refine (θ_run Cert.ReferenceIdeal.defs _ _).mono (fun r h c => ⟨(h c).1.trans ?_, (h c).2⟩)
      (Cert.ReferenceIdeal.Chain.run (F := Ideal) m' ρ')
    obtain ⟨h0, h1, h2, h3, h4, h5, h6, h7, h8, h9, h10, h11, h12, h13, h14⟩ := hagree c
    rw [h0, h1, h2, h3, h4, h5, h6, h7, h8, h9, h10, h11, h12, h13, h14]
    obtain ⟨hs, hd⟩ := Cert.Take.inRange_of_pre _ _ _ _ _ _ _ _ _ _ _ _ _ _ _ (hpre c)
    exact (Cert.Bridge.result_eq _ _ _ _ _ _ _ _ _ _ _ _ _ _ _ hs hd).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
